-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32x4 : Shape := ⟨3, ![100000, 32, 4]⟩
abbrev S10x64 : Shape := ⟨2, ![10, 64]⟩
abbrev S64 : Shape := ⟨1, ![64]⟩
abbrev S100000 : Shape := ⟨1, ![100000]⟩
abbrev S100000x4 : Shape := ⟨2, ![100000, 4]⟩
abbrev S_ : Shape := ⟨0, ![]⟩

class Facts : Prop where
  bcast_S_S100000x32x4 : S_.BroadcastsInDim S100000x32x4 (![] : Fin 0 → Fin S100000x32x4.rank)
  reducesTo_S100000x32x4_S_d0_1_2 : S100000x32x4.ReducesTo [0, 1, 2] S_
  h_S_ : 0 < S_.numel
  bcast_S_S10x64 : S_.BroadcastsInDim S10x64 (![] : Fin 0 → Fin S10x64.rank)
  reducesTo_S10x64_S_d0_1 : S10x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x32x4 .f32) (main_arg1 : FVec F S10x64 .f32) (main_arg2 : FVec F S64 .f32) (main_arg3 : FVec F S64 .f32) (main_arg4 : IVec S100000 32) (main_arg5 : IVec S100000x4 32) : IVec S_ 1 :=
  let main_v0 : FVec F S100000x32x4 .f32 := Host.absf main_arg0
  let main_cst : FVec F S_ .f32 := constant S_ .f32 0x7F800000#32
  let main_v1 : FVec F S100000x32x4 .f32 := broadcastInDim S100000x32x4 ![] bcast_S_S100000x32x4 main_cst
  let main_v2 : IVec S100000x32x4 1 := cmpf .olt main_v0 main_v1
  let main_c : IVec S_ 1 := constantI S_ 1 1#1
  let main_v3 : IVec S_ 1 := (fun x v => Host.reduce IntOp.andi x v reducesTo_S100000x32x4_S_d0_1_2 h_S_) main_v2 main_c
  let main_v4 : FVec F S10x64 .f32 := Host.absf main_arg1
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x32x4 : Shape := ⟨3, ![100000, 32, 4]⟩
abbrev S10x64 : Shape := ⟨2, ![10, 64]⟩
abbrev S64 : Shape := ⟨1, ![64]⟩
abbrev S100000 : Shape := ⟨1, ![100000]⟩
abbrev S100000x4 : Shape := ⟨2, ![100000, 4]⟩
abbrev S100000x1 : Shape := ⟨2, ![100000, 1]⟩
abbrev S1x64 : Shape := ⟨2, ![1, 64]⟩
abbrev S1000x32x4 : Shape := ⟨3, ![1000, 32, 4]⟩
abbrev S1000x4 : Shape := ⟨2, ![1000, 4]⟩
abbrev S1000x1 : Shape := ⟨2, ![1000, 1]⟩
abbrev S1000x32x3 : Shape := ⟨3, ![1000, 32, 3]⟩
abbrev S1000x32 : Shape := ⟨2, ![1000, 32]⟩
abbrev S1000x32x1 : Shape := ⟨3, ![1000, 32, 1]⟩
abbrev S1000x3 : Shape := ⟨2, ![1000, 3]⟩
abbrev S1000x1x3 : Shape := ⟨3, ![1000, 1, 3]⟩
abbrev S1000x32x10 : Shape := ⟨3, ![1000, 32, 10]⟩
abbrev S32000x10 : Shape := ⟨2, ![32000, 10]⟩
abbrev S32000x64 : Shape := ⟨2, ![32000, 64]⟩
abbrev S_ : Shape := ⟨0, ![]⟩
abbrev S100000x64 : Shape := ⟨2, ![100000, 64]⟩
abbrev S1000x64 : Shape := ⟨2, ![1000, 64]⟩
abbrev S1000x32x64 : Shape := ⟨3, ![1000, 32, 64]⟩
abbrev S1x1x64 : Shape := ⟨3, ![1, 1, 64]⟩

abbrev nBuf : Space → Nat
  | .hbm => 20
  | .vmem => 24
  | .smem => 0
  | _ => 0

abbrev bufTy : (tb : Table) → Fin (tcTables nBuf tb) → BufTy
  | .hbm, ⟨0, _⟩ => ⟨S100000x32x4, .f32⟩
  | .hbm, ⟨1, _⟩ => ⟨S10x64, .f32⟩
  | .hbm, ⟨2, _⟩ => ⟨S64, .f32⟩
  | .hbm, ⟨3, _⟩ => ⟨S64, .f32⟩
  | .hbm, ⟨4, _⟩ => ⟨S100000, .i32⟩
  | .hbm, ⟨5, _⟩ => ⟨S100000x4, .i32⟩
  | .hbm, ⟨6, _⟩ => ⟨S100000x1, .i32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S_, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S100000x64, .f32⟩
  | .local _ .vmem, ⟨0, _⟩ => ⟨S1000x32x4, .f32⟩
  | .local _ .vmem, ⟨1, _⟩ => ⟨S1000x32x4, .f32⟩
  | .local _ .vmem, ⟨2, _⟩ => ⟨S1000x4, .i32⟩
  | .local _ .vmem, ⟨3, _⟩ => ⟨S1000x4, .i32⟩
  | .local _ .vmem, ⟨4, _⟩ => ⟨S1000x1, .i32⟩
  | .local _ .vmem, ⟨5, _⟩ => ⟨S1000x1, .i32⟩
  | .local _ .vmem, ⟨6, _⟩ => ⟨S10x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1000x32x4, .f32⟩
  | .local _ .vmem, ⟨12, _⟩ => ⟨S1000x32x4, .f32⟩
  | .local _ .vmem, ⟨13, _⟩ => ⟨S1000x4, .i32⟩
  | .local _ .vmem, ⟨14, _⟩ => ⟨S1000x4, .i32⟩
  | .local _ .vmem, ⟨15, _⟩ => ⟨S1000x1, .i32⟩
  | .local _ .vmem, ⟨16, _⟩ => ⟨S1000x1, .i32⟩
  | .local _ .vmem, ⟨17, _⟩ => ⟨S10x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1000x64, .f32⟩
  | .local _ .vmem, ⟨23, _⟩ => ⟨S1000x64, .f32⟩
  | _, _ => ⟨S100000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v70 : BitVec 1 := Scalar.cmpi .eq arg0 c99_i32
  let v71 : BitVec 32 := Scalar.extui v70
  let c0_i32_26 : BitVec 32 := 0#32
  let v72 : BitVec 1 := Scalar.cmpi .ne v71 c0_i32_26
  v72

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![100], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x32x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x4 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S10x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S100000_S100000x1 : S100000.ShapeCasts S100000x1
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1000x32x4_S1000x32x4_0_0_0 : ∀ a, (![0, 0, 0] : Fin 3 → Nat) a + S1000x32x4.size a ≤ S1000x32x4.size a
  h_S1000x32x4 : 0 < S1000x32x4.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x4_S1000x4_0_0 : ∀ a, (![0, 0] : Fin 2 → Nat) a + S1000x4.size a ≤ S1000x4.size a
  h_S1000x4 : 0 < S1000x4.numel
  slices_S1000x32x4_o0_0_0_S1000x32x3 : S1000x32x4.Slices ![0, 0, 0] S1000x32x3
  iota_S1000x32_d1_w32 : S1000x32.Iotas .tc 32 [1]
  broadcasts_S1000x1_S1000x32 : S1000x1.Broadcasts S1000x32
  natLt_1_32 : 1 < 32
  shapeCasts_S1000x32_S1000x32x1 : S1000x32.ShapeCasts S1000x32x1
  broadcasts_S1000x32x1_S1000x32x3 : S1000x32x1.Broadcasts S1000x32x3
  reduces_S1000x32x3_S1000x3 : S1000x32x3.Reduces [1] S1000x3
  broadcasts_S1000x1_S1000x3 : S1000x1.Broadcasts S1000x3
  shapeCasts_S1000x3_S1000x1x3 : S1000x3.ShapeCasts S1000x1x3
  broadcasts_S1000x1x3_S1000x32x3 : S1000x1x3.Broadcasts S1000x32x3
  slices_S1000x4_o0_1_S1000x1 : S1000x4.Slices ![0, 1] S1000x1
  slices_S1000x4_o0_2_S1000x1 : S1000x4.Slices ![0, 2] S1000x1
  slices_S1000x4_o0_3_S1000x1 : S1000x4.Slices ![0, 3] S1000x1
  concatenates_S1000x1_S1000x1_S1000x1_S1000x3_d1 : Shape.Concatenates [S1000x1, S1000x1, S1000x1] S1000x3 1
  concatenates_S1000x32x4_S1000x32x3_S1000x32x3_S1000x32x10_d2 : Shape.Concatenates [S1000x32x4, S1000x32x3, S1000x32x3] S1000x32x10 2
  broadcasts_S1000x32x1_S1000x32x10 : S1000x32x1.Broadcasts S1000x32x10
  shapeCasts_S1000x32x10_S32000x10 : S1000x32x10.ShapeCasts S32000x10
  bitsLt_bf16_f32 : FTy.bits .bf16 < FTy.bits .f32
  inb_S10x64_S10x64_0_0 : ∀ a, (![0, 0] : Fin 2 → Nat) a + S10x64.size a ≤ S10x64.size a
  h_S10x64 : 0 < S10x64.numel
  reduces_S32000x64_S64 : S32000x64.Reduces [0] S64
  bcast_S_S1x64 : S_.BroadcastsInDim S1x64 (![] : Fin 0 → Fin S1x64.rank)
  shapeCasts_S32000x64_S1000x32x64 : S32000x64.ShapeCasts S1000x32x64
  shapeCasts_S1x64_S1x1x64 : S1x64.ShapeCasts S1x1x64
  broadcasts_S1x1x64_S1000x32x64 : S1x1x64.Broadcasts S1000x32x64
  reduces_S1000x32x64_S1000x64 : S1000x32x64.Reduces [1] S1000x64
  inb_S1000x64_S1000x64_0_0 : ∀ a, (![0, 0] : Fin 2 → Nat) a + S1000x64.size a ≤ S1000x64.size a
  h_S1000x64 : 0 < S1000x64.numel
  dot_S32000x10_S10x64_S32000x64_1_0_0_1_n_n_wf : DotDims.WF S32000x10 S10x64 S32000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x32x4.size a ≤ S100000x32x4.size a
  hwx0_0 : ∀ i : grid0.Coords, EltTy.bits .f32 = 32 ∨ (Rect.block (s := S100000x32x4) S1000x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x4.size a ≤ S100000x4.size a
  hwx0_1 : ∀ i : grid0.Coords, EltTy.bits .i32 = 32 ∨ (Rect.block (s := S100000x4) S1000x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S100000x1.size a
  hwx0_2 : ∀ i : grid0.Coords, EltTy.bits .i32 = 32 ∨ (Rect.block (s := S100000x1) S1000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x64.size a ≤ S10x64.size a
  hwx0_3 : ∀ i : grid0.Coords, EltTy.bits .f32 = 32 ∨ (Rect.block (s := S10x64) S10x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x32x4.size a ≤ S100000x32x4.size a
  hwx1_0 : ∀ i : grid1.Coords, EltTy.bits .f32 = 32 ∨ (Rect.block (s := S100000x32x4) S1000x32x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x4.size a ≤ S100000x4.size a
  hwx1_1 : ∀ i : grid1.Coords, EltTy.bits .i32 = 32 ∨ (Rect.block (s := S100000x4) S1000x4.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S100000x1.size a
  hwx1_2 : ∀ i : grid1.Coords, EltTy.bits .i32 = 32 ∨ (Rect.block (s := S100000x1) S1000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10x64.size a ≤ S10x64.size a
  hwx1_3 : ∀ i : grid1.Coords, EltTy.bits .f32 = 32 ∨ (Rect.block (s := S10x64) S10x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x64.size a ≤ S100000x64.size a
  hwx1_8 : ∀ i : grid1.Coords, EltTy.bits .f32 = 32 ∨ (Rect.block (s := S100000x64) S1000x64.size (cc1_transform_8 i) (hinb1_8 i)).WholeWords (EltTy.packing .f32)

variable [Facts₀]

def dot_S32000x10_S10x64_S32000x64_1_0_0_1_n_n : DotDims S32000x10 S10x64 S32000x64 where
  lhsContracting := [1]
  rhsContracting := [0]
  lhsNonContracting := [0]
  rhsNonContracting := [1]
  lhsBatch := []
  rhsBatch := []
  wf := dot_S32000x10_S10x64_S32000x64_1_0_0_1_n_n_wf

abbrev win0_0 : Pipeline.Window sig grid0 :=
  Pipeline.Window.ofSpec (Memref.whole main_arg0) S1000x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S10x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1000x32x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S10x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S1000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x32x4 : Shape := ⟨3, ![100000, 32, 4]⟩
abbrev S10x64 : Shape := ⟨2, ![10, 64]⟩
abbrev S64 : Shape := ⟨1, ![64]⟩
abbrev S100000 : Shape := ⟨1, ![100000]⟩
abbrev S100000x4 : Shape := ⟨2, ![100000, 4]⟩
abbrev S3 : Shape := ⟨1, ![3]⟩
abbrev S100000x32x3 : Shape := ⟨3, ![100000, 32, 3]⟩
abbrev S32 : Shape := ⟨1, ![32]⟩
abbrev S1x32 : Shape := ⟨2, ![1, 32]⟩
abbrev S100000x1 : Shape := ⟨2, ![100000, 1]⟩
abbrev S100000x32 : Shape := ⟨2, ![100000, 32]⟩
abbrev S100000x32x1 : Shape := ⟨3, ![100000, 32, 1]⟩
abbrev S_ : Shape := ⟨0, ![]⟩
abbrev S100000x3 : Shape := ⟨2, ![100000, 3]⟩
abbrev S100000x1x3 : Shape := ⟨3, ![100000, 1, 3]⟩
abbrev S1x3 : Shape := ⟨2, ![1, 3]⟩
abbrev S100000x32x10 : Shape := ⟨3, ![100000, 32, 10]⟩
abbrev S100000x32x64 : Shape := ⟨3, ![100000, 32, 64]⟩
abbrev S1x1x64 : Shape := ⟨3, ![1, 1, 64]⟩
abbrev S100000x64 : Shape := ⟨2, ![100000, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x32x4, .f32⟩
  | .hbm, ⟨1, _⟩ => ⟨S10x64, .f32⟩
  | .hbm, ⟨2, _⟩ => ⟨S64, .f32⟩
  | .hbm, ⟨3, _⟩ => ⟨S64, .f32⟩
  | .hbm, ⟨4, _⟩ => ⟨S100000, .i32⟩
  | .hbm, ⟨5, _⟩ => ⟨S100000x4, .i32⟩
  | .hbm, ⟨6, _⟩ => ⟨S3, .f32⟩
  | .hbm, ⟨7, _⟩ => ⟨S100000x32x3, .f32⟩
  | .hbm, ⟨8, _⟩ => ⟨S32, .i32⟩
  | .hbm, ⟨9, _⟩ => ⟨S1x32, .i32⟩
  | .hbm, ⟨10, _⟩ => ⟨S100000x1, .i32⟩
  | .hbm, ⟨11, _⟩ => ⟨S100000x32, .i32⟩
  | .hbm, ⟨12, _⟩ => ⟨S100000x32, .i32⟩
  | .hbm, ⟨13, _⟩ => ⟨S100000x32, .i1⟩
  | .hbm, ⟨14, _⟩ => ⟨S100000x32, .f32⟩
  | .hbm, ⟨15, _⟩ => ⟨S100000x32x1, .f32⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .f32⟩
  | .hbm, ⟨20, _⟩ => ⟨S100000x1, .f32⟩
  | .hbm, ⟨21, _⟩ => ⟨S100000x32x3, .f32⟩
  | .hbm, ⟨22, _⟩ => ⟨S100000x32x3, .f32⟩
  | .hbm, ⟨23, _⟩ => ⟨S_, .f32⟩
  | .hbm, ⟨24, _⟩ => ⟨S100000x3, .f32⟩
  | .hbm, ⟨25, _⟩ => ⟨S100000x3, .f32⟩
  | .hbm, ⟨26, _⟩ => ⟨S100000x3, .f32⟩
  | .hbm, ⟨27, _⟩ => ⟨S100000x1x3, .f32⟩
  | .hbm, ⟨28, _⟩ => ⟨S100000x32x3, .f32⟩
  | .hbm, ⟨29, _⟩ => ⟨S100000x32x3, .f32⟩
  | .hbm, ⟨30, _⟩ => ⟨S100000x3, .i32⟩
  | .hbm, ⟨31, _⟩ => ⟨S100000x3, .f32⟩
  | .hbm, ⟨32, _⟩ => ⟨S_, .f32⟩
  | .hbm, ⟨33, _⟩ => ⟨S100000x3, .f32⟩
  | .hbm, ⟨34, _⟩ => ⟨S100000x3, .f32⟩
  | .hbm, ⟨35, _⟩ => ⟨S1x3, .f32⟩
  | .hbm, ⟨36, _⟩ => ⟨S100000x3, .f32⟩
  | .hbm, ⟨37, _⟩ => ⟨S100000x3, .f32⟩
  | .hbm, ⟨38, _⟩ => ⟨S100000x1x3, .f32⟩
  | .hbm, ⟨39, _⟩ => ⟨S100000x32x3, .f32⟩
  | .hbm, ⟨40, _⟩ => ⟨S100000x32x3, .f32⟩
  | .hbm, ⟨41, _⟩ => ⟨S100000x32x10, .f32⟩
  | .hbm, ⟨42, _⟩ => ⟨S100000x32x10, .f32⟩
  | .hbm, ⟨43, _⟩ => ⟨S100000x32x10, .f32⟩
  | .hbm, ⟨44, _⟩ => ⟨S100000x32x64, .f32⟩
  | .hbm, ⟨45, _⟩ => ⟨S_, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .i32⟩
  | .hbm, ⟨51, _⟩ => ⟨S_, .f32⟩
  | .hbm, ⟨52, _⟩ => ⟨S64, .f32⟩
  | .hbm, ⟨53, _⟩ => ⟨S1x1x64, .f32⟩
  | .hbm, ⟨54, _⟩ => ⟨S_, .f32⟩
  | .hbm, ⟨55, _⟩ => ⟨S1x1x64, .f32⟩
  | .hbm, ⟨56, _⟩ => ⟨S1x1x64, .f32⟩
  | .hbm, ⟨57, _⟩ => ⟨S100000x32x64, .f32⟩
  | .hbm, ⟨58, _⟩ => ⟨S100000x32x64, .f32⟩
  | .hbm, ⟨59, _⟩ => ⟨S100000x32x64, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S1x1x64, .f32⟩
  | .hbm, ⟨74, _⟩ => ⟨S100000x32x64, .f32⟩
  | .hbm, ⟨75, _⟩ => ⟨S100000x32x64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S1x1x64, .f32⟩
  | .hbm, ⟨81, _⟩ => ⟨S100000x32x64, .f32⟩
  | .hbm, ⟨82, _⟩ => ⟨S100000x32x64, .f32⟩
  | .hbm, ⟨83, _⟩ => ⟨S1x1x64, .f32⟩
  | .hbm, ⟨84, _⟩ => ⟨S100000x32x64, .f32⟩
  | .hbm, ⟨85, _⟩ => ⟨S100000x32x64, .f32⟩
  | .hbm, ⟨86, _⟩ => ⟨S1x1x64, .f32⟩
  | .hbm, ⟨87, _⟩ => ⟨S100000x32x64, .f32⟩
  | .hbm, ⟨88, _⟩ => ⟨S100000x32x64, .f32⟩
  | .hbm, ⟨89, _⟩ => ⟨S_, .f32⟩
  | .hbm, ⟨90, _⟩ => ⟨S100000x32x64, .f32⟩
  | .hbm, ⟨91, _⟩ => ⟨S100000x32x64, .f32⟩
  | .hbm, ⟨92, _⟩ => ⟨S_, .f32⟩
  | .hbm, ⟨93, _⟩ => ⟨S100000x64, .f32⟩
  | _, _ => ⟨S100000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_c_4 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_5 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_call1_cst : Ref sig .tc := ⟨.hbm, 89, rfl⟩
abbrev main_call1_v0 : Ref sig .tc := ⟨.hbm, 90, rfl⟩
abbrev main_v54 : Ref sig .tc := ⟨.hbm, 91, rfl⟩
abbrev main_cst_6 : Ref sig .tc := ⟨.hbm, 92, rfl⟩
abbrev main_v55 : Ref sig .tc := ⟨.hbm, 93, rfl⟩

abbrev nD : Nat := 1
abbrev τ : Topo := Topo.v7x

variable {F : FTy → Type} [FloatOps F]

class Facts₀ : Prop where
  slices_S100000x32x4_S100000x32x3_0_0_0 : S100000x32x4.Slices ![0, 0, 0] S100000x32x3
  bcast_S32_S1x32_1 : S32.BroadcastsInDim S1x32 (![1] : Fin 1 → Fin S1x32.rank)
  bcast_S100000_S100000x1_0 : S100000.BroadcastsInDim S100000x1 (![0] : Fin 1 → Fin S100000x1.rank)
  bcast_S1x32_S100000x32_0_1 : S1x32.BroadcastsInDim S100000x32 (![0, 1] : Fin 2 → Fin S100000x32.rank)
  bcast_S100000x1_S100000x32_0_1 : S100000x1.BroadcastsInDim S100000x32 (![0, 1] : Fin 2 → Fin S100000x32.rank)
  bcast_S100000x32_S100000x32x1_0_1 : S100000x32.BroadcastsInDim S100000x32x1 (![0, 1] : Fin 2 → Fin S100000x32x1.rank)
  bcast_S_S100000 : S_.BroadcastsInDim S100000 (![] : Fin 0 → Fin S100000.rank)
  bcast_S100000x32x1_S100000x32x3_0_1_2 : S100000x32x1.BroadcastsInDim S100000x32x3 (![0, 1, 2] : Fin 3 → Fin S100000x32x3.rank)
  reducesTo_S100000x32x3_S100000x3_d1 : S100000x32x3.ReducesTo [1] S100000x3
  h_S_ : 0 < S_.numel
  bcast_S100000x1_S100000x3_0_1 : S100000x1.BroadcastsInDim S100000x3 (![0, 1] : Fin 2 → Fin S100000x3.rank)
  bcast_S100000x3_S100000x1x3_0_2 : S100000x3.BroadcastsInDim S100000x1x3 (![0, 2] : Fin 2 → Fin S100000x1x3.rank)
  bcast_S100000x1x3_S100000x32x3_0_1_2 : S100000x1x3.BroadcastsInDim S100000x32x3 (![0, 1, 2] : Fin 3 → Fin S100000x32x3.rank)
  slices_S100000x4_S100000x3_0_1 : S100000x4.Slices ![0, 1] S100000x3
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  concatenates_S100000x32x4_S100000x32x3_S100000x32x3_S100000x32x10_d2 : Shape.Concatenates [S100000x32x4, S100000x32x3, S100000x32x3] S100000x32x10 2
  bcast_S100000x32x1_S100000x32x10_0_1_2 : S100000x32x1.BroadcastsInDim S100000x32x10 (![0, 1, 2] : Fin 3 → Fin S100000x32x10.rank)
  reducesTo_S100000x32x64_S64_d0_1 : S100000x32x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S1x1x64_S100000x32x64_0_1_2 : S1x1x64.BroadcastsInDim S100000x32x64 (![0, 1, 2] : Fin 3 → Fin S100000x32x64.rank)
  bcast_S_S100000x32x64 : S_.BroadcastsInDim S100000x32x64 (![] : Fin 0 → Fin S100000x32x64.rank)
  reducesTo_S100000x32x64_S100000x64_d1 : S100000x32x64.ReducesTo [1] S100000x64
  dot_S100000x32x10_S10x64_S100000x32x64_2_0_01_1_n_n_wf : DotDims.WF S100000x32x10 S10x64 S100000x32x64 [2] [0] [0, 1] [1] [] []

variable [Facts₀]

def dot_S100000x32x10_S10x64_S100000x32x64_2_0_01_1_n_n : DotDims S100000x32x10 S10x64 S100000x32x64 where
  lhsContracting := [2]
  rhsContracting := [0]
  lhsNonContracting := [0, 1]
  rhsNonContracting := [1]
  lhsBatch := []
  rhsBatch := []
  wf := dot_S100000x32x10_S10x64_S100000x32x64_2_0_01_1_n_n_wf

class Facts : Prop extends Facts₀ where

variable [Facts]
-- ==== Proof.KStatsDefs.lean ====
/-
  The statistics pass (the first kernel region): what the proof says about it, as definitions.

  The region walks the 100 blocks of 1000 pillars. At block `t` the body projects the block's
  32000 point rows to 64 channels and adds, per channel, the sum of the projected values to one
  scratch row and the sum of their squares to another; the first block starts both rows from zero,
  and the last block copies the two rows to the region's two results. So after block `t` the first
  scratch row holds the sum over blocks `0 … t` of the per-block channel sums (`accS`), the second the
  same for the squares (`accQ`), each as a left-nested sum in block order.
-/
import proofs.«159035_j63986422775810_1_alg».proof.Proof.Gen.Kernel.Launch
import proofs.«159035_j63986422775810_1_alg».proof.Proof.Gen.Kernel.Skeleton
import proofs.«159035_j63986422775810_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at block index `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks at block index `t`, at their literal types: the 1000 pillars' points, their
    grid coordinates, their point counts, and the projection matrix. -/
abbrev fblk (c : Dev nD) (t : Fin cfg0.N) : Vec F S1000x32x4 .f32 := iblk V c 0 t
abbrev cblk (c : Dev nD) (t : Fin cfg0.N) : Vec F S1000x4 .i32 := iblk V c 1 t
abbrev nblk (c : Dev nD) (t : Fin cfg0.N) : Vec F S1000x1 .i32 := iblk V c 2 t
abbrev wblk (c : Dev nD) (t : Fin cfg0.N) : Vec F S10x64 .f32 := iblk V c 3 t

/-- One block's update of the row of channel sums: the row it found plus the block's channel sums. -/
def stepS (x1 : Vec F S1000x32x4 .f32) (x2 : Vec F S1000x4 .i32) (x3 : Vec F S1000x1 .i32) (x4 : Vec F S10x64 .f32)
    (s : Vec F S1x64 .f32) : Vec F S1x64 .f32 :=
  k0_pay2 x1 (k0_pay7 x1) (k0_pay8 x3) (k0_pay9 x1 x3) (k0_pay10 x2) (k0_pay11 x2) (k0_pay12 x2) (Scalar.ofBits .f32 0x40800000#32) x4 s

/-- One block's update of the row of channel sums of squares. -/
def stepQ (x1 : Vec F S1000x32x4 .f32) (x2 : Vec F S1000x4 .i32) (x3 : Vec F S1000x1 .i32) (x4 : Vec F S10x64 .f32)
    (q : Vec F S1x64 .f32) : Vec F S1x64 .f32 :=
  k0_pay3 x1 (k0_pay7 x1) (k0_pay8 x3) (k0_pay9 x1 x3) (k0_pay10 x2) (k0_pay11 x2) (k0_pay12 x2) (Scalar.ofBits .f32 0x40800000#32) x4 q

/-- The row of channel sums after block `n`: from the zero row at the first block, then block by block. -/
def accS (c : Dev nD) : (n : ℕ) → n < cfg0.N → Vec F S1x64 .f32
  | 0, h => stepS (fblk V c ⟨0, h⟩) (cblk V c ⟨0, h⟩) (nblk V c ⟨0, h⟩) (wblk V c ⟨0, h⟩) (k0_pay4 (F := F))
  | n + 1, h => stepS (fblk V c ⟨n + 1, h⟩) (cblk V c ⟨n + 1, h⟩) (nblk V c ⟨n + 1, h⟩) (wblk V c ⟨n + 1, h⟩) (accS c n (Nat.lt_of_succ_lt h))

/-- The row of channel sums of squares after block `n`. -/
def accQ (c : Dev nD) : (n : ℕ) → n < cfg0.N → Vec F S1x64 .f32
  | 0, h => stepQ (fblk V c ⟨0, h⟩) (cblk V c ⟨0, h⟩) (nblk V c ⟨0, h⟩) (wblk V c ⟨0, h⟩) (k0_pay5 (F := F))
  | n + 1, h => stepQ (fblk V c ⟨n + 1, h⟩) (cblk V c ⟨n + 1, h⟩) (nblk V c ⟨n + 1, h⟩) (wblk V c ⟨n + 1, h⟩) (accQ c n (Nat.lt_of_succ_lt h))

theorem accS_zero (c : Dev nD) (h : 0 < cfg0.N) :
    accS V c 0 h = stepS (fblk V c ⟨0, h⟩) (cblk V c ⟨0, h⟩) (nblk V c ⟨0, h⟩) (wblk V c ⟨0, h⟩) (k0_pay4 (F := F)) := rfl
theorem accS_succ (c : Dev nD) (n : ℕ) (h : n + 1 < cfg0.N) :
    accS V c (n + 1) h = stepS (fblk V c ⟨n + 1, h⟩) (cblk V c ⟨n + 1, h⟩) (nblk V c ⟨n + 1, h⟩) (wblk V c ⟨n + 1, h⟩) (accS V c n (Nat.lt_of_succ_lt h)) := rfl
theorem accQ_zero (c : Dev nD) (h : 0 < cfg0.N) :
    accQ V c 0 h = stepQ (fblk V c ⟨0, h⟩) (cblk V c ⟨0, h⟩) (nblk V c ⟨0, h⟩) (wblk V c ⟨0, h⟩) (k0_pay5 (F := F)) := rfl
theorem accQ_succ (c : Dev nD) (n : ℕ) (h : n + 1 < cfg0.N) :
    accQ V c (n + 1) h = stepQ (fblk V c ⟨n + 1, h⟩) (cblk V c ⟨n + 1, h⟩) (nblk V c ⟨n + 1, h⟩) (wblk V c ⟨n + 1, h⟩) (accQ V c n (Nat.lt_of_succ_lt h)) := rfl

/-- The two scratch rows, as memrefs. -/
abbrev scS : Memref sig .tc .vmem S1x64 .f32 := Memref.whole cc0_scratch0
abbrev scQ : Memref sig .tc .vmem S1x64 .f32 := Memref.whole cc0_scratch1

/-- The core's other scoped buffers (no staging buffer of this region, neither scratch row), at some contents. -/
abbrev restBut (c : Dev nD) : sProp 𝕄 :=
  Pipeline.scopedRestBut (Ix := Unit) (Name := ℕ) (U := UR sig nD τ) (Lvl := ℕ) (Val := Elt F) spec0 c [cc0_scratch0, cc0_scratch1]

/-- What the region keeps between blocks: before the first block nothing is known of the scratch rows; before
    block `n + 1` they hold the two running totals after block `n`. -/
def Phi (c : Dev nD) : (n : ℕ) → n ≤ cfg0.N → sProp 𝕄
  | 0, _ => Pipeline.ΦA spec0 c
  | n + 1, hn => iprop(owns (c : Thread nD τ) scS fullShare (accS V c n hn) ∗ owns (c : Thread nD τ) scQ fullShare (accQ V c n hn)
      ∗ restBut (F := F) c ∗ (∃ r, prngReg c r))

theorem Phi_zero (c : Dev nD) (n : ℕ) (h : n ≤ cfg0.N) (hz : n = 0) : Phi V c n h = Pipeline.ΦA spec0 c := by
  subst hz; rfl
theorem Phi_succ (c : Dev nD) (n : ℕ) (hn : n < cfg0.N) :
    Phi V c (n + 1) hn = iprop(owns (c : Thread nD τ) scS fullShare (accS V c n hn) ∗ owns (c : Thread nD τ) scQ fullShare (accQ V c n hn)
      ∗ restBut (F := F) c ∗ (∃ r, prngReg c r)) := rfl
theorem Phi_pos (c : Dev nD) (n : ℕ) (h : n ≤ cfg0.N) (hz : n ≠ 0) :
    Phi V c n h = iprop(owns (c : Thread nD τ) scS fullShare (accS V c (n - 1) (by omega)) ∗ owns (c : Thread nD τ) scQ fullShare (accQ V c (n - 1) (by omega))
      ∗ restBut (F := F) c ∗ (∃ r, prngReg c r)) := by
  cases n with
  | zero => exact absurd rfl hz
  | succ n => rfl

/-- The region's proof data: the arrays as the region finds them; after block `t` each input's staging buffer
    holds its block and the two results' buffers the running totals (consulted only where the pipeline writes
    them back, at the last block); between blocks the scratch rows at the running totals; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => accS V c t.val t.isLt
    | ⟨5, _⟩ => accQ V c t.val t.isLt
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = accS V c t.val t.isLt := by dsimp only [dat]
theorem after_5 (c : Dev nD) (t : Fin cfg0.N) : (dat V c).after 5 t = accQ V c t.val t.isLt := by dsimp only [dat]
theorem Phi_castSucc (c : Dev nD) (t : Fin cfg0.N) :
    (dat V c).Φ t.castSucc = Phi V c t.val (Nat.le_of_lt t.isLt) := by
  dsimp only [dat]; simp only [Fin.coe_castSucc]

end Cert.Kernel.Stats

end
-- ==== Proof.KPfnDefs.lean ====
/-
  The normalisation pass (the second kernel region): what the proof says about it, as definitions.

  The region walks the same 100 blocks of 1000 pillars. At block `t` the body projects the block's point
  rows to 64 channels as the first pass did, subtracts the channel mean, scales by the reciprocal square
  root of the channel variance plus a small constant, applies the affine pair, clamps below at zero, and
  takes per pillar and channel the largest value over the pillar's 32 points: one 1000 × 64 block of the result.
  Nothing is kept between blocks.
-/
import proofs.«159035_j63986422775810_1_alg».proof.Proof.Gen.Kernel.Launch
import proofs.«159035_j63986422775810_1_alg».proof.Proof.Gen.Kernel.Skeleton
import proofs.«159035_j63986422775810_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Pfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at block index `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The eight input blocks at block index `t`, at their literal types: the pillars' points, coordinates and point
    counts, the projection matrix, the affine pair, the channel means and the channel variances. -/
abbrev fblk (c : Dev nD) (t : Fin cfg1.N) : Vec F S1000x32x4 .f32 := iblk V c 0 t
abbrev cblk (c : Dev nD) (t : Fin cfg1.N) : Vec F S1000x4 .i32 := iblk V c 1 t
abbrev nblk (c : Dev nD) (t : Fin cfg1.N) : Vec F S1000x1 .i32 := iblk V c 2 t
abbrev wblk (c : Dev nD) (t : Fin cfg1.N) : Vec F S10x64 .f32 := iblk V c 3 t
abbrev gblk (c : Dev nD) (t : Fin cfg1.N) : Vec F S1x64 .f32 := iblk V c 4 t
abbrev bblk (c : Dev nD) (t : Fin cfg1.N) : Vec F S1x64 .f32 := iblk V c 5 t
abbrev mublk (c : Dev nD) (t : Fin cfg1.N) : Vec F S1x64 .f32 := iblk V c 6 t
abbrev varblk (c : Dev nD) (t : Fin cfg1.N) : Vec F S1x64 .f32 := iblk V c 7 t

/-- The result block the body computes from the eight input blocks. -/
def outBlock (x1 : Vec F S1000x32x4 .f32) (x2 : Vec F S1000x4 .i32) (x3 : Vec F S1000x1 .i32) (x4 : Vec F S10x64 .f32)
    (xg xb xmu xvar : Vec F S1x64 .f32) : Vec F S1000x64 .f32 :=
  k1_pay1 x1 (k1_pay4 x3) (k1_pay5 x1 x3) (k1_pay6 x1 x2) x4 xmu xvar xg xb

/-- The result block at block index `t`. -/
def out (c : Dev nD) (t : Fin cfg1.N) : Vec F S1000x64 .f32 :=
  outBlock (fblk V c t) (cblk V c t) (nblk V c t) (wblk V c t) (gblk V c t) (bblk V c t) (mublk V c t) (varblk V c t)

/-- The region's proof data: the arrays as the region finds them; after block `t` each input's staging buffer holds
    its block and the result's buffer the block computed from them; nothing carried, nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out V c t
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = out V c t := by dsimp only [dat]

end Cert.Kernel.Pfn

end
-- ==== Proof.KLaunchDefs.lean ====
/-
  The buffers' contents between the items of @main, and both regions' proof data at them.

  @main is: three reshapes; the statistics region; eight host lines (the mean and the variance); the normalisation
  region. Between items the core's unscoped buffers hold: at launch the memory; after the reshapes their results
  beside it; after the statistics region the same with its two result rows at the running totals after the last
  block; after the eight host lines their results; after the normalisation region the same with the result array
  at what its hundred blocks wrote. Each region is entered from the buffers at those contents and left at the next,
  its own scratch and staging buffers forgotten at its exit; no argument array is written by anything.
-/
import proofs.«159035_j63986422775810_1_alg».proof.Proof.KStatsDefs
import proofs.«159035_j63986422775810_1_alg».proof.Proof.KPfnDefs
import proofs.«159035_j63986422775810_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The statistics region's entry contents: the launch memory after the three reshapes. -/
abbrev E1 (c : Dev nD) (b : Ref sig .tc) : Buf (Elt F) ((c : Thread nD τ).loc b) := Gen.V1 m c b

/-- The buffers after the statistics region: its two result rows at the running totals after the last block. -/
def W2 (c : Dev nD) : Valuation τ sig (Elt F) :=
  Function.update (Function.update (Gen.V1 m c) main_v3_0 ((Stats.dat (E1 m) c).arrAt 4 cfg0.N)) main_v3_1 ((Stats.dat (E1 m) c).arrAt 5 cfg0.N)

/-- What the regions leave, as far as the normalisation region's entry needs it. -/
def outsA : Gen.Outs (F := F) := fun _ r c => W2 m c r

/-- The normalisation region's entry contents: after the eight host lines. -/
abbrev E3 (c : Dev nD) (b : Ref sig .tc) : Buf (Elt F) ((c : Thread nD τ).loc b) := Gen.V3 m (outsA m) c b

/-- The buffers at the end: the result array at what the normalisation region's blocks wrote. -/
def W4 (c : Dev nD) : Valuation τ sig (Elt F) :=
  Function.update (Gen.V3 m (outsA m) c) main_v10 ((Pfn.dat (E3 m) c).arrAt 8 cfg1.N)

/-- What the regions leave. -/
def outs : Gen.Outs (F := F) := fun J r c => if J = 4 then W4 m c r else W2 m c r

/-- Both regions' proof data, each at its region's entry contents. -/
def pdats : (p : Fin 2) → (c : Dev nD) → Dat τ (Elt F) Unit ℕ (UR sig nD τ) ℕ (cfgs p) c
  | ⟨0, _⟩ => fun c => Stats.dat (E1 m) c
  | ⟨1, _⟩ => fun c => Pfn.dat (E3 m) c

end Cert.Kernel.Run

end
-- ==== Proof.LibWholeStore.lean ====
import Idealize.ShloMosaic.Lib.Pipeline.FrameBody
import Idealize.ShloMosaic.Lib.Pipeline.Value

/-! A store through the rectangle that is the whole of a buffer's shape replaces the buffer's contents: what is read
back afterwards is the stored value, whatever the buffer held and whatever was stored before. -/

noncomputable section

namespace Idealize.ShloMosaic.WholeStore

open Idealize.ShloMosaic

variable {sig : RefSig} {κ : Kind} {sp : Space} {S : Shape} {e : EltTy} {Val : EltTy → Type} [∀ e, Nonempty (Val e)]

/-- The rectangle at offset zero of the shape's own size holds every index. -/
theorem mem_unit_zero {off : Fin S.rank → Nat} (h : off = fun _ => 0) (inb : ∀ a, off a + S.size a ≤ S.size a) (y : S.Idx) :
    y ∈ (Rect.unit off S.size inb).set := by
  subst h
  show y ∈ (Rect.whole S).set
  rw [Rect.set_whole]; exact Finset.mem_univ y

/-- After a last store of `w` through the whole shape, the buffer reads `w`. -/
theorem read_writes_cons (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, mem_unit_zero h inb y⟩), View.canon_cons_unit_zero h inb w L]

/-- A load through the whole shape after a last store of `w` through it reads `w`. -/
theorem readCov_cons (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, mem_unit_zero h inb y⟩), View.canon_cons_unit_zero h inb w L,
    View.ld_unit_zero h inb]

/-- A load through the whole shape of a buffer whose contents read `X` reads `X`. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

end Idealize.ShloMosaic.WholeStore

end
-- ==== Proof.KStatsBody.lean ====
/-
  The statistics kernel's body, run once per kind of block.

  On whole staging buffers holding a block's points `x1`, coordinates `x2`, point counts `x3` and the projection
  matrix `x4`, the body leaves those four as it found them and
  * at the FIRST block sets both scratch rows to zero and then adds the block's channel sums and sums of squares;
  * at a MIDDLE block adds the block's channel sums and sums of squares to what the scratch rows held;
  * at the LAST block does the same and then copies both scratch rows to the two result buffers.
  Which kind a block is the body decides by comparing the block index with 0 and with 99.
-/
import proofs.«159035_j63986422775810_1_alg».proof.Proof.KStatsDefs
import proofs.«159035_j63986422775810_1_alg».proof.Proof.LibWholeStore

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "This is the first block", as the body computes it from the block index. -/
abbrev condFirst (i : grid0.Coords) : Prop :=
  (Scalar.cmpi .ne (Scalar.extui (Scalar.cmpi .eq (BitVec.ofNat 32 (i 0).val) 0#32)) 0#32) = 1#1
/-- "This is the last block", as the body computes it from the block index. -/
abbrev condLast (i : grid0.Coords) : Prop := k0_cond2 i = 1#1

/-- The first comparison holds exactly at block 0, the second exactly at block 99. -/
theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 99 :=
  (by decide +kernel : ∀ t : Fin grid0.N, condLast (grid0.coords t) ↔ t.val = 99)

/-- The zero offsets of a load or store through a whole buffer, of two and of three axes. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A load through a buffer's whole rectangle reads what the buffer holds: the points, the coordinates, the point
    counts, the projection matrix, a 64-channel row. -/
theorem load_points (a : Memref sig .tc .vmem S1000x32x4 .f32) (f : a.view.ty.Contents (Elt F)) :
    a.view.readAt (Elt F) (Rect.unit (s := S1000x32x4) ![0, 0, 0] S1000x32x4.size inb_S1000x32x4_S1000x32x4_0_0_0).toLoadRect f = a.view.read (Elt F) f :=
  WholeStore.readAt_whole (S := S1000x32x4) _ _ hz3 _
theorem load_coors (a : Memref sig .tc .vmem S1000x4 .i32) (f : a.view.ty.Contents (Elt F)) :
    a.view.readAt (Elt F) (Rect.unit (s := S1000x4) ![0, 0] S1000x4.size inb_S1000x4_S1000x4_0_0).toLoadRect f = a.view.read (Elt F) f :=
  WholeStore.readAt_whole (S := S1000x4) _ _ hz2 _
theorem load_counts (a : Memref sig .tc .vmem S1000x1 .i32) (f : a.view.ty.Contents (Elt F)) :
    a.view.readAt (Elt F) (Rect.unit (s := S1000x1) ![0, 0] S1000x1.size inb_S1000x1_S1000x1_0_0).toLoadRect f = a.view.read (Elt F) f :=
  WholeStore.readAt_whole (S := S1000x1) _ _ hz2 _
theorem load_matrix (a : Memref sig .tc .vmem S10x64 .f32) (f : a.view.ty.Contents (Elt F)) :
    a.view.readAt (Elt F) (Rect.unit (s := S10x64) ![0, 0] S10x64.size inb_S10x64_S10x64_0_0).toLoadRect f = a.view.read (Elt F) f :=
  WholeStore.readAt_whole (S := S10x64) _ _ hz2 _
theorem load_row (a : Memref sig .tc .vmem S1x64 .f32) (f : a.view.ty.Contents (Elt F)) :
    a.view.readAt (Elt F) (Rect.unit (s := S1x64) ![0, 0] S1x64.size inb_S1x64_S1x64_0_0).toLoadRect f = a.view.read (Elt F) f :=
  WholeStore.readAt_whole (S := S1x64) _ _ hz2 _

/-- After a store of the row `w` through a row buffer's whole rectangle the buffer reads `w`, whatever it held and
    whatever was stored before; and a load through the whole rectangle after such a store reads `w`. -/
theorem store_row (a : Memref sig .tc .vmem S1x64 .f32) (f : a.view.ty.Contents (Elt F)) (w : Vec F S1x64 .f32)
    (L : List (View.Piece (Elt F) S1x64 .f32)) :
    a.view.read (Elt F) (a.view.writes (Elt F) f (⟨Rect.unit (s := S1x64) ![0, 0] S1x64.size inb_S1x64_S1x64_0_0, w⟩ :: L)) = w :=
  WholeStore.read_writes_cons (S := S1x64) _ _ hz2 _ _ _
theorem reload_row (a : Memref sig .tc .vmem S1x64 .f32) (w : Vec F S1x64 .f32) (L : List (View.Piece (Elt F) S1x64 .f32)) :
    a.view.readCov (⟨Rect.unit (s := S1x64) ![0, 0] S1x64.size inb_S1x64_S1x64_0_0, w⟩ :: L)
      (Rect.unit (s := S1x64) ![0, 0] S1x64.size inb_S1x64_S1x64_0_0).toLoadRect = w :=
  WholeStore.readCov_cons (S := S1x64) _ hz2 _ _ _

/-- The row the body stores into the sums' scratch row, from what its loads read of buffers holding the block's
    points `x1`, coordinates `x2`, point counts `x3` and the matrix `x4`: the block's update of the row `v` it was
    handed; and the same for the row of sums of squares. -/
theorem pay2_loaded (a1 : Memref sig .tc .vmem S1000x32x4 .f32) (f1 : a1.view.ty.Contents (Elt F))
    (a2 : Memref sig .tc .vmem S1000x4 .i32) (f2 : a2.view.ty.Contents (Elt F))
    (a3 : Memref sig .tc .vmem S1000x1 .i32) (f3 : a3.view.ty.Contents (Elt F))
    (a4 : Memref sig .tc .vmem S10x64 .f32) (f4 : a4.view.ty.Contents (Elt F))
    {x1 : Vec F S1000x32x4 .f32} {x2 : Vec F S1000x4 .i32} {x3 : Vec F S1000x1 .i32} {x4 : Vec F S10x64 .f32}
    (hf1 : a1.view.read (Elt F) f1 = x1) (hf2 : a2.view.read (Elt F) f2 = x2) (hf3 : a3.view.read (Elt F) f3 = x3)
    (hf4 : a4.view.read (Elt F) f4 = x4) (v : Vec F S1x64 .f32) :
    k0_pay2 (a1.view.readAt (Elt F) (Rect.unit (s := S1000x32x4) ![0, 0, 0] S1000x32x4.size inb_S1000x32x4_S1000x32x4_0_0_0).toLoadRect f1)
      (k0_pay7 (a1.view.readAt (Elt F) (Rect.unit (s := S1000x32x4) ![0, 0, 0] S1000x32x4.size inb_S1000x32x4_S1000x32x4_0_0_0).toLoadRect f1))
      (k0_pay8 (a3.view.readAt (Elt F) (Rect.unit (s := S1000x1) ![0, 0] S1000x1.size inb_S1000x1_S1000x1_0_0).toLoadRect f3))
      (k0_pay9 (a1.view.readAt (Elt F) (Rect.unit (s := S1000x32x4) ![0, 0, 0] S1000x32x4.size inb_S1000x32x4_S1000x32x4_0_0_0).toLoadRect f1)
        (a3.view.readAt (Elt F) (Rect.unit (s := S1000x1) ![0, 0] S1000x1.size inb_S1000x1_S1000x1_0_0).toLoadRect f3))
      (k0_pay10 (a2.view.readAt (Elt F) (Rect.unit (s := S1000x4) ![0, 0] S1000x4.size inb_S1000x4_S1000x4_0_0).toLoadRect f2))
      (k0_pay11 (a2.view.readAt (Elt F) (Rect.unit (s := S1000x4) ![0, 0] S1000x4.size inb_S1000x4_S1000x4_0_0).toLoadRect f2))
      (k0_pay12 (a2.view.readAt (Elt F) (Rect.unit (s := S1000x4) ![0, 0] S1000x4.size inb_S1000x4_S1000x4_0_0).toLoadRect f2))
      (Scalar.ofBits .f32 0x40800000#32)
      (a4.view.readAt (Elt F) (Rect.unit (s := S10x64) ![0, 0] S10x64.size inb_S10x64_S10x64_0_0).toLoadRect f4) v
      = stepS x1 x2 x3 x4 v := by
  rw [load_points, load_counts, load_coors, load_matrix, hf1, hf2, hf3, hf4]
  unfold stepS
  rfl
theorem pay3_loaded (a1 : Memref sig .tc .vmem S1000x32x4 .f32) (f1 : a1.view.ty.Contents (Elt F))
    (a2 : Memref sig .tc .vmem S1000x4 .i32) (f2 : a2.view.ty.Contents (Elt F))
    (a3 : Memref sig .tc .vmem S1000x1 .i32) (f3 : a3.view.ty.Contents (Elt F))
    (a4 : Memref sig .tc .vmem S10x64 .f32) (f4 : a4.view.ty.Contents (Elt F))
    {x1 : Vec F S1000x32x4 .f32} {x2 : Vec F S1000x4 .i32} {x3 : Vec F S1000x1 .i32} {x4 : Vec F S10x64 .f32}
    (hf1 : a1.view.read (Elt F) f1 = x1) (hf2 : a2.view.read (Elt F) f2 = x2) (hf3 : a3.view.read (Elt F) f3 = x3)
    (hf4 : a4.view.read (Elt F) f4 = x4) (v : Vec F S1x64 .f32) :
    k0_pay3 (a1.view.readAt (Elt F) (Rect.unit (s := S1000x32x4) ![0, 0, 0] S1000x32x4.size inb_S1000x32x4_S1000x32x4_0_0_0).toLoadRect f1)
      (k0_pay7 (a1.view.readAt (Elt F) (Rect.unit (s := S1000x32x4) ![0, 0, 0] S1000x32x4.size inb_S1000x32x4_S1000x32x4_0_0_0).toLoadRect f1))
      (k0_pay8 (a3.view.readAt (Elt F) (Rect.unit (s := S1000x1) ![0, 0] S1000x1.size inb_S1000x1_S1000x1_0_0).toLoadRect f3))
      (k0_pay9 (a1.view.readAt (Elt F) (Rect.unit (s := S1000x32x4) ![0, 0, 0] S1000x32x4.size inb_S1000x32x4_S1000x32x4_0_0_0).toLoadRect f1)
        (a3.view.readAt (Elt F) (Rect.unit (s := S1000x1) ![0, 0] S1000x1.size inb_S1000x1_S1000x1_0_0).toLoadRect f3))
      (k0_pay10 (a2.view.readAt (Elt F) (Rect.unit (s := S1000x4) ![0, 0] S1000x4.size inb_S1000x4_S1000x4_0_0).toLoadRect f2))
      (k0_pay11 (a2.view.readAt (Elt F) (Rect.unit (s := S1000x4) ![0, 0] S1000x4.size inb_S1000x4_S1000x4_0_0).toLoadRect f2))
      (k0_pay12 (a2.view.readAt (Elt F) (Rect.unit (s := S1000x4) ![0, 0] S1000x4.size inb_S1000x4_S1000x4_0_0).toLoadRect f2))
      (Scalar.ofBits .f32 0x40800000#32)
      (a4.view.readAt (Elt F) (Rect.unit (s := S10x64) ![0, 0] S10x64.size inb_S10x64_S10x64_0_0).toLoadRect f4) v
      = stepQ x1 x2 x3 x4 v := by
  rw [load_points, load_counts, load_coors, load_matrix, hf1, hf2, hf3, hf4]
  unfold stepQ
  rfl

/-- The first block: the scratch rows, at anything, end at the zero rows plus the block's sums; the two result
    buffers are handed back untouched. -/
theorem run_first (c : Dev nD) (i : grid0.Coords) (arg1 : Memref sig .tc .vmem S1000x32x4 .f32) (harg1 : arg1.IsWhole) (arg2 : Memref sig .tc .vmem S1000x4 .i32) (harg2 : arg2.IsWhole) (arg3 : Memref sig .tc .vmem S1000x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : condFirst i) (hc1 : ¬condLast i) (x1 : Vec F S1000x32x4 .f32) (x2 : Vec F S1000x4 .i32) (x3 : Vec F S1000x1 .i32) (x4 : Vec F S10x64 .f32) (y5 y6 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare y5 ∗ owns (c : Thread nD τ) arg6 fullShare y6
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare y5 ∗ owns (c : Thread nD τ) arg6 fullShare y6
            ∗ owns (c : Thread nD τ) arg7 fullShare (stepS x1 x2 x3 x4 (k0_pay4 (F := F))) ∗ owns (c : Thread nD τ) arg8 fullShare (stepQ x1 x2 x3 x4 (k0_pay5 (F := F)))) -∗ K ⟨⟩))
      ⊢ wp frame (wpE (defs₀ (F := F)) Variants.none c none) E (cc0_stats_kernel i arg1 harg1 arg2 harg2 arg3 harg3 arg4 harg4 arg5 harg5 arg6 harg6 arg7 harg7 arg8 harg8) K := by
  simp only [cc0_stats_kernel_eq_skeleton]; unfold cc0_stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    rw [store_row]
    sl_unfold_run_names
    rw [reload_row]
    exact pay2_loaded _ _ _ _ _ _ _ _ hf1 hf2 hf3 hf4 _
  iexists _; isplitr
  swap; · iexact H8
  ipureintro
  rw [store_row]
  sl_unfold_run_names
  rw [reload_row]
  exact pay3_loaded _ _ _ _ _ _ _ _ hf1 hf2 hf3 hf4 _

/-- A middle block: the scratch rows at `s`, `q` end at `s`, `q` plus the block's sums; the two result buffers are
    handed back untouched. -/
theorem run_mid (c : Dev nD) (i : grid0.Coords) (arg1 : Memref sig .tc .vmem S1000x32x4 .f32) (harg1 : arg1.IsWhole) (arg2 : Memref sig .tc .vmem S1000x4 .i32) (harg2 : arg2.IsWhole) (arg3 : Memref sig .tc .vmem S1000x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬condFirst i) (hc1 : ¬condLast i) (x1 : Vec F S1000x32x4 .f32) (x2 : Vec F S1000x4 .i32) (x3 : Vec F S1000x1 .i32) (x4 : Vec F S10x64 .f32) (y5 y6 s q : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare y5 ∗ owns (c : Thread nD τ) arg6 fullShare y6
        ∗ owns (c : Thread nD τ) arg7 fullShare s ∗ owns (c : Thread nD τ) arg8 fullShare q
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare y5 ∗ owns (c : Thread nD τ) arg6 fullShare y6
            ∗ owns (c : Thread nD τ) arg7 fullShare (stepS x1 x2 x3 x4 s) ∗ owns (c : Thread nD τ) arg8 fullShare (stepQ x1 x2 x3 x4 q)) -∗ K ⟨⟩))
      ⊢ wp frame (wpE (defs₀ (F := F)) Variants.none c none) E (cc0_stats_kernel i arg1 harg1 arg2 harg2 arg3 harg3 arg4 harg4 arg5 harg5 arg6 harg6 arg7 harg7 arg8 harg8) K := by
  simp only [cc0_stats_kernel_eq_skeleton]; unfold cc0_stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    rw [store_row]
    sl_unfold_run_names
    rw [load_row, hf7]
    exact pay2_loaded _ _ _ _ _ _ _ _ hf1 hf2 hf3 hf4 _
  iexists _; isplitr
  swap; · iexact H8
  ipureintro
  rw [store_row]
  sl_unfold_run_names
  rw [load_row, hf8]
  exact pay3_loaded _ _ _ _ _ _ _ _ hf1 hf2 hf3 hf4 _

/-- The last block: as a middle block, and the two result buffers, at anything, end at the scratch rows' final contents. -/
theorem run_last (c : Dev nD) (i : grid0.Coords) (arg1 : Memref sig .tc .vmem S1000x32x4 .f32) (harg1 : arg1.IsWhole) (arg2 : Memref sig .tc .vmem S1000x4 .i32) (harg2 : arg2.IsWhole) (arg3 : Memref sig .tc .vmem S1000x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬condFirst i) (hc1 : condLast i) (x1 : Vec F S1000x32x4 .f32) (x2 : Vec F S1000x4 .i32) (x3 : Vec F S1000x1 .i32) (x4 : Vec F S10x64 .f32) (s q : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
        ∗ owns (c : Thread nD τ) arg7 fullShare s ∗ owns (c : Thread nD τ) arg8 fullShare q
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (stepS x1 x2 x3 x4 s) ∗ owns (c : Thread nD τ) arg6 fullShare (stepQ x1 x2 x3 x4 q)
            ∗ owns (c : Thread nD τ) arg7 fullShare (stepS x1 x2 x3 x4 s) ∗ owns (c : Thread nD τ) arg8 fullShare (stepQ x1 x2 x3 x4 q)) -∗ K ⟨⟩))
      ⊢ wp frame (wpE (defs₀ (F := F)) Variants.none c none) E (cc0_stats_kernel i arg1 harg1 arg2 harg2 arg3 harg3 arg4 harg4 arg5 harg5 arg6 harg6 arg7 harg7 arg8 harg8) K := by
  simp only [cc0_stats_kernel_eq_skeleton]; unfold cc0_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [store_row, reload_row, load_row, hf7]
    exact pay2_loaded _ _ _ _ _ _ _ _ hf1 hf2 hf3 hf4 _
  isplitl [H6]
  · iexists _; isplitr
    swap; · iexact H6
    ipureintro
    sl_unfold_run_names
    rw [store_row, reload_row, load_row, hf8]
    exact pay3_loaded _ _ _ _ _ _ _ _ hf1 hf2 hf3 hf4 _
  isplitl [H7]
  · iexists _; isplitr
    swap; · iexact H7
    ipureintro
    sl_unfold_run_names
    rw [store_row, load_row, hf7]
    exact pay2_loaded _ _ _ _ _ _ _ _ hf1 hf2 hf3 hf4 _
  iexists _; isplitr
  swap; · iexact H8
  ipureintro
  sl_unfold_run_names
  rw [store_row, load_row, hf8]
  exact pay3_loaded _ _ _ _ _ _ _ _ hf1 hf2 hf3 hf4 _

end Cert.Kernel.Stats

end
-- ==== Proof.KStatsFrame.lean ====
/-
  The statistics region's body obligation: at every block the pipeline calls the body on staging buffers that hold
  the block's inputs, and the body hands them back with the scratch rows advanced by one block.

  Before the first block the scratch rows hold anything; before block `n + 1` they hold the running totals after
  block `n`; the body at block `t` is the first, a middle or the last kind of run according to `t`; after the last
  block the named contents are forgotten again.
-/
import proofs.«159035_j63986422775810_1_alg».proof.Proof.KStatsBody

set_option maxRecDepth 16384

noncomputable section

namespace Cert.Kernel.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks -/

/-- Each input's current staging buffer holds its block at every block index, fetched there or not: an input not
    fetched at a point has not moved its block index since the point before, and the body leaves it in place. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-! ## Where the two results' windows are idle -/

/-- The inputs' windows are never idle. -/
theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
theorem live_3 (t : Fin cfg0.N) : cfg0.idle 3 (grid0.coords t) = false := rfl

/-- Away from the last block the two results' windows are idle (the body stores into them under the last-block
    condition only) and the pipeline does not write them back; -/
theorem idle_4 (t : Fin cfg0.N) (h : t.val ≠ 99) : cfg0.idle 4 (grid0.coords t) = true := by
  have hc : ¬ k0_cond2 (grid0.coords t) = 1#1 := fun hc => h ((hcondLast t).mp hc)
  show (!(k0_cond2 (grid0.coords t) == 1#1)) = true
  rw [Bool.not_eq_true', beq_eq_false_iff_ne]; exact hc
theorem idle_5 (t : Fin cfg0.N) (h : t.val ≠ 99) : cfg0.idle 5 (grid0.coords t) = true := by
  have hc : ¬ k0_cond2 (grid0.coords t) = 1#1 := fun hc => h ((hcondLast t).mp hc)
  show (!(k0_cond2 (grid0.coords t) == 1#1)) = true
  rw [Bool.not_eq_true', beq_eq_false_iff_ne]; exact hc
theorem noFlush_4 (t : Fin cfg0.N) (h : t.val ≠ 99) : (cfg0.win 4).flush t = false := by
  have hN : t.val < 100 := lt_of_lt_of_eq t.isLt (show cfg0.N = 100 from N_0)
  cases hf : (cfg0.win 4).flush t with
  | false => rfl
  | true => exact absurd ((flush0_4 t).mp hf) (by omega)
theorem noFlush_5 (t : Fin cfg0.N) (h : t.val ≠ 99) : (cfg0.win 5).flush t = false := by
  have hN : t.val < 100 := lt_of_lt_of_eq t.isLt (show cfg0.N = 100 from N_0)
  cases hf : (cfg0.win 5).flush t with
  | false => rfl
  | true => exact absurd ((flush0_5 t).mp hf) (by omega)
/-- at the last block they are live. -/
theorem live_4 (t : Fin cfg0.N) (h : t.val = 99) : cfg0.idle 4 (grid0.coords t) = false := by
  have hc : k0_cond2 (grid0.coords t) = 1#1 := (hcondLast t).mpr h
  show (!(k0_cond2 (grid0.coords t) == 1#1)) = false
  rw [hc]; rfl
theorem live_5 (t : Fin cfg0.N) (h : t.val = 99) : cfg0.idle 5 (grid0.coords t) = false := by
  have hc : k0_cond2 (grid0.coords t) = 1#1 := (hcondLast t).mpr h
  show (!(k0_cond2 (grid0.coords t) == 1#1)) = false
  rw [hc]; rfl

/-! ## The running totals, block by block -/

theorem accS_first (c : Dev nD) (t : Fin cfg0.N) (h : t.val = 0) :
    accS V c t.val t.isLt = stepS (fblk V c t) (cblk V c t) (nblk V c t) (wblk V c t) (k0_pay4 (F := F)) := by
  obtain ⟨n, hn⟩ := t
  cases n with
  | zero => exact accS_zero V c hn
  | succ n => exact absurd h (Nat.succ_ne_zero _)
theorem accQ_first (c : Dev nD) (t : Fin cfg0.N) (h : t.val = 0) :
    accQ V c t.val t.isLt = stepQ (fblk V c t) (cblk V c t) (nblk V c t) (wblk V c t) (k0_pay5 (F := F)) := by
  obtain ⟨n, hn⟩ := t
  cases n with
  | zero => exact accQ_zero V c hn
  | succ n => exact absurd h (Nat.succ_ne_zero _)
theorem accS_next (c : Dev nD) (t : Fin cfg0.N) (h : t.val ≠ 0) :
    accS V c t.val t.isLt = stepS (fblk V c t) (cblk V c t) (nblk V c t) (wblk V c t)
      (accS V c (t.val - 1) (Nat.lt_of_le_of_lt (Nat.sub_le _ _) t.isLt)) := by
  obtain ⟨n, hn⟩ := t
  cases n with
  | zero => exact absurd rfl h
  | succ n => exact accS_succ V c n hn
theorem accQ_next (c : Dev nD) (t : Fin cfg0.N) (h : t.val ≠ 0) :
    accQ V c t.val t.isLt = stepQ (fblk V c t) (cblk V c t) (nblk V c t) (wblk V c t)
      (accQ V c (t.val - 1) (Nat.lt_of_le_of_lt (Nat.sub_le _ _) t.isLt)) := by
  obtain ⟨n, hn⟩ := t
  cases n with
  | zero => exact absurd rfl h
  | succ n => exact accQ_succ V c n hn

/-! ## The class's invariant, opened at the two scratch rows -/

/-- What the launch hands the region, with the two scratch rows as memrefs owned at some contents and the core's
    other scoped buffers left unopened. -/
theorem PhiA_eq (c : Dev nD) :
    (Pipeline.ΦA spec0 c : sProp 𝕄)
      = iprop((((∃ d, owns (c : Thread nD τ) scS fullShare d) ∗ (∃ d, owns (c : Thread nD τ) scQ fullShare d)) ∗ restBut (F := F) c) ∗ (∃ r, prngReg c r)) := by
  unfold Pipeline.ΦA
  rw [Pipeline.scopedRest_split_of_list spec0 c [cc0_scratch0, cc0_scratch1] (by decide) (by decide)]
  simp only [bigSepL_cons_cons, bigSepL_singleton, scS, scQ, owns_whole]
  rfl

/-! ## The body obligation, at a generic block -/

/-- Each window's current staging memref at block `t`, spelled as the pipeline passes it to the body, and its
    wholeness. -/
abbrev ms_0 (t : Fin cfg0.N) : Memref sig .tc .vmem S1000x32x4 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1000x4 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1000x1 .i32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S10x64 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x64 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x64 .f32 := win0_5.stage (cfg0.slots t 5)
abbrev hs_5 (t : Fin cfg0.N) : (ms_5 t).IsWhole := hstage0_5 ((cfg0.slots t 5).cast nbuf0_5)

/-- What the body is called with at block `t` (the library's body obligation's precondition, the windows one by one), -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any block. The inputs' memrefs hold their blocks; the block index says which kind of run the block
    is. At the first block the invariant is the class's, opened at the two scratch rows, which the run takes at
    anything; at a later block it hands the run the scratch rows at the running totals after the block before. The
    run leaves them at this block's totals, which is the invariant after the block. Away from the last block the two
    results' buffers come back as they were found; at the last block they come back at the final totals. The core
    owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  rw [show (dat V c).leavesExact 3 t = owns (c : Thread nD τ) (ms_3 t) fullShare ((dat V c).after 3 t) from by
    unfold Dat.leavesExact; rw [live_3 t], after_3]
  have hN : t.val < 100 := lt_of_lt_of_eq t.isLt (show cfg0.N = 100 from N_0)
  by_cases h0 : t.val = 0
  · have h99 : t.val ≠ 99 := by omega
    rw [Dat.leavesExact_idle (dat V c) 4 t (idle_4 t h99) (noFlush_4 t h99)]
    rw [Dat.leavesExact_idle (dat V c) 5 t (idle_5 t h99) (noFlush_5 t h99)]
    rw [accS_first V c t h0, accQ_first V c t h0]
    rw [Phi_castSucc V c t, Phi_zero V c _ _ h0, PhiA_eq]
    iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩⟩
    iapply (run_first c (grid0.coords t) (ms_0 t) (hs_0 t) (ms_1 t) (hs_1 t) (ms_2 t) (hs_2 t) (ms_3 t) (hs_3 t)
      (ms_4 t) (hs_4 t) (ms_5 t) (hs_5 t) scS (Memref.isWhole_whole _) scQ (Memref.isWhole_whole _)
      ((hcondFirst t).mpr h0) (fun h => h99 ((hcondLast t).mp h))
      (fblk V c t) (cblk V c t) (nblk V c t) (wblk V c t) ((dat V c).before 4 t d4) ((dat V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HQ]; · iexact HQ
    iintro ⟨H0, H1, H2, H3, H4, H5, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexists d4; iexact H4
    iexists d5; iexact H5
  · by_cases h99 : t.val = 99
    · rw [show (dat V c).leavesExact 4 t = owns (c : Thread nD τ) (ms_4 t) fullShare ((dat V c).after 4 t) from by
        unfold Dat.leavesExact; rw [live_4 t h99], after_4]
      rw [show (dat V c).leavesExact 5 t = owns (c : Thread nD τ) (ms_5 t) fullShare ((dat V c).after 5 t) from by
        unfold Dat.leavesExact; rw [live_5 t h99], after_5]
      rw [accS_next V c t h0, accQ_next V c t h0]
      rw [Phi_castSucc V c t, Phi_pos V c _ _ h0]
      iintro ⟨⟨HS, HQ, HR, Hg⟩, Ho, ⟨%d0, H0⟩, ⟨%d1, H1⟩, ⟨%d2, H2⟩, ⟨%d3, H3⟩, ⟨%d4, H4⟩, ⟨%d5, H5⟩⟩
      iapply (run_last c (grid0.coords t) (ms_0 t) (hs_0 t) (ms_1 t) (hs_1 t) (ms_2 t) (hs_2 t) (ms_3 t) (hs_3 t)
        (ms_4 t) (hs_4 t) (ms_5 t) (hs_5 t) scS (Memref.isWhole_whole _) scQ (Memref.isWhole_whole _)
        (fun h => h0 ((hcondFirst t).mp h)) ((hcondLast t).mpr h99)
        (fblk V c t) (cblk V c t) (nblk V c t) (wblk V c t)
        (accS V c (t.val - 1) (Nat.lt_of_le_of_lt (Nat.sub_le _ _) t.isLt))
        (accQ V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists ((dat V c).before 4 t d4); iexact H4
      isplitl [H5]; · iexists ((dat V c).before 5 t d5); iexact H5
      isplitl [HS]; · iexact HS
      isplitl [HQ]; · iexact HQ
      iintro ⟨H0, H1, H2, H3, H4, H5, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat V c) 4 t (idle_4 t h99) (noFlush_4 t h99)]
      rw [Dat.leavesExact_idle (dat V c) 5 t (idle_5 t h99) (noFlush_5 t h99)]
      rw [accS_next V c t h0, accQ_next V c t h0]
      rw [Phi_castSucc V c t, Phi_pos V c _ _ h0]
      iintro ⟨⟨HS, HQ, HR, Hg⟩, Ho, ⟨%d0, H0⟩, ⟨%d1, H1⟩, ⟨%d2, H2⟩, ⟨%d3, H3⟩, ⟨%d4, H4⟩, ⟨%d5, H5⟩⟩
      iapply (run_mid c (grid0.coords t) (ms_0 t) (hs_0 t) (ms_1 t) (hs_1 t) (ms_2 t) (hs_2 t) (ms_3 t) (hs_3 t)
        (ms_4 t) (hs_4 t) (ms_5 t) (hs_5 t) scS (Memref.isWhole_whole _) scQ (Memref.isWhole_whole _)
        (fun h => h0 ((hcondFirst t).mp h)) (fun h => h99 ((hcondLast t).mp h))
        (fblk V c t) (cblk V c t) (nblk V c t) (wblk V c t) ((dat V c).before 4 t d4) ((dat V c).before 5 t d5)
        (accS V c (t.val - 1) (Nat.lt_of_le_of_lt (Nat.sub_le _ _) t.isLt))
        (accQ V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HQ]; · iexact HQ
      iintro ⟨H0, H1, H2, H3, H4, H5, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexists d4; iexact H4
      iexists d5; iexact H5

/-- The library's body obligation, at every block. -/
theorem body_obligation (c : Dev nD) : BodyObligation (dat (F := F) V c) (defs₀ (F := F)) Variants.none () Set.univ := fun t => by
  rw [bigSep_W0, bigSep_W0]
  exact sound_body V c t

/-- What the launch hands the region is the invariant before the first block. -/
theorem hin (c : Dev nD) : Pipeline.ΦA spec0 c ⊢ (dat V c).Φ 0 := by
  rw [show (dat V c).Φ 0 = Phi V c 0 (Nat.zero_le _) from rfl, Phi_zero V c 0 _ rfl]

/-- After the last block the invariant gives the class's back: the scratch rows' named contents are forgotten. -/
theorem hout (c : Dev nD) : (dat V c).Φ (Fin.last cfg0.N) ⊢ Pipeline.ΦA spec0 c := by
  have hne : (Fin.last cfg0.N).val ≠ 0 := by
    rw [Fin.val_last]; have : cfg0.N = 100 := N_0; omega
  rw [show (dat V c).Φ (Fin.last cfg0.N) = Phi V c (Fin.last cfg0.N).val (Nat.le_of_lt_succ (Fin.last cfg0.N).isLt) from rfl,
    Phi_pos V c _ _ hne, PhiA_eq]
  iintro ⟨HS, HQ, HR, Hg⟩
  isplitl [HS HQ HR]
  · isplitl [HS HQ]
    · isplitl [HS]
      · iexists _; iexact HS
      iexists _; iexact HQ
    iexact HR
  iexact Hg

end Cert.Kernel.Stats

end
-- ==== Proof.KPfnFrame.lean ====
/-
  The normalisation region's body and its body obligation: on staging buffers holding a block's eight inputs the body
  leaves them as it found them and stores into the result's buffer the block computed from them.
-/
import proofs.«159035_j63986422775810_1_alg».proof.Proof.KPfnDefs
import Idealize.ShloMosaic.Lib.Pipeline.Value

set_option maxRecDepth 16384

noncomputable section

namespace Cert.Kernel.Pfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks

An input window's current staging buffer holds the window's block at every block index, whether the block was brought
in there or not: where it was not, the block index has not moved since the buffer was last filled, and the body leaves
the buffer as it found it. -/

theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-! ## The body's triple -/

/-- The zero offsets of a rank-2 and of a rank-3 rectangle, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The one store into the result's buffer is through the whole of its shape, so it covers it. -/
theorem cover_out (p : Vec F S1000x64 .f32) (y : S1000x64.Idx) :
    ∃ pc ∈ ([⟨Rect.unit (s := S1000x64) ![0, 0] S1000x64.size inb_S1000x64_S1000x64_0_0, p⟩] : List (View.Piece (Elt F) S1000x64 .f32)), y ∈ pc.1.set :=
  View.cover_of_tiled [⟨Rect.unit (s := S1000x64) ![0, 0] S1000x64.size inb_S1000x64_S1000x64_0_0, p⟩] S1000x64.size (by rfl) y

set_option maxHeartbeats 1000000 in
/-- The body on whole staging buffers, the eight inputs' at read contents `x1 … xvar` and the result's at anything,
    runs to the continuation holding the inputs' as they were and the result's at `outBlock` of the inputs': every
    load reads a whole buffer, the one store writes the whole of the result's buffer. -/
theorem sound_kernel (c : Dev nD) (E : Set ℕ) (i : grid1.Coords)
    (arg1 : Memref sig .tc .vmem S1000x32x4 .f32) (harg1 : arg1.IsWhole)
    (arg2 : Memref sig .tc .vmem S1000x4 .i32) (harg2 : arg2.IsWhole)
    (arg3 : Memref sig .tc .vmem S1000x1 .i32) (harg3 : arg3.IsWhole)
    (arg4 : Memref sig .tc .vmem S10x64 .f32) (harg4 : arg4.IsWhole)
    (arg5 : Memref sig .tc .vmem S1x64 .f32) (harg5 : arg5.IsWhole)
    (arg6 : Memref sig .tc .vmem S1x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1000x64 .f32) (harg9 : arg9.IsWhole)
    (x1 : Vec F S1000x32x4 .f32) (x2 : Vec F S1000x4 .i32) (x3 : Vec F S1000x1 .i32) (x4 : Vec F S10x64 .f32)
    (xg xb xmu xvar : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xg ∗ owns (c : Thread nD τ) arg6 fullShare xb ∗ owns (c : Thread nD τ) arg7 fullShare xmu ∗ owns (c : Thread nD τ) arg8 fullShare xvar ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xg ∗ owns (c : Thread nD τ) arg6 fullShare xb ∗ owns (c : Thread nD τ) arg7 fullShare xmu ∗ owns (c : Thread nD τ) arg8 fullShare xvar ∗ owns (c : Thread nD τ) arg9 fullShare (outBlock x1 x2 x3 x4 xg xb xmu xvar)) -∗ K ⟨⟩))
      ⊢ wp frame (wpE (defs₀ (F := F)) Variants.none c none) E (cc1_pfn_kernel i arg1 harg1 arg2 harg2 arg3 harg3 arg4 harg4 arg5 harg5 arg6 harg6 arg7 harg7 arg8 harg8 arg9 harg9) K := by
  simp only [cc1_pfn_kernel_eq_skeleton]; unfold cc1_pfn_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  iexists _; isplitr
  swap; · iexact H9
  ipureintro
  refine (View.read_writes_eq_canon _ _ _ (cover_out _)).trans ?_
  refine (View.canon_unit_zero (S := S1000x64) hz2 inb_S1000x64_S1000x64_0_0 _).trans ?_
  unfold outBlock
  simp only [View.readAt_eq_ld]
  rw [View.ld_unit_zero (S := S1000x32x4) hz3 inb_S1000x32x4_S1000x32x4_0_0_0,
    View.ld_unit_zero (S := S1000x4) hz2 inb_S1000x4_S1000x4_0_0,
    View.ld_unit_zero (S := S1000x1) hz2 inb_S1000x1_S1000x1_0_0,
    View.ld_unit_zero (S := S10x64) hz2 inb_S10x64_S10x64_0_0,
    View.ld_unit_zero (S := S1x64) hz2 inb_S1x64_S1x64_0_0 (View.read (Elt F) arg5.view f5),
    View.ld_unit_zero (S := S1x64) hz2 inb_S1x64_S1x64_0_0 (View.read (Elt F) arg6.view f6),
    View.ld_unit_zero (S := S1x64) hz2 inb_S1x64_S1x64_0_0 (View.read (Elt F) arg7.view f7),
    View.ld_unit_zero (S := S1x64) hz2 inb_S1x64_S1x64_0_0 (View.read (Elt F) arg8.view f8)]

/-! ## The body obligation, at a generic block -/

/-- What the body is called with at block `t`: the invariant, what the core owes, and each window's current staging
    buffer at what it then holds; -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns: the same invariant and debt, each staging buffer at what the body leaves there. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

/-- The body at any block: the inputs' buffers hold their blocks, so the body's triple applies; the invariant and what
    the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the region's proof data, at every block. -/
theorem body_obligation (c : Dev nD) : BodyObligation (dat (F := F) V c) (defs₀ (F := F)) Variants.none () Set.univ := fun t => by
  rw [bigSep_W1, bigSep_W1]
  exact sound_body V c t

end Cert.Kernel.Pfn

end
-- ==== Proof.KLaunch.lean ====
/-
  The whole program's run, from its two kernel regions.

  @main is: three reshapes; the statistics region; eight host lines (the mean and the variance); the normalisation
  region. Each region is entered from the core's unscoped buffers at the contents the item before it left and left
  at the next contents, its own scratch and staging buffers forgotten at its exit; no argument array is written by
  anything, and the result array ends at what the normalisation region's hundred blocks wrote.
-/
import proofs.«159035_j63986422775810_1_alg».proof.Proof.KLaunchDefs
import proofs.«159035_j63986422775810_1_alg».proof.Proof.KStatsFrame
import proofs.«159035_j63986422775810_1_alg».proof.Proof.KPfnFrame
import Idealize.ShloMosaic.Lib.Pipeline.RegionsLoop

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, read at the buffers they may change -/

/-- The statistics region's two result rows and the normalisation region's result array, as the items' valuations
    read them. -/
theorem outs_v3_0 (c : Dev nD) : outs m 2 main_v3_0 c = (Stats.dat (E1 m) c).arrAt 4 cfg0.N := by
  unfold outs; rw [if_neg (by decide)]; unfold W2
  rw [Function.update_of_ne (StableHlo.devRef_ne_of_ne (by decide) : (Proc.devRef .tc main_v3_0 : DevRef τ sig) ≠ Proc.devRef .tc main_v3_1), Function.update_self]
theorem outs_v3_1 (c : Dev nD) : outs m 2 main_v3_1 c = (Stats.dat (E1 m) c).arrAt 5 cfg0.N := by
  unfold outs; rw [if_neg (by decide)]; unfold W2
  rw [Function.update_self]
theorem outs_v10 (c : Dev nD) : outs m 4 main_v10 c = (Pfn.dat (E3 m) c).arrAt 8 cfg1.N := by
  unfold outs; rw [if_pos rfl]; unfold W4
  rw [Function.update_self]
theorem outsA_v3_0 (c : Dev nD) : outsA m 2 main_v3_0 c = (Stats.dat (E1 m) c).arrAt 4 cfg0.N := by
  unfold outsA W2
  rw [Function.update_of_ne (StableHlo.devRef_ne_of_ne (by decide) : (Proc.devRef .tc main_v3_0 : DevRef τ sig) ≠ Proc.devRef .tc main_v3_1), Function.update_self]
theorem outsA_v3_1 (c : Dev nD) : outsA m 2 main_v3_1 c = (Stats.dat (E1 m) c).arrAt 5 cfg0.N := by
  unfold outsA W2
  rw [Function.update_self]

/-- The buffers after the statistics region, as the generated valuations spell them, are `W2`, -/
theorem V2_eq (c : Dev nD) : Gen.V2 m (outs m) c = W2 m c := by
  unfold W2; rw [show Gen.V2 m (outs m) c = Function.update (Function.update (Gen.V1 m c) main_v3_0 (outs m 2 main_v3_0 c)) main_v3_1 (outs m 2 main_v3_1 c) from rfl,
    outs_v3_0, outs_v3_1]
theorem V2A_eq (c : Dev nD) : Gen.V2 m (outsA m) c = W2 m c := by
  unfold W2; rw [show Gen.V2 m (outsA m) c = Function.update (Function.update (Gen.V1 m c) main_v3_0 (outsA m 2 main_v3_0 c)) main_v3_1 (outsA m 2 main_v3_1 c) from rfl,
    outsA_v3_0, outsA_v3_1]
/-- so after the eight host lines the buffers are the normalisation region's entry contents, -/
theorem V3_eq (c : Dev nD) : Gen.V3 m (outs m) c = Gen.V3 m (outsA m) c := by
  rw [show Gen.V3 m (outs m) c = StableHlo.after hostOps1 (Gen.V2 m (outs m) c) from rfl,
    show Gen.V3 m (outsA m) c = StableHlo.after hostOps1 (Gen.V2 m (outsA m) c) from rfl, V2_eq, V2A_eq]
/-- and at the end they are `W4`. -/
theorem V4_eq (c : Dev nD) : Gen.V4 m (outs m) c = W4 m c := by
  unfold W4; rw [show Gen.V4 m (outs m) c = Function.update (Gen.V3 m (outs m) c) main_v10 (outs m 4 main_v10 c) from rfl,
    outs_v10, V3_eq]

/-! ## Each region's arrays at its exit -/

/-- At the statistics region's exit each of its arrays holds what the pipeline leaves in it: an input's array its
    entry contents (never written back), the two results' arrays the rows the valuation after the region names; -/
theorem hF0 (c : Dev nD) : ∀ w : Fin cfg0.W, (Stats.dat (E1 m) c).arrAt w cfg0.N = Gen.V2 m (outs m) c (Pipeline.arrRef spec0 w)
  | ⟨0, _⟩ => ((Stats.dat (E1 m) c).arrAt_in 0 rfl _).trans ((Stats.A_eq (E1 m) c 0).trans (Gen.V2_of m (outs m) c main_arg0 (by decide)).symm)
  | ⟨1, _⟩ => ((Stats.dat (E1 m) c).arrAt_in 1 rfl _).trans ((Stats.A_eq (E1 m) c 1).trans (Gen.V2_of m (outs m) c main_arg5 (by decide)).symm)
  | ⟨2, _⟩ => ((Stats.dat (E1 m) c).arrAt_in 2 rfl _).trans ((Stats.A_eq (E1 m) c 2).trans (Gen.V2_of m (outs m) c main_v0 (by decide)).symm)
  | ⟨3, _⟩ => ((Stats.dat (E1 m) c).arrAt_in 3 rfl _).trans ((Stats.A_eq (E1 m) c 3).trans (Gen.V2_of m (outs m) c main_arg1 (by decide)).symm)
  | ⟨4, _⟩ => by
    show (Stats.dat (E1 m) c).arrAt 4 cfg0.N = Function.update (Function.update (Gen.V1 m c) main_v3_0 (outs m 2 main_v3_0 c)) main_v3_1 (outs m 2 main_v3_1 c) main_v3_0
    rw [Function.update_of_ne (StableHlo.devRef_ne_of_ne (by decide) : (Proc.devRef .tc main_v3_0 : DevRef τ sig) ≠ Proc.devRef .tc main_v3_1), Function.update_self, outs_v3_0]
  | ⟨5, _⟩ => by
    show (Stats.dat (E1 m) c).arrAt 5 cfg0.N = Function.update (Function.update (Gen.V1 m c) main_v3_0 (outs m 2 main_v3_0 c)) main_v3_1 (outs m 2 main_v3_1 c) main_v3_1
    rw [Function.update_self, outs_v3_1]
/-- every other buffer holds what it held at entry. -/
theorem hrest0 (c : Dev nD) : ∀ b, b ∉ Finset.univ.image (Pipeline.arrRef spec0) → Gen.V2 m (outs m) c b = E1 m c b :=
  fun b hb => Gen.V2_of m (outs m) c b (by
    intro hmem
    simp only [List.mem_cons, List.mem_nil_iff, or_false] at hmem
    rcases hmem with rfl | rfl
    · exact hb (Finset.mem_image.mpr ⟨4, Finset.mem_univ _, rfl⟩)
    · exact hb (Finset.mem_image.mpr ⟨5, Finset.mem_univ _, rfl⟩))

/-- The same at the normalisation region's exit: the eight inputs' arrays at their entry contents, the result array
    at what the valuation at the end names; -/
theorem hF1 (c : Dev nD) : ∀ w : Fin cfg1.W, (Pfn.dat (E3 m) c).arrAt w cfg1.N = Gen.V4 m (outs m) c (Pipeline.arrRef spec1 w)
  | ⟨0, _⟩ => ((Pfn.dat (E3 m) c).arrAt_in 0 rfl _).trans ((Pfn.A_eq (E3 m) c 0).trans ((Gen.V4_of m (outs m) c main_arg0 (by decide)).trans (congrFun (V3_eq m c) _)).symm)
  | ⟨1, _⟩ => ((Pfn.dat (E3 m) c).arrAt_in 1 rfl _).trans ((Pfn.A_eq (E3 m) c 1).trans ((Gen.V4_of m (outs m) c main_arg5 (by decide)).trans (congrFun (V3_eq m c) _)).symm)
  | ⟨2, _⟩ => ((Pfn.dat (E3 m) c).arrAt_in 2 rfl _).trans ((Pfn.A_eq (E3 m) c 2).trans ((Gen.V4_of m (outs m) c main_v0 (by decide)).trans (congrFun (V3_eq m c) _)).symm)
  | ⟨3, _⟩ => ((Pfn.dat (E3 m) c).arrAt_in 3 rfl _).trans ((Pfn.A_eq (E3 m) c 3).trans ((Gen.V4_of m (outs m) c main_arg1 (by decide)).trans (congrFun (V3_eq m c) _)).symm)
  | ⟨4, _⟩ => ((Pfn.dat (E3 m) c).arrAt_in 4 rfl _).trans ((Pfn.A_eq (E3 m) c 4).trans ((Gen.V4_of m (outs m) c (Pipeline.arrRef spec1 4) (by decide)).trans (congrFun (V3_eq m c) _)).symm)
  | ⟨5, _⟩ => ((Pfn.dat (E3 m) c).arrAt_in 5 rfl _).trans ((Pfn.A_eq (E3 m) c 5).trans ((Gen.V4_of m (outs m) c (Pipeline.arrRef spec1 5) (by decide)).trans (congrFun (V3_eq m c) _)).symm)
  | ⟨6, _⟩ => ((Pfn.dat (E3 m) c).arrAt_in 6 rfl _).trans ((Pfn.A_eq (E3 m) c 6).trans ((Gen.V4_of m (outs m) c (Pipeline.arrRef spec1 6) (by decide)).trans (congrFun (V3_eq m c) _)).symm)
  | ⟨7, _⟩ => ((Pfn.dat (E3 m) c).arrAt_in 7 rfl _).trans ((Pfn.A_eq (E3 m) c 7).trans ((Gen.V4_of m (outs m) c (Pipeline.arrRef spec1 7) (by decide)).trans (congrFun (V3_eq m c) _)).symm)
  | ⟨8, _⟩ => by
    show (Pfn.dat (E3 m) c).arrAt 8 cfg1.N = Function.update (Gen.V3 m (outs m) c) main_v10 (outs m 4 main_v10 c) main_v10
    rw [Function.update_self, outs_v10]
/-- every other buffer holds what it held at entry. -/
theorem hrest1 (c : Dev nD) : ∀ b, b ∉ Finset.univ.image (Pipeline.arrRef spec1) → Gen.V4 m (outs m) c b = E3 m c b :=
  fun b hb => (Gen.V4_of m (outs m) c b (by
    intro hmem
    simp only [List.mem_cons, List.mem_nil_iff, or_false] at hmem
    rcases hmem with rfl
    exact hb (Finset.mem_image.mpr ⟨8, Finset.mem_univ _, rfl⟩))).trans (congrFun (V3_eq m c) _)

/-! ## The thread state beside the buffers, and the regions as segments -/

/-- No core owes another anything: no level is assigned. -/
abbrev L : GSem nD τ sig → Finset Unit := fun _ => ∅
abbrev lv : GSem nD τ sig → Unit → ℕ := fun _ _ => 0

/-- What rides beside the buffers through every item: the core's generator register at some state (each region's
    invariant takes it in and gives it back) and what the core owes, which is nothing. -/
abbrev R (c : Dev nD) : sProp 𝕄 := iprop((∃ r, prngReg c r) ∗ ∃ W, owes (c : Thread nD τ) (0 : CellTallies nD τ sig Unit) W)

/-- The same between any two items. -/
abbrev E : Fin 3 → Dev nD → sProp 𝕄 := fun _ c => R c

set_option backward.isDefEq.respectTransparency.types false in
/-- THE STATISTICS REGION over the thread state: entered from every unscoped buffer at the contents after the three
    reshapes, left at those with the two result rows at the final running totals. Its arrays are split out of the
    unscoped buffers at entry and put back at the exit contents; the generator register goes into the class's
    invariant, which is the region's invariant before the first block, and comes back out of the invariant after
    the last; nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Stats.body_obligation (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Stats.hin (E1 m) c)
    unfold Pipeline.ΦA
    iintro ⟨Hp, -, Hr⟩
    isplitl [Hr]; · iexact Hr
    iexact Hp
  hout c := by
    refine (Stats.hout (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE NORMALISATION REGION over the thread state: entered from every unscoped buffer at the contents after the eight
    host lines, left at those with the result array at what the region's blocks wrote. Its invariant is the class's
    at every block. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Pfn.body_obligation (E3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_eq]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element yields the pipeline library's at every pipeline's staging cells; no ghost resource beside it. -/
theorem hu₀ : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- From what the launch deals each core the thread state beside the buffers: the generator register at its launch
    state, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- At the end the thread state beside the buffers owes nothing. -/
theorem hE2 (c : Dev nD) : E (F := F) 2 c ⊢ (iprop(∃ W, owes (c : Thread nD τ) (0 : CellTallies nD τ sig Unit) W) : sProp 𝕄) := by
  iintro ⟨-, H⟩; iexact H

set_option backward.isDefEq.respectTransparency.types false in
/-- THE FRAME: from any memory with zero counters every weakly fair execution of @main terminates, and every final
    memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m (Ix := Unit) (U := UR sig nD τ) (Lvl := ℕ) emb₁ () Variants.none L lv (fun _ _ => rfl) ρ (outs m) (pdats m)
    0 (fun _ => iprop(emp)) (initOf (Pipeline.cells cfgs cellOf_inj) (Pipeline.launchToks cfgs cellOf_inj)) hu₀
    E (hE0 ρ) hE2 (reg0 m) (fun _ => .rfl) (fun _ => .rfl) (reg1 m) (fun _ => .rfl) (fun _ => .rfl)

end Cert.Kernel.Run

end
-- ==== Proof.StatsDefs.lean ====
/-
  The statistics pass (the first kernel region): what the proof says about it, as definitions.

  The region walks the 100 blocks of 1000 pillars. At block `t` the body projects the block's
  32000 point rows to 64 channels and adds, per channel, the sum of the projected values to one
  scratch row and the sum of their squares to another; the first block starts both rows from zero,
  and the last block copies the two rows to the region's two results. So after block `t` the first
  scratch row holds the sum over blocks `0 … t` of the per-block channel sums (`accS`), the second the
  same for the squares (`accQ`), each as a left-nested sum in block order.
-/
import proofs.«159035_j63986422775810_1_alg».proof.Proof.Gen.KernelIdeal.Launch
import proofs.«159035_j63986422775810_1_alg».proof.Proof.Gen.KernelIdeal.Skeleton
import proofs.«159035_j63986422775810_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at block index `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks at block index `t`, at their literal types: the 1000 pillars' points, their
    grid coordinates, their point counts, and the projection matrix. -/
abbrev fblk (c : Dev nD) (t : Fin cfg0.N) : Vec F S1000x32x4 .f32 := iblk V c 0 t
abbrev cblk (c : Dev nD) (t : Fin cfg0.N) : Vec F S1000x4 .i32 := iblk V c 1 t
abbrev nblk (c : Dev nD) (t : Fin cfg0.N) : Vec F S1000x1 .i32 := iblk V c 2 t
abbrev wblk (c : Dev nD) (t : Fin cfg0.N) : Vec F S10x64 .f32 := iblk V c 3 t

/-- One block's update of the row of channel sums: the row it found plus the block's channel sums. -/
def stepS (x1 : Vec F S1000x32x4 .f32) (x2 : Vec F S1000x4 .i32) (x3 : Vec F S1000x1 .i32) (x4 : Vec F S10x64 .f32)
    (s : Vec F S1x64 .f32) : Vec F S1x64 .f32 :=
  k0_pay2 x1 (k0_pay7 x1) (k0_pay8 x3) (k0_pay9 x1 x3) (k0_pay10 x2) (k0_pay11 x2) (k0_pay12 x2) (Scalar.ofBits .f32 0x40800000#32) x4 s

/-- One block's update of the row of channel sums of squares. -/
def stepQ (x1 : Vec F S1000x32x4 .f32) (x2 : Vec F S1000x4 .i32) (x3 : Vec F S1000x1 .i32) (x4 : Vec F S10x64 .f32)
    (q : Vec F S1x64 .f32) : Vec F S1x64 .f32 :=
  k0_pay3 x1 (k0_pay7 x1) (k0_pay8 x3) (k0_pay9 x1 x3) (k0_pay10 x2) (k0_pay11 x2) (k0_pay12 x2) (Scalar.ofBits .f32 0x40800000#32) x4 q

/-- The row of channel sums after block `n`: from the zero row at the first block, then block by block. -/
def accS (c : Dev nD) : (n : ℕ) → n < cfg0.N → Vec F S1x64 .f32
  | 0, h => stepS (fblk V c ⟨0, h⟩) (cblk V c ⟨0, h⟩) (nblk V c ⟨0, h⟩) (wblk V c ⟨0, h⟩) (k0_pay4 (F := F))
  | n + 1, h => stepS (fblk V c ⟨n + 1, h⟩) (cblk V c ⟨n + 1, h⟩) (nblk V c ⟨n + 1, h⟩) (wblk V c ⟨n + 1, h⟩) (accS c n (Nat.lt_of_succ_lt h))

/-- The row of channel sums of squares after block `n`. -/
def accQ (c : Dev nD) : (n : ℕ) → n < cfg0.N → Vec F S1x64 .f32
  | 0, h => stepQ (fblk V c ⟨0, h⟩) (cblk V c ⟨0, h⟩) (nblk V c ⟨0, h⟩) (wblk V c ⟨0, h⟩) (k0_pay5 (F := F))
  | n + 1, h => stepQ (fblk V c ⟨n + 1, h⟩) (cblk V c ⟨n + 1, h⟩) (nblk V c ⟨n + 1, h⟩) (wblk V c ⟨n + 1, h⟩) (accQ c n (Nat.lt_of_succ_lt h))

theorem accS_zero (c : Dev nD) (h : 0 < cfg0.N) :
    accS V c 0 h = stepS (fblk V c ⟨0, h⟩) (cblk V c ⟨0, h⟩) (nblk V c ⟨0, h⟩) (wblk V c ⟨0, h⟩) (k0_pay4 (F := F)) := rfl
theorem accS_succ (c : Dev nD) (n : ℕ) (h : n + 1 < cfg0.N) :
    accS V c (n + 1) h = stepS (fblk V c ⟨n + 1, h⟩) (cblk V c ⟨n + 1, h⟩) (nblk V c ⟨n + 1, h⟩) (wblk V c ⟨n + 1, h⟩) (accS V c n (Nat.lt_of_succ_lt h)) := rfl
theorem accQ_zero (c : Dev nD) (h : 0 < cfg0.N) :
    accQ V c 0 h = stepQ (fblk V c ⟨0, h⟩) (cblk V c ⟨0, h⟩) (nblk V c ⟨0, h⟩) (wblk V c ⟨0, h⟩) (k0_pay5 (F := F)) := rfl
theorem accQ_succ (c : Dev nD) (n : ℕ) (h : n + 1 < cfg0.N) :
    accQ V c (n + 1) h = stepQ (fblk V c ⟨n + 1, h⟩) (cblk V c ⟨n + 1, h⟩) (nblk V c ⟨n + 1, h⟩) (wblk V c ⟨n + 1, h⟩) (accQ V c n (Nat.lt_of_succ_lt h)) := rfl

/-- The two scratch rows, as memrefs. -/
abbrev scS : Memref sig .tc .vmem S1x64 .f32 := Memref.whole cc0_scratch0
abbrev scQ : Memref sig .tc .vmem S1x64 .f32 := Memref.whole cc0_scratch1

/-- The core's other scoped buffers (no staging buffer of this region, neither scratch row), at some contents. -/
abbrev restBut (c : Dev nD) : sProp 𝕄 :=
  Pipeline.scopedRestBut (Ix := Unit) (Name := ℕ) (U := UR sig nD τ) (Lvl := ℕ) (Val := Elt F) spec0 c [cc0_scratch0, cc0_scratch1]

/-- What the region keeps between blocks: before the first block nothing is known of the scratch rows; before
    block `n + 1` they hold the two running totals after block `n`. -/
def Phi (c : Dev nD) : (n : ℕ) → n ≤ cfg0.N → sProp 𝕄
  | 0, _ => Pipeline.ΦA spec0 c
  | n + 1, hn => iprop(owns (c : Thread nD τ) scS fullShare (accS V c n hn) ∗ owns (c : Thread nD τ) scQ fullShare (accQ V c n hn)
      ∗ restBut (F := F) c ∗ (∃ r, prngReg c r))

theorem Phi_zero (c : Dev nD) (n : ℕ) (h : n ≤ cfg0.N) (hz : n = 0) : Phi V c n h = Pipeline.ΦA spec0 c := by
  subst hz; rfl
theorem Phi_succ (c : Dev nD) (n : ℕ) (hn : n < cfg0.N) :
    Phi V c (n + 1) hn = iprop(owns (c : Thread nD τ) scS fullShare (accS V c n hn) ∗ owns (c : Thread nD τ) scQ fullShare (accQ V c n hn)
      ∗ restBut (F := F) c ∗ (∃ r, prngReg c r)) := rfl
theorem Phi_pos (c : Dev nD) (n : ℕ) (h : n ≤ cfg0.N) (hz : n ≠ 0) :
    Phi V c n h = iprop(owns (c : Thread nD τ) scS fullShare (accS V c (n - 1) (by omega)) ∗ owns (c : Thread nD τ) scQ fullShare (accQ V c (n - 1) (by omega))
      ∗ restBut (F := F) c ∗ (∃ r, prngReg c r)) := by
  cases n with
  | zero => exact absurd rfl hz
  | succ n => rfl

/-- The region's proof data: the arrays as the region finds them; after block `t` each input's staging buffer
    holds its block and the two results' buffers the running totals (consulted only where the pipeline writes
    them back, at the last block); between blocks the scratch rows at the running totals; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => accS V c t.val t.isLt
    | ⟨5, _⟩ => accQ V c t.val t.isLt
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = accS V c t.val t.isLt := by dsimp only [dat]
theorem after_5 (c : Dev nD) (t : Fin cfg0.N) : (dat V c).after 5 t = accQ V c t.val t.isLt := by dsimp only [dat]
theorem Phi_castSucc (c : Dev nD) (t : Fin cfg0.N) :
    (dat V c).Φ t.castSucc = Phi V c t.val (Nat.le_of_lt t.isLt) := by
  dsimp only [dat]; simp only [Fin.coe_castSucc]

end Cert.KernelIdeal.Stats

end
-- ==== Proof.PfnDefs.lean ====
/-
  The normalisation pass (the second kernel region): what the proof says about it, as definitions.

  The region walks the same 100 blocks of 1000 pillars. At block `t` the body projects the block's point
  rows to 64 channels as the first pass did, subtracts the channel mean, scales by the reciprocal square
  root of the channel variance plus a small constant, applies the affine pair, clamps below at zero, and
  takes per pillar and channel the largest value over the pillar's 32 points: one 1000 × 64 block of the result.
  Nothing is kept between blocks.
-/
import proofs.«159035_j63986422775810_1_alg».proof.Proof.Gen.KernelIdeal.Launch
import proofs.«159035_j63986422775810_1_alg».proof.Proof.Gen.KernelIdeal.Skeleton
import proofs.«159035_j63986422775810_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Pfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at block index `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The eight input blocks at block index `t`, at their literal types: the pillars' points, coordinates and point
    counts, the projection matrix, the affine pair, the channel means and the channel variances. -/
abbrev fblk (c : Dev nD) (t : Fin cfg1.N) : Vec F S1000x32x4 .f32 := iblk V c 0 t
abbrev cblk (c : Dev nD) (t : Fin cfg1.N) : Vec F S1000x4 .i32 := iblk V c 1 t
abbrev nblk (c : Dev nD) (t : Fin cfg1.N) : Vec F S1000x1 .i32 := iblk V c 2 t
abbrev wblk (c : Dev nD) (t : Fin cfg1.N) : Vec F S10x64 .f32 := iblk V c 3 t
abbrev gblk (c : Dev nD) (t : Fin cfg1.N) : Vec F S1x64 .f32 := iblk V c 4 t
abbrev bblk (c : Dev nD) (t : Fin cfg1.N) : Vec F S1x64 .f32 := iblk V c 5 t
abbrev mublk (c : Dev nD) (t : Fin cfg1.N) : Vec F S1x64 .f32 := iblk V c 6 t
abbrev varblk (c : Dev nD) (t : Fin cfg1.N) : Vec F S1x64 .f32 := iblk V c 7 t

/-- The result block the body computes from the eight input blocks. -/
def outBlock (x1 : Vec F S1000x32x4 .f32) (x2 : Vec F S1000x4 .i32) (x3 : Vec F S1000x1 .i32) (x4 : Vec F S10x64 .f32)
    (xg xb xmu xvar : Vec F S1x64 .f32) : Vec F S1000x64 .f32 :=
  k1_pay1 x1 (k1_pay4 x3) (k1_pay5 x1 x3) (k1_pay6 x1 x2) x4 xmu xvar xg xb

/-- The result block at block index `t`. -/
def out (c : Dev nD) (t : Fin cfg1.N) : Vec F S1000x64 .f32 :=
  outBlock (fblk V c t) (cblk V c t) (nblk V c t) (wblk V c t) (gblk V c t) (bblk V c t) (mublk V c t) (varblk V c t)

/-- The region's proof data: the arrays as the region finds them; after block `t` each input's staging buffer holds
    its block and the result's buffer the block computed from them; nothing carried, nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out V c t
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = out V c t := by dsimp only [dat]

end Cert.KernelIdeal.Pfn

end
-- ==== Proof.LaunchDefs.lean ====
/-
  The buffers' contents between the items of @main, and both regions' proof data at them.

  @main is: three reshapes; the statistics region; eight host lines (the mean and the variance); the normalisation
  region. Between items the core's unscoped buffers hold: at launch the memory; after the reshapes their results
  beside it; after the statistics region the same with its two result rows at the running totals after the last
  block; after the eight host lines their results; after the normalisation region the same with the result array
  at what its hundred blocks wrote. Each region is entered from the buffers at those contents and left at the next,
  its own scratch and staging buffers forgotten at its exit; no argument array is written by anything.
-/
import proofs.«159035_j63986422775810_1_alg».proof.Proof.StatsDefs
import proofs.«159035_j63986422775810_1_alg».proof.Proof.PfnDefs
import proofs.«159035_j63986422775810_1_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The statistics region's entry contents: the launch memory after the three reshapes. -/
abbrev E1 (c : Dev nD) (b : Ref sig .tc) : Buf (Elt F) ((c : Thread nD τ).loc b) := Gen.V1 m c b

/-- The buffers after the statistics region: its two result rows at the running totals after the last block. -/
def W2 (c : Dev nD) : Valuation τ sig (Elt F) :=
  Function.update (Function.update (Gen.V1 m c) main_v3_0 ((Stats.dat (E1 m) c).arrAt 4 cfg0.N)) main_v3_1 ((Stats.dat (E1 m) c).arrAt 5 cfg0.N)

/-- What the regions leave, as far as the normalisation region's entry needs it. -/
def outsA : Gen.Outs (F := F) := fun _ r c => W2 m c r

/-- The normalisation region's entry contents: after the eight host lines. -/
abbrev E3 (c : Dev nD) (b : Ref sig .tc) : Buf (Elt F) ((c : Thread nD τ).loc b) := Gen.V3 m (outsA m) c b

/-- The buffers at the end: the result array at what the normalisation region's blocks wrote. -/
def W4 (c : Dev nD) : Valuation τ sig (Elt F) :=
  Function.update (Gen.V3 m (outsA m) c) main_v10 ((Pfn.dat (E3 m) c).arrAt 8 cfg1.N)

/-- What the regions leave. -/
def outs : Gen.Outs (F := F) := fun J r c => if J = 4 then W4 m c r else W2 m c r

/-- Both regions' proof data, each at its region's entry contents. -/
def pdats : (p : Fin 2) → (c : Dev nD) → Dat τ (Elt F) Unit ℕ (UR sig nD τ) ℕ (cfgs p) c
  | ⟨0, _⟩ => fun c => Stats.dat (E1 m) c
  | ⟨1, _⟩ => fun c => Pfn.dat (E3 m) c

end Cert.KernelIdeal.Run

end
-- ==== Proof.StatsBody.lean ====
/-
  The statistics kernel's body, run once per kind of block.

  On whole staging buffers holding a block's points `x1`, coordinates `x2`, point counts `x3` and the projection
  matrix `x4`, the body leaves those four as it found them and
  * at the FIRST block sets both scratch rows to zero and then adds the block's channel sums and sums of squares;
  * at a MIDDLE block adds the block's channel sums and sums of squares to what the scratch rows held;
  * at the LAST block does the same and then copies both scratch rows to the two result buffers.
  Which kind a block is the body decides by comparing the block index with 0 and with 99.
-/
import proofs.«159035_j63986422775810_1_alg».proof.Proof.StatsDefs
import proofs.«159035_j63986422775810_1_alg».proof.Proof.LibWholeStore

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "This is the first block", as the body computes it from the block index. -/
abbrev condFirst (i : grid0.Coords) : Prop :=
  (Scalar.cmpi .ne (Scalar.extui (Scalar.cmpi .eq (BitVec.ofNat 32 (i 0).val) 0#32)) 0#32) = 1#1
/-- "This is the last block", as the body computes it from the block index. -/
abbrev condLast (i : grid0.Coords) : Prop := k0_cond2 i = 1#1

/-- The first comparison holds exactly at block 0, the second exactly at block 99. -/
theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 99 :=
  (by decide +kernel : ∀ t : Fin grid0.N, condLast (grid0.coords t) ↔ t.val = 99)

/-- The zero offsets of a load or store through a whole buffer, of two and of three axes. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A load through a buffer's whole rectangle reads what the buffer holds: the points, the coordinates, the point
    counts, the projection matrix, a 64-channel row. -/
theorem load_points (a : Memref sig .tc .vmem S1000x32x4 .f32) (f : a.view.ty.Contents (Elt F)) :
    a.view.readAt (Elt F) (Rect.unit (s := S1000x32x4) ![0, 0, 0] S1000x32x4.size inb_S1000x32x4_S1000x32x4_0_0_0).toLoadRect f = a.view.read (Elt F) f :=
  WholeStore.readAt_whole (S := S1000x32x4) _ _ hz3 _
theorem load_coors (a : Memref sig .tc .vmem S1000x4 .i32) (f : a.view.ty.Contents (Elt F)) :
    a.view.readAt (Elt F) (Rect.unit (s := S1000x4) ![0, 0] S1000x4.size inb_S1000x4_S1000x4_0_0).toLoadRect f = a.view.read (Elt F) f :=
  WholeStore.readAt_whole (S := S1000x4) _ _ hz2 _
theorem load_counts (a : Memref sig .tc .vmem S1000x1 .i32) (f : a.view.ty.Contents (Elt F)) :
    a.view.readAt (Elt F) (Rect.unit (s := S1000x1) ![0, 0] S1000x1.size inb_S1000x1_S1000x1_0_0).toLoadRect f = a.view.read (Elt F) f :=
  WholeStore.readAt_whole (S := S1000x1) _ _ hz2 _
theorem load_matrix (a : Memref sig .tc .vmem S10x64 .f32) (f : a.view.ty.Contents (Elt F)) :
    a.view.readAt (Elt F) (Rect.unit (s := S10x64) ![0, 0] S10x64.size inb_S10x64_S10x64_0_0).toLoadRect f = a.view.read (Elt F) f :=
  WholeStore.readAt_whole (S := S10x64) _ _ hz2 _
theorem load_row (a : Memref sig .tc .vmem S1x64 .f32) (f : a.view.ty.Contents (Elt F)) :
    a.view.readAt (Elt F) (Rect.unit (s := S1x64) ![0, 0] S1x64.size inb_S1x64_S1x64_0_0).toLoadRect f = a.view.read (Elt F) f :=
  WholeStore.readAt_whole (S := S1x64) _ _ hz2 _

/-- After a store of the row `w` through a row buffer's whole rectangle the buffer reads `w`, whatever it held and
    whatever was stored before; and a load through the whole rectangle after such a store reads `w`. -/
theorem store_row (a : Memref sig .tc .vmem S1x64 .f32) (f : a.view.ty.Contents (Elt F)) (w : Vec F S1x64 .f32)
    (L : List (View.Piece (Elt F) S1x64 .f32)) :
    a.view.read (Elt F) (a.view.writes (Elt F) f (⟨Rect.unit (s := S1x64) ![0, 0] S1x64.size inb_S1x64_S1x64_0_0, w⟩ :: L)) = w :=
  WholeStore.read_writes_cons (S := S1x64) _ _ hz2 _ _ _
theorem reload_row (a : Memref sig .tc .vmem S1x64 .f32) (w : Vec F S1x64 .f32) (L : List (View.Piece (Elt F) S1x64 .f32)) :
    a.view.readCov (⟨Rect.unit (s := S1x64) ![0, 0] S1x64.size inb_S1x64_S1x64_0_0, w⟩ :: L)
      (Rect.unit (s := S1x64) ![0, 0] S1x64.size inb_S1x64_S1x64_0_0).toLoadRect = w :=
  WholeStore.readCov_cons (S := S1x64) _ hz2 _ _ _

/-- The row the body stores into the sums' scratch row, from what its loads read of buffers holding the block's
    points `x1`, coordinates `x2`, point counts `x3` and the matrix `x4`: the block's update of the row `v` it was
    handed; and the same for the row of sums of squares. -/
theorem pay2_loaded (a1 : Memref sig .tc .vmem S1000x32x4 .f32) (f1 : a1.view.ty.Contents (Elt F))
    (a2 : Memref sig .tc .vmem S1000x4 .i32) (f2 : a2.view.ty.Contents (Elt F))
    (a3 : Memref sig .tc .vmem S1000x1 .i32) (f3 : a3.view.ty.Contents (Elt F))
    (a4 : Memref sig .tc .vmem S10x64 .f32) (f4 : a4.view.ty.Contents (Elt F))
    {x1 : Vec F S1000x32x4 .f32} {x2 : Vec F S1000x4 .i32} {x3 : Vec F S1000x1 .i32} {x4 : Vec F S10x64 .f32}
    (hf1 : a1.view.read (Elt F) f1 = x1) (hf2 : a2.view.read (Elt F) f2 = x2) (hf3 : a3.view.read (Elt F) f3 = x3)
    (hf4 : a4.view.read (Elt F) f4 = x4) (v : Vec F S1x64 .f32) :
    k0_pay2 (a1.view.readAt (Elt F) (Rect.unit (s := S1000x32x4) ![0, 0, 0] S1000x32x4.size inb_S1000x32x4_S1000x32x4_0_0_0).toLoadRect f1)
      (k0_pay7 (a1.view.readAt (Elt F) (Rect.unit (s := S1000x32x4) ![0, 0, 0] S1000x32x4.size inb_S1000x32x4_S1000x32x4_0_0_0).toLoadRect f1))
      (k0_pay8 (a3.view.readAt (Elt F) (Rect.unit (s := S1000x1) ![0, 0] S1000x1.size inb_S1000x1_S1000x1_0_0).toLoadRect f3))
      (k0_pay9 (a1.view.readAt (Elt F) (Rect.unit (s := S1000x32x4) ![0, 0, 0] S1000x32x4.size inb_S1000x32x4_S1000x32x4_0_0_0).toLoadRect f1)
        (a3.view.readAt (Elt F) (Rect.unit (s := S1000x1) ![0, 0] S1000x1.size inb_S1000x1_S1000x1_0_0).toLoadRect f3))
      (k0_pay10 (a2.view.readAt (Elt F) (Rect.unit (s := S1000x4) ![0, 0] S1000x4.size inb_S1000x4_S1000x4_0_0).toLoadRect f2))
      (k0_pay11 (a2.view.readAt (Elt F) (Rect.unit (s := S1000x4) ![0, 0] S1000x4.size inb_S1000x4_S1000x4_0_0).toLoadRect f2))
      (k0_pay12 (a2.view.readAt (Elt F) (Rect.unit (s := S1000x4) ![0, 0] S1000x4.size inb_S1000x4_S1000x4_0_0).toLoadRect f2))
      (Scalar.ofBits .f32 0x40800000#32)
      (a4.view.readAt (Elt F) (Rect.unit (s := S10x64) ![0, 0] S10x64.size inb_S10x64_S10x64_0_0).toLoadRect f4) v
      = stepS x1 x2 x3 x4 v := by
  rw [load_points, load_counts, load_coors, load_matrix, hf1, hf2, hf3, hf4]
  unfold stepS
  rfl
theorem pay3_loaded (a1 : Memref sig .tc .vmem S1000x32x4 .f32) (f1 : a1.view.ty.Contents (Elt F))
    (a2 : Memref sig .tc .vmem S1000x4 .i32) (f2 : a2.view.ty.Contents (Elt F))
    (a3 : Memref sig .tc .vmem S1000x1 .i32) (f3 : a3.view.ty.Contents (Elt F))
    (a4 : Memref sig .tc .vmem S10x64 .f32) (f4 : a4.view.ty.Contents (Elt F))
    {x1 : Vec F S1000x32x4 .f32} {x2 : Vec F S1000x4 .i32} {x3 : Vec F S1000x1 .i32} {x4 : Vec F S10x64 .f32}
    (hf1 : a1.view.read (Elt F) f1 = x1) (hf2 : a2.view.read (Elt F) f2 = x2) (hf3 : a3.view.read (Elt F) f3 = x3)
    (hf4 : a4.view.read (Elt F) f4 = x4) (v : Vec F S1x64 .f32) :
    k0_pay3 (a1.view.readAt (Elt F) (Rect.unit (s := S1000x32x4) ![0, 0, 0] S1000x32x4.size inb_S1000x32x4_S1000x32x4_0_0_0).toLoadRect f1)
      (k0_pay7 (a1.view.readAt (Elt F) (Rect.unit (s := S1000x32x4) ![0, 0, 0] S1000x32x4.size inb_S1000x32x4_S1000x32x4_0_0_0).toLoadRect f1))
      (k0_pay8 (a3.view.readAt (Elt F) (Rect.unit (s := S1000x1) ![0, 0] S1000x1.size inb_S1000x1_S1000x1_0_0).toLoadRect f3))
      (k0_pay9 (a1.view.readAt (Elt F) (Rect.unit (s := S1000x32x4) ![0, 0, 0] S1000x32x4.size inb_S1000x32x4_S1000x32x4_0_0_0).toLoadRect f1)
        (a3.view.readAt (Elt F) (Rect.unit (s := S1000x1) ![0, 0] S1000x1.size inb_S1000x1_S1000x1_0_0).toLoadRect f3))
      (k0_pay10 (a2.view.readAt (Elt F) (Rect.unit (s := S1000x4) ![0, 0] S1000x4.size inb_S1000x4_S1000x4_0_0).toLoadRect f2))
      (k0_pay11 (a2.view.readAt (Elt F) (Rect.unit (s := S1000x4) ![0, 0] S1000x4.size inb_S1000x4_S1000x4_0_0).toLoadRect f2))
      (k0_pay12 (a2.view.readAt (Elt F) (Rect.unit (s := S1000x4) ![0, 0] S1000x4.size inb_S1000x4_S1000x4_0_0).toLoadRect f2))
      (Scalar.ofBits .f32 0x40800000#32)
      (a4.view.readAt (Elt F) (Rect.unit (s := S10x64) ![0, 0] S10x64.size inb_S10x64_S10x64_0_0).toLoadRect f4) v
      = stepQ x1 x2 x3 x4 v := by
  rw [load_points, load_counts, load_coors, load_matrix, hf1, hf2, hf3, hf4]
  unfold stepQ
  rfl

/-- The first block: the scratch rows, at anything, end at the zero rows plus the block's sums; the two result
    buffers are handed back untouched. -/
theorem run_first (c : Dev nD) (i : grid0.Coords) (arg1 : Memref sig .tc .vmem S1000x32x4 .f32) (harg1 : arg1.IsWhole) (arg2 : Memref sig .tc .vmem S1000x4 .i32) (harg2 : arg2.IsWhole) (arg3 : Memref sig .tc .vmem S1000x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : condFirst i) (hc1 : ¬condLast i) (x1 : Vec F S1000x32x4 .f32) (x2 : Vec F S1000x4 .i32) (x3 : Vec F S1000x1 .i32) (x4 : Vec F S10x64 .f32) (y5 y6 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare y5 ∗ owns (c : Thread nD τ) arg6 fullShare y6
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare y5 ∗ owns (c : Thread nD τ) arg6 fullShare y6
            ∗ owns (c : Thread nD τ) arg7 fullShare (stepS x1 x2 x3 x4 (k0_pay4 (F := F))) ∗ owns (c : Thread nD τ) arg8 fullShare (stepQ x1 x2 x3 x4 (k0_pay5 (F := F)))) -∗ K ⟨⟩))
      ⊢ wp frame (wpE (defs₀ (F := F)) Variants.none c none) E (cc0_stats_kernel i arg1 harg1 arg2 harg2 arg3 harg3 arg4 harg4 arg5 harg5 arg6 harg6 arg7 harg7 arg8 harg8) K := by
  simp only [cc0_stats_kernel_eq_skeleton]; unfold cc0_stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    rw [store_row]
    sl_unfold_run_names
    rw [reload_row]
    exact pay2_loaded _ _ _ _ _ _ _ _ hf1 hf2 hf3 hf4 _
  iexists _; isplitr
  swap; · iexact H8
  ipureintro
  rw [store_row]
  sl_unfold_run_names
  rw [reload_row]
  exact pay3_loaded _ _ _ _ _ _ _ _ hf1 hf2 hf3 hf4 _

/-- A middle block: the scratch rows at `s`, `q` end at `s`, `q` plus the block's sums; the two result buffers are
    handed back untouched. -/
theorem run_mid (c : Dev nD) (i : grid0.Coords) (arg1 : Memref sig .tc .vmem S1000x32x4 .f32) (harg1 : arg1.IsWhole) (arg2 : Memref sig .tc .vmem S1000x4 .i32) (harg2 : arg2.IsWhole) (arg3 : Memref sig .tc .vmem S1000x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬condFirst i) (hc1 : ¬condLast i) (x1 : Vec F S1000x32x4 .f32) (x2 : Vec F S1000x4 .i32) (x3 : Vec F S1000x1 .i32) (x4 : Vec F S10x64 .f32) (y5 y6 s q : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare y5 ∗ owns (c : Thread nD τ) arg6 fullShare y6
        ∗ owns (c : Thread nD τ) arg7 fullShare s ∗ owns (c : Thread nD τ) arg8 fullShare q
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare y5 ∗ owns (c : Thread nD τ) arg6 fullShare y6
            ∗ owns (c : Thread nD τ) arg7 fullShare (stepS x1 x2 x3 x4 s) ∗ owns (c : Thread nD τ) arg8 fullShare (stepQ x1 x2 x3 x4 q)) -∗ K ⟨⟩))
      ⊢ wp frame (wpE (defs₀ (F := F)) Variants.none c none) E (cc0_stats_kernel i arg1 harg1 arg2 harg2 arg3 harg3 arg4 harg4 arg5 harg5 arg6 harg6 arg7 harg7 arg8 harg8) K := by
  simp only [cc0_stats_kernel_eq_skeleton]; unfold cc0_stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    rw [store_row]
    sl_unfold_run_names
    rw [load_row, hf7]
    exact pay2_loaded _ _ _ _ _ _ _ _ hf1 hf2 hf3 hf4 _
  iexists _; isplitr
  swap; · iexact H8
  ipureintro
  rw [store_row]
  sl_unfold_run_names
  rw [load_row, hf8]
  exact pay3_loaded _ _ _ _ _ _ _ _ hf1 hf2 hf3 hf4 _

/-- The last block: as a middle block, and the two result buffers, at anything, end at the scratch rows' final contents. -/
theorem run_last (c : Dev nD) (i : grid0.Coords) (arg1 : Memref sig .tc .vmem S1000x32x4 .f32) (harg1 : arg1.IsWhole) (arg2 : Memref sig .tc .vmem S1000x4 .i32) (harg2 : arg2.IsWhole) (arg3 : Memref sig .tc .vmem S1000x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬condFirst i) (hc1 : condLast i) (x1 : Vec F S1000x32x4 .f32) (x2 : Vec F S1000x4 .i32) (x3 : Vec F S1000x1 .i32) (x4 : Vec F S10x64 .f32) (s q : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d)
        ∗ owns (c : Thread nD τ) arg7 fullShare s ∗ owns (c : Thread nD τ) arg8 fullShare q
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (stepS x1 x2 x3 x4 s) ∗ owns (c : Thread nD τ) arg6 fullShare (stepQ x1 x2 x3 x4 q)
            ∗ owns (c : Thread nD τ) arg7 fullShare (stepS x1 x2 x3 x4 s) ∗ owns (c : Thread nD τ) arg8 fullShare (stepQ x1 x2 x3 x4 q)) -∗ K ⟨⟩))
      ⊢ wp frame (wpE (defs₀ (F := F)) Variants.none c none) E (cc0_stats_kernel i arg1 harg1 arg2 harg2 arg3 harg3 arg4 harg4 arg5 harg5 arg6 harg6 arg7 harg7 arg8 harg8) K := by
  simp only [cc0_stats_kernel_eq_skeleton]; unfold cc0_stats_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [store_row, reload_row, load_row, hf7]
    exact pay2_loaded _ _ _ _ _ _ _ _ hf1 hf2 hf3 hf4 _
  isplitl [H6]
  · iexists _; isplitr
    swap; · iexact H6
    ipureintro
    sl_unfold_run_names
    rw [store_row, reload_row, load_row, hf8]
    exact pay3_loaded _ _ _ _ _ _ _ _ hf1 hf2 hf3 hf4 _
  isplitl [H7]
  · iexists _; isplitr
    swap; · iexact H7
    ipureintro
    sl_unfold_run_names
    rw [store_row, load_row, hf7]
    exact pay2_loaded _ _ _ _ _ _ _ _ hf1 hf2 hf3 hf4 _
  iexists _; isplitr
  swap; · iexact H8
  ipureintro
  sl_unfold_run_names
  rw [store_row, load_row, hf8]
  exact pay3_loaded _ _ _ _ _ _ _ _ hf1 hf2 hf3 hf4 _

end Cert.KernelIdeal.Stats

end
-- ==== Proof.StatsFrame.lean ====
/-
  The statistics region's body obligation: at every block the pipeline calls the body on staging buffers that hold
  the block's inputs, and the body hands them back with the scratch rows advanced by one block.

  Before the first block the scratch rows hold anything; before block `n + 1` they hold the running totals after
  block `n`; the body at block `t` is the first, a middle or the last kind of run according to `t`; after the last
  block the named contents are forgotten again.
-/
import proofs.«159035_j63986422775810_1_alg».proof.Proof.StatsBody

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks -/

/-- Each input's current staging buffer holds its block at every block index, fetched there or not: an input not
    fetched at a point has not moved its block index since the point before, and the body leaves it in place. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-! ## Where the two results' windows are idle -/

/-- The inputs' windows are never idle. -/
theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
theorem live_3 (t : Fin cfg0.N) : cfg0.idle 3 (grid0.coords t) = false := rfl

/-- Away from the last block the two results' windows are idle (the body stores into them under the last-block
    condition only) and the pipeline does not write them back; -/
theorem idle_4 (t : Fin cfg0.N) (h : t.val ≠ 99) : cfg0.idle 4 (grid0.coords t) = true := by
  have hc : ¬ k0_cond2 (grid0.coords t) = 1#1 := fun hc => h ((hcondLast t).mp hc)
  show (!(k0_cond2 (grid0.coords t) == 1#1)) = true
  rw [Bool.not_eq_true', beq_eq_false_iff_ne]; exact hc
theorem idle_5 (t : Fin cfg0.N) (h : t.val ≠ 99) : cfg0.idle 5 (grid0.coords t) = true := by
  have hc : ¬ k0_cond2 (grid0.coords t) = 1#1 := fun hc => h ((hcondLast t).mp hc)
  show (!(k0_cond2 (grid0.coords t) == 1#1)) = true
  rw [Bool.not_eq_true', beq_eq_false_iff_ne]; exact hc
theorem noFlush_4 (t : Fin cfg0.N) (h : t.val ≠ 99) : (cfg0.win 4).flush t = false := by
  have hN : t.val < 100 := lt_of_lt_of_eq t.isLt (show cfg0.N = 100 from N_0)
  cases hf : (cfg0.win 4).flush t with
  | false => rfl
  | true => exact absurd ((flush0_4 t).mp hf) (by omega)
theorem noFlush_5 (t : Fin cfg0.N) (h : t.val ≠ 99) : (cfg0.win 5).flush t = false := by
  have hN : t.val < 100 := lt_of_lt_of_eq t.isLt (show cfg0.N = 100 from N_0)
  cases hf : (cfg0.win 5).flush t with
  | false => rfl
  | true => exact absurd ((flush0_5 t).mp hf) (by omega)
/-- at the last block they are live. -/
theorem live_4 (t : Fin cfg0.N) (h : t.val = 99) : cfg0.idle 4 (grid0.coords t) = false := by
  have hc : k0_cond2 (grid0.coords t) = 1#1 := (hcondLast t).mpr h
  show (!(k0_cond2 (grid0.coords t) == 1#1)) = false
  rw [hc]; rfl
theorem live_5 (t : Fin cfg0.N) (h : t.val = 99) : cfg0.idle 5 (grid0.coords t) = false := by
  have hc : k0_cond2 (grid0.coords t) = 1#1 := (hcondLast t).mpr h
  show (!(k0_cond2 (grid0.coords t) == 1#1)) = false
  rw [hc]; rfl

/-! ## The running totals, block by block -/

theorem accS_first (c : Dev nD) (t : Fin cfg0.N) (h : t.val = 0) :
    accS V c t.val t.isLt = stepS (fblk V c t) (cblk V c t) (nblk V c t) (wblk V c t) (k0_pay4 (F := F)) := by
  obtain ⟨n, hn⟩ := t
  cases n with
  | zero => exact accS_zero V c hn
  | succ n => exact absurd h (Nat.succ_ne_zero _)
theorem accQ_first (c : Dev nD) (t : Fin cfg0.N) (h : t.val = 0) :
    accQ V c t.val t.isLt = stepQ (fblk V c t) (cblk V c t) (nblk V c t) (wblk V c t) (k0_pay5 (F := F)) := by
  obtain ⟨n, hn⟩ := t
  cases n with
  | zero => exact accQ_zero V c hn
  | succ n => exact absurd h (Nat.succ_ne_zero _)
theorem accS_next (c : Dev nD) (t : Fin cfg0.N) (h : t.val ≠ 0) :
    accS V c t.val t.isLt = stepS (fblk V c t) (cblk V c t) (nblk V c t) (wblk V c t)
      (accS V c (t.val - 1) (Nat.lt_of_le_of_lt (Nat.sub_le _ _) t.isLt)) := by
  obtain ⟨n, hn⟩ := t
  cases n with
  | zero => exact absurd rfl h
  | succ n => exact accS_succ V c n hn
theorem accQ_next (c : Dev nD) (t : Fin cfg0.N) (h : t.val ≠ 0) :
    accQ V c t.val t.isLt = stepQ (fblk V c t) (cblk V c t) (nblk V c t) (wblk V c t)
      (accQ V c (t.val - 1) (Nat.lt_of_le_of_lt (Nat.sub_le _ _) t.isLt)) := by
  obtain ⟨n, hn⟩ := t
  cases n with
  | zero => exact absurd rfl h
  | succ n => exact accQ_succ V c n hn

/-! ## The class's invariant, opened at the two scratch rows -/

/-- What the launch hands the region, with the two scratch rows as memrefs owned at some contents and the core's
    other scoped buffers left unopened. -/
theorem PhiA_eq (c : Dev nD) :
    (Pipeline.ΦA spec0 c : sProp 𝕄)
      = iprop((((∃ d, owns (c : Thread nD τ) scS fullShare d) ∗ (∃ d, owns (c : Thread nD τ) scQ fullShare d)) ∗ restBut (F := F) c) ∗ (∃ r, prngReg c r)) := by
  unfold Pipeline.ΦA
  rw [Pipeline.scopedRest_split_of_list spec0 c [cc0_scratch0, cc0_scratch1] (by decide) (by decide)]
  simp only [bigSepL_cons_cons, bigSepL_singleton, scS, scQ, owns_whole]
  rfl

/-! ## The body obligation, at a generic block -/

/-- Each window's current staging memref at block `t`, spelled as the pipeline passes it to the body, and its
    wholeness. -/
abbrev ms_0 (t : Fin cfg0.N) : Memref sig .tc .vmem S1000x32x4 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1000x4 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1000x1 .i32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S10x64 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x64 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x64 .f32 := win0_5.stage (cfg0.slots t 5)
abbrev hs_5 (t : Fin cfg0.N) : (ms_5 t).IsWhole := hstage0_5 ((cfg0.slots t 5).cast nbuf0_5)

/-- What the body is called with at block `t` (the library's body obligation's precondition, the windows one by one), -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any block. The inputs' memrefs hold their blocks; the block index says which kind of run the block
    is. At the first block the invariant is the class's, opened at the two scratch rows, which the run takes at
    anything; at a later block it hands the run the scratch rows at the running totals after the block before. The
    run leaves them at this block's totals, which is the invariant after the block. Away from the last block the two
    results' buffers come back as they were found; at the last block they come back at the final totals. The core
    owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  rw [show (dat V c).leavesExact 3 t = owns (c : Thread nD τ) (ms_3 t) fullShare ((dat V c).after 3 t) from by
    unfold Dat.leavesExact; rw [live_3 t], after_3]
  have hN : t.val < 100 := lt_of_lt_of_eq t.isLt (show cfg0.N = 100 from N_0)
  by_cases h0 : t.val = 0
  · have h99 : t.val ≠ 99 := by omega
    rw [Dat.leavesExact_idle (dat V c) 4 t (idle_4 t h99) (noFlush_4 t h99)]
    rw [Dat.leavesExact_idle (dat V c) 5 t (idle_5 t h99) (noFlush_5 t h99)]
    rw [accS_first V c t h0, accQ_first V c t h0]
    rw [Phi_castSucc V c t, Phi_zero V c _ _ h0, PhiA_eq]
    iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩⟩
    iapply (run_first c (grid0.coords t) (ms_0 t) (hs_0 t) (ms_1 t) (hs_1 t) (ms_2 t) (hs_2 t) (ms_3 t) (hs_3 t)
      (ms_4 t) (hs_4 t) (ms_5 t) (hs_5 t) scS (Memref.isWhole_whole _) scQ (Memref.isWhole_whole _)
      ((hcondFirst t).mpr h0) (fun h => h99 ((hcondLast t).mp h))
      (fblk V c t) (cblk V c t) (nblk V c t) (wblk V c t) ((dat V c).before 4 t d4) ((dat V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HQ]; · iexact HQ
    iintro ⟨H0, H1, H2, H3, H4, H5, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexists d4; iexact H4
    iexists d5; iexact H5
  · by_cases h99 : t.val = 99
    · rw [show (dat V c).leavesExact 4 t = owns (c : Thread nD τ) (ms_4 t) fullShare ((dat V c).after 4 t) from by
        unfold Dat.leavesExact; rw [live_4 t h99], after_4]
      rw [show (dat V c).leavesExact 5 t = owns (c : Thread nD τ) (ms_5 t) fullShare ((dat V c).after 5 t) from by
        unfold Dat.leavesExact; rw [live_5 t h99], after_5]
      rw [accS_next V c t h0, accQ_next V c t h0]
      rw [Phi_castSucc V c t, Phi_pos V c _ _ h0]
      iintro ⟨⟨HS, HQ, HR, Hg⟩, Ho, ⟨%d0, H0⟩, ⟨%d1, H1⟩, ⟨%d2, H2⟩, ⟨%d3, H3⟩, ⟨%d4, H4⟩, ⟨%d5, H5⟩⟩
      iapply (run_last c (grid0.coords t) (ms_0 t) (hs_0 t) (ms_1 t) (hs_1 t) (ms_2 t) (hs_2 t) (ms_3 t) (hs_3 t)
        (ms_4 t) (hs_4 t) (ms_5 t) (hs_5 t) scS (Memref.isWhole_whole _) scQ (Memref.isWhole_whole _)
        (fun h => h0 ((hcondFirst t).mp h)) ((hcondLast t).mpr h99)
        (fblk V c t) (cblk V c t) (nblk V c t) (wblk V c t)
        (accS V c (t.val - 1) (Nat.lt_of_le_of_lt (Nat.sub_le _ _) t.isLt))
        (accQ V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists ((dat V c).before 4 t d4); iexact H4
      isplitl [H5]; · iexists ((dat V c).before 5 t d5); iexact H5
      isplitl [HS]; · iexact HS
      isplitl [HQ]; · iexact HQ
      iintro ⟨H0, H1, H2, H3, H4, H5, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat V c) 4 t (idle_4 t h99) (noFlush_4 t h99)]
      rw [Dat.leavesExact_idle (dat V c) 5 t (idle_5 t h99) (noFlush_5 t h99)]
      rw [accS_next V c t h0, accQ_next V c t h0]
      rw [Phi_castSucc V c t, Phi_pos V c _ _ h0]
      iintro ⟨⟨HS, HQ, HR, Hg⟩, Ho, ⟨%d0, H0⟩, ⟨%d1, H1⟩, ⟨%d2, H2⟩, ⟨%d3, H3⟩, ⟨%d4, H4⟩, ⟨%d5, H5⟩⟩
      iapply (run_mid c (grid0.coords t) (ms_0 t) (hs_0 t) (ms_1 t) (hs_1 t) (ms_2 t) (hs_2 t) (ms_3 t) (hs_3 t)
        (ms_4 t) (hs_4 t) (ms_5 t) (hs_5 t) scS (Memref.isWhole_whole _) scQ (Memref.isWhole_whole _)
        (fun h => h0 ((hcondFirst t).mp h)) (fun h => h99 ((hcondLast t).mp h))
        (fblk V c t) (cblk V c t) (nblk V c t) (wblk V c t) ((dat V c).before 4 t d4) ((dat V c).before 5 t d5)
        (accS V c (t.val - 1) (Nat.lt_of_le_of_lt (Nat.sub_le _ _) t.isLt))
        (accQ V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HQ]; · iexact HQ
      iintro ⟨H0, H1, H2, H3, H4, H5, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexists d4; iexact H4
      iexists d5; iexact H5

/-- The library's body obligation, at every block. -/
theorem body_obligation (c : Dev nD) : BodyObligation (dat (F := F) V c) (defs₀ (F := F)) Variants.none () Set.univ := fun t => by
  rw [bigSep_W0, bigSep_W0]
  exact sound_body V c t

/-- What the launch hands the region is the invariant before the first block. -/
theorem hin (c : Dev nD) : Pipeline.ΦA spec0 c ⊢ (dat V c).Φ 0 := by
  rw [show (dat V c).Φ 0 = Phi V c 0 (Nat.zero_le _) from rfl, Phi_zero V c 0 _ rfl]

/-- After the last block the invariant gives the class's back: the scratch rows' named contents are forgotten. -/
theorem hout (c : Dev nD) : (dat V c).Φ (Fin.last cfg0.N) ⊢ Pipeline.ΦA spec0 c := by
  have hne : (Fin.last cfg0.N).val ≠ 0 := by
    rw [Fin.val_last]; have : cfg0.N = 100 := N_0; omega
  rw [show (dat V c).Φ (Fin.last cfg0.N) = Phi V c (Fin.last cfg0.N).val (Nat.le_of_lt_succ (Fin.last cfg0.N).isLt) from rfl,
    Phi_pos V c _ _ hne, PhiA_eq]
  iintro ⟨HS, HQ, HR, Hg⟩
  isplitl [HS HQ HR]
  · isplitl [HS HQ]
    · isplitl [HS]
      · iexists _; iexact HS
      iexists _; iexact HQ
    iexact HR
  iexact Hg

end Cert.KernelIdeal.Stats

end
-- ==== Proof.PfnFrame.lean ====
/-
  The normalisation region's body and its body obligation: on staging buffers holding a block's eight inputs the body
  leaves them as it found them and stores into the result's buffer the block computed from them.
-/
import proofs.«159035_j63986422775810_1_alg».proof.Proof.PfnDefs
import Idealize.ShloMosaic.Lib.Pipeline.Value

set_option maxRecDepth 16384

noncomputable section

namespace Cert.KernelIdeal.Pfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks

An input window's current staging buffer holds the window's block at every block index, whether the block was brought
in there or not: where it was not, the block index has not moved since the buffer was last filled, and the body leaves
the buffer as it found it. -/

theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat V c).before 5 t d = iblk V c 5 t :=
  ((dat V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg1.N) (d) : (dat V c).before 6 t d = iblk V c 6 t :=
  ((dat V c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg1.N) (d) : (dat V c).before 7 t d = iblk V c 7 t :=
  ((dat V c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-! ## The body's triple -/

/-- The zero offsets of a rank-2 and of a rank-3 rectangle, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The one store into the result's buffer is through the whole of its shape, so it covers it. -/
theorem cover_out (p : Vec F S1000x64 .f32) (y : S1000x64.Idx) :
    ∃ pc ∈ ([⟨Rect.unit (s := S1000x64) ![0, 0] S1000x64.size inb_S1000x64_S1000x64_0_0, p⟩] : List (View.Piece (Elt F) S1000x64 .f32)), y ∈ pc.1.set :=
  View.cover_of_tiled [⟨Rect.unit (s := S1000x64) ![0, 0] S1000x64.size inb_S1000x64_S1000x64_0_0, p⟩] S1000x64.size (by rfl) y

set_option maxHeartbeats 1000000 in
/-- The body on whole staging buffers, the eight inputs' at read contents `x1 … xvar` and the result's at anything,
    runs to the continuation holding the inputs' as they were and the result's at `outBlock` of the inputs': every
    load reads a whole buffer, the one store writes the whole of the result's buffer. -/
theorem sound_kernel (c : Dev nD) (E : Set ℕ) (i : grid1.Coords)
    (arg1 : Memref sig .tc .vmem S1000x32x4 .f32) (harg1 : arg1.IsWhole)
    (arg2 : Memref sig .tc .vmem S1000x4 .i32) (harg2 : arg2.IsWhole)
    (arg3 : Memref sig .tc .vmem S1000x1 .i32) (harg3 : arg3.IsWhole)
    (arg4 : Memref sig .tc .vmem S10x64 .f32) (harg4 : arg4.IsWhole)
    (arg5 : Memref sig .tc .vmem S1x64 .f32) (harg5 : arg5.IsWhole)
    (arg6 : Memref sig .tc .vmem S1x64 .f32) (harg6 : arg6.IsWhole)
    (arg7 : Memref sig .tc .vmem S1x64 .f32) (harg7 : arg7.IsWhole)
    (arg8 : Memref sig .tc .vmem S1x64 .f32) (harg8 : arg8.IsWhole)
    (arg9 : Memref sig .tc .vmem S1000x64 .f32) (harg9 : arg9.IsWhole)
    (x1 : Vec F S1000x32x4 .f32) (x2 : Vec F S1000x4 .i32) (x3 : Vec F S1000x1 .i32) (x4 : Vec F S10x64 .f32)
    (xg xb xmu xvar : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xg ∗ owns (c : Thread nD τ) arg6 fullShare xb ∗ owns (c : Thread nD τ) arg7 fullShare xmu ∗ owns (c : Thread nD τ) arg8 fullShare xvar ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xg ∗ owns (c : Thread nD τ) arg6 fullShare xb ∗ owns (c : Thread nD τ) arg7 fullShare xmu ∗ owns (c : Thread nD τ) arg8 fullShare xvar ∗ owns (c : Thread nD τ) arg9 fullShare (outBlock x1 x2 x3 x4 xg xb xmu xvar)) -∗ K ⟨⟩))
      ⊢ wp frame (wpE (defs₀ (F := F)) Variants.none c none) E (cc1_pfn_kernel i arg1 harg1 arg2 harg2 arg3 harg3 arg4 harg4 arg5 harg5 arg6 harg6 arg7 harg7 arg8 harg8 arg9 harg9) K := by
  simp only [cc1_pfn_kernel_eq_skeleton]; unfold cc1_pfn_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  iexists _; isplitr
  swap; · iexact H9
  ipureintro
  refine (View.read_writes_eq_canon _ _ _ (cover_out _)).trans ?_
  refine (View.canon_unit_zero (S := S1000x64) hz2 inb_S1000x64_S1000x64_0_0 _).trans ?_
  unfold outBlock
  simp only [View.readAt_eq_ld]
  rw [View.ld_unit_zero (S := S1000x32x4) hz3 inb_S1000x32x4_S1000x32x4_0_0_0,
    View.ld_unit_zero (S := S1000x4) hz2 inb_S1000x4_S1000x4_0_0,
    View.ld_unit_zero (S := S1000x1) hz2 inb_S1000x1_S1000x1_0_0,
    View.ld_unit_zero (S := S10x64) hz2 inb_S10x64_S10x64_0_0,
    View.ld_unit_zero (S := S1x64) hz2 inb_S1x64_S1x64_0_0 (View.read (Elt F) arg5.view f5),
    View.ld_unit_zero (S := S1x64) hz2 inb_S1x64_S1x64_0_0 (View.read (Elt F) arg6.view f6),
    View.ld_unit_zero (S := S1x64) hz2 inb_S1x64_S1x64_0_0 (View.read (Elt F) arg7.view f7),
    View.ld_unit_zero (S := S1x64) hz2 inb_S1x64_S1x64_0_0 (View.read (Elt F) arg8.view f8)]

/-! ## The body obligation, at a generic block -/

/-- What the body is called with at block `t`: the invariant, what the core owes, and each window's current staging
    buffer at what it then holds; -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns: the same invariant and debt, each staging buffer at what the body leaves there. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

/-- The body at any block: the inputs' buffers hold their blocks, so the body's triple applies; the invariant and what
    the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the region's proof data, at every block. -/
theorem body_obligation (c : Dev nD) : BodyObligation (dat (F := F) V c) (defs₀ (F := F)) Variants.none () Set.univ := fun t => by
  rw [bigSep_W1, bigSep_W1]
  exact sound_body V c t

end Cert.KernelIdeal.Pfn

end
-- ==== Proof.Launch.lean ====
/-
  The whole program's run, from its two kernel regions.

  @main is: three reshapes; the statistics region; eight host lines (the mean and the variance); the normalisation
  region. Each region is entered from the core's unscoped buffers at the contents the item before it left and left
  at the next contents, its own scratch and staging buffers forgotten at its exit; no argument array is written by
  anything, and the result array ends at what the normalisation region's hundred blocks wrote.
-/
import proofs.«159035_j63986422775810_1_alg».proof.Proof.LaunchDefs
import proofs.«159035_j63986422775810_1_alg».proof.Proof.StatsFrame
import proofs.«159035_j63986422775810_1_alg».proof.Proof.PfnFrame
import Idealize.ShloMosaic.Lib.Pipeline.RegionsLoop

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, read at the buffers they may change -/

/-- The statistics region's two result rows and the normalisation region's result array, as the items' valuations
    read them. -/
theorem outs_v3_0 (c : Dev nD) : outs m 2 main_v3_0 c = (Stats.dat (E1 m) c).arrAt 4 cfg0.N := by
  unfold outs; rw [if_neg (by decide)]; unfold W2
  rw [Function.update_of_ne (StableHlo.devRef_ne_of_ne (by decide) : (Proc.devRef .tc main_v3_0 : DevRef τ sig) ≠ Proc.devRef .tc main_v3_1), Function.update_self]
theorem outs_v3_1 (c : Dev nD) : outs m 2 main_v3_1 c = (Stats.dat (E1 m) c).arrAt 5 cfg0.N := by
  unfold outs; rw [if_neg (by decide)]; unfold W2
  rw [Function.update_self]
theorem outs_v10 (c : Dev nD) : outs m 4 main_v10 c = (Pfn.dat (E3 m) c).arrAt 8 cfg1.N := by
  unfold outs; rw [if_pos rfl]; unfold W4
  rw [Function.update_self]
theorem outsA_v3_0 (c : Dev nD) : outsA m 2 main_v3_0 c = (Stats.dat (E1 m) c).arrAt 4 cfg0.N := by
  unfold outsA W2
  rw [Function.update_of_ne (StableHlo.devRef_ne_of_ne (by decide) : (Proc.devRef .tc main_v3_0 : DevRef τ sig) ≠ Proc.devRef .tc main_v3_1), Function.update_self]
theorem outsA_v3_1 (c : Dev nD) : outsA m 2 main_v3_1 c = (Stats.dat (E1 m) c).arrAt 5 cfg0.N := by
  unfold outsA W2
  rw [Function.update_self]

/-- The buffers after the statistics region, as the generated valuations spell them, are `W2`, -/
theorem V2_eq (c : Dev nD) : Gen.V2 m (outs m) c = W2 m c := by
  unfold W2; rw [show Gen.V2 m (outs m) c = Function.update (Function.update (Gen.V1 m c) main_v3_0 (outs m 2 main_v3_0 c)) main_v3_1 (outs m 2 main_v3_1 c) from rfl,
    outs_v3_0, outs_v3_1]
theorem V2A_eq (c : Dev nD) : Gen.V2 m (outsA m) c = W2 m c := by
  unfold W2; rw [show Gen.V2 m (outsA m) c = Function.update (Function.update (Gen.V1 m c) main_v3_0 (outsA m 2 main_v3_0 c)) main_v3_1 (outsA m 2 main_v3_1 c) from rfl,
    outsA_v3_0, outsA_v3_1]
/-- so after the eight host lines the buffers are the normalisation region's entry contents, -/
theorem V3_eq (c : Dev nD) : Gen.V3 m (outs m) c = Gen.V3 m (outsA m) c := by
  rw [show Gen.V3 m (outs m) c = StableHlo.after hostOps1 (Gen.V2 m (outs m) c) from rfl,
    show Gen.V3 m (outsA m) c = StableHlo.after hostOps1 (Gen.V2 m (outsA m) c) from rfl, V2_eq, V2A_eq]
/-- and at the end they are `W4`. -/
theorem V4_eq (c : Dev nD) : Gen.V4 m (outs m) c = W4 m c := by
  unfold W4; rw [show Gen.V4 m (outs m) c = Function.update (Gen.V3 m (outs m) c) main_v10 (outs m 4 main_v10 c) from rfl,
    outs_v10, V3_eq]

/-! ## Each region's arrays at its exit -/

/-- At the statistics region's exit each of its arrays holds what the pipeline leaves in it: an input's array its
    entry contents (never written back), the two results' arrays the rows the valuation after the region names; -/
theorem hF0 (c : Dev nD) : ∀ w : Fin cfg0.W, (Stats.dat (E1 m) c).arrAt w cfg0.N = Gen.V2 m (outs m) c (Pipeline.arrRef spec0 w)
  | ⟨0, _⟩ => ((Stats.dat (E1 m) c).arrAt_in 0 rfl _).trans ((Stats.A_eq (E1 m) c 0).trans (Gen.V2_of m (outs m) c main_arg0 (by decide)).symm)
  | ⟨1, _⟩ => ((Stats.dat (E1 m) c).arrAt_in 1 rfl _).trans ((Stats.A_eq (E1 m) c 1).trans (Gen.V2_of m (outs m) c main_arg5 (by decide)).symm)
  | ⟨2, _⟩ => ((Stats.dat (E1 m) c).arrAt_in 2 rfl _).trans ((Stats.A_eq (E1 m) c 2).trans (Gen.V2_of m (outs m) c main_v0 (by decide)).symm)
  | ⟨3, _⟩ => ((Stats.dat (E1 m) c).arrAt_in 3 rfl _).trans ((Stats.A_eq (E1 m) c 3).trans (Gen.V2_of m (outs m) c main_arg1 (by decide)).symm)
  | ⟨4, _⟩ => by
    show (Stats.dat (E1 m) c).arrAt 4 cfg0.N = Function.update (Function.update (Gen.V1 m c) main_v3_0 (outs m 2 main_v3_0 c)) main_v3_1 (outs m 2 main_v3_1 c) main_v3_0
    rw [Function.update_of_ne (StableHlo.devRef_ne_of_ne (by decide) : (Proc.devRef .tc main_v3_0 : DevRef τ sig) ≠ Proc.devRef .tc main_v3_1), Function.update_self, outs_v3_0]
  | ⟨5, _⟩ => by
    show (Stats.dat (E1 m) c).arrAt 5 cfg0.N = Function.update (Function.update (Gen.V1 m c) main_v3_0 (outs m 2 main_v3_0 c)) main_v3_1 (outs m 2 main_v3_1 c) main_v3_1
    rw [Function.update_self, outs_v3_1]
/-- every other buffer holds what it held at entry. -/
theorem hrest0 (c : Dev nD) : ∀ b, b ∉ Finset.univ.image (Pipeline.arrRef spec0) → Gen.V2 m (outs m) c b = E1 m c b :=
  fun b hb => Gen.V2_of m (outs m) c b (by
    intro hmem
    simp only [List.mem_cons, List.mem_nil_iff, or_false] at hmem
    rcases hmem with rfl | rfl
    · exact hb (Finset.mem_image.mpr ⟨4, Finset.mem_univ _, rfl⟩)
    · exact hb (Finset.mem_image.mpr ⟨5, Finset.mem_univ _, rfl⟩))

/-- The same at the normalisation region's exit: the eight inputs' arrays at their entry contents, the result array
    at what the valuation at the end names; -/
theorem hF1 (c : Dev nD) : ∀ w : Fin cfg1.W, (Pfn.dat (E3 m) c).arrAt w cfg1.N = Gen.V4 m (outs m) c (Pipeline.arrRef spec1 w)
  | ⟨0, _⟩ => ((Pfn.dat (E3 m) c).arrAt_in 0 rfl _).trans ((Pfn.A_eq (E3 m) c 0).trans ((Gen.V4_of m (outs m) c main_arg0 (by decide)).trans (congrFun (V3_eq m c) _)).symm)
  | ⟨1, _⟩ => ((Pfn.dat (E3 m) c).arrAt_in 1 rfl _).trans ((Pfn.A_eq (E3 m) c 1).trans ((Gen.V4_of m (outs m) c main_arg5 (by decide)).trans (congrFun (V3_eq m c) _)).symm)
  | ⟨2, _⟩ => ((Pfn.dat (E3 m) c).arrAt_in 2 rfl _).trans ((Pfn.A_eq (E3 m) c 2).trans ((Gen.V4_of m (outs m) c main_v0 (by decide)).trans (congrFun (V3_eq m c) _)).symm)
  | ⟨3, _⟩ => ((Pfn.dat (E3 m) c).arrAt_in 3 rfl _).trans ((Pfn.A_eq (E3 m) c 3).trans ((Gen.V4_of m (outs m) c main_arg1 (by decide)).trans (congrFun (V3_eq m c) _)).symm)
  | ⟨4, _⟩ => ((Pfn.dat (E3 m) c).arrAt_in 4 rfl _).trans ((Pfn.A_eq (E3 m) c 4).trans ((Gen.V4_of m (outs m) c (Pipeline.arrRef spec1 4) (by decide)).trans (congrFun (V3_eq m c) _)).symm)
  | ⟨5, _⟩ => ((Pfn.dat (E3 m) c).arrAt_in 5 rfl _).trans ((Pfn.A_eq (E3 m) c 5).trans ((Gen.V4_of m (outs m) c (Pipeline.arrRef spec1 5) (by decide)).trans (congrFun (V3_eq m c) _)).symm)
  | ⟨6, _⟩ => ((Pfn.dat (E3 m) c).arrAt_in 6 rfl _).trans ((Pfn.A_eq (E3 m) c 6).trans ((Gen.V4_of m (outs m) c (Pipeline.arrRef spec1 6) (by decide)).trans (congrFun (V3_eq m c) _)).symm)
  | ⟨7, _⟩ => ((Pfn.dat (E3 m) c).arrAt_in 7 rfl _).trans ((Pfn.A_eq (E3 m) c 7).trans ((Gen.V4_of m (outs m) c (Pipeline.arrRef spec1 7) (by decide)).trans (congrFun (V3_eq m c) _)).symm)
  | ⟨8, _⟩ => by
    show (Pfn.dat (E3 m) c).arrAt 8 cfg1.N = Function.update (Gen.V3 m (outs m) c) main_v10 (outs m 4 main_v10 c) main_v10
    rw [Function.update_self, outs_v10]
/-- every other buffer holds what it held at entry. -/
theorem hrest1 (c : Dev nD) : ∀ b, b ∉ Finset.univ.image (Pipeline.arrRef spec1) → Gen.V4 m (outs m) c b = E3 m c b :=
  fun b hb => (Gen.V4_of m (outs m) c b (by
    intro hmem
    simp only [List.mem_cons, List.mem_nil_iff, or_false] at hmem
    rcases hmem with rfl
    exact hb (Finset.mem_image.mpr ⟨8, Finset.mem_univ _, rfl⟩))).trans (congrFun (V3_eq m c) _)

/-! ## The thread state beside the buffers, and the regions as segments -/

/-- No core owes another anything: no level is assigned. -/
abbrev L : GSem nD τ sig → Finset Unit := fun _ => ∅
abbrev lv : GSem nD τ sig → Unit → ℕ := fun _ _ => 0

/-- What rides beside the buffers through every item: the core's generator register at some state (each region's
    invariant takes it in and gives it back) and what the core owes, which is nothing. -/
abbrev R (c : Dev nD) : sProp 𝕄 := iprop((∃ r, prngReg c r) ∗ ∃ W, owes (c : Thread nD τ) (0 : CellTallies nD τ sig Unit) W)

/-- The same between any two items. -/
abbrev E : Fin 3 → Dev nD → sProp 𝕄 := fun _ c => R c

set_option backward.isDefEq.respectTransparency.types false in
/-- THE STATISTICS REGION over the thread state: entered from every unscoped buffer at the contents after the three
    reshapes, left at those with the two result rows at the final running totals. Its arrays are split out of the
    unscoped buffers at entry and put back at the exit contents; the generator register goes into the class's
    invariant, which is the region's invariant before the first block, and comes back out of the invariant after
    the last; nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Stats.body_obligation (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Stats.hin (E1 m) c)
    unfold Pipeline.ΦA
    iintro ⟨Hp, -, Hr⟩
    isplitl [Hr]; · iexact Hr
    iexact Hp
  hout c := by
    refine (Stats.hout (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE NORMALISATION REGION over the thread state: entered from every unscoped buffer at the contents after the eight
    host lines, left at those with the result array at what the region's blocks wrote. Its invariant is the class's
    at every block. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Pfn.body_obligation (E3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_eq]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element yields the pipeline library's at every pipeline's staging cells; no ghost resource beside it. -/
theorem hu₀ : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- From what the launch deals each core the thread state beside the buffers: the generator register at its launch
    state, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- At the end the thread state beside the buffers owes nothing. -/
theorem hE2 (c : Dev nD) : E (F := F) 2 c ⊢ (iprop(∃ W, owes (c : Thread nD τ) (0 : CellTallies nD τ sig Unit) W) : sProp 𝕄) := by
  iintro ⟨-, H⟩; iexact H

set_option backward.isDefEq.respectTransparency.types false in
/-- THE FRAME: from any memory with zero counters every weakly fair execution of @main terminates, and every final
    memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m (Ix := Unit) (U := UR sig nD τ) (Lvl := ℕ) emb₁ () Variants.none L lv (fun _ _ => rfl) ρ (outs m) (pdats m)
    0 (fun _ => iprop(emp)) (initOf (Pipeline.cells cfgs cellOf_inj) (Pipeline.launchToks cfgs cellOf_inj)) hu₀
    E (hE0 ρ) hE2 (reg0 m) (fun _ => .rfl) (fun _ => .rfl) (reg1 m) (fun _ => .rfl) (fun _ => .rfl)

end Cert.KernelIdeal.Run

end
-- ==== Proof.LaunchValue.lean ====
/-
  The whole program's run with its result: as the frame, and every final memory holds the result array at what the
  normalisation region's hundred blocks wrote.
-/
import proofs.«159035_j63986422775810_1_alg».proof.Proof.Launch
import proofs.«159035_j63986422775810_1_alg».proof.Proof.RunCond

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: the same, and every final memory holds the result array at what the normalisation region's blocks wrote. -/
theorem run_value : θ_run defs (onTc (τ := τ) (main (F := F))) ⟨m, fun _ => 0, ρ⟩ (fun r => ∀ c : Dev nD,
      r.2.mem ((c.tc : Thread nD τ).loc main_v10) = (Pfn.dat (E3 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (outs_v10 m c), (h c).2⟩)
    (Gen.run_cond m (Ix := Unit) (U := UR sig nD τ) (Lvl := ℕ) emb₁ () Variants.none L lv (fun _ _ => rfl) ρ (outs m) (pdats m)
      0 (fun _ => iprop(emp)) (initOf (Pipeline.cells cfgs cellOf_inj) (Pipeline.launchToks cfgs cellOf_inj)) hu₀
      E (hE0 ρ) hE2 (reg0 m) (fun _ => .rfl) (fun _ => .rfl) (reg1 m) (fun _ => .rfl) (fun _ => .rfl))

end Cert.KernelIdeal.Run

end
-- ==== Proof.Spec.lean ====
/-
  The mathematics of both programs, as plain functions over the extended reals.

  A pillar is 32 points of 4 numbers, a point count and 4 integer grid coordinates. Point `p` of a pillar
  counts when `p` is below the point count (`mask`). The pillar's centroid is the masked sum of its points'
  first three numbers over the count, the count taken at least one (`mean`); its cell centre is each of the
  last three grid coordinates plus a half, times the cell's extent on that axis (`center`). A point's ten
  features are its four numbers, its first three less the centroid, its first three less the cell centre, all
  times the mask (`feat`); a fixed 10 × 64 matrix projects them to 64 channels (`proj`).

  Over all 100000 × 32 points each channel has a mean and a variance. One program takes the variance as the
  mean of the squares less the square of the mean (`varK`), the other as the mean of the squared deviations
  (`varR`); on real numbers these agree. Each projected value is then centred, scaled by the reciprocal
  square root of the variance plus a small constant, sent through an affine pair and clamped below at zero
  (`norm`), and a pillar's result in a channel is the largest of its 32 points' values (`pool`).
-/
import Idealize.ShloMosaic.PureOps.Ideal
import Idealize.ShloMosaic.Lib.ValueIdx

noncomputable section

namespace Cert.Pillar

open Idealize.ShloMosaic

/-- The constants both programs spell, as the extended reals their words denote. -/
abbrev half : EReal := Ideal.ofBits .f32 0x3F000000#32
abbrev cellXY : EReal := Ideal.ofBits .f32 0x3E4CCCCD#32
abbrev cellZ : EReal := Ideal.ofBits .f32 0x40800000#32
abbrev eps : EReal := Ideal.ofBits .f32 0x3A83126F#32
abbrev total : EReal := Ideal.ofBits .f32 0x4A435000#32
abbrev zero : EReal := Ideal.ofBits .f32 0x00000000#32
abbrev negInf : EReal := Ideal.ofBits .f32 0xFF800000#32

/-- The cell's extent along each of the three axes. -/
def cell (k : Fin 3) : EReal := if k.val = 2 then cellZ else cellXY

/-- Point `p` counts in a pillar of `np` points: one if `p < np` as signed integers, else zero. -/
def mask (np : BitVec 32) (p : Fin 32) : EReal := (((IntOp.cmpi .slt (BitVec.ofNat 32 p.val) np).toNat : ℝ) : EReal)

/-- The pillar's point count, at least one. -/
def count (np : BitVec 32) : EReal := (((IntOp.maxsi np 1#32).toInt : ℝ) : EReal)

/-- The pillar's centroid along axis `k`. -/
def mean (x : Fin 32 → Fin 4 → EReal) (np : BitVec 32) (k : Fin 3) : EReal :=
  Ideal.div (∑ p : Fin 32, x p k.castSucc * mask np p) (count np)

/-- The pillar's cell centre along axis `k`. -/
def center (co : Fin 4 → BitVec 32) (k : Fin 3) : EReal := ((((co k.succ).toInt : ℝ) : EReal) + half) * cell k

/-- A point's ten features before the mask: its four numbers, then its first three less `a`, then less `b`. -/
def feat10 (x : Fin 4 → EReal) (a b : Fin 3 → EReal) (j : Fin 10) : EReal :=
  if h : j.val < 4 then x ⟨j.val, h⟩
  else if h' : j.val < 7 then x ⟨j.val - 4, by omega⟩ - a ⟨j.val - 4, by omega⟩
  else x ⟨j.val - 7, by omega⟩ - b ⟨j.val - 7, by omega⟩

/-- Point `p`'s ten features. -/
def feat (x : Fin 32 → Fin 4 → EReal) (np : BitVec 32) (co : Fin 4 → BitVec 32) (p : Fin 32) (j : Fin 10) : EReal :=
  feat10 (x p) (mean x np) (center co) j * mask np p

/-- Point `p`'s projection to channel `d`. -/
def proj (x : Fin 32 → Fin 4 → EReal) (np : BitVec 32) (co : Fin 4 → BitVec 32) (W : Fin 10 → Fin 64 → EReal)
    (p : Fin 32) (d : Fin 64) : EReal :=
  ∑ j : Fin 10, feat x np co p j * W j d

/-- A projected value normalised with the channel's statistics, sent through the affine pair and clamped. -/
def norm (h mu var g b : EReal) : EReal := max (((h - mu) * Ideal.rsqrt (var + eps)) * g + b) zero

/-- The largest normalised value over a pillar's 32 points. -/
def pool (h : Fin 32 → EReal) (mu var g b : EReal) : EReal :=
  (Finset.univ : Finset (Fin 32)).fold max negInf (fun p => norm (h p) mu var g b)

section Whole

variable (X : Fin 100000 → Fin 32 → Fin 4 → EReal) (NP : Fin 100000 → BitVec 32) (CO : Fin 100000 → Fin 4 → BitVec 32)
  (W : Fin 10 → Fin 64 → EReal) (G B : Fin 64 → EReal)

/-- Pillar `n`, point `p`, channel `d`: the projected value. -/
def H (n : Fin 100000) (p : Fin 32) (d : Fin 64) : EReal := proj (X n) (NP n) (CO n) W p d

/-- The channel's sum and sum of squares over all points, its mean, and its variance in the two forms. -/
def sumH (d : Fin 64) : EReal := ∑ n : Fin 100000, ∑ p : Fin 32, H X NP CO W n p d
def sumSq (d : Fin 64) : EReal := ∑ n : Fin 100000, ∑ p : Fin 32, H X NP CO W n p d * H X NP CO W n p d
def mu (d : Fin 64) : EReal := Ideal.div (sumH X NP CO W d) total
def varK (d : Fin 64) : EReal := Ideal.div (sumSq X NP CO W d) total - mu X NP CO W d * mu X NP CO W d
def varR (d : Fin 64) : EReal :=
  Ideal.div (∑ n : Fin 100000, ∑ p : Fin 32, (H X NP CO W n p d - mu X NP CO W d) * (H X NP CO W n p d - mu X NP CO W d)) total

/-- The result at pillar `n`, channel `d`, with the variance in either form. -/
def outK (n : Fin 100000) (d : Fin 64) : EReal :=
  pool (fun p => H X NP CO W n p d) (mu X NP CO W d) (varK X NP CO W d) (G d) (B d)
def outR (n : Fin 100000) (d : Fin 64) : EReal :=
  pool (fun p => H X NP CO W n p d) (mu X NP CO W d) (varR X NP CO W d) (G d) (B d)

end Whole

end Cert.Pillar

end
-- ==== Proof.HostMid.lean ====
/-
  What the host lines leave in the buffers the two regions read, at the ideal float instance.

  Before the statistics region three reshapes copy the point counts into a column and the affine pair into two rows;
  the argument arrays are untouched. Between the regions eight lines divide the two result rows by the number of
  points, 3200000, to get the channel means and the means of the squares, and subtract the squared mean from the
  latter: the variance in the form "mean of the squares less the square of the mean".
-/
import proofs.«159035_j63986422775810_1_alg».proof.Proof.LaunchDefs
import proofs.«159035_j63986422775810_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Run

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The argument arrays the regions read are as launched at both regions' entries. -/
theorem E1_arg0 (c : Dev nD) : E1 m c main_arg0 = m ((c : Thread nD τ).loc main_arg0) :=
  (V1_of m c main_arg0 (by decide)).trans rfl
theorem E1_arg1 (c : Dev nD) : E1 m c main_arg1 = m ((c : Thread nD τ).loc main_arg1) :=
  (V1_of m c main_arg1 (by decide)).trans rfl
theorem E1_arg5 (c : Dev nD) : E1 m c main_arg5 = m ((c : Thread nD τ).loc main_arg5) :=
  (V1_of m c main_arg5 (by decide)).trans rfl
theorem E3_arg0 (c : Dev nD) : E3 m c main_arg0 = m ((c : Thread nD τ).loc main_arg0) :=
  (V3_of m (outsA m) c main_arg0 (by decide)).trans <| (V2_of m (outsA m) c main_arg0 (by decide)).trans <| (V1_of m c main_arg0 (by decide)).trans rfl
theorem E3_arg1 (c : Dev nD) : E3 m c main_arg1 = m ((c : Thread nD τ).loc main_arg1) :=
  (V3_of m (outsA m) c main_arg1 (by decide)).trans <| (V2_of m (outsA m) c main_arg1 (by decide)).trans <| (V1_of m c main_arg1 (by decide)).trans rfl
theorem E3_arg5 (c : Dev nD) : E3 m c main_arg5 = m ((c : Thread nD τ).loc main_arg5) :=
  (V3_of m (outsA m) c main_arg5 (by decide)).trans <| (V2_of m (outsA m) c main_arg5 (by decide)).trans <| (V1_of m c main_arg5 (by decide)).trans rfl

/-- An array of `a` entries cast to a column of `a` rows reads, at row `i`, the operand at `i`: the two indices have
    the same row-major position, `i · 1 + 0 = i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- After the three reshapes the column of point counts is the argument cast to a column. -/
theorem V1_v0 (c : Dev nD) : (Gen.V1 m c main_v0 : S100000x1.Idx → BitVec 32)
    = shapeCast S100000x1 (m ((c : Thread nD τ).loc main_arg4)) shapeCasts_S100000_S100000x1 := by
  show StableHlo.after hostOps0 _ (Proc.devRef .tc main_v0) = _
  after_results
  rfl

/-- After the three reshapes each row of the affine pair is its argument cast to a row. -/
theorem V1_v1 (c : Dev nD) : (Gen.V1 m c main_v1 : Vec Ideal S1x64 .f32)
    = shapeCast S1x64 (m ((c : Thread nD τ).loc main_arg2)) shapeCasts_S64_S1x64 := by
  show StableHlo.after hostOps0 _ (Proc.devRef .tc main_v1) = _
  after_results
  rfl
theorem V1_v2 (c : Dev nD) : (Gen.V1 m c main_v2 : Vec Ideal S1x64 .f32)
    = shapeCast S1x64 (m ((c : Thread nD τ).loc main_arg3)) shapeCasts_S64_S1x64 := by
  show StableHlo.after hostOps0 _ (Proc.devRef .tc main_v2) = _
  after_results
  rfl

/-- The column of point counts both regions read is the argument's entries. -/
theorem E1_v0 (c : Dev nD) (n : Fin 100000) :
    E1 m c main_v0 (ix2 n (0 : Fin 1)) = m ((c : Thread nD τ).loc main_arg4) (ix1 n) :=
  (congrFun (V1_v0 m c) (ix2 n (0 : Fin 1))).trans (shapeCast_col_apply _ _ n 0)
theorem E3_v0 (c : Dev nD) (n : Fin 100000) :
    E3 m c main_v0 (ix2 n (0 : Fin 1)) = m ((c : Thread nD τ).loc main_arg4) (ix1 n) := by
  have h : E3 m c main_v0 = E1 m c main_v0 :=
    (V3_of m (outsA m) c main_v0 (by decide)).trans (V2_of m (outsA m) c main_v0 (by decide))
  exact (congrFun h (ix2 n (0 : Fin 1))).trans (E1_v0 m c n)

/-- The two rows of the affine pair are the arguments' entries. -/
theorem E3_v1 (c : Dev nD) (d : Fin 64) :
    E3 m c main_v1 (ix2 (0 : Fin 1) d) = m ((c : Thread nD τ).loc main_arg2) (ix1 d) := by
  have h : E3 m c main_v1 = Gen.V1 m c main_v1 :=
    (V3_of m (outsA m) c main_v1 (by decide)).trans (V2_of m (outsA m) c main_v1 (by decide))
  exact (congrFun (h.trans (V1_v1 m c)) (ix2 (0 : Fin 1) d)).trans (shapeCast_a_1a_apply _ _ 0 d)
theorem E3_v2 (c : Dev nD) (d : Fin 64) :
    E3 m c main_v2 (ix2 (0 : Fin 1) d) = m ((c : Thread nD τ).loc main_arg3) (ix1 d) := by
  have h : E3 m c main_v2 = Gen.V1 m c main_v2 :=
    (V3_of m (outsA m) c main_v2 (by decide)).trans (V2_of m (outsA m) c main_v2 (by decide))
  exact (congrFun (h.trans (V1_v2 m c)) (ix2 (0 : Fin 1) d)).trans (shapeCast_a_1a_apply _ _ 0 d)

/-- The statistics region's two result rows, the row of channel means and the row of channel variances, at their
    literal types. -/
abbrev sRow (c : Dev nD) : Vec Ideal S1x64 .f32 := (Stats.dat (E1 m) c).arrAt 4 cfg0.N
abbrev qRow (c : Dev nD) : Vec Ideal S1x64 .f32 := (Stats.dat (E1 m) c).arrAt 5 cfg0.N
abbrev muRow (c : Dev nD) : Vec Ideal S1x64 .f32 := E3 m c main_v5
abbrev varRow (c : Dev nD) : Vec Ideal S1x64 .f32 := E3 m c main_v9

/-- The number of points, 3200000, as a row: the constant both divisions spell, broadcast over the channels. -/
abbrev totRow : FVec Ideal S1x64 .f32 :=
  broadcastInDim S1x64 ![] bcast_S_S1x64 (constant (F := Ideal) S_ .f32 0x4A435000#32)

/-- After the statistics region its two result buffers hold its two result rows. -/
theorem V2_v3_0 (c : Dev nD) : (Gen.V2 m (outsA m) c main_v3_0 : Vec Ideal S1x64 .f32) = sRow m c := by
  have hne : (Proc.devRef .tc main_v3_0 : DevRef τ sig) ≠ Proc.devRef .tc main_v3_1 :=
    StableHlo.devRef_ne_of_ne (by decide)
  simp only [Gen.V2, outsA, W2, Function.update_of_ne hne, Function.update_self]
theorem V2_v3_1 (c : Dev nD) : (Gen.V2 m (outsA m) c main_v3_1 : Vec Ideal S1x64 .f32) = qRow m c := by
  simp only [Gen.V2, outsA, W2, Function.update_self]

/-- The row of means is the first result row over the row of the number of points. -/
theorem muRow_eq (c : Dev nD) : muRow m c = Host.divf (F := Ideal) (sRow m c : FVec Ideal S1x64 .f32) totRow := by
  show StableHlo.after hostOps1 (Gen.V2 m (outsA m) c) (Proc.devRef .tc main_v5) = _
  after_results
  rw [V2_v3_0]

/-- The row of variances is the second result row over the row of the number of points, less the row of means squared. -/
theorem varRow_eq (c : Dev nD) :
    varRow m c = subf (F := Ideal) (Host.divf (qRow m c : FVec Ideal S1x64 .f32) totRow)
      (mulf (Host.divf (sRow m c : FVec Ideal S1x64 .f32) totRow) (Host.divf (sRow m c : FVec Ideal S1x64 .f32) totRow)) := by
  show StableHlo.after hostOps1 (Gen.V2 m (outsA m) c) (Proc.devRef .tc main_v9) = _
  after_results
  rw [V2_v3_0, V2_v3_1]

/-- The channel means: the statistics region's first result row over the number of points. -/
theorem muRow_apply (c : Dev nD) (d : Fin 64) :
    muRow m c (ix2 (0 : Fin 1) d) = Ideal.div (sRow m c (ix2 (0 : Fin 1) d)) Cert.Pillar.total :=
  (congrFun (muRow_eq m c) (ix2 (0 : Fin 1) d)).trans rfl

/-- The channel variances: the second result row over the number of points, less the square of the mean. -/
theorem varRow_apply (c : Dev nD) (d : Fin 64) :
    varRow m c (ix2 (0 : Fin 1) d)
      = Ideal.div (qRow m c (ix2 (0 : Fin 1) d)) Cert.Pillar.total
          - muRow m c (ix2 (0 : Fin 1) d) * muRow m c (ix2 (0 : Fin 1) d) := by
  have h1 := congrFun (varRow_eq m c) (ix2 (0 : Fin 1) d)
  have h2 := congrFun (muRow_eq m c) (ix2 (0 : Fin 1) d)
  rw [h1, h2]
  rfl

end Cert.KernelIdeal.Run

end
-- ==== Proof.StatsValue.lean ====
/-
  What the statistics region leaves in its two result arrays, and its input blocks read at plain indices.

  Each result array is one row of 64 numbers, written back once, after the last block: it holds the running total
  after block 99. An input block at block index `t` holds the array's pillars `1000·t … 1000·t + 999`.
-/
import proofs.«159035_j63986422775810_1_alg».proof.Proof.StatsDefs
import Idealize.ShloMosaic.Lib.ValueIdx
import Idealize.ShloMosaic.Lib.Pipeline.Value

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The printed index maps, decided over the grid

At block `t` the three blocked inputs sit at block index `t` along the pillars and zero on every other axis; the
matrix and the two one-row results sit at block index zero on both axes at every block. -/

theorem idx_f : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_c : ∀ t : Fin cfg0.N, win0_1.index t (0 : Fin 2) = t.val ∧ win0_1.index t (1 : Fin 2) = 0 :=
  (by decide +kernel : ∀ t : Fin grid0.N, _)
theorem idx_n : ∀ t : Fin cfg0.N, win0_2.index t (0 : Fin 2) = t.val ∧ win0_2.index t (1 : Fin 2) = 0 :=
  (by decide +kernel : ∀ t : Fin grid0.N, _)
theorem idx_w : ∀ t : Fin cfg0.N, win0_3.index t (0 : Fin 2) = 0 ∧ win0_3.index t (1 : Fin 2) = 0 :=
  (by decide +kernel : ∀ t : Fin grid0.N, _)
theorem idx_S : ∀ t : Fin cfg0.N, win0_4.index t (0 : Fin 2) = 0 ∧ win0_4.index t (1 : Fin 2) = 0 :=
  (by decide +kernel : ∀ t : Fin grid0.N, _)
theorem idx_Q : ∀ t : Fin cfg0.N, win0_5.index t (0 : Fin 2) = 0 ∧ win0_5.index t (1 : Fin 2) = 0 :=
  (by decide +kernel : ∀ t : Fin grid0.N, _)

/-! ## From the one write-back to the result arrays -/

/-- What the last block writes back to the first result array is the running total after it: the array's one block is
    the whole array. -/
theorem flushed_S (c : Dev nD) (t : Fin cfg0.N) (hf : (cfg0.win 4).flush t = true) :
    (dat V c).flushed 4 t = ((cfg0.win 4).blk t).view.read (Elt F) (accS V c 99 (by decide)) := by
  have hN : cfg0.N = 100 := N_0
  have h99 : t.val = 99 := by have := (flush0_4 t).mp hf; have := t.isLt; omega
  obtain rfl : t = (⟨99, by decide⟩ : Fin cfg0.N) := Fin.ext h99
  show (cfg0.win 4).cut (grid0.coords (⟨99, by decide⟩ : Fin cfg0.N)) ((dat V c).after 4 (⟨99, by decide⟩ : Fin cfg0.N)) = _
  rw [after_4]
  obtain ⟨e0, e1⟩ := idx_S (⟨99, by decide⟩ : Fin cfg0.N)
  funext j
  rw [View.read_apply, cast_eq]
  generalize accS V c 99 (by decide) = g
  show g j = g _
  refine congrArg g ?_
  funext a
  apply Fin.ext
  match a with
  | ⟨0, _⟩ => show (j 0).val = win0_4.index _ (0 : Fin 2) * 1 + 1 * (j 0).val; rw [e0]; omega
  | ⟨1, _⟩ => show (j 1).val = win0_4.index _ (1 : Fin 2) * 64 + 1 * (j 1).val; rw [e1]; omega

/-- An index of the array is in block `t` iff each coordinate is in the block's range on its axis. -/
theorem mem_blk_S (t : Fin cfg0.N) (i : S1x64.Idx) :
    i ∈ ((cfg0.win 4).blk t).view.set ↔ ∀ a : Fin 2, win0_4.index t a * S1x64.size a ≤ (i a).val ∧ (i a).val < win0_4.index t a * S1x64.size a + S1x64.size a := by
  show i ∈ ((View.whole main_v3_0).slice (win0_4.rect t)).set ↔ _
  rw [View.set_slice_whole, Rect.mem_set_unit]
  exact Iff.rfl

/-- The last block's write-back covers the array. -/
theorem covered_S (i : S1x64.Idx) : ∃ t : Fin cfg0.N, (cfg0.win 4).flush t = true ∧ i ∈ ((cfg0.win 4).blk t).view.set := by
  have h0 : (i 0).val < 1 := idx2_lt0 i
  have h1 : (i 1).val < 64 := idx2_lt1 i
  refine ⟨(⟨99, by decide⟩ : Fin cfg0.N), (flush0_4 _).mpr rfl, ?_⟩
  rw [mem_blk_S]
  obtain ⟨e0, e1⟩ := idx_S (⟨99, by decide⟩ : Fin cfg0.N)
  intro a
  match a with
  | ⟨0, _⟩ =>
    show win0_4.index _ (0 : Fin 2) * 1 ≤ (i 0).val ∧ (i 0).val < win0_4.index _ (0 : Fin 2) * 1 + 1
    rw [e0]; omega
  | ⟨1, _⟩ =>
    show win0_4.index _ (1 : Fin 2) * 64 ≤ (i 1).val ∧ (i 1).val < win0_4.index _ (1 : Fin 2) * 64 + 64
    rw [e1]; omega

/-- What the last block writes back to the second result array is the running total after it: the array's one block is
    the whole array. -/
theorem flushed_Q (c : Dev nD) (t : Fin cfg0.N) (hf : (cfg0.win 5).flush t = true) :
    (dat V c).flushed 5 t = ((cfg0.win 5).blk t).view.read (Elt F) (accQ V c 99 (by decide)) := by
  have hN : cfg0.N = 100 := N_0
  have h99 : t.val = 99 := by have := (flush0_5 t).mp hf; have := t.isLt; omega
  obtain rfl : t = (⟨99, by decide⟩ : Fin cfg0.N) := Fin.ext h99
  show (cfg0.win 5).cut (grid0.coords (⟨99, by decide⟩ : Fin cfg0.N)) ((dat V c).after 5 (⟨99, by decide⟩ : Fin cfg0.N)) = _
  rw [after_5]
  obtain ⟨e0, e1⟩ := idx_Q (⟨99, by decide⟩ : Fin cfg0.N)
  funext j
  rw [View.read_apply, cast_eq]
  generalize accQ V c 99 (by decide) = g
  show g j = g _
  refine congrArg g ?_
  funext a
  apply Fin.ext
  match a with
  | ⟨0, _⟩ => show (j 0).val = win0_5.index _ (0 : Fin 2) * 1 + 1 * (j 0).val; rw [e0]; omega
  | ⟨1, _⟩ => show (j 1).val = win0_5.index _ (1 : Fin 2) * 64 + 1 * (j 1).val; rw [e1]; omega

/-- An index of the array is in block `t` iff each coordinate is in the block's range on its axis. -/
theorem mem_blk_Q (t : Fin cfg0.N) (i : S1x64.Idx) :
    i ∈ ((cfg0.win 5).blk t).view.set ↔ ∀ a : Fin 2, win0_5.index t a * S1x64.size a ≤ (i a).val ∧ (i a).val < win0_5.index t a * S1x64.size a + S1x64.size a := by
  show i ∈ ((View.whole main_v3_1).slice (win0_5.rect t)).set ↔ _
  rw [View.set_slice_whole, Rect.mem_set_unit]
  exact Iff.rfl

/-- The last block's write-back covers the array. -/
theorem covered_Q (i : S1x64.Idx) : ∃ t : Fin cfg0.N, (cfg0.win 5).flush t = true ∧ i ∈ ((cfg0.win 5).blk t).view.set := by
  have h0 : (i 0).val < 1 := idx2_lt0 i
  have h1 : (i 1).val < 64 := idx2_lt1 i
  refine ⟨(⟨99, by decide⟩ : Fin cfg0.N), (flush0_5 _).mpr rfl, ?_⟩
  rw [mem_blk_Q]
  obtain ⟨e0, e1⟩ := idx_Q (⟨99, by decide⟩ : Fin cfg0.N)
  intro a
  match a with
  | ⟨0, _⟩ =>
    show win0_5.index _ (0 : Fin 2) * 1 ≤ (i 0).val ∧ (i 0).val < win0_5.index _ (0 : Fin 2) * 1 + 1
    rw [e0]; omega
  | ⟨1, _⟩ =>
    show win0_5.index _ (1 : Fin 2) * 64 ≤ (i 1).val ∧ (i 1).val < win0_5.index _ (1 : Fin 2) * 64 + 64
    rw [e1]; omega

/-- After the region the first result array holds the row of channel sums after the last block, the second the row of
    channel sums of squares. -/
theorem final_S (c : Dev nD) : (dat V c).arrAt 4 cfg0.N = accS V c 99 (by decide) := by
  exact (dat V c).arrAt_eq_of_cover 4 (accS V c 99 (by decide)) (flushed_S V c) covered_S
theorem final_Q (c : Dev nD) : (dat V c).arrAt 5 cfg0.N = accQ V c 99 (by decide) := by
  exact (dat V c).arrAt_eq_of_cover 5 (accQ V c 99 (by decide)) (flushed_Q V c) covered_Q

/-! ## The input blocks at plain indices -/

/-- A block's entries are the array's entries at the block's offset: block `t` holds pillars `1000·t … 1000·t + 999`. -/
theorem fblk_apply (c : Dev nD) (t : Fin cfg0.N) (r : Fin 1000) (p : Fin 32) (k : Fin 4) :
    fblk V c t (ix3 r p k) = V c main_arg0 (ix3 (⟨1000 * t.val + r.val, by have := t.isLt; have := r.isLt; have : cfg0.N = 100 := N_0; omega⟩ : Fin 100000) p k) := by
  obtain ⟨e0, e1, e2⟩ := idx_f t
  unfold fblk iblk
  rw [View.read_apply]
  show V c main_arg0 _ = V c main_arg0 _
  refine congrArg (V c main_arg0) ?_
  funext a
  apply Fin.ext
  match a with
  | ⟨0, _⟩ => show win0_0.index t (0 : Fin 3) * 1000 + 1 * r.val = 1000 * t.val + r.val; rw [e0]; omega
  | ⟨1, _⟩ => show win0_0.index t (1 : Fin 3) * 32 + 1 * p.val = p.val; rw [e1]; omega
  | ⟨2, _⟩ => show win0_0.index t (2 : Fin 3) * 4 + 1 * k.val = k.val; rw [e2]; omega
theorem cblk_apply (c : Dev nD) (t : Fin cfg0.N) (r : Fin 1000) (k : Fin 4) :
    cblk V c t (ix2 r k) = V c main_arg5 (ix2 (⟨1000 * t.val + r.val, by have := t.isLt; have := r.isLt; have : cfg0.N = 100 := N_0; omega⟩ : Fin 100000) k) := by
  obtain ⟨e0, e1⟩ := idx_c t
  unfold cblk iblk
  rw [View.read_apply]
  show V c main_arg5 _ = V c main_arg5 _
  refine congrArg (V c main_arg5) ?_
  funext a
  apply Fin.ext
  match a with
  | ⟨0, _⟩ => show win0_1.index t (0 : Fin 2) * 1000 + 1 * r.val = 1000 * t.val + r.val; rw [e0]; omega
  | ⟨1, _⟩ => show win0_1.index t (1 : Fin 2) * 4 + 1 * k.val = k.val; rw [e1]; omega
theorem nblk_apply (c : Dev nD) (t : Fin cfg0.N) (r : Fin 1000) :
    nblk V c t (ix2 r (0 : Fin 1)) = V c main_v0 (ix2 (⟨1000 * t.val + r.val, by have := t.isLt; have := r.isLt; have : cfg0.N = 100 := N_0; omega⟩ : Fin 100000) (0 : Fin 1)) := by
  obtain ⟨e0, e1⟩ := idx_n t
  unfold nblk iblk
  rw [View.read_apply]
  show V c main_v0 _ = V c main_v0 _
  refine congrArg (V c main_v0) ?_
  funext a
  apply Fin.ext
  match a with
  | ⟨0, _⟩ => show win0_2.index t (0 : Fin 2) * 1000 + 1 * r.val = 1000 * t.val + r.val; rw [e0]; omega
  | ⟨1, _⟩ => show win0_2.index t (1 : Fin 2) * 1 + 1 * (0 : Fin 1).val = (0 : Fin 1).val; rw [e1]; rfl
/-- The matrix's block is the whole matrix at every point. -/
theorem wblk_eq (c : Dev nD) (t : Fin cfg0.N) : wblk V c t = V c main_arg1 := by
  obtain ⟨e0, e1⟩ := idx_w t
  funext j
  unfold wblk iblk
  rw [View.read_apply]
  show V c main_arg1 _ = V c main_arg1 j
  refine congrArg (V c main_arg1) ?_
  funext a
  apply Fin.ext
  match a with
  | ⟨0, _⟩ => show win0_3.index t (0 : Fin 2) * 10 + 1 * (j 0).val = (j 0).val; rw [e0]; omega
  | ⟨1, _⟩ => show win0_3.index t (1 : Fin 2) * 64 + 1 * (j 1).val = (j 1).val; rw [e1]; omega
end Cert.KernelIdeal.Stats

end
-- ==== Proof.PfnValue.lean ====
/-
  What the normalisation region leaves in its result array, and its input blocks read at plain indices.

  The result array has 100000 rows; block `t` of the grid writes rows `1000·t … 1000·t + 999`, and the 100 blocks
  tile the array, so row `n` holds row `n mod 1000` of the block computed at block index `n / 1000`.
-/
import proofs.«159035_j63986422775810_1_alg».proof.Proof.PfnDefs
import Idealize.ShloMosaic.Lib.ValueIdx
import Idealize.ShloMosaic.Lib.Pipeline.Value

set_option maxRecDepth 16384

noncomputable section

namespace Cert.KernelIdeal.Pfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The printed index maps, decided over the grid

At block `t` the three blocked inputs and the result sit at block index `t` along the pillars and zero on every other
axis; the matrix and the four one-row inputs sit at block index zero on both axes at every block. -/

theorem idx_f : ∀ t : Fin cfg1.N, win1_0.index t (0 : Fin 3) = t.val ∧ win1_0.index t (1 : Fin 3) = 0 ∧ win1_0.index t (2 : Fin 3) = 0 :=
  (by decide +kernel : ∀ t : Fin grid1.N, _)
theorem idx_c : ∀ t : Fin cfg1.N, win1_1.index t (0 : Fin 2) = t.val ∧ win1_1.index t (1 : Fin 2) = 0 :=
  (by decide +kernel : ∀ t : Fin grid1.N, _)
theorem idx_n : ∀ t : Fin cfg1.N, win1_2.index t (0 : Fin 2) = t.val ∧ win1_2.index t (1 : Fin 2) = 0 :=
  (by decide +kernel : ∀ t : Fin grid1.N, _)
theorem idx_w : ∀ t : Fin cfg1.N, win1_3.index t (0 : Fin 2) = 0 ∧ win1_3.index t (1 : Fin 2) = 0 :=
  (by decide +kernel : ∀ t : Fin grid1.N, _)
theorem idx_g : ∀ t : Fin cfg1.N, win1_4.index t (0 : Fin 2) = 0 ∧ win1_4.index t (1 : Fin 2) = 0 :=
  (by decide +kernel : ∀ t : Fin grid1.N, _)
theorem idx_b : ∀ t : Fin cfg1.N, win1_5.index t (0 : Fin 2) = 0 ∧ win1_5.index t (1 : Fin 2) = 0 :=
  (by decide +kernel : ∀ t : Fin grid1.N, _)
theorem idx_mu : ∀ t : Fin cfg1.N, win1_6.index t (0 : Fin 2) = 0 ∧ win1_6.index t (1 : Fin 2) = 0 :=
  (by decide +kernel : ∀ t : Fin grid1.N, _)
theorem idx_var : ∀ t : Fin cfg1.N, win1_7.index t (0 : Fin 2) = 0 ∧ win1_7.index t (1 : Fin 2) = 0 :=
  (by decide +kernel : ∀ t : Fin grid1.N, _)
theorem idx_o : ∀ t : Fin cfg1.N, win1_8.index t (0 : Fin 2) = t.val ∧ win1_8.index t (1 : Fin 2) = 0 :=
  (by decide +kernel : ∀ t : Fin grid1.N, _)

/-! ## From the blocks to the result array -/

/-- Row `n`, channel `d` of the result as the blocks compute it: the entry of the block that covers the row. -/
def outAt (c : Dev nD) (n : Fin 100000) (d : Fin 64) : Elt F .f32 :=
  out V c (⟨n.val / 1000, by have := n.isLt; have : cfg1.N = 100 := N_1; omega⟩ : Fin cfg1.N)
    (ix2 (⟨n.val % 1000, Nat.mod_lt _ (by decide)⟩ : Fin 1000) d)

/-- The result array as one function of its index. -/
def G (c : Dev nD) : Vec F S100000x64 .f32 := fun i => outAt V c ⟨(i 0).val, idx2_lt0 i⟩ ⟨(i 1).val, idx2_lt1 i⟩

/-- The entry of block `t` at `j` is the result's entry at row `1000·t + j₀`, channel `j₁`. -/
theorem outAt_eq (c : Dev nD) (t : Fin cfg1.N) (j : S1000x64.Idx) (n : Fin 100000) (d : Fin 64)
    (hn : n.val = 1000 * t.val + (j 0).val) (hd : d.val = (j 1).val) : outAt V c n d = out V c t j := by
  have h0 : (j 0).val < 1000 := idx2_lt0 j
  have key : ∀ (t' : Fin cfg1.N) (j' : S1000x64.Idx), t' = t → j' = j → out V c t' j' = out V c t j := by
    intro t' j' h1 h2; subst h1 h2; rfl
  unfold outAt
  refine key _ _ (Fin.ext ?_) ?_
  · show n.val / 1000 = t.val
    omega
  · funext a
    apply Fin.ext
    match a with
    | ⟨0, _⟩ => show n.val % 1000 = (j 0).val; omega
    | ⟨1, _⟩ => exact hd

/-- What block `t` writes back is block `t` of `G`. -/
theorem flushed_eq (c : Dev nD) (t : Fin cfg1.N) :
    (dat V c).flushed 8 t = ((cfg1.win 8).blk t).view.read (Elt F) (G V c) := by
  show (cfg1.win 8).cut (grid1.coords t) ((dat V c).after 8 t) = _
  rw [after_8]
  obtain ⟨e0, e1⟩ := idx_o t
  funext j
  rw [View.read_apply, cast_eq]
  show out V c t j = _
  unfold G
  refine (outAt_eq V c t j _ _ ?_ ?_).symm
  · show win1_8.index t (0 : Fin 2) * 1000 + 1 * (j 0).val = 1000 * t.val + (j 0).val
    rw [e0]; omega
  · show win1_8.index t (1 : Fin 2) * 64 + 1 * (j 1).val = (j 1).val
    rw [e1]; omega

/-- An index of the result array is in block `t` iff each coordinate is in the block's range on its axis. -/
theorem mem_blk (t : Fin cfg1.N) (i : S100000x64.Idx) :
    i ∈ ((cfg1.win 8).blk t).view.set ↔ ∀ a : Fin 2, win1_8.index t a * S1000x64.size a ≤ (i a).val ∧ (i a).val < win1_8.index t a * S1000x64.size a + S1000x64.size a := by
  show i ∈ ((View.whole main_v10).slice (win1_8.rect t)).set ↔ _
  rw [View.set_slice_whole, Rect.mem_set_unit]
  exact Iff.rfl

/-- Every index of the result array is in the block of the point that covers its row. -/
theorem covered (i : S100000x64.Idx) : ∃ t : Fin cfg1.N, (cfg1.win 8).flush t = true ∧ i ∈ ((cfg1.win 8).blk t).view.set := by
  have h0 : (i 0).val < 100000 := idx2_lt0 i
  have h1 : (i 1).val < 64 := idx2_lt1 i
  have hN : cfg1.N = 100 := N_1
  refine ⟨⟨(i 0).val / 1000, by omega⟩, flush1_8 _, ?_⟩
  rw [mem_blk]
  obtain ⟨e0, e1⟩ := idx_o ⟨(i 0).val / 1000, by omega⟩
  intro a
  match a with
  | ⟨0, _⟩ =>
    show win1_8.index _ (0 : Fin 2) * 1000 ≤ (i 0).val ∧ (i 0).val < win1_8.index _ (0 : Fin 2) * 1000 + 1000
    rw [e0]; show (i 0).val / 1000 * 1000 ≤ (i 0).val ∧ (i 0).val < (i 0).val / 1000 * 1000 + 1000; omega
  | ⟨1, _⟩ =>
    show win1_8.index _ (1 : Fin 2) * 64 ≤ (i 1).val ∧ (i 1).val < win1_8.index _ (1 : Fin 2) * 64 + 64
    rw [e1]; omega

/-- The result array after the region is `G`. -/
theorem final_G (c : Dev nD) : (dat V c).arrAt 8 cfg1.N = G V c :=
  (dat V c).arrAt_eq_of_cover 8 (G V c) (fun t _ => flushed_eq V c t) covered

/-- After the region, row `n`, channel `d` of the result array is the entry of the block that covers the row. -/
theorem final_out (c : Dev nD) (n : Fin 100000) (d : Fin 64) :
    (dat V c).arrAt 8 cfg1.N (ix2 n d)
      = out V c (⟨n.val / 1000, by have := n.isLt; have : cfg1.N = 100 := N_1; omega⟩ : Fin cfg1.N)
          (ix2 (⟨n.val % 1000, Nat.mod_lt _ (by decide)⟩ : Fin 1000) d) := by
  rw [final_G]
  rfl

/-! ## The input blocks at plain indices -/

/-- A block's entries are the array's entries at the block's offset: block `t` holds pillars `1000·t … 1000·t + 999`. -/
theorem fblk_apply (c : Dev nD) (t : Fin cfg1.N) (r : Fin 1000) (p : Fin 32) (k : Fin 4) :
    fblk V c t (ix3 r p k) = V c main_arg0 (ix3 (⟨1000 * t.val + r.val, by have := t.isLt; have := r.isLt; have : cfg1.N = 100 := N_1; omega⟩ : Fin 100000) p k) := by
  obtain ⟨e0, e1, e2⟩ := idx_f t
  unfold fblk iblk
  rw [View.read_apply]
  show V c main_arg0 _ = V c main_arg0 _
  refine congrArg (V c main_arg0) ?_
  funext a
  apply Fin.ext
  match a with
  | ⟨0, _⟩ => show win1_0.index t (0 : Fin 3) * 1000 + 1 * r.val = 1000 * t.val + r.val; rw [e0]; omega
  | ⟨1, _⟩ => show win1_0.index t (1 : Fin 3) * 32 + 1 * p.val = p.val; rw [e1]; omega
  | ⟨2, _⟩ => show win1_0.index t (2 : Fin 3) * 4 + 1 * k.val = k.val; rw [e2]; omega
theorem cblk_apply (c : Dev nD) (t : Fin cfg1.N) (r : Fin 1000) (k : Fin 4) :
    cblk V c t (ix2 r k) = V c main_arg5 (ix2 (⟨1000 * t.val + r.val, by have := t.isLt; have := r.isLt; have : cfg1.N = 100 := N_1; omega⟩ : Fin 100000) k) := by
  obtain ⟨e0, e1⟩ := idx_c t
  unfold cblk iblk
  rw [View.read_apply]
  show V c main_arg5 _ = V c main_arg5 _
  refine congrArg (V c main_arg5) ?_
  funext a
  apply Fin.ext
  match a with
  | ⟨0, _⟩ => show win1_1.index t (0 : Fin 2) * 1000 + 1 * r.val = 1000 * t.val + r.val; rw [e0]; omega
  | ⟨1, _⟩ => show win1_1.index t (1 : Fin 2) * 4 + 1 * k.val = k.val; rw [e1]; omega
theorem nblk_apply (c : Dev nD) (t : Fin cfg1.N) (r : Fin 1000) :
    nblk V c t (ix2 r (0 : Fin 1)) = V c main_v0 (ix2 (⟨1000 * t.val + r.val, by have := t.isLt; have := r.isLt; have : cfg1.N = 100 := N_1; omega⟩ : Fin 100000) (0 : Fin 1)) := by
  obtain ⟨e0, e1⟩ := idx_n t
  unfold nblk iblk
  rw [View.read_apply]
  show V c main_v0 _ = V c main_v0 _
  refine congrArg (V c main_v0) ?_
  funext a
  apply Fin.ext
  match a with
  | ⟨0, _⟩ => show win1_2.index t (0 : Fin 2) * 1000 + 1 * r.val = 1000 * t.val + r.val; rw [e0]; omega
  | ⟨1, _⟩ => show win1_2.index t (1 : Fin 2) * 1 + 1 * (0 : Fin 1).val = (0 : Fin 1).val; rw [e1]; rfl
/-- The matrix's block is the whole matrix at every point. -/
theorem wblk_eq (c : Dev nD) (t : Fin cfg1.N) : wblk V c t = V c main_arg1 := by
  obtain ⟨e0, e1⟩ := idx_w t
  funext j
  unfold wblk iblk
  rw [View.read_apply]
  show V c main_arg1 _ = V c main_arg1 j
  refine congrArg (V c main_arg1) ?_
  funext a
  apply Fin.ext
  match a with
  | ⟨0, _⟩ => show win1_3.index t (0 : Fin 2) * 10 + 1 * (j 0).val = (j 0).val; rw [e0]; omega
  | ⟨1, _⟩ => show win1_3.index t (1 : Fin 2) * 64 + 1 * (j 1).val = (j 1).val; rw [e1]; omega
/-- The four one-row inputs' blocks are the whole rows at every point. -/
theorem gblk_eq (c : Dev nD) (t : Fin cfg1.N) : gblk V c t = V c main_v1 := by
  obtain ⟨e0, e1⟩ := idx_g t
  funext j
  unfold gblk iblk
  rw [View.read_apply]
  show V c main_v1 _ = V c main_v1 j
  refine congrArg (V c main_v1) ?_
  funext a
  apply Fin.ext
  match a with
  | ⟨0, _⟩ => show win1_4.index t (0 : Fin 2) * 1 + 1 * (j 0).val = (j 0).val; rw [e0]; omega
  | ⟨1, _⟩ => show win1_4.index t (1 : Fin 2) * 64 + 1 * (j 1).val = (j 1).val; rw [e1]; omega
theorem bblk_eq (c : Dev nD) (t : Fin cfg1.N) : bblk V c t = V c main_v2 := by
  obtain ⟨e0, e1⟩ := idx_b t
  funext j
  unfold bblk iblk
  rw [View.read_apply]
  show V c main_v2 _ = V c main_v2 j
  refine congrArg (V c main_v2) ?_
  funext a
  apply Fin.ext
  match a with
  | ⟨0, _⟩ => show win1_5.index t (0 : Fin 2) * 1 + 1 * (j 0).val = (j 0).val; rw [e0]; omega
  | ⟨1, _⟩ => show win1_5.index t (1 : Fin 2) * 64 + 1 * (j 1).val = (j 1).val; rw [e1]; omega
theorem mublk_eq (c : Dev nD) (t : Fin cfg1.N) : mublk V c t = V c main_v5 := by
  obtain ⟨e0, e1⟩ := idx_mu t
  funext j
  unfold mublk iblk
  rw [View.read_apply]
  show V c main_v5 _ = V c main_v5 j
  refine congrArg (V c main_v5) ?_
  funext a
  apply Fin.ext
  match a with
  | ⟨0, _⟩ => show win1_6.index t (0 : Fin 2) * 1 + 1 * (j 0).val = (j 0).val; rw [e0]; omega
  | ⟨1, _⟩ => show win1_6.index t (1 : Fin 2) * 64 + 1 * (j 1).val = (j 1).val; rw [e1]; omega
theorem varblk_eq (c : Dev nD) (t : Fin cfg1.N) : varblk V c t = V c main_v9 := by
  obtain ⟨e0, e1⟩ := idx_var t
  funext j
  unfold varblk iblk
  rw [View.read_apply]
  show V c main_v9 _ = V c main_v9 j
  refine congrArg (V c main_v9) ?_
  funext a
  apply Fin.ext
  match a with
  | ⟨0, _⟩ => show win1_7.index t (0 : Fin 2) * 1 + 1 * (j 0).val = (j 0).val; rw [e0]; omega
  | ⟨1, _⟩ => show win1_7.index t (1 : Fin 2) * 64 + 1 * (j 1).val = (j 1).val; rw [e1]; omega

end Cert.KernelIdeal.Pfn

end
-- ==== Proof.LibPlainDot.lean ====
/-
  A product of an [M, K] array with a [K, N] array that contracts the left operand's axis 1 against the right
  operand's axis 0 (no batch axis), read at the entry (p, q): the sum over k of left (p, k) times right (k, q).
  Stated once for every dimension record of that kind, so that the kernel's matrix unit into a zero accumulator
  and the host's dot product are both read by instantiating it. With it, the transpose of an [a, b] array read at
  (p, q): the array at (q, p).
-/
import Idealize.ShloMosaic.Lib.ValueIdx
import Idealize.ShloMosaic.Lib.Pipeline.Value
import Idealize.ShloMosaic.PureOps.Ideal.Laws

noncomputable section

open scoped BigOperators

namespace Idealize.ShloMosaic.PlainDot

open Idealize.ShloMosaic Idealize.ShloMosaic.ValueIdx

variable {M K N : Nat} (D : DotDims ⟨2, ![M, K]⟩ ⟨2, ![K, N]⟩ ⟨2, ![M, N]⟩)

/-- The dimension numbers of a plain matrix product: rows of the left operand against columns of the right one. -/
structure IsPlain : Prop where
  lc : D.lhsContracting = [1]
  rc : D.rhsContracting = [0]
  ln : D.lhsNonContracting = [0]
  rn : D.rhsNonContracting = [1]
  lb : D.lhsBatch = []
  rb : D.rhsBatch = []

variable {D}

/-- The contraction runs over one axis … -/
theorem contr_rank (h : IsPlain D) : D.contr.rank = 1 := by
  rw [D.rank_contr, h.lc]; rfl

/-- … whose extent is the shared dimension K. -/
theorem contr_size (h : IsPlain D) : D.contr.size ⟨0, by have := contr_rank h; omega⟩ = K := by
  have h0 : 0 < D.lhsContracting.length := by rw [h.lc]; exact Nat.one_pos
  rw [D.size_contr 0 h0]
  simp [h.lc]

/-- The left operand's row is the result's row. -/
theorem lhs_row (h : IsPlain D) (j : (⟨2, ![M, N]⟩ : Shape).Idx) (q : D.contr.Idx) :
    (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln])

/-- The left operand's column is the contraction coordinate. -/
theorem lhs_col (h : IsPlain D) (j : (⟨2, ![M, N]⟩ : Shape).Idx) (q : D.contr.Idx) :
    (D.lhsIdx j q 1).val = (q ⟨0, by have := contr_rank h; omega⟩).val :=
  D.lhsIdx_val_of_single h.lc j q

/-- The right operand's row is the contraction coordinate. -/
theorem rhs_row (h : IsPlain D) (j : (⟨2, ![M, N]⟩ : Shape).Idx) (q : D.contr.Idx) :
    (D.rhsIdx j q 0).val = (q ⟨0, by have := contr_rank h; omega⟩).val :=
  D.rhsIdx_val_of_single h.rc j q

/-- The right operand's column is the result's column. -/
theorem rhs_col (h : IsPlain D) (j : (⟨2, ![M, N]⟩ : Shape).Idx) (q : D.contr.Idx) :
    (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln, h.rn])

/-- The contraction's sum, re-indexed by the shared coordinate k. -/
theorem sum_contr {α : Type*} [AddCommMonoid α] [Mul α] (h : IsPlain D)
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank h) (contr_size h)).symm]
  refine Finset.sum_congr rfl fun k _ => ?_
  have hk := contrEquiv1_symm_val D K (contr_rank h) (contr_size h) k
  have el : D.lhsIdx (ix2 p q) ((contrEquiv1 D K (contr_rank h) (contr_size h)).symm k) = ix2 p k :=
    funext fun a => Fin.ext (by
      match a with
      | ⟨0, _⟩ => exact lhs_row h _ _
      | ⟨1, _⟩ => exact (lhs_col h _ _).trans hk)
  have er : D.rhsIdx (ix2 p q) ((contrEquiv1 D K (contr_rank h) (contr_size h)).symm k) = ix2 k q :=
    funext fun a => Fin.ext (by
      match a with
      | ⟨0, _⟩ => exact (rhs_row h _ _).trans hk
      | ⟨1, _⟩ => exact rhs_col h _ _)
  rw [el, er]

/-- The matrix unit into the zero accumulator, on the extended reals, at (p, q). -/
theorem matmul_zero_apply {φ₁ φ₂ : FTy} (h : IsPlain D) (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) :=
  (Ideal.matmul_constant_zero_apply D prec l r (ix2 p q)).trans (sum_contr h l r p q)

/-- The host's dot product, on the extended reals, at (p, q). -/
theorem dotGeneral_apply {φ₁ φ₂ : FTy} (h : IsPlain D) (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) :=
  (Ideal.dotGeneral_apply D prec sched l r (ix2 p q)).trans (sum_contr h l r p q)

/-- The transpose of an [a, b] array at (p, q) is the array at (q, p). -/
theorem transpose_apply2 {α : Type} {a b : Nat} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with
    | ⟨0, _⟩ => rfl
    | ⟨1, _⟩ => rfl)

end Idealize.ShloMosaic.PlainDot

end
-- ==== Proof.LibBlockViews.lean ====
/-
  Shape casts and one broadcast read at an index, for the re-layings a block meets between its load and the
  matrix unit and between the matrix unit and the pooling sum. A shape cast keeps the row-major position, so each
  statement is an equation between two positions written as sums of products.

  * `dropLead4_apply`: a [1, a, b, c] block viewed as [a, b, c] keeps the entry at (p, j, k);
  * `mergeRows_apply`: an [a, b, c] array viewed as [a * b, c] reads, at (p * b + j, k), the entry (p, j, k);
  * `splitRows_apply`: the view back reads (p * b + j, k) at (p, j, k);
  * `addTrail_apply`: an [a, b] matrix viewed as [a, b, 1] keeps the entry at (p, j);
  * `bcastTrail_apply`: an [a, b, 1] array repeated along a new last axis of extent c reads (p, j, 0) at (p, j, q).
-/
import Idealize.ShloMosaic.Lib.Pipeline.Value
import Idealize.ShloMosaic.Lib.ValueIdx

namespace Cert.Views

open Idealize.ShloMosaic Idealize.ShloMosaic.ValueIdx

/-- A [1, a, b, c] block viewed as an [a, b, c] array reads, at (p, j, k), the block at (0, p, j, k). -/
theorem dropLead4_apply {α : Type} {a b c : ℕ} (x : (⟨4, ![1, a, b, c]⟩ : Shape).Idx → α)
    (h : (⟨4, ![1, a, b, c]⟩ : Shape).ShapeCasts ⟨3, ![a, b, c]⟩) (p : Fin a) (j : Fin b) (k : Fin c) :
    shapeCast ⟨3, ![a, b, c]⟩ x h (ix3 p j k) = x (ix4 (0 : Fin 1) p j k) :=
  shapeCast_apply x h _ _ (by
    rw [Shape.rowMajor_val_four, Shape.rowMajor_val_three]
    show ((0 * a + p.val) * b + j.val) * c + k.val = (p.val * b + j.val) * c + k.val
    rw [Nat.zero_mul, Nat.zero_add])

/-- An [a, b, c] array viewed as [n, c] (n = a * b) reads, at (g, k) with g = p * b + j, the entry (p, j, k). -/
theorem mergeRows_apply {α : Type} {a b c n : ℕ} (x : (⟨3, ![a, b, c]⟩ : Shape).Idx → α)
    (h : (⟨3, ![a, b, c]⟩ : Shape).ShapeCasts ⟨2, ![n, c]⟩) (p : Fin a) (j : Fin b) (g : Fin n)
    (hg : g.val = p.val * b + j.val) (k : Fin c) :
    shapeCast ⟨2, ![n, c]⟩ x h (ix2 g k) = x (ix3 p j k) :=
  shapeCast_apply x h _ _ (by
    rw [Shape.rowMajor_val_three, Shape.rowMajor_val_two]
    show (p.val * b + j.val) * c + k.val = g.val * c + k.val
    rw [hg])

/-- An [n, c] matrix viewed as [a, b, c] (n = a * b) reads, at (p, j, k), the entry (g, k) with g = p * b + j. -/
theorem splitRows_apply {α : Type} {a b c n : ℕ} (x : (⟨2, ![n, c]⟩ : Shape).Idx → α)
    (h : (⟨2, ![n, c]⟩ : Shape).ShapeCasts ⟨3, ![a, b, c]⟩) (p : Fin a) (j : Fin b) (g : Fin n)
    (hg : g.val = p.val * b + j.val) (k : Fin c) :
    shapeCast ⟨3, ![a, b, c]⟩ x h (ix3 p j k) = x (ix2 g k) :=
  shapeCast_apply x h _ _ (by
    rw [Shape.rowMajor_val_three, Shape.rowMajor_val_two]
    show g.val * c + k.val = (p.val * b + j.val) * c + k.val
    rw [hg])

/-- An [a, b] matrix viewed as [a, b, 1] reads, at (p, j, 0), the entry (p, j). -/
theorem addTrail_apply {α : Type} {a b : ℕ} (x : (⟨2, ![a, b]⟩ : Shape).Idx → α)
    (h : (⟨2, ![a, b]⟩ : Shape).ShapeCasts ⟨3, ![a, b, 1]⟩) (p : Fin a) (j : Fin b) (z : Fin 1) :
    shapeCast ⟨3, ![a, b, 1]⟩ x h (ix3 p j z) = x (ix2 p j) :=
  shapeCast_apply x h _ _ (by
    rw [Shape.rowMajor_val_three, Shape.rowMajor_val_two]
    show p.val * b + j.val = (p.val * b + j.val) * 1 + z.val
    have := z.isLt
    omega)

/-- An [a, b, 1] array repeated along its last axis to [a, b, c] reads, at (p, j, q), the entry (p, j, 0). -/
theorem bcastTrail_apply {α : Type} {a b c : ℕ} (x : (⟨3, ![a, b, 1]⟩ : Shape).Idx → α)
    (h : (⟨3, ![a, b, 1]⟩ : Shape).Broadcasts ⟨3, ![a, b, c]⟩) (p : Fin a) (j : Fin b) (q : Fin c) :
    broadcastTo ⟨3, ![a, b, c]⟩ x h (ix3 p j q) = x (ix3 p j (0 : Fin 1)) := by
  refine broadcastTo_apply x h (ix3 p j q) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.Views
-- ==== Proof.LibMidAxis.lean ====
/-
  A unit axis in the middle, and broadcasts along a middle or a leading axis, read at an index: the layout facts an
  outer sum `a[:, None, :] + b[None, :, :]` meets.

  * `addMid_apply`: an [a, b] matrix viewed as [a, 1, b] reads, at (p, 0, q), the matrix at (p, q);
  * `bcastMid_apply`: an [a, 1, b] array broadcast to [a, c, b] reads, at (p, u, q), the array at (p, 0, q);
  * `bcastLead_apply`: a [1, b, c] array broadcast to [a, b, c] reads, at (p, u, q), the array at (0, u, q);
  * `bcastLead2_apply`: a [1, 1, c] array broadcast to [a, b, c] reads, at (p, u, q), the array at (0, 0, q).
  A shape cast keeps the row-major position; a broadcast reads the operand at zero on its unit axes.
-/
import Idealize.ShloMosaic.Lib.Pipeline.Value
import Idealize.ShloMosaic.Lib.ValueIdx

namespace Cert.LibMidAxis

open Idealize.ShloMosaic Idealize.ShloMosaic.ValueIdx

/-- An [a, b] matrix viewed as [a, 1, b] reads, at (p, 0, q), the matrix at (p, q). -/
theorem addMid_apply {α : Type} {a b : ℕ} (x : (⟨2, ![a, b]⟩ : Shape).Idx → α)
    (h : (⟨2, ![a, b]⟩ : Shape).ShapeCasts ⟨3, ![a, 1, b]⟩) (p : Fin a) (q : Fin b) :
    shapeCast ⟨3, ![a, 1, b]⟩ x h (ix3 p (0 : Fin 1) q) = x (ix2 p q) :=
  shapeCast_apply x h _ _ (by
    rw [Shape.rowMajor_val_three, Shape.rowMajor_val_two]
    show p.val * b + q.val = (p.val * 1 + 0) * b + q.val
    rw [Nat.mul_one, Nat.add_zero])

/-- An [a, 1, b] array broadcast to [a, c, b] reads, at (p, u, q), the array at (p, 0, q), whatever `u`. -/
theorem bcastMid_apply {α : Type} {a b c : ℕ} (v : (⟨3, ![a, 1, b]⟩ : Shape).Idx → α)
    (h : (⟨3, ![a, 1, b]⟩ : Shape).Broadcasts ⟨3, ![a, c, b]⟩) (p : Fin a) (u : Fin c) (q : Fin b) :
    broadcastTo ⟨3, ![a, c, b]⟩ v h (ix3 p u q) = v (ix3 p (0 : Fin 1) q) := by
  refine broadcastTo_apply v h (ix3 p u q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if b = 1 then 0 else q.val
    split
    · have := q.isLt; omega
    · rfl

/-- A [1, b, c] array broadcast to [a, b, c] reads, at (p, u, q), the array at (0, u, q), whatever `p`. -/
theorem bcastLead_apply {α : Type} {a b c : ℕ} (v : (⟨3, ![1, b, c]⟩ : Shape).Idx → α)
    (h : (⟨3, ![1, b, c]⟩ : Shape).Broadcasts ⟨3, ![a, b, c]⟩) (p : Fin a) (u : Fin b) (q : Fin c) :
    broadcastTo ⟨3, ![a, b, c]⟩ v h (ix3 p u q) = v (ix3 (0 : Fin 1) u q) := by
  refine broadcastTo_apply v h (ix3 p u q) (ix3 (0 : Fin 1) u q) fun ax => ?_
  match ax with
  | ⟨0, _⟩ => rfl
  | ⟨1, _⟩ =>
    show u.val = if b = 1 then 0 else u.val
    split
    · have := u.isLt; omega
    · rfl
  | ⟨2, _⟩ =>
    show q.val = if c = 1 then 0 else q.val
    split
    · have := q.isLt; omega
    · rfl

/-- A [1, 1, c] array broadcast to [a, b, c] reads, at (p, u, q), the array at (0, 0, q). -/
theorem bcastLead2_apply {α : Type} {a b c : ℕ} (v : (⟨3, ![1, 1, c]⟩ : Shape).Idx → α)
    (h : (⟨3, ![1, 1, c]⟩ : Shape).Broadcasts ⟨3, ![a, b, c]⟩) (p : Fin a) (u : Fin b) (q : Fin c) :
    broadcastTo ⟨3, ![a, b, c]⟩ v h (ix3 p u q) = v (ix3 (0 : Fin 1) (0 : Fin 1) q) := by
  refine broadcastTo_apply v h (ix3 p u q) (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

end Cert.LibMidAxis
-- ==== Proof.LibColBroadcast.lean ====
/- One column broadcast over many: the index fact a kept row reduction (`sum(axis=1, keepdims=True)`) meets when it is
   spread back over the columns of a matrix. -/
import Idealize.ShloMosaic.Lib.Pipeline.Value
import Idealize.ShloMosaic.Lib.ValueIdx

open Idealize.ShloMosaic Idealize.ShloMosaic.ValueIdx

namespace Idealize.ShloMosaic.ColBroadcast

/-- An `[a, 1]` column broadcast to `[a, b]` reads, at `(p, c)`, the column at row `p`, whatever the column index `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColBroadcast
-- ==== Proof.LibLeadSumDotT.lean ====
/-
  Two readings at an index, over the extended reals, for kernels that sum a grouped operand over its LEADING axis and
  multiply a row block against the ROWS of a weight block (`x @ W.T`):

  * `sumLead3_apply` / `sumLead2_apply`: a `vector.multi_reduction <add>` over axis 0 of a rank-3 (rank-2) vector,
    read at `(r, k)` (at `q`), is the sum over `g` of the entries `(g, r, k)` (`(g, q)`);
  * `matmulT_apply`: a `tpu.matmul` into the zero accumulator whose dimension numbers contract axis 1 of BOTH operands
    (`DotDims.transposedRhs M K N`: lhs [M, K], rhs [N, K], out [M, N]), read at `(p, q)`, is
    `Σ k : Fin K, lhs (p, k) * rhs (q, k)`. A printed record `dot_S<M>x<K>_S<N>x<K>_S<M>x<N>_1_1_0_0_n_n` unifies with
    `DotDims.transposedRhs M K N` by unfolding, so the lemma applies to the printed payload by `exact` / `refine … .trans`.
-/
import Idealize.ShloMosaic.PureOps.Ideal.Laws
import Idealize.ShloMosaic.Lib.ValueIdx

noncomputable section

namespace Cert.Lib

open Idealize.ShloMosaic Idealize.ShloMosaic.ValueIdx

/-- The sum over the leading axis of a rank-3 vector, read at `(r, k)`: the sum over `g` of the entries `(g, r, k)`. -/
theorem sumLead3_apply {n0 n1 n2 : Nat} (src : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec 32) = FKind.add.neutral .f32 hφ) (r : Fin n1) (k : Fin n2) :
    multiReduction .add [0] ⟨2, ![n1, n2]⟩ src 0x00000000#32 h hφ hacc (ix2 r k) = ∑ g : Fin n0, src (ix3 g r k) := by
  refine (Ideal.multiReduction_add_single src _ h hφ hacc (ix2 r k)).trans ?_
  refine Finset.sum_congr rfl fun g _ => congrArg src ?_
  funext a
  match a with
  | ⟨0, _⟩ => rfl
  | ⟨1, _⟩ => rfl
  | ⟨2, _⟩ => rfl

/-- The sum over the leading axis of a rank-2 vector, read at `q`: the sum over `g` of the entries `(g, q)`. -/
theorem sumLead2_apply {n0 n1 : Nat} (src : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ) (q : Fin n1) :
    multiReduction .add [0] ⟨1, ![n1]⟩ src 0x00000000#32 h hφ hacc (ix1 q) = ∑ g : Fin n0, src (ix2 g q) := by
  refine (Ideal.multiReduction_add_single src _ h hφ hacc (ix1 q)).trans ?_
  refine Finset.sum_congr rfl fun g _ => congrArg src ?_
  funext a
  match a with
  | ⟨0, _⟩ => rfl
  | ⟨1, _⟩ => rfl

/-! ## A product that contracts the second axis of both operands -/

/-- The left operand's row coordinate is the output's row. -/
theorem lhsT_0 {M K N : Nat} (j : (⟨2, ![M, N]⟩ : Shape).Idx) (k : (DotDims.transposedRhs M K N).contr.Idx) :
    ((DotDims.transposedRhs M K N).lhsIdx j k 0).val = (j 0).val := rfl
/-- The left operand's column coordinate is the contraction coordinate. -/
theorem lhsT_1 {M K N : Nat} (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k
/-- The right operand's row coordinate is the output's column. -/
theorem rhsT_0 {M K N : Nat} (j : (⟨2, ![M, N]⟩ : Shape).Idx) (k : (DotDims.transposedRhs M K N).contr.Idx) :
    ((DotDims.transposedRhs M K N).rhsIdx j k 0).val = (j 1).val := rfl
/-- The right operand's column coordinate is the contraction coordinate. -/
theorem rhsT_1 {M K N : Nat} (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- Into the zero accumulator, such a product read at `(p, q)` is the sum over `k` of `lhs (p, k) * rhs (q, k)`. -/
theorem matmulT_apply {M K N : Nat} {φ₁ φ₂ : FTy} (lhs : FVec Ideal ⟨2, ![M, K]⟩ φ₁) (rhs : FVec Ideal ⟨2, ![N, K]⟩ φ₂)
    (p : Fin M) (q : Fin N) :
    matmul (DotDims.transposedRhs M K N) none lhs rhs (constant (F := Ideal) ⟨2, ![M, N]⟩ .f32 0x00000000#32) (ix2 p q)
      = ∑ k : Fin K, lhs (ix2 p k) * rhs (ix2 q k) := by
  refine (Ideal.matmul_constant_zero_apply (DotDims.transposedRhs M K N) none lhs rhs (ix2 p q)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have hl : (DotDims.transposedRhs M K N).lhsIdx (ix2 p q) ((contrEquiv1 (DotDims.transposedRhs M K N) K rfl rfl).symm k) = ix2 p k := by
    funext a
    match a with
    | ⟨0, _⟩ => exact Fin.ext (lhsT_0 _ _)
    | ⟨1, _⟩ => exact Fin.ext ((lhsT_1 _ _).trans hk)
  have hr : (DotDims.transposedRhs M K N).rhsIdx (ix2 p q) ((contrEquiv1 (DotDims.transposedRhs M K N) K rfl rfl).symm k) = ix2 q k := by
    funext a
    match a with
    | ⟨0, _⟩ => exact Fin.ext (rhsT_0 _ _)
    | ⟨1, _⟩ => exact Fin.ext ((rhsT_1 _ _).trans hk)
  rw [hl, hr]

end Cert.Lib

end
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.Payloads.lean ====
/-
  The two kernels' arithmetic, read entry by entry at the ideal float instance.

  A block holds 1000 pillars; its point rows are numbered pillar by pillar, row `r·32 + p` being point `p` of the
  block's pillar `r`. The body's projection of that row to channel `d` is the specification's projection of the
  pillar's point (`hB`). One block's update of a running total adds, per channel, the sum of those values (or of
  their squares) over the block's 1000 × 32 rows; the second kernel's result at pillar `r`, channel `d` is the
  largest over the pillar's points of the normalised value.
-/
import proofs.«159035_j63986422775810_1_alg».proof.Proof.Spec
import proofs.«159035_j63986422775810_1_alg».proof.Proof.StatsDefs
import proofs.«159035_j63986422775810_1_alg».proof.Proof.PfnDefs
import proofs.«159035_j63986422775810_1_alg».proof.Proof.LibPlainDot
import proofs.«159035_j63986422775810_1_alg».proof.Proof.LibBlockViews
import proofs.«159035_j63986422775810_1_alg».proof.Proof.LibMidAxis
import proofs.«159035_j63986422775810_1_alg».proof.Proof.LibColBroadcast
import proofs.«159035_j63986422775810_1_alg».proof.Proof.LibLeadSumDotT
import proofs.«159035_j63986422775810_1_alg».proof.Proof.LibSumBlocks
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Value

open Idealize.ShloMosaic Idealize.ShloMosaic.ValueIdx Cert.KernelIdeal Cert.KernelIdeal.Gen

/-- Pillar `r` of a block, read off the block's vectors: its points, its point count, its grid coordinates; and the
    projection matrix as a function of two indices. -/
abbrev px (x1 : Vec Ideal S1000x32x4 .f32) (r : Fin 1000) : Fin 32 → Fin 4 → EReal := fun p k => x1 (ix3 r p k)
abbrev pnp (x3 : Vec Ideal S1000x1 .i32) (r : Fin 1000) : BitVec 32 := x3 (ix2 r (0 : Fin 1))
abbrev pco (x2 : Vec Ideal S1000x4 .i32) (r : Fin 1000) : Fin 4 → BitVec 32 := fun k => x2 (ix2 r k)
abbrev pW (x4 : Vec Ideal S10x64 .f32) : Fin 10 → Fin 64 → EReal := fun j d => x4 (ix2 j d)

/-- The projected value of point `p` of the block's pillar `r` in channel `d`. -/
def hB (x1 : Vec Ideal S1000x32x4 .f32) (x2 : Vec Ideal S1000x4 .i32) (x3 : Vec Ideal S1000x1 .i32) (x4 : Vec Ideal S10x64 .f32)
    (r : Fin 1000) (p : Fin 32) (d : Fin 64) : EReal :=
  Cert.Pillar.proj (px x1 r) (pnp x3 r) (pco x2 r) (pW x4) p d

/-- The block's projection: its 32000 point rows by 64 channels (the body's matrix product of the masked features). -/
def projB (x1 : Vec Ideal S1000x32x4 .f32) (x2 : Vec Ideal S1000x4 .i32) (x3 : Vec Ideal S1000x1 .i32) (x4 : Vec Ideal S10x64 .f32) :
    FVec Ideal S32000x64 .f32 :=
  k0_pay1 x1 (k0_pay7 x1) (k0_pay8 x3) (k0_pay9 x1 x3) (k0_pay10 x2) (k0_pay11 x2) (k0_pay12 x2) (Scalar.ofBits .f32 0x40800000#32) x4

/-! ## The body's operations read at an index -/

/-- A one-bit word widened to 32 bits and read as a signed integer is the bit itself. -/
theorem bit_toInt (b : BitVec 1) : (((b.setWidth 32).toInt : ℝ)) = ((b.toNat : ℝ)) := by
  rcases BitVec.eq_zero_or_eq_one b with h | h <;> subst h <;> simp

/-- The mask column of the block at pillar r, point p. -/
theorem pay8_apply (x3 : Vec Ideal S1000x1 .i32) (r : Fin 1000) (p : Fin 32) (z : Fin 1) :
    k0_pay8 (F := Ideal) x3 (ix3 r p z) = Cert.Pillar.mask (pnp x3 r) p := by
  unfold k0_pay8 k0_pay6
  refine (Cert.Views.addTrail_apply _ _ r p z).trans ?_
  have e1 : iota .tc S1000x32 32 [1] iota_S1000x32_d1_w32 (ix2 r p) = BitVec.ofNat 32 p.val :=
    iota_single_apply _ _ _ _ _ _
  have e2 : broadcastTo S1000x32 (shapeCast S1000x1 x3 shapeCasts_S1000x1_S1000x1) broadcasts_S1000x1_S1000x32 (ix2 r p)
      = x3 (ix2 r (0 : Fin 1)) := by
    rw [shapeCast_self]
    exact ColBroadcast.broadcastTo_a1_ab_apply _ _ r p
  show ((((IntOp.cmpi .slt (iota .tc S1000x32 32 [1] iota_S1000x32_d1_w32 (ix2 r p))
      (broadcastTo S1000x32 (shapeCast S1000x1 x3 shapeCasts_S1000x1_S1000x1) broadcasts_S1000x1_S1000x32 (ix2 r p))).setWidth 32).toInt : ℝ) : EReal) = _
  rw [e1, e2, bit_toInt]
  rfl

/-- The first three numbers of each point. -/
theorem pay7_apply (x1 : Vec Ideal S1000x32x4 .f32) (r : Fin 1000) (p : Fin 32) (k : Fin 3) :
    k0_pay7 (F := Ideal) x1 (ix3 r p k) = x1 (ix3 r p k.castSucc) := by
  unfold k0_pay7
  exact extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

/-- The sum over the middle axis of a rank-3 vector, read at (r, k): the sum over g of the entries (r, g, k). -/
theorem sumMid3_apply {n0 n1 n2 : Nat} (src : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = FKind.add.neutral .f32 hφ) (r : Fin n0) (k : Fin n2) :
    multiReduction .add [1] ⟨2, ![n0, n2]⟩ src 0x00000000#32 h hφ hacc (ix2 r k) = ∑ g : Fin n1, src (ix3 r g k) := by
  refine (Ideal.multiReduction_add_single src _ h hφ hacc (ix2 r k)).trans ?_
  refine Finset.sum_congr rfl fun g _ => congrArg src ?_
  funext a
  match a with
  | ⟨0, _⟩ => rfl
  | ⟨1, _⟩ => rfl
  | ⟨2, _⟩ => rfl

/-- Three columns laid side by side, read at (r, k): the k-th column at row r. -/
theorem cat1_apply (A B C : FVec Ideal S1000x1 .f32) (r : Fin 1000) (k : Fin 3) :
    concatenate S1000x3 1 [⟨S1000x1, A⟩, ⟨S1000x1, B⟩, ⟨S1000x1, C⟩] concatenates_S1000x1_S1000x1_S1000x1_S1000x3_d1 (ix2 r k)
      = if k.val = 0 then A (ix2 r (0 : Fin 1)) else if k.val = 1 then B (ix2 r (0 : Fin 1)) else C (ix2 r (0 : Fin 1)) := by
  have hi : ∀ (q : Fin 3) (b : Fin S1000x1.rank), b.cast (rfl : S1000x1.rank = S1000x3.rank) ≠ (1 : Fin 2) →
      ((ix2 r (0 : Fin 1) : S1000x1.Idx) b).val = ((ix2 r q : S1000x3.Idx) (b.cast rfl)).val := fun q b hb => by
    match b with
    | ⟨0, _⟩ => rfl
    | ⟨1, _⟩ => exact absurd rfl hb
  match k with
  | ⟨0, h0⟩ =>
    rw [if_pos rfl]
    exact concatenate_apply_piece (t := S1000x3) (1 : Fin 2) [⟨S1000x1, A⟩, ⟨S1000x1, B⟩, ⟨S1000x1, C⟩]
      concatenates_S1000x1_S1000x1_S1000x1_S1000x3_d1 (ix2 r ⟨0, h0⟩) 0 (show (0 : Nat) < 3 by decide) S1000x1 A rfl rfl 0 rfl
      (ix2 r (0 : Fin 1)) (hi _) rfl
  | ⟨1, h1⟩ =>
    rw [if_neg (show ¬ (1 : Nat) = 0 by decide), if_pos rfl]
    exact concatenate_apply_piece (t := S1000x3) (1 : Fin 2) [⟨S1000x1, A⟩, ⟨S1000x1, B⟩, ⟨S1000x1, C⟩]
      concatenates_S1000x1_S1000x1_S1000x1_S1000x3_d1 (ix2 r ⟨1, h1⟩) 1 (show (1 : Nat) < 3 by decide) S1000x1 B rfl rfl 1 rfl
      (ix2 r (0 : Fin 1)) (hi _) rfl
  | ⟨2, h2⟩ =>
    rw [if_neg (show ¬ (2 : Nat) = 0 by decide), if_neg (show ¬ (2 : Nat) = 1 by decide)]
    exact concatenate_apply_piece (t := S1000x3) (1 : Fin 2) [⟨S1000x1, A⟩, ⟨S1000x1, B⟩, ⟨S1000x1, C⟩]
      concatenates_S1000x1_S1000x1_S1000x1_S1000x3_d1 (ix2 r ⟨2, h2⟩) 2 (show (2 : Nat) < 3 by decide) S1000x1 C rfl rfl 2 rfl
      (ix2 r (0 : Fin 1)) (hi _) rfl

/-- Three groups of a point's numbers laid side by side, read at (r, p, j): the group whose span holds j. -/
theorem cat3_apply (A : FVec Ideal S1000x32x4 .f32) (B C : FVec Ideal S1000x32x3 .f32) (r : Fin 1000) (p : Fin 32) (j : Fin 10) :
    concatenate S1000x32x10 2 [⟨S1000x32x4, A⟩, ⟨S1000x32x3, B⟩, ⟨S1000x32x3, C⟩]
        concatenates_S1000x32x4_S1000x32x3_S1000x32x3_S1000x32x10_d2 (ix3 r p j)
      = if h : j.val < 4 then A (ix3 r p ⟨j.val, h⟩)
        else if h' : j.val < 7 then B (ix3 r p (⟨j.val - 4, by omega⟩ : Fin 3))
        else C (ix3 r p (⟨j.val - 7, by omega⟩ : Fin 3)) := by
  by_cases h : j.val < 4
  · rw [dif_pos h]
    exact concatenate_apply_piece (t := S1000x32x10) (2 : Fin 3) [⟨S1000x32x4, A⟩, ⟨S1000x32x3, B⟩, ⟨S1000x32x3, C⟩]
      concatenates_S1000x32x4_S1000x32x3_S1000x32x3_S1000x32x10_d2 (ix3 r p j) 0 (show (0 : Nat) < 3 by decide) S1000x32x4 A rfl rfl 0 rfl
      (ix3 r p ⟨j.val, h⟩) (fun b hb => by
        match b with
        | ⟨0, _⟩ => rfl
        | ⟨1, _⟩ => rfl
        | ⟨2, _⟩ => exact absurd rfl hb) (Nat.zero_add _)
  · rw [dif_neg h]
    by_cases h' : j.val < 7
    · rw [dif_pos h']
      exact concatenate_apply_piece (t := S1000x32x10) (2 : Fin 3) [⟨S1000x32x4, A⟩, ⟨S1000x32x3, B⟩, ⟨S1000x32x3, C⟩]
        concatenates_S1000x32x4_S1000x32x3_S1000x32x3_S1000x32x10_d2 (ix3 r p j) 1 (show (1 : Nat) < 3 by decide) S1000x32x3 B rfl rfl 4 rfl
        (ix3 r p (⟨j.val - 4, by omega⟩ : Fin 3)) (fun b hb => by
          match b with
          | ⟨0, _⟩ => rfl
          | ⟨1, _⟩ => rfl
          | ⟨2, _⟩ => exact absurd rfl hb) (by show 4 + (j.val - 4) = j.val; omega)
    · rw [dif_neg h']
      exact concatenate_apply_piece (t := S1000x32x10) (2 : Fin 3) [⟨S1000x32x4, A⟩, ⟨S1000x32x3, B⟩, ⟨S1000x32x3, C⟩]
        concatenates_S1000x32x4_S1000x32x3_S1000x32x3_S1000x32x10_d2 (ix3 r p j) 2 (show (2 : Nat) < 3 by decide) S1000x32x3 C rfl rfl 7 rfl
        (ix3 r p (⟨j.val - 7, by omega⟩ : Fin 3)) (fun b hb => by
          match b with
          | ⟨0, _⟩ => rfl
          | ⟨1, _⟩ => rfl
          | ⟨2, _⟩ => exact absurd rfl hb) (by show 7 + (j.val - 7) = j.val; omega)

/-- A grid coordinate's column, as a number plus a half, times the cell's extent. -/
theorem pay10_apply (x2 : Vec Ideal S1000x4 .i32) (r : Fin 1000) :
    k0_pay10 (F := Ideal) x2 (ix2 r (0 : Fin 1))
      = ((((x2 (ix2 r (1 : Fin 4))).toInt : ℝ) : EReal) + Cert.Pillar.half) * Cert.Pillar.cellXY := by
  unfold k0_pay10
  have e : extractStridedSlice S1000x1 ![0, 1] x2 slices_S1000x4_o0_1_S1000x1 (ix2 r (0 : Fin 1)) = x2 (ix2 r (1 : Fin 4)) :=
    slice2_axis1_apply 1 x2 _ r (0 : Fin 1) (1 : Fin 4) rfl
  show ((((extractStridedSlice S1000x1 ![0, 1] x2 slices_S1000x4_o0_1_S1000x1 (ix2 r (0 : Fin 1))).toInt : ℝ) : EReal) + _) * _ = _
  rw [e]
  rfl
theorem pay11_apply (x2 : Vec Ideal S1000x4 .i32) (r : Fin 1000) :
    k0_pay11 (F := Ideal) x2 (ix2 r (0 : Fin 1))
      = ((((x2 (ix2 r (2 : Fin 4))).toInt : ℝ) : EReal) + Cert.Pillar.half) * Cert.Pillar.cellXY := by
  unfold k0_pay11
  have e : extractStridedSlice S1000x1 ![0, 2] x2 slices_S1000x4_o0_2_S1000x1 (ix2 r (0 : Fin 1)) = x2 (ix2 r (2 : Fin 4)) :=
    slice2_axis1_apply 2 x2 _ r (0 : Fin 1) (2 : Fin 4) rfl
  show ((((extractStridedSlice S1000x1 ![0, 2] x2 slices_S1000x4_o0_2_S1000x1 (ix2 r (0 : Fin 1))).toInt : ℝ) : EReal) + _) * _ = _
  rw [e]
  rfl
theorem pay12_apply (x2 : Vec Ideal S1000x4 .i32) (r : Fin 1000) :
    k0_pay12 (F := Ideal) x2 (ix2 r (0 : Fin 1))
      = (((x2 (ix2 r (3 : Fin 4))).toInt : ℝ) : EReal) + Cert.Pillar.half := by
  unfold k0_pay12
  have e : extractStridedSlice S1000x1 ![0, 3] x2 slices_S1000x4_o0_3_S1000x1 (ix2 r (0 : Fin 1)) = x2 (ix2 r (3 : Fin 4)) :=
    slice2_axis1_apply 3 x2 _ r (0 : Fin 1) (3 : Fin 4) rfl
  show (((extractStridedSlice S1000x1 ![0, 3] x2 slices_S1000x4_o0_3_S1000x1 (ix2 r (0 : Fin 1))).toInt : ℝ) : EReal) + _ = _
  rw [e]
  rfl

/-- The pillar's point count, at least one, as a number. -/
theorem count_apply (x3 : Vec Ideal S1000x1 .i32) (r : Fin 1000) :
    (sitofp .f32 (maxsi (k0_pay6 (F := Ideal) x3) (broadcast S1000x1 1#32)) : FVec Ideal S1000x1 .f32) (ix2 r (0 : Fin 1))
      = Cert.Pillar.count (pnp x3 r) := by
  show (((IntOp.maxsi (k0_pay6 (F := Ideal) x3 (ix2 r (0 : Fin 1))) 1#32).toInt : ℝ) : EReal) = _
  unfold k0_pay6
  rw [shapeCast_self]
  rfl

/-- Each point's first three numbers less the pillar's centroid. -/
theorem pay9_apply (x1 : Vec Ideal S1000x32x4 .f32) (x3 : Vec Ideal S1000x1 .i32) (r : Fin 1000) (p : Fin 32) (k : Fin 3) :
    k0_pay9 (F := Ideal) x1 x3 (ix3 r p k) = x1 (ix3 r p k.castSucc) - Cert.Pillar.mean (px x1 r) (pnp x3 r) k := by
  unfold k0_pay9
  refine (subf_apply _ _ _).trans ?_
  rw [pay7_apply]
  refine congrArg (x1 (ix3 r p k.castSucc) - ·) ?_
  refine (Cert.LibMidAxis.bcastMid_apply _ _ r p k).trans ?_
  refine (Cert.LibMidAxis.addMid_apply _ _ r k).trans ?_
  refine (divf_apply _ _ _).trans ?_
  unfold Cert.Pillar.mean
  refine congrArg₂ Ideal.div ?_ ?_
  · refine (sumMid3_apply _ _ _ _ r k).trans ?_
    refine Finset.sum_congr rfl fun q _ => ?_
    refine (mulf_apply _ _ _).trans ?_
    rw [pay7_apply]
    refine congrArg (x1 (ix3 r q k.castSucc) * ·) ?_
    refine (Cert.Views.bcastTrail_apply _ _ r q k).trans ?_
    exact pay8_apply x3 r q 0
  · refine (ColBroadcast.broadcastTo_a1_ab_apply _ _ r k).trans ?_
    exact count_apply x3 r

/-- The pillar's cell centre, spread over its points. -/
theorem center_apply (x2 : Vec Ideal S1000x4 .i32) (r : Fin 1000) (p : Fin 32) (k : Fin 3) :
    broadcastTo S1000x32x3 (shapeCast S1000x1x3 (concatenate S1000x3 1
        [⟨S1000x1, k0_pay10 (F := Ideal) x2⟩, ⟨S1000x1, k0_pay11 (F := Ideal) x2⟩,
         ⟨S1000x1, mulf (k0_pay12 (F := Ideal) x2) (broadcast S1000x1 (Scalar.ofBits .f32 0x40800000#32))⟩]
        concatenates_S1000x1_S1000x1_S1000x1_S1000x3_d1) shapeCasts_S1000x3_S1000x1x3) broadcasts_S1000x1x3_S1000x32x3 (ix3 r p k)
      = Cert.Pillar.center (pco x2 r) k := by
  refine (Cert.LibMidAxis.bcastMid_apply _ _ r p k).trans ?_
  refine (Cert.LibMidAxis.addMid_apply _ _ r k).trans ?_
  refine (cat1_apply _ _ _ r k).trans ?_
  match k with
  | ⟨0, _⟩ =>
    rw [if_pos rfl, pay10_apply]
    rfl
  | ⟨1, _⟩ =>
    rw [if_neg (show ¬ (1 : Nat) = 0 by decide), if_pos rfl, pay11_apply]
    rfl
  | ⟨2, _⟩ =>
    rw [if_neg (show ¬ (2 : Nat) = 0 by decide), if_neg (show ¬ (2 : Nat) = 1 by decide)]
    refine (mulf_apply _ _ _).trans ?_
    rw [pay12_apply]
    rfl

/-- A point's ten features before the mask, as the body lays them side by side. -/
theorem feat10_apply (x1 : Vec Ideal S1000x32x4 .f32) (x2 : Vec Ideal S1000x4 .i32) (x3 : Vec Ideal S1000x1 .i32)
    (r : Fin 1000) (p : Fin 32) (j : Fin 10) (C : FVec Ideal S1000x32x3 .f32)
    (hC : ∀ k : Fin 3, C (ix3 r p k) = x1 (ix3 r p k.castSucc) - Cert.Pillar.center (pco x2 r) k) :
    concatenate S1000x32x10 2 [⟨S1000x32x4, x1⟩, ⟨S1000x32x3, k0_pay9 (F := Ideal) x1 x3⟩, ⟨S1000x32x3, C⟩]
        concatenates_S1000x32x4_S1000x32x3_S1000x32x3_S1000x32x10_d2 (ix3 r p j)
      = Cert.Pillar.feat10 (px x1 r p) (Cert.Pillar.mean (px x1 r) (pnp x3 r)) (Cert.Pillar.center (pco x2 r)) j := by
  refine (cat3_apply _ _ _ r p j).trans ?_
  unfold Cert.Pillar.feat10
  by_cases h : j.val < 4
  · rw [dif_pos h, dif_pos h]
  · rw [dif_neg h, dif_neg h]
    by_cases h' : j.val < 7
    · rw [dif_pos h', dif_pos h', pay9_apply]
      rfl
    · rw [dif_neg h', dif_neg h', hC]
      rfl

/-! ## The block's projection and the two running totals -/

/-- Row `r·32 + p` of the block's projection is point `p` of pillar `r`. -/
theorem projB_apply (x1 : Vec Ideal S1000x32x4 .f32) (x2 : Vec Ideal S1000x4 .i32) (x3 : Vec Ideal S1000x1 .i32) (x4 : Vec Ideal S10x64 .f32)
    (r : Fin 1000) (p : Fin 32) (d : Fin 64) :
    projB x1 x2 x3 x4 (ix2 (⟨r.val * 32 + p.val, by have := r.isLt; have := p.isLt; omega⟩ : Fin 32000) d) = hB x1 x2 x3 x4 r p d := by
  unfold projB k0_pay1
  refine (PlainDot.matmul_zero_apply ⟨rfl, rfl, rfl, rfl, rfl, rfl⟩ none _ _ _ d).trans ?_
  unfold hB Cert.Pillar.proj
  refine Finset.sum_congr rfl fun j _ => ?_
  refine congrArg₂ (· * ·) ?_ ?_
  · refine (truncf_apply (ψ := .bf16) _ bitsLt_bf16_f32 _).trans ?_
    refine (Cert.Views.mergeRows_apply _ _ r p _ rfl j).trans ?_
    refine (mulf_apply _ _ _).trans ?_
    unfold Cert.Pillar.feat
    refine congrArg₂ (· * ·) ?_ ?_
    · refine feat10_apply x1 x2 x3 r p j _ fun k => ?_
      refine (subf_apply _ _ _).trans ?_
      rw [pay7_apply]
      exact congrArg (x1 (ix3 r p k.castSucc) - ·) (center_apply x2 r p k)
    · refine (Cert.Views.bcastTrail_apply _ _ r p j).trans ?_
      exact pay8_apply x3 r p 0
  · rfl

/-- The two zero rows the first block starts from. -/
theorem zeroS_apply (d : Fin 64) : (k0_pay4 (F := Ideal)) (ix2 (0 : Fin 1) d) = 0 := by
  unfold k0_pay4
  refine (congrFun (shapeCast_self _ _) _).trans ?_
  exact Ideal.ofBits_zero_f32
theorem zeroQ_apply (d : Fin 64) : (k0_pay5 (F := Ideal)) (ix2 (0 : Fin 1) d) = 0 := by
  unfold k0_pay5
  refine (congrFun (shapeCast_self _ _) _).trans ?_
  exact Ideal.ofBits_zero_f32

/-- One block's update of the row of channel sums, at channel `d`. -/
theorem stepS_apply (x1 : Vec Ideal S1000x32x4 .f32) (x2 : Vec Ideal S1000x4 .i32) (x3 : Vec Ideal S1000x1 .i32) (x4 : Vec Ideal S10x64 .f32)
    (s : Vec Ideal S1x64 .f32) (d : Fin 64) :
    Cert.KernelIdeal.Stats.stepS x1 x2 x3 x4 s (ix2 (0 : Fin 1) d)
      = s (ix2 (0 : Fin 1) d) + ∑ r : Fin 1000, ∑ p : Fin 32, hB x1 x2 x3 x4 r p d := by
  unfold Cert.KernelIdeal.Stats.stepS k0_pay2
  refine (congrFun (shapeCast_self _ _) _).trans ?_
  refine (addf_apply _ _ _).trans ?_
  refine congrArg (s (ix2 (0 : Fin 1) d) + ·) ?_
  refine (shapeCast_a_1a_apply _ _ (0 : Fin 1) d).trans ?_
  refine (Cert.Lib.sumLead2_apply _ _ _ _ d).trans ?_
  refine (Fin.sum_rowMajor2 1000 32 _).trans ?_
  refine Finset.sum_congr rfl fun r _ => Finset.sum_congr rfl fun p _ => ?_
  exact projB_apply x1 x2 x3 x4 r p d

/-- One block's update of the row of channel sums of squares, at channel `d`. -/
theorem stepQ_apply (x1 : Vec Ideal S1000x32x4 .f32) (x2 : Vec Ideal S1000x4 .i32) (x3 : Vec Ideal S1000x1 .i32) (x4 : Vec Ideal S10x64 .f32)
    (q : Vec Ideal S1x64 .f32) (d : Fin 64) :
    Cert.KernelIdeal.Stats.stepQ x1 x2 x3 x4 q (ix2 (0 : Fin 1) d)
      = q (ix2 (0 : Fin 1) d) + ∑ r : Fin 1000, ∑ p : Fin 32, hB x1 x2 x3 x4 r p d * hB x1 x2 x3 x4 r p d := by
  unfold Cert.KernelIdeal.Stats.stepQ k0_pay3
  refine (congrFun (shapeCast_self _ _) _).trans ?_
  refine (addf_apply _ _ _).trans ?_
  refine congrArg (q (ix2 (0 : Fin 1) d) + ·) ?_
  refine (shapeCast_a_1a_apply _ _ (0 : Fin 1) d).trans ?_
  refine (Cert.Lib.sumLead2_apply _ _ _ _ d).trans ?_
  refine (Fin.sum_rowMajor2 1000 32 _).trans ?_
  refine Finset.sum_congr rfl fun r _ => Finset.sum_congr rfl fun p _ => ?_
  refine (mulf_apply _ _ _).trans ?_
  exact congrArg₂ (· * ·) (projB_apply x1 x2 x3 x4 r p d) (projB_apply x1 x2 x3 x4 r p d)

end Cert.KernelIdeal.Value

end
-- ==== Proof.AccSum.lean ====
/-
  The running totals after the last block, as plain sums: at the ideal float instance the row of channel sums after
  block 99 holds, in channel `d`, the sum over the 100 blocks, over each block's 1000 pillars and over each pillar's 32
  points of the projected value; the row of sums of squares the same sum of the squares. (Each block adds its own sum
  to what the row held, starting from zero: a left-nested sum in block order, which addition's associativity and
  commutativity on the extended reals make the plain sum.)
-/
import proofs.«159035_j63986422775810_1_alg».proof.Proof.Payloads
import Mathlib.Algebra.BigOperators.Fin

set_option maxRecDepth 16384

noncomputable section

namespace Cert.KernelIdeal.Value

open Idealize.ShloMosaic Idealize.ShloMosaic.TcCoe Idealize.ShloMosaic.ValueIdx Idealize.SL.Sem Cert.KernelIdeal Cert.KernelIdeal.Gen
open Cert.KernelIdeal.Stats (accS accQ fblk cblk nblk wblk)

variable (V : (c : Dev nD) → (b : Ref sig .tc) → Buf (Elt Ideal) ((c : Thread nD τ).loc b))

/-- A running total over `N` steps that starts at `0 + b 0` and adds `b (n + 1)` at step `n + 1` holds, after step
    `n`, the sum of `b 0, …, b n` (a term past the last step counts as zero); -/
theorem total_eq_sum {M : Type*} [AddCommMonoid M] {N : ℕ} (a : (n : ℕ) → n < N → M) (b : Fin N → M)
    (h0 : ∀ h : 0 < N, a 0 h = 0 + b ⟨0, h⟩)
    (hs : ∀ (n : ℕ) (h : n + 1 < N), a (n + 1) h = a n (Nat.lt_of_succ_lt h) + b ⟨n + 1, h⟩)
    (n : ℕ) (h : n < N) : a n h = ∑ t ∈ Finset.range (n + 1), (if ht : t < N then b ⟨t, ht⟩ else 0) := by
  induction n with
  | zero => rw [h0 h, zero_add, Finset.sum_range_one, dif_pos h]
  | succ n ih => rw [hs n h, ih (Nat.lt_of_succ_lt h), Finset.sum_range_succ _ (n + 1), dif_pos h]

/-- so after its last step it holds the sum of all the `b t`. -/
theorem total_last {M : Type*} [AddCommMonoid M] {N : ℕ} (a : (n : ℕ) → n < N → M) (b : Fin N → M)
    (h0 : ∀ h : 0 < N, a 0 h = 0 + b ⟨0, h⟩)
    (hs : ∀ (n : ℕ) (h : n + 1 < N), a (n + 1) h = a n (Nat.lt_of_succ_lt h) + b ⟨n + 1, h⟩)
    (n : ℕ) (h : n < N) (hn : n + 1 = N) : a n h = ∑ t : Fin N, b t := by
  subst hn
  rw [total_eq_sum a b h0 hs n h, Finset.sum_range]
  exact Fintype.sum_congr _ _ fun t => dif_pos t.isLt

/-- The row of channel sums after the last block, at channel `d`. -/
theorem accS_last (c : Dev nD) (d : Fin 64) :
    accS V c 99 (by decide) (ix2 (0 : Fin 1) d)
      = ∑ t : Fin cfg0.N, ∑ r : Fin 1000, ∑ p : Fin 32, hB (fblk V c t) (cblk V c t) (nblk V c t) (wblk V c t) r p d := by
  refine total_last (M := EReal) (fun n h => accS V c n h (ix2 (0 : Fin 1) d))
    (fun t => ∑ r : Fin 1000, ∑ p : Fin 32, hB (fblk V c t) (cblk V c t) (nblk V c t) (wblk V c t) r p d) ?_ ?_ 99 _ (by decide)
  · intro h
    show accS V c 0 h (ix2 (0 : Fin 1) d) = _
    rw [Stats.accS_zero V c h,
      stepS_apply (fblk V c ⟨0, h⟩) (cblk V c ⟨0, h⟩) (nblk V c ⟨0, h⟩) (wblk V c ⟨0, h⟩) (k0_pay4 (F := Ideal)) d, zeroS_apply]
  · intro n h
    show accS V c (n + 1) h (ix2 (0 : Fin 1) d) = accS V c n (Nat.lt_of_succ_lt h) (ix2 (0 : Fin 1) d) + _
    rw [Stats.accS_succ V c n h,
      stepS_apply (fblk V c ⟨n + 1, h⟩) (cblk V c ⟨n + 1, h⟩) (nblk V c ⟨n + 1, h⟩) (wblk V c ⟨n + 1, h⟩) (accS V c n (Nat.lt_of_succ_lt h)) d]

/-- The row of channel sums of squares after the last block, at channel `d`. -/
theorem accQ_last (c : Dev nD) (d : Fin 64) :
    accQ V c 99 (by decide) (ix2 (0 : Fin 1) d)
      = ∑ t : Fin cfg0.N, ∑ r : Fin 1000, ∑ p : Fin 32,
          hB (fblk V c t) (cblk V c t) (nblk V c t) (wblk V c t) r p d * hB (fblk V c t) (cblk V c t) (nblk V c t) (wblk V c t) r p d := by
  refine total_last (M := EReal) (fun n h => accQ V c n h (ix2 (0 : Fin 1) d))
    (fun t => ∑ r : Fin 1000, ∑ p : Fin 32,
      hB (fblk V c t) (cblk V c t) (nblk V c t) (wblk V c t) r p d * hB (fblk V c t) (cblk V c t) (nblk V c t) (wblk V c t) r p d) ?_ ?_ 99 _ (by decide)
  · intro h
    show accQ V c 0 h (ix2 (0 : Fin 1) d) = _
    rw [Stats.accQ_zero V c h,
      stepQ_apply (fblk V c ⟨0, h⟩) (cblk V c ⟨0, h⟩) (nblk V c ⟨0, h⟩) (wblk V c ⟨0, h⟩) (k0_pay5 (F := Ideal)) d, zeroQ_apply]
  · intro n h
    show accQ V c (n + 1) h (ix2 (0 : Fin 1) d) = accQ V c n (Nat.lt_of_succ_lt h) (ix2 (0 : Fin 1) d) + _
    rw [Stats.accQ_succ V c n h,
      stepQ_apply (fblk V c ⟨n + 1, h⟩) (cblk V c ⟨n + 1, h⟩) (nblk V c ⟨n + 1, h⟩) (wblk V c ⟨n + 1, h⟩) (accQ V c n (Nat.lt_of_succ_lt h)) d]

end Cert.KernelIdeal.Value

end
-- ==== Proof.PayloadsPfn.lean ====
/-
  The second kernel's arithmetic, read entry by entry at the ideal float instance: its result at pillar `r` of the
  block, channel `d`, is the largest over the pillar's 32 points of the projected value less the channel's mean, times
  the reciprocal square root of the channel's variance plus the small constant, times the first of the affine pair,
  plus the second, clamped below at zero.
-/
import proofs.«159035_j63986422775810_1_alg».proof.Proof.Payloads
import proofs.«159035_j63986422775810_1_alg».proof.Proof.LibMidAxis
import proofs.«159035_j63986422775810_1_alg».proof.Proof.LibBlockViews

noncomputable section

namespace Cert.KernelIdeal.Value

open Idealize.ShloMosaic Idealize.ShloMosaic.ValueIdx Cert.KernelIdeal Cert.KernelIdeal.Gen

/-- A row of 64 channel values, viewed as a [1, 1, 64] array and repeated over 1000 pillars of 32 points, reads at
    (r, p, d) the row's entry d. -/
theorem rowBcast_apply {α : Type} (x : S1x64.Idx → α) (r : Fin 1000) (p : Fin 32) (d : Fin 64) :
    broadcastTo S1000x32x64 (shapeCast S1x1x64 (shapeCast S1x64 x shapeCasts_S1x64_S1x64) shapeCasts_S1x64_S1x1x64)
        broadcasts_S1x1x64_S1000x32x64 (ix3 r p d) = x (ix2 (0 : Fin 1) d) := by
  refine (Cert.LibMidAxis.bcastLead2_apply _ _ r p d).trans ?_
  refine (shapeCast_ab_1ab_apply _ _ (0 : Fin 1) (0 : Fin 1) d).trans ?_
  exact congrFun (shapeCast_self x _) _

/-- The largest value along the middle axis of a rank-3 array, read at (r, d): the fold of `max`, from the
    accumulator's value, over p of the entries (r, p, d). -/
theorem maxMid3_apply {n0 n1 n2 : Nat} (src : FVec Ideal ⟨3, ![n0, n1, n2]⟩ .f32) (acc : BitVec 32)
    (h : (⟨3, ![n0, n1, n2]⟩ : Shape).Reduces [1] ⟨2, ![n0, n2]⟩) (hφ : FKind.Formats .f32)
    (hacc : acc = FKind.maximumf.neutral .f32 hφ) (r : Fin n0) (d : Fin n2) :
    multiReduction .maximumf [1] ⟨2, ![n0, n2]⟩ src acc h hφ hacc (ix2 r d)
      = (Finset.univ : Finset (Fin n1)).fold max (Ideal.ofBits .f32 acc) (fun p => src (ix3 r p d)) := by
  refine (Ideal.multiReduction_maximumf_single src acc h hφ hacc (ix2 r d)).trans ?_
  refine Finset.fold_congr fun p _ => congrArg src ?_
  funext a
  match a with
  | ⟨0, _⟩ => rfl
  | ⟨1, _⟩ => rfl
  | ⟨2, _⟩ => rfl

/-- The reciprocal square root of the variance row plus the small constant, repeated over pillars and points, reads at
    (r, p, d) the reciprocal square root of the row's entry d plus the constant. -/
theorem rsBcast_apply (xvar : Vec Ideal S1x64 .f32) (r : Fin 1000) (p : Fin 32) (d : Fin 64) :
    broadcastTo S1000x32x64
        (rsqrt (addf (shapeCast S1x1x64 (shapeCast S1x64 xvar shapeCasts_S1x64_S1x64) shapeCasts_S1x64_S1x1x64)
          (broadcast S1x1x64 (FloatOps.ofBits (F := Ideal) .f32 0x3A83126F#32))))
        broadcasts_S1x1x64_S1000x32x64 (ix3 r p d)
      = Ideal.rsqrt (xvar (ix2 (0 : Fin 1) d) + Cert.Pillar.eps) := by
  refine (Cert.LibMidAxis.bcastLead2_apply _ _ r p d).trans ?_
  show Ideal.rsqrt (shapeCast S1x1x64 (shapeCast S1x64 xvar shapeCasts_S1x64_S1x64) shapeCasts_S1x64_S1x1x64
      (ix3 (0 : Fin 1) (0 : Fin 1) d) + Cert.Pillar.eps) = _
  refine congrArg (fun t => Ideal.rsqrt (t + Cert.Pillar.eps)) ?_
  refine (shapeCast_ab_1ab_apply _ _ (0 : Fin 1) (0 : Fin 1) d).trans ?_
  exact congrFun (shapeCast_self xvar _) _

/-- The second kernel's matrix product of the masked features is the first kernel's: the same operations on the same
    four blocks. -/
theorem pfnProj_eq (x1 : Vec Ideal S1000x32x4 .f32) (x2 : Vec Ideal S1000x4 .i32) (x3 : Vec Ideal S1000x1 .i32) (x4 : Vec Ideal S10x64 .f32) :
    matmul dot_S32000x10_S10x64_S32000x64_1_0_0_1_n_n none
        (truncf .bf16
          (shapeCast S32000x10
            (mulf
              (concatenate S1000x32x10 2 [⟨S1000x32x4, x1⟩, ⟨S1000x32x3, k1_pay5 x1 x3⟩, ⟨S1000x32x3, k1_pay6 x1 x2⟩]
                concatenates_S1000x32x4_S1000x32x3_S1000x32x3_S1000x32x10_d2)
              (broadcastTo S1000x32x10 (k1_pay4 x3) broadcasts_S1000x32x1_S1000x32x10))
            shapeCasts_S1000x32x10_S32000x10)
          bitsLt_bf16_f32)
        (truncf .bf16 x4 bitsLt_bf16_f32) (constant (F := Ideal) S32000x64 .f32 0x00000000#32)
      = projB x1 x2 x3 x4 := rfl

/-- The second kernel's result block at pillar `r`, channel `d`. -/
theorem outBlock_apply (x1 : Vec Ideal S1000x32x4 .f32) (x2 : Vec Ideal S1000x4 .i32) (x3 : Vec Ideal S1000x1 .i32) (x4 : Vec Ideal S10x64 .f32)
    (xg xb xmu xvar : Vec Ideal S1x64 .f32) (r : Fin 1000) (d : Fin 64) :
    Cert.KernelIdeal.Pfn.outBlock x1 x2 x3 x4 xg xb xmu xvar (ix2 r d)
      = Cert.Pillar.pool (fun p => hB x1 x2 x3 x4 r p d) (xmu (ix2 (0 : Fin 1) d)) (xvar (ix2 (0 : Fin 1) d))
          (xg (ix2 (0 : Fin 1) d)) (xb (ix2 (0 : Fin 1) d)) := by
  unfold Pfn.outBlock k1_pay1
  refine (maxMid3_apply _ _ _ _ _ r d).trans ?_
  unfold Cert.Pillar.pool
  refine Finset.fold_congr fun p _ => ?_
  unfold Cert.Pillar.norm
  refine (maximumf_apply _ _ _).trans ?_
  refine congrArg (fun t => max t Cert.Pillar.zero) ?_
  refine (addf_apply _ _ _).trans ?_
  refine congrArg₂ (fun s t => s + t) ?_ (rowBcast_apply xb r p d)
  refine (mulf_apply _ _ _).trans ?_
  refine congrArg₂ (fun s t => s * t) ?_ (rowBcast_apply xg r p d)
  refine (mulf_apply _ _ _).trans ?_
  refine congrArg₂ (fun s t => s * t) ?_ (rsBcast_apply xvar r p d)
  refine (subf_apply _ _ _).trans ?_
  refine congrArg₂ (fun s t => s - t) ?_ (rowBcast_apply xmu r p d)
  refine (Cert.Views.splitRows_apply _ _ r p ⟨r.val * 32 + p.val, by have := r.isLt; have := p.isLt; omega⟩ rfl d).trans ?_
  exact (congrFun (pfnProj_eq x1 x2 x3 x4) _).trans (projB_apply x1 x2 x3 x4 r p d)

end Cert.KernelIdeal.Value

end
-- ==== Proof.KernelValue.lean ====
/-
  The kernel program's result, entry by entry, is the specification's: pillar `n`, channel `d` of the result array holds
  the largest over the pillar's 32 points of the projected value, normalised with the channel's mean and its variance
  taken as the mean of the squares less the square of the mean, sent through the affine pair and clamped at zero.

  Row `n` of the result array was written by block `n / 1000` as its row `n mod 1000`; the block's pillars are the
  arrays' pillars `1000·(n / 1000) + r`; the mean and variance rows it read are the statistics region's two result
  rows over 3200000, and those rows are the sums over all hundred blocks, which are the sums over all pillars.
-/
import proofs.«159035_j63986422775810_1_alg».proof.Proof.HostMid
import proofs.«159035_j63986422775810_1_alg».proof.Proof.StatsValue
import proofs.«159035_j63986422775810_1_alg».proof.Proof.PfnValue
import proofs.«159035_j63986422775810_1_alg».proof.Proof.AccSum
import proofs.«159035_j63986422775810_1_alg».proof.Proof.PayloadsPfn
import proofs.«159035_j63986422775810_1_alg».proof.Proof.LibSumBlocks

set_option maxRecDepth 16384

noncomputable section

namespace Cert.KernelIdeal.Run

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The six argument arrays as launched and the result array after the run, at their literal types. -/
abbrev a0 (c : Dev nD) : FVec Ideal S100000x32x4 .f32 := m ((c : Thread nD τ).loc main_arg0)
abbrev a1 (c : Dev nD) : FVec Ideal S10x64 .f32 := m ((c : Thread nD τ).loc main_arg1)
abbrev a2 (c : Dev nD) : FVec Ideal S64 .f32 := m ((c : Thread nD τ).loc main_arg2)
abbrev a3 (c : Dev nD) : FVec Ideal S64 .f32 := m ((c : Thread nD τ).loc main_arg3)
abbrev a4 (c : Dev nD) : IVec S100000 32 := m ((c : Thread nD τ).loc main_arg4)
abbrev a5 (c : Dev nD) : IVec S100000x4 32 := m ((c : Thread nD τ).loc main_arg5)
abbrev outArr (c : Dev nD) : FVec Ideal S100000x64 .f32 := (Pfn.dat (E3 m) c).arrAt 8 cfg1.N

namespace Final

/-! ## Small congruences -/

/-- The projection depends only on the pillar's points, count and coordinates and on the matrix. -/
theorem proj_congr {x x' : Fin 32 → Fin 4 → EReal} {np np' : BitVec 32} {co co' : Fin 4 → BitVec 32}
    {W W' : Fin 10 → Fin 64 → EReal} (hx : x = x') (hn : np = np') (hc : co = co') (hW : W = W') (p : Fin 32) (d : Fin 64) :
    Cert.Pillar.proj x np co W p d = Cert.Pillar.proj x' np' co' W' p d := by
  subst hx hn hc hW; rfl

/-- The pooled value depends only on the pillar's projected values and on the channel's four numbers. -/
theorem pool_congr {h h' : Fin 32 → EReal} {mu mu' var var' g g' b b' : EReal}
    (hh : h = h') (hmu : mu = mu') (hvar : var = var') (hg : g = g') (hb : b = b') :
    Cert.Pillar.pool h mu var g b = Cert.Pillar.pool h' mu' var' g' b' := by
  subst hh hmu hvar hg hb; rfl

/-- A sum over 100 blocks of 1000 pillars is the sum over the 100000 pillars: pillar `1000·t + r` is pillar `r` of
    block `t`. -/
theorem sum_blocks {M : Type*} [AddCommMonoid M] {N : ℕ} (hN : N = 100) (g : Fin N → Fin 1000 → M) (f : Fin 100000 → M)
    (hg : ∀ (t : Fin N) (r : Fin 1000), g t r = f ⟨1000 * t.val + r.val, by have := t.isLt; have := r.isLt; omega⟩) :
    ∑ t : Fin N, ∑ r : Fin 1000, g t r = ∑ n : Fin 100000, f n := by
  subst hN
  refine Eq.trans ?_ (Fin.sum_rowMajor2 100 1000 f).symm
  refine Finset.sum_congr rfl fun t _ => Finset.sum_congr rfl fun r _ => ?_
  refine (hg t r).trans (congrArg f (Fin.ext ?_))
  show 1000 * t.val + r.val = t.val * 1000 + r.val
  rw [Nat.mul_comm]

/-! ## A block's pillar is the arrays' pillar -/

section Blocks

variable (V : (c : Dev nD) → (b : Ref sig .tc) → Buf (Elt Ideal) ((c : Thread nD τ).loc b)) (c : Dev nD)
  (b0 : FVec Ideal S100000x32x4 .f32) (b1 : FVec Ideal S10x64 .f32) (b4 : IVec S100000 32) (b5 : IVec S100000x4 32)

/-- In the normalisation region, point `p` of pillar `r` of block `t` projects as point `p` of the arrays' pillar
    `1000·t + r`, whatever contents the region is entered at, as long as the four arrays it reads are the given ones. -/
theorem hB_pfn (h0 : (V c main_arg0 : FVec Ideal S100000x32x4 .f32) = b0) (h1 : (V c main_arg1 : FVec Ideal S10x64 .f32) = b1)
    (h5 : (V c main_arg5 : IVec S100000x4 32) = b5)
    (h4 : ∀ n : Fin 100000, (V c main_v0 : IVec S100000x1 32) (ix2 n (0 : Fin 1)) = b4 (ix1 n))
    (t : Fin cfg1.N) (r : Fin 1000) (p : Fin 32) (d : Fin 64) :
    Value.hB (Pfn.fblk V c t) (Pfn.cblk V c t) (Pfn.nblk V c t) (Pfn.wblk V c t) r p d
      = Cert.Pillar.H (fun n p k => b0 (ix3 n p k)) (fun n => b4 (ix1 n)) (fun n k => b5 (ix2 n k)) (fun j d => b1 (ix2 j d))
          (⟨1000 * t.val + r.val, by have := t.isLt; have := r.isLt; have : cfg1.N = 100 := N_1; omega⟩ : Fin 100000) p d :=
  proj_congr
    (funext fun p => funext fun k => (Pfn.fblk_apply V c t r p k).trans (congrFun h0 _))
    ((Pfn.nblk_apply V c t r).trans (h4 _))
    (funext fun k => (Pfn.cblk_apply V c t r k).trans (congrFun h5 _))
    (funext fun j => funext fun d => congrFun ((Pfn.wblk_eq V c t).trans h1) _) p d

/-- The same in the statistics region. -/
theorem hB_stats (h0 : (V c main_arg0 : FVec Ideal S100000x32x4 .f32) = b0) (h1 : (V c main_arg1 : FVec Ideal S10x64 .f32) = b1)
    (h5 : (V c main_arg5 : IVec S100000x4 32) = b5)
    (h4 : ∀ n : Fin 100000, (V c main_v0 : IVec S100000x1 32) (ix2 n (0 : Fin 1)) = b4 (ix1 n))
    (t : Fin cfg0.N) (r : Fin 1000) (p : Fin 32) (d : Fin 64) :
    Value.hB (Stats.fblk V c t) (Stats.cblk V c t) (Stats.nblk V c t) (Stats.wblk V c t) r p d
      = Cert.Pillar.H (fun n p k => b0 (ix3 n p k)) (fun n => b4 (ix1 n)) (fun n k => b5 (ix2 n k)) (fun j d => b1 (ix2 j d))
          (⟨1000 * t.val + r.val, by have := t.isLt; have := r.isLt; have : cfg0.N = 100 := N_0; omega⟩ : Fin 100000) p d :=
  proj_congr
    (funext fun p => funext fun k => (Stats.fblk_apply V c t r p k).trans (congrFun h0 _))
    ((Stats.nblk_apply V c t r).trans (h4 _))
    (funext fun k => (Stats.cblk_apply V c t r k).trans (congrFun h5 _))
    (funext fun j => funext fun d => congrFun ((Stats.wblk_eq V c t).trans h1) _) p d

end Blocks

/-! ## The arguments as the specification reads them -/

/-- The pillars' points, point counts and grid coordinates and the projection matrix, as functions of plain indices. -/
abbrev aX (c : Dev nD) : Fin 100000 → Fin 32 → Fin 4 → EReal := fun n p k => a0 m c (ix3 n p k)
abbrev aNP (c : Dev nD) : Fin 100000 → BitVec 32 := fun n => a4 m c (ix1 n)
abbrev aCO (c : Dev nD) : Fin 100000 → Fin 4 → BitVec 32 := fun n k => a5 m c (ix2 n k)
abbrev aW (c : Dev nD) : Fin 10 → Fin 64 → EReal := fun j d => a1 m c (ix2 j d)

/-! ## The statistics region's two rows, the mean and the variance -/

/-- The row of channel sums the statistics region leaves is the sum over all pillars and points. -/
theorem sRow_spec (c : Dev nD) (d : Fin 64) :
    sRow m c (ix2 (0 : Fin 1) d) = Cert.Pillar.sumH (aX m c) (aNP m c) (aCO m c) (aW m c) d := by
  refine (congrFun (Stats.final_S (E1 m) c) _).trans ?_
  refine (Value.accS_last (E1 m) c d).trans ?_
  unfold Cert.Pillar.sumH
  exact sum_blocks N_0 _ (fun n => ∑ p : Fin 32, Cert.Pillar.H (aX m c) (aNP m c) (aCO m c) (aW m c) n p d)
    (fun t r => Finset.sum_congr rfl fun p _ =>
      hB_stats (E1 m) c (a0 m c) (a1 m c) (a4 m c) (a5 m c) (E1_arg0 m c) (E1_arg1 m c) (E1_arg5 m c) (E1_v0 m c) t r p d)

/-- The row of channel sums of squares likewise. -/
theorem qRow_spec (c : Dev nD) (d : Fin 64) :
    qRow m c (ix2 (0 : Fin 1) d) = Cert.Pillar.sumSq (aX m c) (aNP m c) (aCO m c) (aW m c) d := by
  refine (congrFun (Stats.final_Q (E1 m) c) _).trans ?_
  refine (Value.accQ_last (E1 m) c d).trans ?_
  unfold Cert.Pillar.sumSq
  exact sum_blocks N_0 _ (fun n => ∑ p : Fin 32, Cert.Pillar.H (aX m c) (aNP m c) (aCO m c) (aW m c) n p d
      * Cert.Pillar.H (aX m c) (aNP m c) (aCO m c) (aW m c) n p d)
    (fun t r => Finset.sum_congr rfl fun p _ =>
      congrArg (fun h => h * h)
        (hB_stats (E1 m) c (a0 m c) (a1 m c) (a4 m c) (a5 m c) (E1_arg0 m c) (E1_arg1 m c) (E1_arg5 m c) (E1_v0 m c) t r p d))

/-- The row of channel means the normalisation region reads. -/
theorem muRow_spec (c : Dev nD) (d : Fin 64) :
    muRow m c (ix2 (0 : Fin 1) d) = Cert.Pillar.mu (aX m c) (aNP m c) (aCO m c) (aW m c) d := by
  refine (muRow_apply m c d).trans ?_
  unfold Cert.Pillar.mu
  exact congrArg (fun s => Ideal.div s Cert.Pillar.total) (sRow_spec m c d)

/-- The row of channel variances the normalisation region reads: the mean of the squares less the square of the mean. -/
theorem varRow_spec (c : Dev nD) (d : Fin 64) :
    varRow m c (ix2 (0 : Fin 1) d) = Cert.Pillar.varK (aX m c) (aNP m c) (aCO m c) (aW m c) d := by
  refine (varRow_apply m c d).trans ?_
  unfold Cert.Pillar.varK
  exact congrArg₂ (fun q u => Ideal.div q Cert.Pillar.total - u * u) (qRow_spec m c d) (muRow_spec m c d)

end Final

/-- The result array at pillar `n`, channel `d`. -/
theorem final_value (c : Dev nD) (n : Fin 100000) (d : Fin 64) :
    outArr m c (ix2 n d)
      = Cert.Pillar.outK (fun n p k => a0 m c (ix3 n p k)) (fun n => a4 m c (ix1 n)) (fun n k => a5 m c (ix2 n k))
          (fun j d => a1 m c (ix2 j d)) (fun d => a2 m c (ix1 d)) (fun d => a3 m c (ix1 d)) n d := by
  unfold Cert.Pillar.outK
  refine (Pfn.final_out (E3 m) c n d).trans ?_
  refine (Value.outBlock_apply _ _ _ _ _ _ _ _ _ d).trans ?_
  refine Final.pool_congr (funext fun p => ?_) ?_ ?_ ?_ ?_
  · refine (Final.hB_pfn (E3 m) c (a0 m c) (a1 m c) (a4 m c) (a5 m c) (E3_arg0 m c) (E3_arg1 m c) (E3_arg5 m c) (E3_v0 m c) _ _ p d).trans ?_
    exact congrArg (fun k => Cert.Pillar.H (Final.aX m c) (Final.aNP m c) (Final.aCO m c) (Final.aW m c) k p d)
      (Fin.ext (Nat.div_add_mod n.val 1000))
  · exact (congrFun (Pfn.mublk_eq (E3 m) c _) _).trans (Final.muRow_spec m c d)
  · exact (congrFun (Pfn.varblk_eq (E3 m) c _) _).trans (Final.varRow_spec m c d)
  · exact (congrFun (Pfn.gblk_eq (E3 m) c _) _).trans (E3_v1 m c d)
  · exact (congrFun (Pfn.bblk_eq (E3 m) c _) _).trans (E3_v2 m c d)

end Cert.KernelIdeal.Run

end
-- ==== Proof.RefTerm.lean ====
/- The reference program's result as one function of its six arguments: the operations of its @main in order, each
  line the operation applied to the lines it reads, the three helper functions it calls (the variance, the select it
  ends with, the clamp at zero) written out where they are called. A layout of the printed program, no argument. -/
import proofs.«159035_j63986422775810_1_alg».proof.ReferenceIdeal
import proofs.«159035_j63986422775810_1_alg».proof.Proof.Gen.ReferenceIdeal

noncomputable section

namespace Cert.ReferenceIdeal.Hand

open Idealize.ShloMosaic Cert.ReferenceIdeal
open Cert.ReferenceIdeal.Facts₀

variable {F : FTy → Type} [FloatOps F]

/-- What the reference leaves in its result buffer, from its arguments' contents. -/
def res (main_arg0 : FVec F S100000x32x4 .f32) (main_arg1 : FVec F S10x64 .f32) (main_arg2 : FVec F S64 .f32) (main_arg3 : FVec F S64 .f32)
    (main_arg4 : IVec S100000 32) (main_arg5 : IVec S100000x4 32) : FVec F S100000x64 .f32 :=
  have main_cst : FVec F S3 .f32 := (fun i => FloatOps.ofBits .f32 (lit0 (S3.rowMajor i)))
  have main_v0 : FVec F S100000x32x3 .f32 := ((extractStridedSlice S100000x32x3 ![0, 0, 0] · slices_S100000x32x4_S100000x32x3_0_0_0) : (⟨S100000x32x4, .f32⟩ : BufTy).Contents (Elt F) → (⟨S100000x32x3, .f32⟩ : BufTy).Contents (Elt F)) main_arg0
  have main_v1 : IVec S32 32 := (iotaInDim S32 32 0)
  have main_v2 : IVec S1x32 32 := (broadcastInDim S1x32 ![1] bcast_S32_S1x32_1 : (⟨S32, .i32⟩ : BufTy).Contents (Elt F) → (⟨S1x32, .i32⟩ : BufTy).Contents (Elt F)) main_v1
  have main_v3 : IVec S100000x1 32 := (broadcastInDim S100000x1 ![0] bcast_S100000_S100000x1_0 : (⟨S100000, .i32⟩ : BufTy).Contents (Elt F) → (⟨S100000x1, .i32⟩ : BufTy).Contents (Elt F)) main_arg4
  have main_v4 : IVec S100000x32 32 := (broadcastInDim S100000x32 ![0, 1] bcast_S1x32_S100000x32_0_1 : (⟨S1x32, .i32⟩ : BufTy).Contents (Elt F) → (⟨S100000x32, .i32⟩ : BufTy).Contents (Elt F)) main_v2
  have main_v5 : IVec S100000x32 32 := (broadcastInDim S100000x32 ![0, 1] bcast_S100000x1_S100000x32_0_1 : (⟨S100000x1, .i32⟩ : BufTy).Contents (Elt F) → (⟨S100000x32, .i32⟩ : BufTy).Contents (Elt F)) main_v3
  have main_v6 : IVec S100000x32 1 := (cmpi .slt : (⟨S100000x32, .i32⟩ : BufTy).Contents (Elt F) → (⟨S100000x32, .i32⟩ : BufTy).Contents (Elt F) → (⟨S100000x32, .i1⟩ : BufTy).Contents (Elt F)) main_v4 main_v5
  have main_v7 : FVec F S100000x32 .f32 := (uitofp .f32 : (⟨S100000x32, .i1⟩ : BufTy).Contents (Elt F) → (⟨S100000x32, .f32⟩ : BufTy).Contents (Elt F)) main_v6
  have main_v8 : FVec F S100000x32x1 .f32 := (broadcastInDim S100000x32x1 ![0, 1] bcast_S100000x32_S100000x32x1_0_1 : (⟨S100000x32, .f32⟩ : BufTy).Contents (Elt F) → (⟨S100000x32x1, .f32⟩ : BufTy).Contents (Elt F)) main_v7
  have main_c : IVec S_ 32 := (constantI S_ 32 1#32)
  have main_v9 : IVec S100000 32 := (broadcastInDim S100000 ![] bcast_S_S100000 : (⟨S_, .i32⟩ : BufTy).Contents (Elt F) → (⟨S100000, .i32⟩ : BufTy).Contents (Elt F)) main_c
  have main_v10 : IVec S100000 32 := (maxsi : (⟨S100000, .i32⟩ : BufTy).Contents (Elt F) → (⟨S100000, .i32⟩ : BufTy).Contents (Elt F) → (⟨S100000, .i32⟩ : BufTy).Contents (Elt F)) main_arg4 main_v9
  have main_v11 : FVec F S100000 .f32 := (sitofp .f32 : (⟨S100000, .i32⟩ : BufTy).Contents (Elt F) → (⟨S100000, .f32⟩ : BufTy).Contents (Elt F)) main_v10
  have main_v12 : FVec F S100000x1 .f32 := (broadcastInDim S100000x1 ![0] bcast_S100000_S100000x1_0 : (⟨S100000, .f32⟩ : BufTy).Contents (Elt F) → (⟨S100000x1, .f32⟩ : BufTy).Contents (Elt F)) main_v11
  have main_v13 : FVec F S100000x32x3 .f32 := (broadcastInDim S100000x32x3 ![0, 1, 2] bcast_S100000x32x1_S100000x32x3_0_1_2 : (⟨S100000x32x1, .f32⟩ : BufTy).Contents (Elt F) → (⟨S100000x32x3, .f32⟩ : BufTy).Contents (Elt F)) main_v8
  have main_v14 : FVec F S100000x32x3 .f32 := (mulf : (⟨S100000x32x3, .f32⟩ : BufTy).Contents (Elt F) → (⟨S100000x32x3, .f32⟩ : BufTy).Contents (Elt F) → (⟨S100000x32x3, .f32⟩ : BufTy).Contents (Elt F)) main_v0 main_v13
  have main_cst_0 : FVec F S_ .f32 := (constant S_ .f32 0x00000000#32)
  have main_v15 : FVec F S100000x3 .f32 := ((fun x v => Host.reduceAdd x v reducesTo_S100000x32x3_S100000x3_d1 h_S_) : (⟨S100000x32x3, .f32⟩ : BufTy).Contents (Elt F) → (⟨S_, .f32⟩ : BufTy).Contents (Elt F) → (⟨S100000x3, .f32⟩ : BufTy).Contents (Elt F)) main_v14 main_cst_0
  have main_v16 : FVec F S100000x3 .f32 := (broadcastInDim S100000x3 ![0, 1] bcast_S100000x1_S100000x3_0_1 : (⟨S100000x1, .f32⟩ : BufTy).Contents (Elt F) → (⟨S100000x3, .f32⟩ : BufTy).Contents (Elt F)) main_v12
  have main_v17 : FVec F S100000x3 .f32 := (Host.divf : (⟨S100000x3, .f32⟩ : BufTy).Contents (Elt F) → (⟨S100000x3, .f32⟩ : BufTy).Contents (Elt F) → (⟨S100000x3, .f32⟩ : BufTy).Contents (Elt F)) main_v15 main_v16
  have main_v18 : FVec F S100000x1x3 .f32 := (broadcastInDim S100000x1x3 ![0, 2] bcast_S100000x3_S100000x1x3_0_2 : (⟨S100000x3, .f32⟩ : BufTy).Contents (Elt F) → (⟨S100000x1x3, .f32⟩ : BufTy).Contents (Elt F)) main_v17
  have main_v19 : FVec F S100000x32x3 .f32 := (broadcastInDim S100000x32x3 ![0, 1, 2] bcast_S100000x1x3_S100000x32x3_0_1_2 : (⟨S100000x1x3, .f32⟩ : BufTy).Contents (Elt F) → (⟨S100000x32x3, .f32⟩ : BufTy).Contents (Elt F)) main_v18
  have main_v20 : FVec F S100000x32x3 .f32 := (subf : (⟨S100000x32x3, .f32⟩ : BufTy).Contents (Elt F) → (⟨S100000x32x3, .f32⟩ : BufTy).Contents (Elt F) → (⟨S100000x32x3, .f32⟩ : BufTy).Contents (Elt F)) main_v0 main_v19
  have main_v21 : IVec S100000x3 32 := ((extractStridedSlice S100000x3 ![0, 1] · slices_S100000x4_S100000x3_0_1) : (⟨S100000x4, .i32⟩ : BufTy).Contents (Elt F) → (⟨S100000x3, .i32⟩ : BufTy).Contents (Elt F)) main_arg5
  have main_v22 : FVec F S100000x3 .f32 := (sitofp .f32 : (⟨S100000x3, .i32⟩ : BufTy).Contents (Elt F) → (⟨S100000x3, .f32⟩ : BufTy).Contents (Elt F)) main_v21
  have main_cst_1 : FVec F S_ .f32 := (constant S_ .f32 0x3F000000#32)
  have main_v23 : FVec F S100000x3 .f32 := (broadcastInDim S100000x3 ![] bcast_S_S100000x3 : (⟨S_, .f32⟩ : BufTy).Contents (Elt F) → (⟨S100000x3, .f32⟩ : BufTy).Contents (Elt F)) main_cst_1
  have main_v24 : FVec F S100000x3 .f32 := (addf : (⟨S100000x3, .f32⟩ : BufTy).Contents (Elt F) → (⟨S100000x3, .f32⟩ : BufTy).Contents (Elt F) → (⟨S100000x3, .f32⟩ : BufTy).Contents (Elt F)) main_v22 main_v23
  have main_v25 : FVec F S1x3 .f32 := (broadcastInDim S1x3 ![1] bcast_S3_S1x3_1 : (⟨S3, .f32⟩ : BufTy).Contents (Elt F) → (⟨S1x3, .f32⟩ : BufTy).Contents (Elt F)) main_cst
  have main_v26 : FVec F S100000x3 .f32 := (broadcastInDim S100000x3 ![0, 1] bcast_S1x3_S100000x3_0_1 : (⟨S1x3, .f32⟩ : BufTy).Contents (Elt F) → (⟨S100000x3, .f32⟩ : BufTy).Contents (Elt F)) main_v25
  have main_v27 : FVec F S100000x3 .f32 := (mulf : (⟨S100000x3, .f32⟩ : BufTy).Contents (Elt F) → (⟨S100000x3, .f32⟩ : BufTy).Contents (Elt F) → (⟨S100000x3, .f32⟩ : BufTy).Contents (Elt F)) main_v24 main_v26
  have main_v28 : FVec F S100000x1x3 .f32 := (broadcastInDim S100000x1x3 ![0, 2] bcast_S100000x3_S100000x1x3_0_2 : (⟨S100000x3, .f32⟩ : BufTy).Contents (Elt F) → (⟨S100000x1x3, .f32⟩ : BufTy).Contents (Elt F)) main_v27
  have main_v29 : FVec F S100000x32x3 .f32 := (broadcastInDim S100000x32x3 ![0, 1, 2] bcast_S100000x1x3_S100000x32x3_0_1_2 : (⟨S100000x1x3, .f32⟩ : BufTy).Contents (Elt F) → (⟨S100000x32x3, .f32⟩ : BufTy).Contents (Elt F)) main_v28
  have main_v30 : FVec F S100000x32x3 .f32 := (subf : (⟨S100000x32x3, .f32⟩ : BufTy).Contents (Elt F) → (⟨S100000x32x3, .f32⟩ : BufTy).Contents (Elt F) → (⟨S100000x32x3, .f32⟩ : BufTy).Contents (Elt F)) main_v0 main_v29
  have main_v31 : FVec F S100000x32x10 .f32 := concatenate S100000x32x10 2 [⟨S100000x32x4, main_arg0⟩, ⟨S100000x32x3, main_v20⟩, ⟨S100000x32x3, main_v30⟩] concatenates_S100000x32x4_S100000x32x3_S100000x32x3_S100000x32x10_d2
  have main_v32 : FVec F S100000x32x10 .f32 := (broadcastInDim S100000x32x10 ![0, 1, 2] bcast_S100000x32x1_S100000x32x10_0_1_2 : (⟨S100000x32x1, .f32⟩ : BufTy).Contents (Elt F) → (⟨S100000x32x10, .f32⟩ : BufTy).Contents (Elt F)) main_v8
  have main_v33 : FVec F S100000x32x10 .f32 := (mulf : (⟨S100000x32x10, .f32⟩ : BufTy).Contents (Elt F) → (⟨S100000x32x10, .f32⟩ : BufTy).Contents (Elt F) → (⟨S100000x32x10, .f32⟩ : BufTy).Contents (Elt F)) main_v31 main_v32
  have main_v34 : FVec F S100000x32x64 .f32 := ((fun l r => Host.dotGeneral dot_S100000x32x10_S10x64_S100000x32x64_2_0_01_1_n_n none l r) : (⟨S100000x32x10, .f32⟩ : BufTy).Contents (Elt F) → (⟨S10x64, .f32⟩ : BufTy).Contents (Elt F) → (⟨S100000x32x64, .f32⟩ : BufTy).Contents (Elt F)) main_v33 main_arg1
  have main_cst_2 : FVec F S_ .f32 := (constant S_ .f32 0x00000000#32)
  have main_v35 : FVec F S64 .f32 := ((fun x v => Host.reduceAdd x v reducesTo_S100000x32x64_S64_d0_1 h_S_) : (⟨S100000x32x64, .f32⟩ : BufTy).Contents (Elt F) → (⟨S_, .f32⟩ : BufTy).Contents (Elt F) → (⟨S64, .f32⟩ : BufTy).Contents (Elt F)) main_v34 main_cst_2
  have main_cst_3 : FVec F S_ .f32 := (constant S_ .f32 0x4A435000#32)
  have main_v36 : FVec F S64 .f32 := (broadcastInDim S64 ![] bcast_S_S64 : (⟨S_, .f32⟩ : BufTy).Contents (Elt F) → (⟨S64, .f32⟩ : BufTy).Contents (Elt F)) main_cst_3
  have main_v37 : FVec F S64 .f32 := (Host.divf : (⟨S64, .f32⟩ : BufTy).Contents (Elt F) → (⟨S64, .f32⟩ : BufTy).Contents (Elt F) → (⟨S64, .f32⟩ : BufTy).Contents (Elt F)) main_v35 main_v36
  have main_c_4 : IVec S_ 32 := (constantI S_ 32 0#32)
  have main_call0_cst : FVec F S_ .f32 := (constant S_ .f32 0x00000000#32)
  have main_call0_v0 : FVec F S64 .f32 := (fun x v => Host.reduceAdd x v reducesTo_S100000x32x64_S64_d0_1 h_S_) main_v34 main_call0_cst
  have main_call0_v1 : FVec F S1x1x64 .f32 := (broadcastInDim S1x1x64 ![2] bcast_S64_S1x1x64_2) main_call0_v0
  have main_call0_cst_0 : FVec F S_ .f32 := (constant S_ .f32 0x4A435000#32)
  have main_call0_v2 : FVec F S1x1x64 .f32 := (broadcastInDim S1x1x64 ![] bcast_S_S1x1x64) main_call0_cst_0
  have main_call0_v3 : FVec F S1x1x64 .f32 := Host.divf main_call0_v1 main_call0_v2
  have main_call0_v4 : FVec F S100000x32x64 .f32 := (broadcastInDim S100000x32x64 ![0, 1, 2] bcast_S1x1x64_S100000x32x64_0_1_2) main_call0_v3
  have main_call0_v5 : FVec F S100000x32x64 .f32 := subf main_v34 main_call0_v4
  have main_call0_v6 : FVec F S100000x32x64 .f32 := mulf main_call0_v5 main_call0_v5
  have main_call0_v7 : FVec F S_ .f32 := (sitofp .f32) main_c_4
  have main_call0_cst_1 : FVec F S_ .f32 := (constant S_ .f32 0x4A435000#32)
  have main_call0_v8 : FVec F S_ .f32 := subf main_call0_cst_1 main_call0_v7
  have main_call0_cst_2 : FVec F S_ .f32 := (constant S_ .f32 0x00000000#32)
  have main_call0_v9 : FVec F S64 .f32 := (fun x v => Host.reduceAdd x v reducesTo_S100000x32x64_S64_d0_1 h_S_) main_call0_v6 main_call0_cst_2
  have main_call0_v10 : FVec F S64 .f32 := (broadcastInDim S64 ![] bcast_S_S64) main_call0_v8
  have main_call0_v11 : FVec F S64 .f32 := Host.divf main_call0_v9 main_call0_v10
  have main_call0_cst_3 : FVec F S_ .f32 := (constant S_ .f32 0x00000000#32)
  have main_call0_v12 : IVec S_ 1 := (cmpf .ogt) main_call0_v8 main_call0_cst_3
  have main_call0_cst_4 : FVec F S_ .f32 := (constant S_ .f32 0x7FC00000#32)
  have main_call0_call0_v0 : FVec F S_ .f32 := id main_call0_cst_4
  have main_call0_call0_v1 : FVec F S64 .f32 := (broadcastInDim S64 ![] bcast_S_S64) main_call0_call0_v0
  have main_v38 : FVec F S64 .f32 := (fun p a b => select (broadcastInDim S64 ![] bcast_S_S64 p) a b) main_call0_v12 main_call0_v11 main_call0_call0_v1
  have main_v39 : FVec F S1x1x64 .f32 := (broadcastInDim S1x1x64 ![2] bcast_S64_S1x1x64_2 : (⟨S64, .f32⟩ : BufTy).Contents (Elt F) → (⟨S1x1x64, .f32⟩ : BufTy).Contents (Elt F)) main_v37
  have main_v40 : FVec F S100000x32x64 .f32 := (broadcastInDim S100000x32x64 ![0, 1, 2] bcast_S1x1x64_S100000x32x64_0_1_2 : (⟨S1x1x64, .f32⟩ : BufTy).Contents (Elt F) → (⟨S100000x32x64, .f32⟩ : BufTy).Contents (Elt F)) main_v39
  have main_v41 : FVec F S100000x32x64 .f32 := (subf : (⟨S100000x32x64, .f32⟩ : BufTy).Contents (Elt F) → (⟨S100000x32x64, .f32⟩ : BufTy).Contents (Elt F) → (⟨S100000x32x64, .f32⟩ : BufTy).Contents (Elt F)) main_v34 main_v40
  have main_cst_5 : FVec F S_ .f32 := (constant S_ .f32 0x3A83126F#32)
  have main_v42 : FVec F S64 .f32 := (broadcastInDim S64 ![] bcast_S_S64 : (⟨S_, .f32⟩ : BufTy).Contents (Elt F) → (⟨S64, .f32⟩ : BufTy).Contents (Elt F)) main_cst_5
  have main_v43 : FVec F S64 .f32 := (addf : (⟨S64, .f32⟩ : BufTy).Contents (Elt F) → (⟨S64, .f32⟩ : BufTy).Contents (Elt F) → (⟨S64, .f32⟩ : BufTy).Contents (Elt F)) main_v38 main_v42
  have main_v44 : FVec F S64 .f32 := (Host.rsqrt : (⟨S64, .f32⟩ : BufTy).Contents (Elt F) → (⟨S64, .f32⟩ : BufTy).Contents (Elt F)) main_v43
  have main_v45 : FVec F S1x1x64 .f32 := (broadcastInDim S1x1x64 ![2] bcast_S64_S1x1x64_2 : (⟨S64, .f32⟩ : BufTy).Contents (Elt F) → (⟨S1x1x64, .f32⟩ : BufTy).Contents (Elt F)) main_v44
  have main_v46 : FVec F S100000x32x64 .f32 := (broadcastInDim S100000x32x64 ![0, 1, 2] bcast_S1x1x64_S100000x32x64_0_1_2 : (⟨S1x1x64, .f32⟩ : BufTy).Contents (Elt F) → (⟨S100000x32x64, .f32⟩ : BufTy).Contents (Elt F)) main_v45
  have main_v47 : FVec F S100000x32x64 .f32 := (mulf : (⟨S100000x32x64, .f32⟩ : BufTy).Contents (Elt F) → (⟨S100000x32x64, .f32⟩ : BufTy).Contents (Elt F) → (⟨S100000x32x64, .f32⟩ : BufTy).Contents (Elt F)) main_v41 main_v46
  have main_v48 : FVec F S1x1x64 .f32 := (broadcastInDim S1x1x64 ![2] bcast_S64_S1x1x64_2 : (⟨S64, .f32⟩ : BufTy).Contents (Elt F) → (⟨S1x1x64, .f32⟩ : BufTy).Contents (Elt F)) main_arg2
  have main_v49 : FVec F S100000x32x64 .f32 := (broadcastInDim S100000x32x64 ![0, 1, 2] bcast_S1x1x64_S100000x32x64_0_1_2 : (⟨S1x1x64, .f32⟩ : BufTy).Contents (Elt F) → (⟨S100000x32x64, .f32⟩ : BufTy).Contents (Elt F)) main_v48
  have main_v50 : FVec F S100000x32x64 .f32 := (mulf : (⟨S100000x32x64, .f32⟩ : BufTy).Contents (Elt F) → (⟨S100000x32x64, .f32⟩ : BufTy).Contents (Elt F) → (⟨S100000x32x64, .f32⟩ : BufTy).Contents (Elt F)) main_v47 main_v49
  have main_v51 : FVec F S1x1x64 .f32 := (broadcastInDim S1x1x64 ![2] bcast_S64_S1x1x64_2 : (⟨S64, .f32⟩ : BufTy).Contents (Elt F) → (⟨S1x1x64, .f32⟩ : BufTy).Contents (Elt F)) main_arg3
  have main_v52 : FVec F S100000x32x64 .f32 := (broadcastInDim S100000x32x64 ![0, 1, 2] bcast_S1x1x64_S100000x32x64_0_1_2 : (⟨S1x1x64, .f32⟩ : BufTy).Contents (Elt F) → (⟨S100000x32x64, .f32⟩ : BufTy).Contents (Elt F)) main_v51
  have main_v53 : FVec F S100000x32x64 .f32 := (addf : (⟨S100000x32x64, .f32⟩ : BufTy).Contents (Elt F) → (⟨S100000x32x64, .f32⟩ : BufTy).Contents (Elt F) → (⟨S100000x32x64, .f32⟩ : BufTy).Contents (Elt F)) main_v50 main_v52
  have main_call1_cst : FVec F S_ .f32 := (constant S_ .f32 0x00000000#32)
  have main_call1_v0 : FVec F S100000x32x64 .f32 := (broadcastInDim S100000x32x64 ![] bcast_S_S100000x32x64) main_call1_cst
  have main_v54 : FVec F S100000x32x64 .f32 := maximumf main_v53 main_call1_v0
  have main_cst_6 : FVec F S_ .f32 := (constant S_ .f32 0xFF800000#32)
  have main_v55 : FVec F S100000x64 .f32 := ((fun x v => Host.reduce FloatOps.maximumf x v reducesTo_S100000x32x64_S100000x64_d1 h_S_) : (⟨S100000x32x64, .f32⟩ : BufTy).Contents (Elt F) → (⟨S_, .f32⟩ : BufTy).Contents (Elt F) → (⟨S100000x64, .f32⟩ : BufTy).Contents (Elt F)) main_v54 main_cst_6
  main_v55

/-- The masked ten features of every point: the lines of `res` up to the projection's left operand. -/
def featT (main_arg0 : FVec F S100000x32x4 .f32) (main_arg4 : IVec S100000 32) (main_arg5 : IVec S100000x4 32) : FVec F S100000x32x10 .f32 :=
  have main_cst : FVec F S3 .f32 := (fun i => FloatOps.ofBits .f32 (lit0 (S3.rowMajor i)))
  have main_v0 : FVec F S100000x32x3 .f32 := ((extractStridedSlice S100000x32x3 ![0, 0, 0] · slices_S100000x32x4_S100000x32x3_0_0_0) : (⟨S100000x32x4, .f32⟩ : BufTy).Contents (Elt F) → (⟨S100000x32x3, .f32⟩ : BufTy).Contents (Elt F)) main_arg0
  have main_v1 : IVec S32 32 := (iotaInDim S32 32 0)
  have main_v2 : IVec S1x32 32 := (broadcastInDim S1x32 ![1] bcast_S32_S1x32_1 : (⟨S32, .i32⟩ : BufTy).Contents (Elt F) → (⟨S1x32, .i32⟩ : BufTy).Contents (Elt F)) main_v1
  have main_v3 : IVec S100000x1 32 := (broadcastInDim S100000x1 ![0] bcast_S100000_S100000x1_0 : (⟨S100000, .i32⟩ : BufTy).Contents (Elt F) → (⟨S100000x1, .i32⟩ : BufTy).Contents (Elt F)) main_arg4
  have main_v4 : IVec S100000x32 32 := (broadcastInDim S100000x32 ![0, 1] bcast_S1x32_S100000x32_0_1 : (⟨S1x32, .i32⟩ : BufTy).Contents (Elt F) → (⟨S100000x32, .i32⟩ : BufTy).Contents (Elt F)) main_v2
  have main_v5 : IVec S100000x32 32 := (broadcastInDim S100000x32 ![0, 1] bcast_S100000x1_S100000x32_0_1 : (⟨S100000x1, .i32⟩ : BufTy).Contents (Elt F) → (⟨S100000x32, .i32⟩ : BufTy).Contents (Elt F)) main_v3
  have main_v6 : IVec S100000x32 1 := (cmpi .slt : (⟨S100000x32, .i32⟩ : BufTy).Contents (Elt F) → (⟨S100000x32, .i32⟩ : BufTy).Contents (Elt F) → (⟨S100000x32, .i1⟩ : BufTy).Contents (Elt F)) main_v4 main_v5
  have main_v7 : FVec F S100000x32 .f32 := (uitofp .f32 : (⟨S100000x32, .i1⟩ : BufTy).Contents (Elt F) → (⟨S100000x32, .f32⟩ : BufTy).Contents (Elt F)) main_v6
  have main_v8 : FVec F S100000x32x1 .f32 := (broadcastInDim S100000x32x1 ![0, 1] bcast_S100000x32_S100000x32x1_0_1 : (⟨S100000x32, .f32⟩ : BufTy).Contents (Elt F) → (⟨S100000x32x1, .f32⟩ : BufTy).Contents (Elt F)) main_v7
  have main_c : IVec S_ 32 := (constantI S_ 32 1#32)
  have main_v9 : IVec S100000 32 := (broadcastInDim S100000 ![] bcast_S_S100000 : (⟨S_, .i32⟩ : BufTy).Contents (Elt F) → (⟨S100000, .i32⟩ : BufTy).Contents (Elt F)) main_c
  have main_v10 : IVec S100000 32 := (maxsi : (⟨S100000, .i32⟩ : BufTy).Contents (Elt F) → (⟨S100000, .i32⟩ : BufTy).Contents (Elt F) → (⟨S100000, .i32⟩ : BufTy).Contents (Elt F)) main_arg4 main_v9
  have main_v11 : FVec F S100000 .f32 := (sitofp .f32 : (⟨S100000, .i32⟩ : BufTy).Contents (Elt F) → (⟨S100000, .f32⟩ : BufTy).Contents (Elt F)) main_v10
  have main_v12 : FVec F S100000x1 .f32 := (broadcastInDim S100000x1 ![0] bcast_S100000_S100000x1_0 : (⟨S100000, .f32⟩ : BufTy).Contents (Elt F) → (⟨S100000x1, .f32⟩ : BufTy).Contents (Elt F)) main_v11
  have main_v13 : FVec F S100000x32x3 .f32 := (broadcastInDim S100000x32x3 ![0, 1, 2] bcast_S100000x32x1_S100000x32x3_0_1_2 : (⟨S100000x32x1, .f32⟩ : BufTy).Contents (Elt F) → (⟨S100000x32x3, .f32⟩ : BufTy).Contents (Elt F)) main_v8
  have main_v14 : FVec F S100000x32x3 .f32 := (mulf : (⟨S100000x32x3, .f32⟩ : BufTy).Contents (Elt F) → (⟨S100000x32x3, .f32⟩ : BufTy).Contents (Elt F) → (⟨S100000x32x3, .f32⟩ : BufTy).Contents (Elt F)) main_v0 main_v13
  have main_cst_0 : FVec F S_ .f32 := (constant S_ .f32 0x00000000#32)
  have main_v15 : FVec F S100000x3 .f32 := ((fun x v => Host.reduceAdd x v reducesTo_S100000x32x3_S100000x3_d1 h_S_) : (⟨S100000x32x3, .f32⟩ : BufTy).Contents (Elt F) → (⟨S_, .f32⟩ : BufTy).Contents (Elt F) → (⟨S100000x3, .f32⟩ : BufTy).Contents (Elt F)) main_v14 main_cst_0
  have main_v16 : FVec F S100000x3 .f32 := (broadcastInDim S100000x3 ![0, 1] bcast_S100000x1_S100000x3_0_1 : (⟨S100000x1, .f32⟩ : BufTy).Contents (Elt F) → (⟨S100000x3, .f32⟩ : BufTy).Contents (Elt F)) main_v12
  have main_v17 : FVec F S100000x3 .f32 := (Host.divf : (⟨S100000x3, .f32⟩ : BufTy).Contents (Elt F) → (⟨S100000x3, .f32⟩ : BufTy).Contents (Elt F) → (⟨S100000x3, .f32⟩ : BufTy).Contents (Elt F)) main_v15 main_v16
  have main_v18 : FVec F S100000x1x3 .f32 := (broadcastInDim S100000x1x3 ![0, 2] bcast_S100000x3_S100000x1x3_0_2 : (⟨S100000x3, .f32⟩ : BufTy).Contents (Elt F) → (⟨S100000x1x3, .f32⟩ : BufTy).Contents (Elt F)) main_v17
  have main_v19 : FVec F S100000x32x3 .f32 := (broadcastInDim S100000x32x3 ![0, 1, 2] bcast_S100000x1x3_S100000x32x3_0_1_2 : (⟨S100000x1x3, .f32⟩ : BufTy).Contents (Elt F) → (⟨S100000x32x3, .f32⟩ : BufTy).Contents (Elt F)) main_v18
  have main_v20 : FVec F S100000x32x3 .f32 := (subf : (⟨S100000x32x3, .f32⟩ : BufTy).Contents (Elt F) → (⟨S100000x32x3, .f32⟩ : BufTy).Contents (Elt F) → (⟨S100000x32x3, .f32⟩ : BufTy).Contents (Elt F)) main_v0 main_v19
  have main_v21 : IVec S100000x3 32 := ((extractStridedSlice S100000x3 ![0, 1] · slices_S100000x4_S100000x3_0_1) : (⟨S100000x4, .i32⟩ : BufTy).Contents (Elt F) → (⟨S100000x3, .i32⟩ : BufTy).Contents (Elt F)) main_arg5
  have main_v22 : FVec F S100000x3 .f32 := (sitofp .f32 : (⟨S100000x3, .i32⟩ : BufTy).Contents (Elt F) → (⟨S100000x3, .f32⟩ : BufTy).Contents (Elt F)) main_v21
  have main_cst_1 : FVec F S_ .f32 := (constant S_ .f32 0x3F000000#32)
  have main_v23 : FVec F S100000x3 .f32 := (broadcastInDim S100000x3 ![] bcast_S_S100000x3 : (⟨S_, .f32⟩ : BufTy).Contents (Elt F) → (⟨S100000x3, .f32⟩ : BufTy).Contents (Elt F)) main_cst_1
  have main_v24 : FVec F S100000x3 .f32 := (addf : (⟨S100000x3, .f32⟩ : BufTy).Contents (Elt F) → (⟨S100000x3, .f32⟩ : BufTy).Contents (Elt F) → (⟨S100000x3, .f32⟩ : BufTy).Contents (Elt F)) main_v22 main_v23
  have main_v25 : FVec F S1x3 .f32 := (broadcastInDim S1x3 ![1] bcast_S3_S1x3_1 : (⟨S3, .f32⟩ : BufTy).Contents (Elt F) → (⟨S1x3, .f32⟩ : BufTy).Contents (Elt F)) main_cst
  have main_v26 : FVec F S100000x3 .f32 := (broadcastInDim S100000x3 ![0, 1] bcast_S1x3_S100000x3_0_1 : (⟨S1x3, .f32⟩ : BufTy).Contents (Elt F) → (⟨S100000x3, .f32⟩ : BufTy).Contents (Elt F)) main_v25
  have main_v27 : FVec F S100000x3 .f32 := (mulf : (⟨S100000x3, .f32⟩ : BufTy).Contents (Elt F) → (⟨S100000x3, .f32⟩ : BufTy).Contents (Elt F) → (⟨S100000x3, .f32⟩ : BufTy).Contents (Elt F)) main_v24 main_v26
  have main_v28 : FVec F S100000x1x3 .f32 := (broadcastInDim S100000x1x3 ![0, 2] bcast_S100000x3_S100000x1x3_0_2 : (⟨S100000x3, .f32⟩ : BufTy).Contents (Elt F) → (⟨S100000x1x3, .f32⟩ : BufTy).Contents (Elt F)) main_v27
  have main_v29 : FVec F S100000x32x3 .f32 := (broadcastInDim S100000x32x3 ![0, 1, 2] bcast_S100000x1x3_S100000x32x3_0_1_2 : (⟨S100000x1x3, .f32⟩ : BufTy).Contents (Elt F) → (⟨S100000x32x3, .f32⟩ : BufTy).Contents (Elt F)) main_v28
  have main_v30 : FVec F S100000x32x3 .f32 := (subf : (⟨S100000x32x3, .f32⟩ : BufTy).Contents (Elt F) → (⟨S100000x32x3, .f32⟩ : BufTy).Contents (Elt F) → (⟨S100000x32x3, .f32⟩ : BufTy).Contents (Elt F)) main_v0 main_v29
  have main_v31 : FVec F S100000x32x10 .f32 := concatenate S100000x32x10 2 [⟨S100000x32x4, main_arg0⟩, ⟨S100000x32x3, main_v20⟩, ⟨S100000x32x3, main_v30⟩] concatenates_S100000x32x4_S100000x32x3_S100000x32x3_S100000x32x10_d2
  have main_v32 : FVec F S100000x32x10 .f32 := (broadcastInDim S100000x32x10 ![0, 1, 2] bcast_S100000x32x1_S100000x32x10_0_1_2 : (⟨S100000x32x1, .f32⟩ : BufTy).Contents (Elt F) → (⟨S100000x32x10, .f32⟩ : BufTy).Contents (Elt F)) main_v8
  have main_v33 : FVec F S100000x32x10 .f32 := (mulf : (⟨S100000x32x10, .f32⟩ : BufTy).Contents (Elt F) → (⟨S100000x32x10, .f32⟩ : BufTy).Contents (Elt F) → (⟨S100000x32x10, .f32⟩ : BufTy).Contents (Elt F)) main_v31 main_v32
  main_v33

/-- The projection line of `res`, from the features and the matrix. -/
def projT (main_v33 : FVec F S100000x32x10 .f32) (main_arg1 : FVec F S10x64 .f32) : FVec F S100000x32x64 .f32 :=
  ((fun l r => Host.dotGeneral dot_S100000x32x10_S10x64_S100000x32x64_2_0_01_1_n_n none l r) : (⟨S100000x32x10, .f32⟩ : BufTy).Contents (Elt F) → (⟨S10x64, .f32⟩ : BufTy).Contents (Elt F) → (⟨S100000x32x64, .f32⟩ : BufTy).Contents (Elt F)) main_v33 main_arg1

/-- From the projected values to the result: the lines of `res` after the projection (the channel statistics, the
    normalisation, the clamp, the largest value over a pillar's points). -/
def tailT (main_v34 : FVec F S100000x32x64 .f32) (main_arg2 : FVec F S64 .f32) (main_arg3 : FVec F S64 .f32) : FVec F S100000x64 .f32 :=
  have main_cst_2 : FVec F S_ .f32 := (constant S_ .f32 0x00000000#32)
  have main_v35 : FVec F S64 .f32 := ((fun x v => Host.reduceAdd x v reducesTo_S100000x32x64_S64_d0_1 h_S_) : (⟨S100000x32x64, .f32⟩ : BufTy).Contents (Elt F) → (⟨S_, .f32⟩ : BufTy).Contents (Elt F) → (⟨S64, .f32⟩ : BufTy).Contents (Elt F)) main_v34 main_cst_2
  have main_cst_3 : FVec F S_ .f32 := (constant S_ .f32 0x4A435000#32)
  have main_v36 : FVec F S64 .f32 := (broadcastInDim S64 ![] bcast_S_S64 : (⟨S_, .f32⟩ : BufTy).Contents (Elt F) → (⟨S64, .f32⟩ : BufTy).Contents (Elt F)) main_cst_3
  have main_v37 : FVec F S64 .f32 := (Host.divf : (⟨S64, .f32⟩ : BufTy).Contents (Elt F) → (⟨S64, .f32⟩ : BufTy).Contents (Elt F) → (⟨S64, .f32⟩ : BufTy).Contents (Elt F)) main_v35 main_v36
  have main_c_4 : IVec S_ 32 := (constantI S_ 32 0#32)
  have main_call0_cst : FVec F S_ .f32 := (constant S_ .f32 0x00000000#32)
  have main_call0_v0 : FVec F S64 .f32 := (fun x v => Host.reduceAdd x v reducesTo_S100000x32x64_S64_d0_1 h_S_) main_v34 main_call0_cst
  have main_call0_v1 : FVec F S1x1x64 .f32 := (broadcastInDim S1x1x64 ![2] bcast_S64_S1x1x64_2) main_call0_v0
  have main_call0_cst_0 : FVec F S_ .f32 := (constant S_ .f32 0x4A435000#32)
  have main_call0_v2 : FVec F S1x1x64 .f32 := (broadcastInDim S1x1x64 ![] bcast_S_S1x1x64) main_call0_cst_0
  have main_call0_v3 : FVec F S1x1x64 .f32 := Host.divf main_call0_v1 main_call0_v2
  have main_call0_v4 : FVec F S100000x32x64 .f32 := (broadcastInDim S100000x32x64 ![0, 1, 2] bcast_S1x1x64_S100000x32x64_0_1_2) main_call0_v3
  have main_call0_v5 : FVec F S100000x32x64 .f32 := subf main_v34 main_call0_v4
  have main_call0_v6 : FVec F S100000x32x64 .f32 := mulf main_call0_v5 main_call0_v5
  have main_call0_v7 : FVec F S_ .f32 := (sitofp .f32) main_c_4
  have main_call0_cst_1 : FVec F S_ .f32 := (constant S_ .f32 0x4A435000#32)
  have main_call0_v8 : FVec F S_ .f32 := subf main_call0_cst_1 main_call0_v7
  have main_call0_cst_2 : FVec F S_ .f32 := (constant S_ .f32 0x00000000#32)
  have main_call0_v9 : FVec F S64 .f32 := (fun x v => Host.reduceAdd x v reducesTo_S100000x32x64_S64_d0_1 h_S_) main_call0_v6 main_call0_cst_2
  have main_call0_v10 : FVec F S64 .f32 := (broadcastInDim S64 ![] bcast_S_S64) main_call0_v8
  have main_call0_v11 : FVec F S64 .f32 := Host.divf main_call0_v9 main_call0_v10
  have main_call0_cst_3 : FVec F S_ .f32 := (constant S_ .f32 0x00000000#32)
  have main_call0_v12 : IVec S_ 1 := (cmpf .ogt) main_call0_v8 main_call0_cst_3
  have main_call0_cst_4 : FVec F S_ .f32 := (constant S_ .f32 0x7FC00000#32)
  have main_call0_call0_v0 : FVec F S_ .f32 := id main_call0_cst_4
  have main_call0_call0_v1 : FVec F S64 .f32 := (broadcastInDim S64 ![] bcast_S_S64) main_call0_call0_v0
  have main_v38 : FVec F S64 .f32 := (fun p a b => select (broadcastInDim S64 ![] bcast_S_S64 p) a b) main_call0_v12 main_call0_v11 main_call0_call0_v1
  have main_v39 : FVec F S1x1x64 .f32 := (broadcastInDim S1x1x64 ![2] bcast_S64_S1x1x64_2 : (⟨S64, .f32⟩ : BufTy).Contents (Elt F) → (⟨S1x1x64, .f32⟩ : BufTy).Contents (Elt F)) main_v37
  have main_v40 : FVec F S100000x32x64 .f32 := (broadcastInDim S100000x32x64 ![0, 1, 2] bcast_S1x1x64_S100000x32x64_0_1_2 : (⟨S1x1x64, .f32⟩ : BufTy).Contents (Elt F) → (⟨S100000x32x64, .f32⟩ : BufTy).Contents (Elt F)) main_v39
  have main_v41 : FVec F S100000x32x64 .f32 := (subf : (⟨S100000x32x64, .f32⟩ : BufTy).Contents (Elt F) → (⟨S100000x32x64, .f32⟩ : BufTy).Contents (Elt F) → (⟨S100000x32x64, .f32⟩ : BufTy).Contents (Elt F)) main_v34 main_v40
  have main_cst_5 : FVec F S_ .f32 := (constant S_ .f32 0x3A83126F#32)
  have main_v42 : FVec F S64 .f32 := (broadcastInDim S64 ![] bcast_S_S64 : (⟨S_, .f32⟩ : BufTy).Contents (Elt F) → (⟨S64, .f32⟩ : BufTy).Contents (Elt F)) main_cst_5
  have main_v43 : FVec F S64 .f32 := (addf : (⟨S64, .f32⟩ : BufTy).Contents (Elt F) → (⟨S64, .f32⟩ : BufTy).Contents (Elt F) → (⟨S64, .f32⟩ : BufTy).Contents (Elt F)) main_v38 main_v42
  have main_v44 : FVec F S64 .f32 := (Host.rsqrt : (⟨S64, .f32⟩ : BufTy).Contents (Elt F) → (⟨S64, .f32⟩ : BufTy).Contents (Elt F)) main_v43
  have main_v45 : FVec F S1x1x64 .f32 := (broadcastInDim S1x1x64 ![2] bcast_S64_S1x1x64_2 : (⟨S64, .f32⟩ : BufTy).Contents (Elt F) → (⟨S1x1x64, .f32⟩ : BufTy).Contents (Elt F)) main_v44
  have main_v46 : FVec F S100000x32x64 .f32 := (broadcastInDim S100000x32x64 ![0, 1, 2] bcast_S1x1x64_S100000x32x64_0_1_2 : (⟨S1x1x64, .f32⟩ : BufTy).Contents (Elt F) → (⟨S100000x32x64, .f32⟩ : BufTy).Contents (Elt F)) main_v45
  have main_v47 : FVec F S100000x32x64 .f32 := (mulf : (⟨S100000x32x64, .f32⟩ : BufTy).Contents (Elt F) → (⟨S100000x32x64, .f32⟩ : BufTy).Contents (Elt F) → (⟨S100000x32x64, .f32⟩ : BufTy).Contents (Elt F)) main_v41 main_v46
  have main_v48 : FVec F S1x1x64 .f32 := (broadcastInDim S1x1x64 ![2] bcast_S64_S1x1x64_2 : (⟨S64, .f32⟩ : BufTy).Contents (Elt F) → (⟨S1x1x64, .f32⟩ : BufTy).Contents (Elt F)) main_arg2
  have main_v49 : FVec F S100000x32x64 .f32 := (broadcastInDim S100000x32x64 ![0, 1, 2] bcast_S1x1x64_S100000x32x64_0_1_2 : (⟨S1x1x64, .f32⟩ : BufTy).Contents (Elt F) → (⟨S100000x32x64, .f32⟩ : BufTy).Contents (Elt F)) main_v48
  have main_v50 : FVec F S100000x32x64 .f32 := (mulf : (⟨S100000x32x64, .f32⟩ : BufTy).Contents (Elt F) → (⟨S100000x32x64, .f32⟩ : BufTy).Contents (Elt F) → (⟨S100000x32x64, .f32⟩ : BufTy).Contents (Elt F)) main_v47 main_v49
  have main_v51 : FVec F S1x1x64 .f32 := (broadcastInDim S1x1x64 ![2] bcast_S64_S1x1x64_2 : (⟨S64, .f32⟩ : BufTy).Contents (Elt F) → (⟨S1x1x64, .f32⟩ : BufTy).Contents (Elt F)) main_arg3
  have main_v52 : FVec F S100000x32x64 .f32 := (broadcastInDim S100000x32x64 ![0, 1, 2] bcast_S1x1x64_S100000x32x64_0_1_2 : (⟨S1x1x64, .f32⟩ : BufTy).Contents (Elt F) → (⟨S100000x32x64, .f32⟩ : BufTy).Contents (Elt F)) main_v51
  have main_v53 : FVec F S100000x32x64 .f32 := (addf : (⟨S100000x32x64, .f32⟩ : BufTy).Contents (Elt F) → (⟨S100000x32x64, .f32⟩ : BufTy).Contents (Elt F) → (⟨S100000x32x64, .f32⟩ : BufTy).Contents (Elt F)) main_v50 main_v52
  have main_call1_cst : FVec F S_ .f32 := (constant S_ .f32 0x00000000#32)
  have main_call1_v0 : FVec F S100000x32x64 .f32 := (broadcastInDim S100000x32x64 ![] bcast_S_S100000x32x64) main_call1_cst
  have main_v54 : FVec F S100000x32x64 .f32 := maximumf main_v53 main_call1_v0
  have main_cst_6 : FVec F S_ .f32 := (constant S_ .f32 0xFF800000#32)
  have main_v55 : FVec F S100000x64 .f32 := ((fun x v => Host.reduce FloatOps.maximumf x v reducesTo_S100000x32x64_S100000x64_d1 h_S_) : (⟨S100000x32x64, .f32⟩ : BufTy).Contents (Elt F) → (⟨S_, .f32⟩ : BufTy).Contents (Elt F) → (⟨S100000x64, .f32⟩ : BufTy).Contents (Elt F)) main_v54 main_cst_6
  main_v55

/-- `res` is the three stages composed. -/
theorem res_eq_stages (main_arg0 : FVec F S100000x32x4 .f32) (main_arg1 : FVec F S10x64 .f32) (main_arg2 : FVec F S64 .f32) (main_arg3 : FVec F S64 .f32)
    (main_arg4 : IVec S100000 32) (main_arg5 : IVec S100000x4 32) :
    res main_arg0 main_arg1 main_arg2 main_arg3 main_arg4 main_arg5
      = tailT (projT (featT main_arg0 main_arg4 main_arg5) main_arg1) main_arg2 main_arg3 := rfl

end Cert.ReferenceIdeal.Hand

end
-- ==== Proof.RefRun.lean ====
/-
  The reference program's run: it is a straight line of host operations (its three helper functions are straight
  lines too, run on the buffers of their calls), so every execution ends, with the result buffer holding the
  operations' composed function of the arguments (`res`) and the arguments unchanged.

  The road: @main, with the helper functions' bodies unfolded at their calls, is `seq ops` for a literal list `ops` of 88
  operations (cut in three pieces so that each piece's side conditions stay short); `run_seq` then gives every buffer at
  the fold `after ops` of the operations' results over the launch contents; the fold at the result buffer is rewritten,
  operation by operation, into the composed term, which is `res` by unfolding; at an argument buffer no operation writes
  it, so the fold leaves it as it was.
-/
import proofs.«159035_j63986422775810_1_alg».proof.Proof.RefTerm
import Idealize.ShloMosaic.Lib.StableHlo.Run
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo

variable {F : FTy → Type} [FloatOps F]

section Ops

open Cert.ReferenceIdeal.Facts₀

section General

variable {T : Topo} {sg : RefSig} {Val : EltTy → Type} {x a b y : Ref sg .tc}

/-- `nary` over a literal family of three references whose function reads its three operands one by one
    (a concatenation of three pieces): the result is that function of the three operands' contents, each AT ITS OWN
    reference, so that a rewriting pass goes on into the operands. The result reference is not indexed, for `simp`. -/
theorem nary3_result_curried
    (g : x.ty.Contents Val → a.ty.Contents Val → b.ty.Contents Val → y.ty.Contents Val) (hxs hy)
    (G : Valuation T sg Val) :
    (nary (τ := T) ![x, a, b] y (fun u => g (u 0) (u 1) (u 2)) hxs hy).result G (no_index (Proc.devRef .tc y))
      = g (G (Proc.devRef .tc x)) (G (Proc.devRef .tc a)) (G (Proc.devRef .tc b)) :=
  nary_result ![x, a, b] y _ hxs hy G

end General

/-- The ten features of a point: the four raw ones, the three offsets from the pillar's mean, the three offsets from the
    pillar's centre, side by side along the last axis — the concatenation as a function of its three pieces. -/
abbrev cat3 (p : FVec F S100000x32x4 .f32) (q r : FVec F S100000x32x3 .f32) : FVec F S100000x32x10 .f32 :=
  concatenate S100000x32x10 2 [⟨S100000x32x4, p⟩, ⟨S100000x32x3, q⟩, ⟨S100000x32x3, r⟩] concatenates_S100000x32x4_S100000x32x3_S100000x32x3_S100000x32x10_d2

/-! ## The operations, in order

The helper functions' operations stand where they are called, over the call's own buffers: the variance (19 operations and
the select's three) after `%c_4`, the clamp at zero (3 operations) after `%53`. -/

/-- The first 35 operations: the point mask from `num_points`, the masked mean of the coordinates over a pillar's points, the offsets from that mean and from the pillar's centre — everything the concatenation reads. -/
abbrev opsA : List (HloOp τ sig (Elt F)) :=
  [ nullary main_cst (fun i => FloatOps.ofBits .f32 (lit0 (S3.rowMajor i))),
    unary main_arg0 main_v0 ((extractStridedSlice S100000x32x3 ![0, 0, 0] · slices_S100000x32x4_S100000x32x3_0_0_0) : (⟨S100000x32x4, .f32⟩ : BufTy).Contents (Elt F) → (⟨S100000x32x3, .f32⟩ : BufTy).Contents (Elt F)),
    nullary main_v1 (iotaInDim S32 32 0),
    unary main_v1 main_v2 (broadcastInDim S1x32 ![1] bcast_S32_S1x32_1 : (⟨S32, .i32⟩ : BufTy).Contents (Elt F) → (⟨S1x32, .i32⟩ : BufTy).Contents (Elt F)),
    unary main_arg4 main_v3 (broadcastInDim S100000x1 ![0] bcast_S100000_S100000x1_0 : (⟨S100000, .i32⟩ : BufTy).Contents (Elt F) → (⟨S100000x1, .i32⟩ : BufTy).Contents (Elt F)),
    unary main_v2 main_v4 (broadcastInDim S100000x32 ![0, 1] bcast_S1x32_S100000x32_0_1 : (⟨S1x32, .i32⟩ : BufTy).Contents (Elt F) → (⟨S100000x32, .i32⟩ : BufTy).Contents (Elt F)),
    unary main_v3 main_v5 (broadcastInDim S100000x32 ![0, 1] bcast_S100000x1_S100000x32_0_1 : (⟨S100000x1, .i32⟩ : BufTy).Contents (Elt F) → (⟨S100000x32, .i32⟩ : BufTy).Contents (Elt F)),
    binary main_v4 main_v5 main_v6 (cmpi .slt : (⟨S100000x32, .i32⟩ : BufTy).Contents (Elt F) → (⟨S100000x32, .i32⟩ : BufTy).Contents (Elt F) → (⟨S100000x32, .i1⟩ : BufTy).Contents (Elt F)),
    unary main_v6 main_v7 (uitofp .f32 : (⟨S100000x32, .i1⟩ : BufTy).Contents (Elt F) → (⟨S100000x32, .f32⟩ : BufTy).Contents (Elt F)),
    unary main_v7 main_v8 (broadcastInDim S100000x32x1 ![0, 1] bcast_S100000x32_S100000x32x1_0_1 : (⟨S100000x32, .f32⟩ : BufTy).Contents (Elt F) → (⟨S100000x32x1, .f32⟩ : BufTy).Contents (Elt F)),
    nullary main_c (constantI S_ 32 1#32),
    unary main_c main_v9 (broadcastInDim S100000 ![] bcast_S_S100000 : (⟨S_, .i32⟩ : BufTy).Contents (Elt F) → (⟨S100000, .i32⟩ : BufTy).Contents (Elt F)),
    binary main_arg4 main_v9 main_v10 (maxsi : (⟨S100000, .i32⟩ : BufTy).Contents (Elt F) → (⟨S100000, .i32⟩ : BufTy).Contents (Elt F) → (⟨S100000, .i32⟩ : BufTy).Contents (Elt F)),
    unary main_v10 main_v11 (sitofp .f32 : (⟨S100000, .i32⟩ : BufTy).Contents (Elt F) → (⟨S100000, .f32⟩ : BufTy).Contents (Elt F)),
    unary main_v11 main_v12 (broadcastInDim S100000x1 ![0] bcast_S100000_S100000x1_0 : (⟨S100000, .f32⟩ : BufTy).Contents (Elt F) → (⟨S100000x1, .f32⟩ : BufTy).Contents (Elt F)),
    unary main_v8 main_v13 (broadcastInDim S100000x32x3 ![0, 1, 2] bcast_S100000x32x1_S100000x32x3_0_1_2 : (⟨S100000x32x1, .f32⟩ : BufTy).Contents (Elt F) → (⟨S100000x32x3, .f32⟩ : BufTy).Contents (Elt F)),
    binary main_v0 main_v13 main_v14 (mulf : (⟨S100000x32x3, .f32⟩ : BufTy).Contents (Elt F) → (⟨S100000x32x3, .f32⟩ : BufTy).Contents (Elt F) → (⟨S100000x32x3, .f32⟩ : BufTy).Contents (Elt F)),
    nullary main_cst_0 (constant S_ .f32 0x00000000#32),
    binary main_v14 main_cst_0 main_v15 ((fun x v => Host.reduceAdd x v reducesTo_S100000x32x3_S100000x3_d1 h_S_) : (⟨S100000x32x3, .f32⟩ : BufTy).Contents (Elt F) → (⟨S_, .f32⟩ : BufTy).Contents (Elt F) → (⟨S100000x3, .f32⟩ : BufTy).Contents (Elt F)),
    unary main_v12 main_v16 (broadcastInDim S100000x3 ![0, 1] bcast_S100000x1_S100000x3_0_1 : (⟨S100000x1, .f32⟩ : BufTy).Contents (Elt F) → (⟨S100000x3, .f32⟩ : BufTy).Contents (Elt F)),
    binary main_v15 main_v16 main_v17 (Host.divf : (⟨S100000x3, .f32⟩ : BufTy).Contents (Elt F) → (⟨S100000x3, .f32⟩ : BufTy).Contents (Elt F) → (⟨S100000x3, .f32⟩ : BufTy).Contents (Elt F)),
    unary main_v17 main_v18 (broadcastInDim S100000x1x3 ![0, 2] bcast_S100000x3_S100000x1x3_0_2 : (⟨S100000x3, .f32⟩ : BufTy).Contents (Elt F) → (⟨S100000x1x3, .f32⟩ : BufTy).Contents (Elt F)),
    unary main_v18 main_v19 (broadcastInDim S100000x32x3 ![0, 1, 2] bcast_S100000x1x3_S100000x32x3_0_1_2 : (⟨S100000x1x3, .f32⟩ : BufTy).Contents (Elt F) → (⟨S100000x32x3, .f32⟩ : BufTy).Contents (Elt F)),
    binary main_v0 main_v19 main_v20 (subf : (⟨S100000x32x3, .f32⟩ : BufTy).Contents (Elt F) → (⟨S100000x32x3, .f32⟩ : BufTy).Contents (Elt F) → (⟨S100000x32x3, .f32⟩ : BufTy).Contents (Elt F)),
    unary main_arg5 main_v21 ((extractStridedSlice S100000x3 ![0, 1] · slices_S100000x4_S100000x3_0_1) : (⟨S100000x4, .i32⟩ : BufTy).Contents (Elt F) → (⟨S100000x3, .i32⟩ : BufTy).Contents (Elt F)),
    unary main_v21 main_v22 (sitofp .f32 : (⟨S100000x3, .i32⟩ : BufTy).Contents (Elt F) → (⟨S100000x3, .f32⟩ : BufTy).Contents (Elt F)),
    nullary main_cst_1 (constant S_ .f32 0x3F000000#32),
    unary main_cst_1 main_v23 (broadcastInDim S100000x3 ![] bcast_S_S100000x3 : (⟨S_, .f32⟩ : BufTy).Contents (Elt F) → (⟨S100000x3, .f32⟩ : BufTy).Contents (Elt F)),
    binary main_v22 main_v23 main_v24 (addf : (⟨S100000x3, .f32⟩ : BufTy).Contents (Elt F) → (⟨S100000x3, .f32⟩ : BufTy).Contents (Elt F) → (⟨S100000x3, .f32⟩ : BufTy).Contents (Elt F)),
    unary main_cst main_v25 (broadcastInDim S1x3 ![1] bcast_S3_S1x3_1 : (⟨S3, .f32⟩ : BufTy).Contents (Elt F) → (⟨S1x3, .f32⟩ : BufTy).Contents (Elt F)),
    unary main_v25 main_v26 (broadcastInDim S100000x3 ![0, 1] bcast_S1x3_S100000x3_0_1 : (⟨S1x3, .f32⟩ : BufTy).Contents (Elt F) → (⟨S100000x3, .f32⟩ : BufTy).Contents (Elt F)),
    binary main_v24 main_v26 main_v27 (mulf : (⟨S100000x3, .f32⟩ : BufTy).Contents (Elt F) → (⟨S100000x3, .f32⟩ : BufTy).Contents (Elt F) → (⟨S100000x3, .f32⟩ : BufTy).Contents (Elt F)),
    unary main_v27 main_v28 (broadcastInDim S100000x1x3 ![0, 2] bcast_S100000x3_S100000x1x3_0_2 : (⟨S100000x3, .f32⟩ : BufTy).Contents (Elt F) → (⟨S100000x1x3, .f32⟩ : BufTy).Contents (Elt F)),
    unary main_v28 main_v29 (broadcastInDim S100000x32x3 ![0, 1, 2] bcast_S100000x1x3_S100000x32x3_0_1_2 : (⟨S100000x1x3, .f32⟩ : BufTy).Contents (Elt F) → (⟨S100000x32x3, .f32⟩ : BufTy).Contents (Elt F)),
    binary main_v0 main_v29 main_v30 (subf : (⟨S100000x32x3, .f32⟩ : BufTy).Contents (Elt F) → (⟨S100000x32x3, .f32⟩ : BufTy).Contents (Elt F) → (⟨S100000x32x3, .f32⟩ : BufTy).Contents (Elt F)) ]

/-- Operations 36 … 67: the ten features concatenated and masked, the projection to 64 channels, the column means, and the variance helper with the select it ends in, run on the buffers of their calls. -/
abbrev opsB : List (HloOp τ sig (Elt F)) :=
  [ nary ![main_arg0, main_v20, main_v30] main_v31 (fun u => cat3 (u 0) (u 1) (u 2)),
    unary main_v8 main_v32 (broadcastInDim S100000x32x10 ![0, 1, 2] bcast_S100000x32x1_S100000x32x10_0_1_2 : (⟨S100000x32x1, .f32⟩ : BufTy).Contents (Elt F) → (⟨S100000x32x10, .f32⟩ : BufTy).Contents (Elt F)),
    binary main_v31 main_v32 main_v33 (mulf : (⟨S100000x32x10, .f32⟩ : BufTy).Contents (Elt F) → (⟨S100000x32x10, .f32⟩ : BufTy).Contents (Elt F) → (⟨S100000x32x10, .f32⟩ : BufTy).Contents (Elt F)),
    binary main_v33 main_arg1 main_v34 ((fun l r => Host.dotGeneral dot_S100000x32x10_S10x64_S100000x32x64_2_0_01_1_n_n none l r) : (⟨S100000x32x10, .f32⟩ : BufTy).Contents (Elt F) → (⟨S10x64, .f32⟩ : BufTy).Contents (Elt F) → (⟨S100000x32x64, .f32⟩ : BufTy).Contents (Elt F)),
    nullary main_cst_2 (constant S_ .f32 0x00000000#32),
    binary main_v34 main_cst_2 main_v35 ((fun x v => Host.reduceAdd x v reducesTo_S100000x32x64_S64_d0_1 h_S_) : (⟨S100000x32x64, .f32⟩ : BufTy).Contents (Elt F) → (⟨S_, .f32⟩ : BufTy).Contents (Elt F) → (⟨S64, .f32⟩ : BufTy).Contents (Elt F)),
    nullary main_cst_3 (constant S_ .f32 0x4A435000#32),
    unary main_cst_3 main_v36 (broadcastInDim S64 ![] bcast_S_S64 : (⟨S_, .f32⟩ : BufTy).Contents (Elt F) → (⟨S64, .f32⟩ : BufTy).Contents (Elt F)),
    binary main_v35 main_v36 main_v37 (Host.divf : (⟨S64, .f32⟩ : BufTy).Contents (Elt F) → (⟨S64, .f32⟩ : BufTy).Contents (Elt F) → (⟨S64, .f32⟩ : BufTy).Contents (Elt F)),
    nullary main_c_4 (constantI S_ 32 0#32),
    TRef.nullary main_call0.cst (constant S_ .f32 0x00000000#32),
    TRef.binary (.of main_v34 : TRef sig ⟨S100000x32x64, .f32⟩) main_call0.cst main_call0.v0 (fun x v => Host.reduceAdd x v reducesTo_S100000x32x64_S64_d0_1 h_S_),
    TRef.unary main_call0.v0 main_call0.v1 (broadcastInDim S1x1x64 ![2] bcast_S64_S1x1x64_2),
    TRef.nullary main_call0.cst_0 (constant S_ .f32 0x4A435000#32),
    TRef.unary main_call0.cst_0 main_call0.v2 (broadcastInDim S1x1x64 ![] bcast_S_S1x1x64),
    TRef.binary main_call0.v1 main_call0.v2 main_call0.v3 Host.divf,
    TRef.unary main_call0.v3 main_call0.v4 (broadcastInDim S100000x32x64 ![0, 1, 2] bcast_S1x1x64_S100000x32x64_0_1_2),
    TRef.binary (.of main_v34 : TRef sig ⟨S100000x32x64, .f32⟩) main_call0.v4 main_call0.v5 subf,
    TRef.binary main_call0.v5 main_call0.v5 main_call0.v6 mulf,
    TRef.unary (.of main_c_4 : TRef sig ⟨S_, .i32⟩) main_call0.v7 (sitofp .f32),
    TRef.nullary main_call0.cst_1 (constant S_ .f32 0x4A435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x32x64_S64_d0_1 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]

/-- Operations 68 … 88: the normalisation by mean and `rsqrt (var + ε)`, scale and shift, the clamp at zero (on its call's buffers) and the maximum over a pillar's points. -/
abbrev opsC : List (HloOp τ sig (Elt F)) :=
  [ unary main_v37 main_v39 (broadcastInDim S1x1x64 ![2] bcast_S64_S1x1x64_2 : (⟨S64, .f32⟩ : BufTy).Contents (Elt F) → (⟨S1x1x64, .f32⟩ : BufTy).Contents (Elt F)),
    unary main_v39 main_v40 (broadcastInDim S100000x32x64 ![0, 1, 2] bcast_S1x1x64_S100000x32x64_0_1_2 : (⟨S1x1x64, .f32⟩ : BufTy).Contents (Elt F) → (⟨S100000x32x64, .f32⟩ : BufTy).Contents (Elt F)),
    binary main_v34 main_v40 main_v41 (subf : (⟨S100000x32x64, .f32⟩ : BufTy).Contents (Elt F) → (⟨S100000x32x64, .f32⟩ : BufTy).Contents (Elt F) → (⟨S100000x32x64, .f32⟩ : BufTy).Contents (Elt F)),
    nullary main_cst_5 (constant S_ .f32 0x3A83126F#32),
    unary main_cst_5 main_v42 (broadcastInDim S64 ![] bcast_S_S64 : (⟨S_, .f32⟩ : BufTy).Contents (Elt F) → (⟨S64, .f32⟩ : BufTy).Contents (Elt F)),
    binary main_v38 main_v42 main_v43 (addf : (⟨S64, .f32⟩ : BufTy).Contents (Elt F) → (⟨S64, .f32⟩ : BufTy).Contents (Elt F) → (⟨S64, .f32⟩ : BufTy).Contents (Elt F)),
    unary main_v43 main_v44 (Host.rsqrt : (⟨S64, .f32⟩ : BufTy).Contents (Elt F) → (⟨S64, .f32⟩ : BufTy).Contents (Elt F)),
    unary main_v44 main_v45 (broadcastInDim S1x1x64 ![2] bcast_S64_S1x1x64_2 : (⟨S64, .f32⟩ : BufTy).Contents (Elt F) → (⟨S1x1x64, .f32⟩ : BufTy).Contents (Elt F)),
    unary main_v45 main_v46 (broadcastInDim S100000x32x64 ![0, 1, 2] bcast_S1x1x64_S100000x32x64_0_1_2 : (⟨S1x1x64, .f32⟩ : BufTy).Contents (Elt F) → (⟨S100000x32x64, .f32⟩ : BufTy).Contents (Elt F)),
    binary main_v41 main_v46 main_v47 (mulf : (⟨S100000x32x64, .f32⟩ : BufTy).Contents (Elt F) → (⟨S100000x32x64, .f32⟩ : BufTy).Contents (Elt F) → (⟨S100000x32x64, .f32⟩ : BufTy).Contents (Elt F)),
    unary main_arg2 main_v48 (broadcastInDim S1x1x64 ![2] bcast_S64_S1x1x64_2 : (⟨S64, .f32⟩ : BufTy).Contents (Elt F) → (⟨S1x1x64, .f32⟩ : BufTy).Contents (Elt F)),
    unary main_v48 main_v49 (broadcastInDim S100000x32x64 ![0, 1, 2] bcast_S1x1x64_S100000x32x64_0_1_2 : (⟨S1x1x64, .f32⟩ : BufTy).Contents (Elt F) → (⟨S100000x32x64, .f32⟩ : BufTy).Contents (Elt F)),
    binary main_v47 main_v49 main_v50 (mulf : (⟨S100000x32x64, .f32⟩ : BufTy).Contents (Elt F) → (⟨S100000x32x64, .f32⟩ : BufTy).Contents (Elt F) → (⟨S100000x32x64, .f32⟩ : BufTy).Contents (Elt F)),
    unary main_arg3 main_v51 (broadcastInDim S1x1x64 ![2] bcast_S64_S1x1x64_2 : (⟨S64, .f32⟩ : BufTy).Contents (Elt F) → (⟨S1x1x64, .f32⟩ : BufTy).Contents (Elt F)),
    unary main_v51 main_v52 (broadcastInDim S100000x32x64 ![0, 1, 2] bcast_S1x1x64_S100000x32x64_0_1_2 : (⟨S1x1x64, .f32⟩ : BufTy).Contents (Elt F) → (⟨S100000x32x64, .f32⟩ : BufTy).Contents (Elt F)),
    binary main_v50 main_v52 main_v53 (addf : (⟨S100000x32x64, .f32⟩ : BufTy).Contents (Elt F) → (⟨S100000x32x64, .f32⟩ : BufTy).Contents (Elt F) → (⟨S100000x32x64, .f32⟩ : BufTy).Contents (Elt F)),
    TRef.nullary main_call1.cst (constant S_ .f32 0x00000000#32),
    TRef.unary main_call1.cst main_call1.v0 (broadcastInDim S100000x32x64 ![] bcast_S_S100000x32x64),
    TRef.binary (.of main_v53 : TRef sig ⟨S100000x32x64, .f32⟩) main_call1.v0 main_call1.v1 maximumf,
    nullary main_cst_6 (constant S_ .f32 0xFF800000#32),
    binary main_v54 main_cst_6 main_v55 ((fun x v => Host.reduce FloatOps.maximumf x v reducesTo_S100000x32x64_S100000x64_d1 h_S_) : (⟨S100000x32x64, .f32⟩ : BufTy).Contents (Elt F) → (⟨S_, .f32⟩ : BufTy).Contents (Elt F) → (⟨S100000x64, .f32⟩ : BufTy).Contents (Elt F)) ]

/-- The whole straight line: the 88 operations in order. -/
abbrev ops : List (HloOp τ sig (Elt F)) := opsA ++ (opsB ++ opsC)

/-- @main is that straight line: both sides are one chain of `hlo` steps once the helper functions' definitions are unfolded
    at their calls and sequencing is reassociated, all of it by computation. -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

/-! ## The side conditions: every operation touches TensorCore references only and determines its results -/

theorem opsA_sub : (opsA : List (HloOp τ sig (Elt F))).Forall fun op => op.bufs ⊆ tcRefs τ sig :=
  ⟨nullary_bufs_sub .., unary_bufs_sub .., nullary_bufs_sub .., unary_bufs_sub .., unary_bufs_sub .., unary_bufs_sub ..,
    unary_bufs_sub .., binary_bufs_sub .., unary_bufs_sub .., unary_bufs_sub .., nullary_bufs_sub .., unary_bufs_sub ..,
    binary_bufs_sub .., unary_bufs_sub .., unary_bufs_sub .., unary_bufs_sub .., binary_bufs_sub .., nullary_bufs_sub ..,
    binary_bufs_sub .., unary_bufs_sub .., binary_bufs_sub .., unary_bufs_sub .., unary_bufs_sub .., binary_bufs_sub ..,
    unary_bufs_sub .., unary_bufs_sub .., nullary_bufs_sub .., unary_bufs_sub .., binary_bufs_sub .., unary_bufs_sub ..,
    unary_bufs_sub .., binary_bufs_sub .., unary_bufs_sub .., unary_bufs_sub .., binary_bufs_sub ..⟩

theorem opsB_sub : (opsB : List (HloOp τ sig (Elt F))).Forall fun op => op.bufs ⊆ tcRefs τ sig :=
  ⟨nary_bufs_sub .., unary_bufs_sub .., binary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub ..⟩

theorem opsC_sub : (opsC : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp opsA_sub op h, List.forall_iff_forall_mem.mp opsB_sub op h,
      List.forall_iff_forall_mem.mp opsC_sub op h]

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h
  exacts [opsA_fresh op h, opsB_fresh op h, opsC_fresh op h]

/-! ## The fold at the result buffer and at the arguments -/

attribute [local irreducible] Host.reduce Host.reduceAdd concatenate in
set_option maxRecDepth 8192 in
set_option maxHeartbeats 4000000 in
/-- The fold at the result buffer is `res` of the arguments' contents: the fold unrolled, each operation's result at its
    own buffer rewritten to its function's value of its operands' contents and at any other reference to what was there
    (the references told apart by computation), down to the arguments; the composed term is then `res`'s own, line by line,
    the typed references' transports being the identity at these literal references. The reductions and the concatenation
    are kept folded meanwhile: the equation never looks inside them. -/
theorem out_eq (V : Valuation τ sig (Elt F)) :
    after ops V (main_v55 : DevRef τ sig) = res (V (main_arg0 : DevRef τ sig)) (V (main_arg1 : DevRef τ sig)) (V (main_arg2 : DevRef τ sig)) (V (main_arg3 : DevRef τ sig)) (V (main_arg4 : DevRef τ sig)) (V (main_arg5 : DevRef τ sig)) := by
  simp only [ops, after_append]
  simp (disch := decide) only [after_cons, after_nil,
      nullary_result', unary_result', binary_result', ternary_result',
      nary3_result_curried (T := τ) (sg := sig) (Val := Elt F) (x := main_arg0) (a := main_v20) (b := main_v30) (y := main_v31) (cat3 (F := F)),
      nullary_result_ne', unary_result_ne', binary_result_ne', ternary_result_ne', nary_result_ne']
  rfl

/-! No operation writes an argument's buffer. -/

set_option maxHeartbeats 1000000 in
theorem arg0_eq (V : Valuation τ sig (Elt F)) :
    after ops V (main_arg0 : DevRef τ sig) = V (main_arg0 : DevRef τ sig) := by
  simp only [ops, after_append]
  simp (disch := decide) only [after_cons, after_nil, nullary_result_ne', unary_result_ne', binary_result_ne', ternary_result_ne', nary_result_ne']

set_option maxHeartbeats 1000000 in
theorem arg1_eq (V : Valuation τ sig (Elt F)) :
    after ops V (main_arg1 : DevRef τ sig) = V (main_arg1 : DevRef τ sig) := by
  simp only [ops, after_append]
  simp (disch := decide) only [after_cons, after_nil, nullary_result_ne', unary_result_ne', binary_result_ne', ternary_result_ne', nary_result_ne']

set_option maxHeartbeats 1000000 in
theorem arg2_eq (V : Valuation τ sig (Elt F)) :
    after ops V (main_arg2 : DevRef τ sig) = V (main_arg2 : DevRef τ sig) := by
  simp only [ops, after_append]
  simp (disch := decide) only [after_cons, after_nil, nullary_result_ne', unary_result_ne', binary_result_ne', ternary_result_ne', nary_result_ne']

set_option maxHeartbeats 1000000 in
theorem arg3_eq (V : Valuation τ sig (Elt F)) :
    after ops V (main_arg3 : DevRef τ sig) = V (main_arg3 : DevRef τ sig) := by
  simp only [ops, after_append]
  simp (disch := decide) only [after_cons, after_nil, nullary_result_ne', unary_result_ne', binary_result_ne', ternary_result_ne', nary_result_ne']

set_option maxHeartbeats 1000000 in
theorem arg4_eq (V : Valuation τ sig (Elt F)) :
    after ops V (main_arg4 : DevRef τ sig) = V (main_arg4 : DevRef τ sig) := by
  simp only [ops, after_append]
  simp (disch := decide) only [after_cons, after_nil, nullary_result_ne', unary_result_ne', binary_result_ne', ternary_result_ne', nary_result_ne']

set_option maxHeartbeats 1000000 in
theorem arg5_eq (V : Valuation τ sig (Elt F)) :
    after ops V (main_arg5 : DevRef τ sig) = V (main_arg5 : DevRef τ sig) := by
  simp only [ops, after_append]
  simp (disch := decide) only [after_cons, after_nil, nullary_result_ne', unary_result_ne', binary_result_ne', ternary_result_ne', nary_result_ne']

end Ops

/-! ## The run -/

/-- From any memory with zero counters every weakly fair execution of the reference's @main terminates with the
    result buffer at `res` of the arguments' launch contents, and the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v55).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ (fun _ => ops_fresh))

end Cert.ReferenceIdeal.Hand

end
-- ==== Proof.LibSumIdx.lean ====
/-
  Sums over the multi-indices of a rank-3 or rank-4 shape as nested sums over the coordinates, and with the
  leading coordinate (or the two leading coordinates) split off from a trailing rank-2 index: the index
  space of a shape is the product of its coordinate ranges, so a sum over it in a commutative monoid may be
  taken one coordinate at a time, in any grouping.
-/
import Idealize.ShloMosaic.Lib.ValueIdx

namespace Idealize.ShloMosaic.ValueIdx

open Idealize.ShloMosaic

/-- A rank-3 multi-index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index space is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 multi-index is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index space is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over a rank-3 index space: the leading coordinate outside, a rank-2 index inside. -/
theorem sum_idx3_lead {M : Type*} [AddCommMonoid M] {n0 n1 n2 : Nat} (f : (⟨3, ![n0, n1, n2]⟩ : Shape).Idx → M) :
    ∑ i, f i = ∑ a : Fin n0, ∑ j : (⟨2, ![n1, n2]⟩ : Shape).Idx, f (ix3 a (j 0) (j 1)) := by
  rw [sum_idx3]
  refine Finset.sum_congr rfl fun a _ => ?_
  rw [sum_idx2]
  rfl

/-- A sum over a rank-4 index space: the two leading coordinates outside, a rank-2 index inside. -/
theorem sum_idx4_lead2 {M : Type*} [AddCommMonoid M] {n0 n1 n2 n3 : Nat} (f : (⟨4, ![n0, n1, n2, n3]⟩ : Shape).Idx → M) :
    ∑ i, f i = ∑ a : Fin n0, ∑ b : Fin n1, ∑ j : (⟨2, ![n2, n3]⟩ : Shape).Idx, f (ix4 a b (j 0) (j 1)) := by
  rw [sum_idx4]
  refine Finset.sum_congr rfl fun a _ => ?_
  refine Finset.sum_congr rfl fun b _ => ?_
  rw [sum_idx2]
  rfl

end Idealize.ShloMosaic.ValueIdx
-- ==== Proof.RefLayout.lean ====
/-
  The reference program's layout operations read at an index, at its own shapes: each broadcast and slice it makes reads
  one entry of its operand; the host's sum over the middle axis, and over the two leading axes, of a rank-3 array is the
  initial value plus the nested sum over the coordinates summed away; and the word of the number of points is the real
  3200000, which is positive.
-/
import proofs.«159035_j63986422775810_1_alg».proof.ReferenceIdeal
import proofs.«159035_j63986422775810_1_alg».proof.Proof.Gen.ReferenceIdeal
import proofs.«159035_j63986422775810_1_alg».proof.Proof.Spec
import proofs.«159035_j63986422775810_1_alg».proof.Proof.LibSumIdx
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.Hand

open Cert.ReferenceIdeal Idealize.ShloMosaic Idealize.ShloMosaic.ValueIdx
open Cert.ReferenceIdeal.Facts₀

/-! ## Broadcasts and slices of the program's shapes, read at an index -/

section Layout
variable {α : Type}

theorem b_n_n1 (x : S100000.Idx → α) (n : Fin 100000) (q : Fin 1) :
    broadcastInDim S100000x1 ![0] bcast_S100000_S100000x1_0 x (ix2 n q) = x (ix1 n) :=
  broadcastInDim_apply _ _ _ (ix2 n q) (ix1 n) (fun a => match a with | ⟨0, _⟩ => rfl)

theorem b_n1_n3 (x : S100000x1.Idx → α) (n : Fin 100000) (k : Fin 3) :
    broadcastInDim S100000x3 ![0, 1] bcast_S100000x1_S100000x3_0_1 x (ix2 n k) = x (ix2 n (0 : Fin 1)) :=
  broadcastInDim_apply _ _ _ (ix2 n k) (ix2 n (0 : Fin 1)) (fun a => match a with | ⟨0, _⟩ => rfl | ⟨1, _⟩ => rfl)

theorem b_np_np1 (x : S100000x32.Idx → α) (n : Fin 100000) (p : Fin 32) (q : Fin 1) :
    broadcastInDim S100000x32x1 ![0, 1] bcast_S100000x32_S100000x32x1_0_1 x (ix3 n p q) = x (ix2 n p) :=
  broadcastInDim_apply _ _ _ (ix3 n p q) (ix2 n p) (fun a => match a with | ⟨0, _⟩ => rfl | ⟨1, _⟩ => rfl)

theorem b_np1_np3 (x : S100000x32x1.Idx → α) (n : Fin 100000) (p : Fin 32) (k : Fin 3) :
    broadcastInDim S100000x32x3 ![0, 1, 2] bcast_S100000x32x1_S100000x32x3_0_1_2 x (ix3 n p k) = x (ix3 n p (0 : Fin 1)) :=
  broadcastInDim_apply _ _ _ (ix3 n p k) (ix3 n p (0 : Fin 1)) (fun a => match a with | ⟨0, _⟩ => rfl | ⟨1, _⟩ => rfl | ⟨2, _⟩ => rfl)

theorem b_np1_np10 (x : S100000x32x1.Idx → α) (n : Fin 100000) (p : Fin 32) (j : Fin 10) :
    broadcastInDim S100000x32x10 ![0, 1, 2] bcast_S100000x32x1_S100000x32x10_0_1_2 x (ix3 n p j) = x (ix3 n p (0 : Fin 1)) :=
  broadcastInDim_apply _ _ _ (ix3 n p j) (ix3 n p (0 : Fin 1)) (fun a => match a with | ⟨0, _⟩ => rfl | ⟨1, _⟩ => rfl | ⟨2, _⟩ => rfl)

/-- A per-pillar triple spread over the pillar's points. -/
theorem b_n3_np3 (x : S100000x3.Idx → α) (n : Fin 100000) (p : Fin 32) (k : Fin 3) :
    broadcastInDim S100000x32x3 ![0, 1, 2] bcast_S100000x1x3_S100000x32x3_0_1_2
      (broadcastInDim S100000x1x3 ![0, 2] bcast_S100000x3_S100000x1x3_0_2 x) (ix3 n p k) = x (ix2 n k) :=
  (broadcastInDim_apply _ _ _ (ix3 n p k) (ix3 n (0 : Fin 1) k) (fun a => match a with | ⟨0, _⟩ => rfl | ⟨1, _⟩ => rfl | ⟨2, _⟩ => rfl)).trans
    (broadcastInDim_apply _ _ _ (ix3 n (0 : Fin 1) k) (ix2 n k) (fun a => match a with | ⟨0, _⟩ => rfl | ⟨1, _⟩ => rfl))

/-- A triple spread over the pillars. -/
theorem b_3_n3 (x : S3.Idx → α) (n : Fin 100000) (k : Fin 3) :
    broadcastInDim S100000x3 ![0, 1] bcast_S1x3_S100000x3_0_1 (broadcastInDim S1x3 ![1] bcast_S3_S1x3_1 x) (ix2 n k) = x (ix1 k) :=
  (broadcastInDim_apply _ _ _ (ix2 n k) (ix2 (0 : Fin 1) k) (fun a => match a with | ⟨0, _⟩ => rfl | ⟨1, _⟩ => rfl)).trans
    (broadcastInDim_apply _ _ _ (ix2 (0 : Fin 1) k) (ix1 k) (fun a => match a with | ⟨0, _⟩ => rfl))

/-- A per-channel row spread over the pillars and their points. -/
theorem b_d_npd (x : S64.Idx → α) (n : Fin 100000) (p : Fin 32) (d : Fin 64) :
    broadcastInDim S100000x32x64 ![0, 1, 2] bcast_S1x1x64_S100000x32x64_0_1_2
      (broadcastInDim S1x1x64 ![2] bcast_S64_S1x1x64_2 x) (ix3 n p d) = x (ix1 d) :=
  (broadcastInDim_apply _ _ _ (ix3 n p d) (ix3 (0 : Fin 1) (0 : Fin 1) d) (fun a => match a with | ⟨0, _⟩ => rfl | ⟨1, _⟩ => rfl | ⟨2, _⟩ => rfl)).trans
    (broadcastInDim_apply _ _ _ (ix3 (0 : Fin 1) (0 : Fin 1) d) (ix1 d) (fun a => match a with | ⟨0, _⟩ => rfl))

theorem b_d_11d (x : S64.Idx → α) (d : Fin 64) :
    broadcastInDim S1x1x64 ![2] bcast_S64_S1x1x64_2 x (ix3 (0 : Fin 1) (0 : Fin 1) d) = x (ix1 d) :=
  broadcastInDim_apply _ _ _ (ix3 (0 : Fin 1) (0 : Fin 1) d) (ix1 d) (fun a => match a with | ⟨0, _⟩ => rfl)

theorem b_11d_npd (x : S1x1x64.Idx → α) (n : Fin 100000) (p : Fin 32) (d : Fin 64) :
    broadcastInDim S100000x32x64 ![0, 1, 2] bcast_S1x1x64_S100000x32x64_0_1_2 x (ix3 n p d) = x (ix3 (0 : Fin 1) (0 : Fin 1) d) :=
  broadcastInDim_apply _ _ _ (ix3 n p d) (ix3 (0 : Fin 1) (0 : Fin 1) d) (fun a => match a with | ⟨0, _⟩ => rfl | ⟨1, _⟩ => rfl | ⟨2, _⟩ => rfl)

/-- The first three of a point's four numbers. -/
theorem slice_xyz (x : S100000x32x4.Idx → α) (n : Fin 100000) (p : Fin 32) (k : Fin 3) :
    extractStridedSlice S100000x32x3 ![0, 0, 0] x slices_S100000x32x4_S100000x32x3_0_0_0 (ix3 n p k) = x (ix3 n p (k.castSucc : Fin 4)) :=
  extractStridedSlice_apply _ _ _ (ix3 n p k) (ix3 n p (k.castSucc : Fin 4)) (fun a => match a with
    | ⟨0, _⟩ => (Nat.zero_add _).symm | ⟨1, _⟩ => (Nat.zero_add _).symm | ⟨2, _⟩ => (Nat.zero_add _).symm)

/-- The last three of a pillar's four grid coordinates. -/
theorem slice_zyx (x : S100000x4.Idx → α) (n : Fin 100000) (k : Fin 3) :
    extractStridedSlice S100000x3 ![0, 1] x slices_S100000x4_S100000x3_0_1 (ix2 n k) = x (ix2 n (k.succ : Fin 4)) :=
  extractStridedSlice_apply _ _ _ (ix2 n k) (ix2 n (k.succ : Fin 4)) (fun a => match a with
    | ⟨0, _⟩ => (Nat.zero_add _).symm | ⟨1, _⟩ => Nat.add_comm _ _)

end Layout

/-! ## The host's sums read at an index -/

/-- The host's sum over the middle axis of a rank-3 array, read at `(b, l)`: the initial value plus the sum over
    `r` of the entries `(b, r, l)`. -/
theorem hostSumMid3_apply {n0 n1 n2 : Nat} {u : Shape} (x : FVec Ideal ⟨3, ![n0, n1, n2]⟩ .f32) (init : u.Idx → EReal)
    (h' : (⟨3, ![n0, n1, n2]⟩ : Shape).ReducesTo [1] ⟨2, ![n0, n2]⟩) (h : (⟨3, ![n0, n1, n2]⟩ : Shape).Reduces [1] ⟨2, ![n0, n2]⟩)
    (hu : 0 < u.numel) (b : Fin n0) (l : Fin n2) :
    Host.reduceAdd (F := Ideal) (φ := .f32) x init h' hu (ix2 b l) = init (Shape.Idx.first hu) + ∑ r : Fin n1, x (ix3 b r l) := by
  refine (Ideal.hostReduceAdd_single h' h x (init (Shape.Idx.first hu)) (ix2 b l)).trans ?_
  refine congrArg (init (Shape.Idx.first hu) + ·) (Finset.sum_congr rfl fun r _ => congrArg x ?_)
  funext a
  match a with
  | ⟨0, _⟩ => rfl
  | ⟨1, _⟩ => rfl
  | ⟨2, _⟩ => rfl

/-- The host's sum over the two leading axes of a rank-3 array, read at `l`: the initial value plus the sum over
    `b` and `r` of the entries `(b, r, l)`. -/
theorem hostSumLead3_apply {n0 n1 n2 : Nat} {u : Shape} (x : FVec Ideal ⟨3, ![n0, n1, n2]⟩ .f32) (init : u.Idx → EReal)
    (h' : (⟨3, ![n0, n1, n2]⟩ : Shape).ReducesTo [0, 1] ⟨1, ![n2]⟩) (hu : 0 < u.numel) (l : Fin n2) :
    Host.reduceAdd (F := Ideal) (φ := .f32) x init h' hu (ix1 l)
      = init (Shape.Idx.first hu) + ∑ b : Fin n0, ∑ r : Fin n1, x (ix3 b r l) := by
  show Ideal.hostReduceAdd h' x (init (Shape.Idx.first hu)) (ix1 l) = _
  unfold Ideal.hostReduceAdd
  refine congrArg (init (Shape.Idx.first hu) + ·) ?_
  rw [Finset.sum_filter, sum_idx3]
  refine Finset.sum_congr rfl fun b _ => Finset.sum_congr rfl fun r _ => ?_
  have hd : ∀ c : Fin n2, (h'.drop (ix3 b r c) = ix1 l) ↔ c = l := fun c => by
    have hv : (h'.drop (ix3 b r c) (0 : Fin 1)).val = c.val := h'.drop_apply_val_of_eq (ix3 b r c) 0 2 Nat.one_pos rfl
    constructor
    · intro e
      have := congrArg (fun j => (j (0 : Fin 1)).val) e
      exact Fin.ext (hv.symm.trans this)
    · intro e
      funext a
      match a with
      | ⟨0, _⟩ => exact Fin.ext (hv.trans (congrArg Fin.val e))
  simp only [hd]
  exact (Finset.sum_ite_eq' Finset.univ l fun c => x (ix3 b r c)).trans (if_pos (Finset.mem_univ l))

/-! ## The constants -/

/-- The word of the number of points, 100000 × 32, is the real 3200000. -/
theorem total_eq : Cert.Pillar.total = ((3200000 : ℝ) : EReal) := by
  simp [Ideal.ofBits, Ideal.ieee, -EReal.coe_mul]; norm_num

theorem total_pos : (0 : EReal) < Cert.Pillar.total := by
  rw [total_eq]; exact EReal.coe_pos.mpr (by norm_num)

end Cert.ReferenceIdeal.Hand
end
-- ==== Proof.RefDot.lean ====
/-
  The reference's projection, entry by entry: point `p` of pillar `n` in channel `d` is the sum over the ten features of
  the feature times the matrix entry.
-/
import proofs.«159035_j63986422775810_1_alg».proof.Proof.RefTerm
import proofs.«159035_j63986422775810_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Hand

open Cert.ReferenceIdeal Idealize.ShloMosaic Idealize.ShloMosaic.ValueIdx

/-- The reference's projection contracts the left operand's last axis against the matrix's first: at result index
    (n, p, d) and contraction position k the left operand is read at (n, p, k) … -/
theorem lhs_dot_S100000x32x10_S10x64_S100000x32x64_2_0_01_1_n_n_0 (j : S100000x32x64.Idx) (k : dot_S100000x32x10_S10x64_S100000x32x64_2_0_01_1_n_n.contr.Idx) :
    (dot_S100000x32x10_S10x64_S100000x32x64_2_0_01_1_n_n.lhsIdx j k 0).val = (j 0).val := rfl
theorem lhs_dot_S100000x32x10_S10x64_S100000x32x64_2_0_01_1_n_n_1 (j : S100000x32x64.Idx) (k : dot_S100000x32x10_S10x64_S100000x32x64_2_0_01_1_n_n.contr.Idx) :
    (dot_S100000x32x10_S10x64_S100000x32x64_2_0_01_1_n_n.lhsIdx j k 1).val = (j 1).val := rfl
theorem lhs_dot_S100000x32x10_S10x64_S100000x32x64_2_0_01_1_n_n_2 (j : S100000x32x64.Idx) (k : dot_S100000x32x10_S10x64_S100000x32x64_2_0_01_1_n_n.contr.Idx) :
    (dot_S100000x32x10_S10x64_S100000x32x64_2_0_01_1_n_n.lhsIdx j k 2).val = (k ⟨0, Nat.one_pos⟩).val :=
  dot_S100000x32x10_S10x64_S100000x32x64_2_0_01_1_n_n.lhsIdx_val_of_single rfl j k
/-- … and the matrix at (k, d). -/
theorem rhs_dot_S100000x32x10_S10x64_S100000x32x64_2_0_01_1_n_n_0 (j : S100000x32x64.Idx) (k : dot_S100000x32x10_S10x64_S100000x32x64_2_0_01_1_n_n.contr.Idx) :
    (dot_S100000x32x10_S10x64_S100000x32x64_2_0_01_1_n_n.rhsIdx j k 0).val = (k ⟨0, Nat.one_pos⟩).val :=
  dot_S100000x32x10_S10x64_S100000x32x64_2_0_01_1_n_n.rhsIdx_val_of_single rfl j k
theorem rhs_dot_S100000x32x10_S10x64_S100000x32x64_2_0_01_1_n_n_1 (j : S100000x32x64.Idx) (k : dot_S100000x32x10_S10x64_S100000x32x64_2_0_01_1_n_n.contr.Idx) :
    (dot_S100000x32x10_S10x64_S100000x32x64_2_0_01_1_n_n.rhsIdx j k 1).val = (j 2).val := rfl

/-- The projection at pillar `n`, point `p`, channel `d`. -/
theorem projT_apply (A : FVec Ideal S100000x32x10 .f32) (W : FVec Ideal S10x64 .f32) (n : Fin 100000) (p : Fin 32) (d : Fin 64) :
    projT (F := Ideal) A W (ix3 n p d) = ∑ j : Fin 10, A (ix3 n p j) * W (ix2 j d) := by
  unfold projT
  refine (Ideal.dotGeneral_apply dot_S100000x32x10_S10x64_S100000x32x64_2_0_01_1_n_n none .single A W (ix3 n p d)).trans ?_
  rw [← Equiv.sum_comp (contrEquiv1 dot_S100000x32x10_S10x64_S100000x32x64_2_0_01_1_n_n 10 rfl rfl).symm]
  refine Finset.sum_congr rfl fun k _ => ?_
  have hk := contrEquiv1_symm_val dot_S100000x32x10_S10x64_S100000x32x64_2_0_01_1_n_n 10 rfl rfl k
  have hl : dot_S100000x32x10_S10x64_S100000x32x64_2_0_01_1_n_n.lhsIdx (ix3 n p d) ((contrEquiv1 dot_S100000x32x10_S10x64_S100000x32x64_2_0_01_1_n_n 10 rfl rfl).symm k) = ix3 n p k := by
    funext a
    match a with
    | ⟨0, _⟩ => exact Fin.ext (lhs_dot_S100000x32x10_S10x64_S100000x32x64_2_0_01_1_n_n_0 _ _)
    | ⟨1, _⟩ => exact Fin.ext (lhs_dot_S100000x32x10_S10x64_S100000x32x64_2_0_01_1_n_n_1 _ _)
    | ⟨2, _⟩ => exact Fin.ext ((lhs_dot_S100000x32x10_S10x64_S100000x32x64_2_0_01_1_n_n_2 _ _).trans hk)
  have hr : dot_S100000x32x10_S10x64_S100000x32x64_2_0_01_1_n_n.rhsIdx (ix3 n p d) ((contrEquiv1 dot_S100000x32x10_S10x64_S100000x32x64_2_0_01_1_n_n 10 rfl rfl).symm k) = ix2 k d := by
    funext a
    match a with
    | ⟨0, _⟩ => exact Fin.ext ((rhs_dot_S100000x32x10_S10x64_S100000x32x64_2_0_01_1_n_n_0 _ _).trans hk)
    | ⟨1, _⟩ => exact Fin.ext (rhs_dot_S100000x32x10_S10x64_S100000x32x64_2_0_01_1_n_n_1 _ _)
  rw [hl, hr]

end Cert.ReferenceIdeal.Hand

end
-- ==== Proof.LibMaxAxis.lean ====
/-
  Two readings at an index, over the extended reals, of a maximum taken along ONE axis:

  * `maxLead2_apply`: a `vector.multi_reduction <maximumf>` over axis 0 of a rank-2 vector [n0, n1], read at `q`, is the
    fold of `max` from the accumulator's value over `g : Fin n0` of the entries `(g, q)` — a column's maximum;
  * `hostMaxMid3_apply`: the host's one-operand `stablehlo.reduce` with a `maximum` body over the MIDDLE axis of a rank-3
    array [n0, n1, n2], read at `(b, l)`, is the fold of `max` from the initial value over `r : Fin n1` of the entries
    `(b, r, l)`.

  Both folds are over `Finset.univ`, so they are free of the order the reductions are carried out in; two of them over
  the same entries from the same start are equal by `Finset.fold_congr`.
-/
import Idealize.ShloMosaic.PureOps.Ideal.Laws
import Idealize.ShloMosaic.Lib.ValueIdx

noncomputable section

namespace Cert.Lib

open Idealize.ShloMosaic Idealize.ShloMosaic.ValueIdx

/-- The maximum over the leading axis of a rank-2 vector, read at `q`: the fold of `max`, from the accumulator's value,
    over `g` of the entries `(g, q)`. -/
theorem maxLead2_apply {n0 n1 : Nat} (src : FVec Ideal ⟨2, ![n0, n1]⟩ .f32) (acc : BitVec 32)
    (h : (⟨2, ![n0, n1]⟩ : Shape).Reduces [0] ⟨1, ![n1]⟩) (hφ : FKind.Formats .f32)
    (hacc : acc = FKind.maximumf.neutral .f32 hφ) (q : Fin n1) :
    multiReduction .maximumf [0] ⟨1, ![n1]⟩ src acc h hφ hacc (ix1 q)
      = (Finset.univ : Finset (Fin n0)).fold max (Ideal.ofBits .f32 acc) (fun g => src (ix2 g q)) := by
  refine (Ideal.multiReduction_maximumf_single src acc h hφ hacc (ix1 q)).trans ?_
  refine Finset.fold_congr fun g _ => congrArg src ?_
  funext a
  match a with
  | ⟨0, _⟩ => rfl
  | ⟨1, _⟩ => rfl

/-- The host's maximum over the middle axis of a rank-3 array, read at `(b, l)`: the fold of `max`, from the initial
    value, over `r` of the entries `(b, r, l)`. (`h` is the `Reduces` fact at the same shapes as the operation's
    `ReducesTo` fact `h'`; at literal shapes `by decide` gives it.) -/
theorem hostMaxMid3_apply {n0 n1 n2 : Nat} {u : Shape} (x : (⟨3, ![n0, n1, n2]⟩ : Shape).Idx → EReal) (init : u.Idx → EReal)
    (h' : (⟨3, ![n0, n1, n2]⟩ : Shape).ReducesTo [1] ⟨2, ![n0, n2]⟩) (h : (⟨3, ![n0, n1, n2]⟩ : Shape).Reduces [1] ⟨2, ![n0, n2]⟩)
    (hu : 0 < u.numel) (b : Fin n0) (l : Fin n2) :
    Host.reduce (FloatOps.maximumf (F := Ideal) (φ := .f32)) x init h' hu (ix2 b l)
      = (Finset.univ : Finset (Fin n1)).fold max (init (Shape.Idx.first hu)) (fun r => x (ix3 b r l)) := by
  refine (Host.reduce_eq_fold_single (FloatOps.maximumf (F := Ideal) (φ := .f32)) x init h' h hu (ix2 b l)).trans ?_
  refine Finset.fold_congr fun r _ => congrArg x ?_
  funext a
  match a with
  | ⟨0, _⟩ => rfl
  | ⟨1, _⟩ => rfl
  | ⟨2, _⟩ => rfl

end Cert.Lib

end
-- ==== Proof.RefTail.lean ====
/-
  The reference from its projected values to its result, entry by entry: the channel's mean is the sum of the projected
  values over all points divided by their number, its variance the sum of the squared deviations divided by the same
  number (the helper's guard "the divisor is positive" holds, the divisor being 3200000), and pillar `n`, channel `d` of
  the result is the largest over the pillar's points of the normalised, clamped value.
-/
import proofs.«159035_j63986422775810_1_alg».proof.Proof.RefTerm
import proofs.«159035_j63986422775810_1_alg».proof.Proof.Spec
import proofs.«159035_j63986422775810_1_alg».proof.Proof.RefLayout
import proofs.«159035_j63986422775810_1_alg».proof.Proof.LibMaxAxis
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Hand

open Cert.ReferenceIdeal Idealize.ShloMosaic Idealize.ShloMosaic.ValueIdx

/-- The channel mean and variance of an array of projected values, as the reference takes them. -/
def muOf (h : FVec Ideal S100000x32x64 .f32) (d : Fin 64) : EReal :=
  Ideal.div (∑ n : Fin 100000, ∑ p : Fin 32, h (ix3 n p d)) Cert.Pillar.total
def varOf (h : FVec Ideal S100000x32x64 .f32) (d : Fin 64) : EReal :=
  Ideal.div (∑ n : Fin 100000, ∑ p : Fin 32, (h (ix3 n p d) - muOf h d) * (h (ix3 n p d) - muOf h d)) Cert.Pillar.total

/-! ## The lines after the projection, grouped: the channel sums, the mean, the variance helper, the normalised and
    clamped values, the largest over a pillar's points -/

section Stages
open Cert.ReferenceIdeal.Facts₀
variable {F : FTy → Type} [FloatOps F]

/-- The sum over all pillars and points, per channel, from the zero word. -/
def sumT (x : FVec F S100000x32x64 .f32) : FVec F S64 .f32 :=
  Host.reduceAdd x (constant S_ .f32 0x00000000#32) reducesTo_S100000x32x64_S64_d0_1 h_S_

/-- The channel means: the sums over the word of the number of points. -/
def muT (h : FVec F S100000x32x64 .f32) : FVec F S64 .f32 :=
  Host.divf (sumT h) (broadcastInDim S64 ![] bcast_S_S64 (constant S_ .f32 0x4A435000#32))

/-- The variance helper's deviations: each value less its channel's mean, the mean taken again inside the helper. -/
def devT (h : FVec F S100000x32x64 .f32) : FVec F S100000x32x64 .f32 :=
  subf h (broadcastInDim S100000x32x64 ![0, 1, 2] bcast_S1x1x64_S100000x32x64_0_1_2
    (Host.divf (broadcastInDim S1x1x64 ![2] bcast_S64_S1x1x64_2 (sumT h))
      (broadcastInDim S1x1x64 ![] bcast_S_S1x1x64 (constant S_ .f32 0x4A435000#32))))

/-- The variance helper's divisor: the number of points less the integer zero converted. -/
def divisorT : FVec F S_ .f32 :=
  subf (constant S_ .f32 0x4A435000#32) (sitofp .f32 (constantI S_ 32 0#32))

/-- The channel variances: the summed squared deviations over the divisor where the divisor is positive, else the
    word of a NaN. -/
def varT (h : FVec F S100000x32x64 .f32) : FVec F S64 .f32 :=
  select (broadcastInDim S64 ![] bcast_S_S64 (cmpf .ogt (divisorT (F := F)) (constant S_ .f32 0x00000000#32)))
    (Host.divf (sumT (mulf (devT h) (devT h))) (broadcastInDim S64 ![] bcast_S_S64 (divisorT (F := F))))
    (broadcastInDim S64 ![] bcast_S_S64 (id (constant S_ .f32 0x7FC00000#32)))

/-- The normalised values through the affine pair, clamped below at zero. -/
def normT (h : FVec F S100000x32x64 .f32) (mu var g b : FVec F S64 .f32) : FVec F S100000x32x64 .f32 :=
  maximumf
    (addf
      (mulf
        (mulf
          (subf h (broadcastInDim S100000x32x64 ![0, 1, 2] bcast_S1x1x64_S100000x32x64_0_1_2
            (broadcastInDim S1x1x64 ![2] bcast_S64_S1x1x64_2 mu)))
          (broadcastInDim S100000x32x64 ![0, 1, 2] bcast_S1x1x64_S100000x32x64_0_1_2
            (broadcastInDim S1x1x64 ![2] bcast_S64_S1x1x64_2
              (Host.rsqrt (addf var (broadcastInDim S64 ![] bcast_S_S64 (constant S_ .f32 0x3A83126F#32)))))))
        (broadcastInDim S100000x32x64 ![0, 1, 2] bcast_S1x1x64_S100000x32x64_0_1_2
          (broadcastInDim S1x1x64 ![2] bcast_S64_S1x1x64_2 g)))
      (broadcastInDim S100000x32x64 ![0, 1, 2] bcast_S1x1x64_S100000x32x64_0_1_2
        (broadcastInDim S1x1x64 ![2] bcast_S64_S1x1x64_2 b)))
    (broadcastInDim S100000x32x64 ![] bcast_S_S100000x32x64 (constant S_ .f32 0x00000000#32))

/-- The largest value over a pillar's points, from the word of minus infinity. -/
def poolT (x : FVec F S100000x32x64 .f32) : FVec F S100000x64 .f32 :=
  Host.reduce FloatOps.maximumf x (constant S_ .f32 0xFF800000#32) reducesTo_S100000x32x64_S100000x64_d1 h_S_

/-- The reference's lines after the projection are these groups composed. -/
theorem tailT_eq (h : FVec F S100000x32x64 .f32) (g b : FVec F S64 .f32) :
    tailT h g b = poolT (normT h (muT h) (varT h) g b) := rfl

end Stages

/-! ## Each group read at an index, over the extended reals -/

section AtIdeal
open Cert.ReferenceIdeal.Facts₀

/-- The channel sum is the plain double sum: the zero word is zero. -/
theorem sumT_apply (x : FVec Ideal S100000x32x64 .f32) (d : Fin 64) :
    sumT (F := Ideal) x (ix1 d) = ∑ n : Fin 100000, ∑ p : Fin 32, x (ix3 n p d) := by
  unfold sumT
  refine (hostSumLead3_apply x _ reducesTo_S100000x32x64_S64_d0_1 h_S_ d).trans ?_
  show Ideal.ofBits .f32 0x00000000#32 + _ = _
  rw [Ideal.ofBits_zero_f32, zero_add]

/-- The channel mean is the double sum over the number of points. -/
theorem muT_apply (h : FVec Ideal S100000x32x64 .f32) (d : Fin 64) : muT (F := Ideal) h (ix1 d) = muOf h d := by
  show Ideal.div (sumT (F := Ideal) h (ix1 d)) Cert.Pillar.total = _
  rw [sumT_apply]; rfl

/-- A deviation is the value less the channel's mean. -/
theorem devT_apply (h : FVec Ideal S100000x32x64 .f32) (n : Fin 100000) (p : Fin 32) (d : Fin 64) :
    devT (F := Ideal) h (ix3 n p d) = h (ix3 n p d) - muOf h d := by
  unfold devT
  show h (ix3 n p d) - _ = _
  rw [b_11d_npd]
  show h (ix3 n p d) - Ideal.div (broadcastInDim S1x1x64 ![2] bcast_S64_S1x1x64_2 (sumT (F := Ideal) h) (ix3 (0 : Fin 1) (0 : Fin 1) d)) Cert.Pillar.total = _
  rw [b_d_11d, sumT_apply]; rfl

/-- The helper's divisor is the number of points: the integer zero converted is zero. -/
theorem divisorT_apply (i : S_.Idx) : divisorT (F := Ideal) i = Cert.Pillar.total := by
  show Cert.Pillar.total - ((((0#32 : BitVec 32).toInt : ℤ) : ℝ) : EReal) = _
  simp

/-- The helper's guard holds: the number of points is positive. -/
theorem guard_apply (i : S_.Idx) :
    cmpf .ogt (divisorT (F := Ideal)) (constant S_ .f32 0x00000000#32) i = 1#1 := by
  show Ideal.cmp .ogt (divisorT (F := Ideal) i) (Ideal.ofBits .f32 0x00000000#32) = 1#1
  rw [divisorT_apply, Ideal.ofBits_zero_f32]
  simp [Ideal.cmp, total_pos]

end AtIdeal

section AtIdeal2
open Cert.ReferenceIdeal.Facts₀

/-- The channel variance is the double sum of the squared deviations over the number of points: the guard picks the
    quotient, and the divisor is the number of points. -/
theorem varT_apply (h : FVec Ideal S100000x32x64 .f32) (d : Fin 64) : varT (F := Ideal) h (ix1 d) = varOf h d := by
  unfold varT
  rw [select_apply, broadcastInDim_scalar_apply, guard_apply, select_one]
  show Ideal.div (sumT (F := Ideal) (mulf (devT h) (devT h)) (ix1 d))
    (broadcastInDim S64 ![] bcast_S_S64 (divisorT (F := Ideal)) (ix1 d)) = _
  rw [broadcastInDim_scalar_apply, divisorT_apply, sumT_apply]
  have e : ∀ (n : Fin 100000) (p : Fin 32), mulf (devT (F := Ideal) h) (devT h) (ix3 n p d)
      = (h (ix3 n p d) - muOf h d) * (h (ix3 n p d) - muOf h d) := fun n p => by
    show devT (F := Ideal) h (ix3 n p d) * devT (F := Ideal) h (ix3 n p d) = _
    rw [devT_apply]
  simp only [e]
  rfl

/-- A normalised, clamped value is the specification's, from the channel's mean, variance and affine pair. -/
theorem normT_apply (h : FVec Ideal S100000x32x64 .f32) (mu var g b : FVec Ideal S64 .f32)
    (n : Fin 100000) (p : Fin 32) (d : Fin 64) :
    normT (F := Ideal) h mu var g b (ix3 n p d)
      = Cert.Pillar.norm (h (ix3 n p d)) (mu (ix1 d)) (var (ix1 d)) (g (ix1 d)) (b (ix1 d)) := by
  unfold normT
  rw [maximumf_apply, addf_apply, mulf_apply, mulf_apply, subf_apply, b_d_npd, b_d_npd, b_d_npd, b_d_npd,
    broadcastInDim_scalar_apply]
  rfl

/-- The result is the largest of the pillar's values, from minus infinity. -/
theorem poolT_apply (x : FVec Ideal S100000x32x64 .f32) (n : Fin 100000) (d : Fin 64) :
    poolT (F := Ideal) x (ix2 n d)
      = (Finset.univ : Finset (Fin 32)).fold max Cert.Pillar.negInf (fun p => x (ix3 n p d)) := by
  unfold poolT
  exact Cert.Lib.hostMaxMid3_apply x _ reducesTo_S100000x32x64_S100000x64_d1 (by decide) h_S_ n d

end AtIdeal2

/-- The result at pillar `n`, channel `d`, from the projected values and the affine pair. -/
theorem tailT_apply (h : FVec Ideal S100000x32x64 .f32) (g b : FVec Ideal S64 .f32) (n : Fin 100000) (d : Fin 64) :
    tailT (F := Ideal) h g b (ix2 n d)
      = Cert.Pillar.pool (fun p => h (ix3 n p d)) (muOf h d) (varOf h d) (g (ix1 d)) (b (ix1 d)) := by
  rw [tailT_eq, poolT_apply]
  unfold Cert.Pillar.pool
  refine Finset.fold_congr fun p _ => ?_
  rw [normT_apply, muT_apply, varT_apply]

end Cert.ReferenceIdeal.Hand

end
-- ==== Proof.RefValue.lean ====
/-
  The reference's result, entry by entry, is the specification's: pillar `n`, channel `d` holds the largest over the
  pillar's 32 points of the projected value, normalised with the channel's mean and its variance taken as the mean of
  the squared deviations, sent through the affine pair and clamped at zero.

  The ten features of a point are read first: the mask, the pillar's centroid and its cell centre at an index, then
  the three-piece concatenation, piece by piece. The projection and the lines after it are read in their own modules;
  here the three are put together.
-/
import proofs.«159035_j63986422775810_1_alg».proof.Proof.RefTerm
import proofs.«159035_j63986422775810_1_alg».proof.Proof.Spec
import proofs.«159035_j63986422775810_1_alg».proof.Proof.RefLayout
import proofs.«159035_j63986422775810_1_alg».proof.Proof.RefDot
import proofs.«159035_j63986422775810_1_alg».proof.Proof.RefTail
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Hand

open Cert.ReferenceIdeal Idealize.ShloMosaic Idealize.ShloMosaic.ValueIdx

open Cert.ReferenceIdeal.Facts₀

/-! ## The point mask -/

/-- The point mask as the program builds it: one where the point's number is below the pillar's point count. -/
def maskT (a4 : IVec S100000 32) : FVec Ideal S100000x32 .f32 :=
  uitofp .f32 (cmpi .slt
    (broadcastInDim S100000x32 ![0, 1] bcast_S1x32_S100000x32_0_1 (broadcastInDim S1x32 ![1] bcast_S32_S1x32_1 (iotaInDim S32 32 0)))
    (broadcastInDim S100000x32 ![0, 1] bcast_S100000x1_S100000x32_0_1 (broadcastInDim S100000x1 ![0] bcast_S100000_S100000x1_0 a4)))

/-- Point `p` of pillar `n` counts when `p` is below the pillar's point count. -/
theorem maskT_apply (a4 : IVec S100000 32) (n : Fin 100000) (p : Fin 32) :
    maskT a4 (ix2 n p) = Cert.Pillar.mask (a4 (ix1 n)) p := by
  have e1 : broadcastInDim S100000x32 ![0, 1] bcast_S1x32_S100000x32_0_1
      (broadcastInDim S1x32 ![1] bcast_S32_S1x32_1 (iotaInDim S32 32 0)) (ix2 n p) = BitVec.ofNat 32 p.val :=
    (broadcastInDim_apply _ _ _ (ix2 n p) (ix2 (0 : Fin 1) p) (fun a => match a with | ⟨0, _⟩ => rfl | ⟨1, _⟩ => rfl)).trans
      (broadcastInDim_apply _ _ _ (ix2 (0 : Fin 1) p) (ix1 p) (fun a => match a with | ⟨0, _⟩ => rfl))
  have e2 : broadcastInDim S100000x32 ![0, 1] bcast_S100000x1_S100000x32_0_1
      (broadcastInDim S100000x1 ![0] bcast_S100000_S100000x1_0 a4) (ix2 n p) = a4 (ix1 n) :=
    (broadcastInDim_apply _ _ _ (ix2 n p) (ix2 n (0 : Fin 1)) (fun a => match a with | ⟨0, _⟩ => rfl | ⟨1, _⟩ => rfl)).trans
      (broadcastInDim_apply _ _ _ (ix2 n (0 : Fin 1)) (ix1 n) (fun a => match a with | ⟨0, _⟩ => rfl))
  show (((IntOp.cmpi .slt _ _).toNat : ℝ) : EReal) = _
  rw [e1, e2]
  rfl

/-! ## The table of cell extents -/

/-- Entry `q` of the table is the cell's extent along axis `q`. -/
theorem lit0_cell (q : Fin 3) : FloatOps.ofBits (F := Ideal) .f32 (lit0 q) = Cert.Pillar.cell q := by
  have h0 : FloatOps.ofBits (F := Ideal) .f32 (lit0 (0 : Fin 3)) = Cert.Pillar.cell 0 := rfl
  have h1 : FloatOps.ofBits (F := Ideal) .f32 (lit0 (1 : Fin 3)) = Cert.Pillar.cell 1 := rfl
  have h2 : FloatOps.ofBits (F := Ideal) .f32 (lit0 (2 : Fin 3)) = Cert.Pillar.cell 2 := rfl
  have : q = 0 ∨ q = 1 ∨ q = 2 := by omega
  rcases this with rfl | rfl | rfl <;> assumption

/-- The table read through the row-major position of a rank-1 index. -/
theorem lit0_apply (k : Fin 3) :
    FloatOps.ofBits (F := Ideal) .f32 (lit0 (S3.rowMajor (ix1 k))) = Cert.Pillar.cell k := by
  have e : (S3.rowMajor (ix1 k) : Fin 3) = k := Fin.ext (Shape.rowMajor_val_one (ix1 k))
  exact (congrArg (fun q : Fin 3 => FloatOps.ofBits (F := Ideal) .f32 (lit0 q)) e).trans (lit0_cell k)
/-! ## The centroid and the cell centre -/

/-- The pillar's centroid as the program builds it: the masked sum of the points' first three numbers over the count. -/
def meanT (a0 : FVec Ideal S100000x32x4 .f32) (a4 : IVec S100000 32) : FVec Ideal S100000x3 .f32 :=
  Host.divf
    (Host.reduceAdd
      (mulf (extractStridedSlice S100000x32x3 ![0, 0, 0] a0 slices_S100000x32x4_S100000x32x3_0_0_0)
        (broadcastInDim S100000x32x3 ![0, 1, 2] bcast_S100000x32x1_S100000x32x3_0_1_2
          (broadcastInDim S100000x32x1 ![0, 1] bcast_S100000x32_S100000x32x1_0_1 (maskT a4))))
      (constant S_ .f32 0x00000000#32) reducesTo_S100000x32x3_S100000x3_d1 h_S_)
    (broadcastInDim S100000x3 ![0, 1] bcast_S100000x1_S100000x3_0_1
      (broadcastInDim S100000x1 ![0] bcast_S100000_S100000x1_0
        (sitofp .f32 (maxsi a4 (broadcastInDim S100000 ![] bcast_S_S100000 (constantI S_ 32 1#32))))))

theorem meanT_apply (a0 : FVec Ideal S100000x32x4 .f32) (a4 : IVec S100000 32) (n : Fin 100000) (k : Fin 3) :
    meanT a0 a4 (ix2 n k) = Cert.Pillar.mean (fun p k => a0 (ix3 n p k)) (a4 (ix1 n)) k := by
  unfold meanT Cert.Pillar.mean
  rw [hostDivf_apply, hostSumMid3_apply _ _ _ (by decide) _ n k, b_n1_n3, b_n_n1]
  refine congrArg₂ Ideal.div ?_ ?_
  · show Ideal.ofBits .f32 0x00000000#32 + _ = _
    rw [Ideal.ofBits_zero_f32, zero_add]
    refine Finset.sum_congr rfl fun p _ => ?_
    rw [mulf_apply, slice_xyz, b_np1_np3, b_np_np1, maskT_apply]
  · show (((IntOp.maxsi (a4 (ix1 n)) (broadcastInDim S100000 ![] bcast_S_S100000 (constantI S_ 32 1#32) (ix1 n))).toInt : ℝ) : EReal) = _
    rw [broadcastInDim_scalar_apply]
    rfl

/-- The pillar's cell centre as the program builds it. -/
def centerT (a5 : IVec S100000x4 32) : FVec Ideal S100000x3 .f32 :=
  mulf
    (addf (sitofp .f32 (extractStridedSlice S100000x3 ![0, 1] a5 slices_S100000x4_S100000x3_0_1))
      (broadcastInDim S100000x3 ![] bcast_S_S100000x3 (constant S_ .f32 0x3F000000#32)))
    (broadcastInDim S100000x3 ![0, 1] bcast_S1x3_S100000x3_0_1
      (broadcastInDim S1x3 ![1] bcast_S3_S1x3_1 (fun i => FloatOps.ofBits .f32 (lit0 (S3.rowMajor i)))))

theorem centerT_apply (a5 : IVec S100000x4 32) (n : Fin 100000) (k : Fin 3) :
    centerT a5 (ix2 n k) = Cert.Pillar.center (fun k => a5 (ix2 n k)) k := by
  unfold centerT Cert.Pillar.center
  rw [mulf_apply, addf_apply, b_3_n3, lit0_apply, broadcastInDim_scalar_apply, sitofp_apply, slice_zyx]
  rfl

/-! ## The ten features -/

/-- The three-piece concatenation along the last axis, read at (n, p, j): the piece whose span holds `j`. -/
theorem concat3_apply (x0 : FVec Ideal S100000x32x4 .f32) (x1 x2 : FVec Ideal S100000x32x3 .f32) (n : Fin 100000) (p : Fin 32)
    (j : Fin 10) :
    concatenate S100000x32x10 2 [⟨S100000x32x4, x0⟩, ⟨S100000x32x3, x1⟩, ⟨S100000x32x3, x2⟩]
        concatenates_S100000x32x4_S100000x32x3_S100000x32x3_S100000x32x10_d2 (ix3 n p j)
      = if h : j.val < 4 then x0 (ix3 n p (⟨j.val, h⟩ : Fin 4))
        else if h' : j.val < 7 then x1 (ix3 n p (⟨j.val - 4, by omega⟩ : Fin 3))
        else x2 (ix3 n p (⟨j.val - 7, by omega⟩ : Fin 3)) := by
  by_cases h : j.val < 4
  · rw [dif_pos h]
    exact concatenate_apply_piece (2 : Fin 3) _ _ (ix3 n p j) 0 (by show (0 : Nat) < 3; omega) S100000x32x4 x0 rfl rfl 0 rfl
      (ix3 n p (⟨j.val, h⟩ : Fin 4))
      (fun b hb => match b, hb with | ⟨0, _⟩, _ => rfl | ⟨1, _⟩, _ => rfl | ⟨2, _⟩, hb => absurd rfl hb)
      (Nat.zero_add _)
  · rw [dif_neg h]
    by_cases h' : j.val < 7
    · rw [dif_pos h']
      exact concatenate_apply_piece (2 : Fin 3) _ _ (ix3 n p j) 1 (by show (1 : Nat) < 3; omega) S100000x32x3 x1 rfl rfl 4 rfl
        (ix3 n p (⟨j.val - 4, by omega⟩ : Fin 3))
        (fun b hb => match b, hb with | ⟨0, _⟩, _ => rfl | ⟨1, _⟩, _ => rfl | ⟨2, _⟩, hb => absurd rfl hb)
        (by show 4 + (j.val - 4) = j.val; omega)
    · rw [dif_neg h']
      exact concatenate_apply_piece (2 : Fin 3) _ _ (ix3 n p j) 2 (by show (2 : Nat) < 3; omega) S100000x32x3 x2 rfl rfl 7 rfl
        (ix3 n p (⟨j.val - 7, by omega⟩ : Fin 3))
        (fun b hb => match b, hb with | ⟨0, _⟩, _ => rfl | ⟨1, _⟩, _ => rfl | ⟨2, _⟩, hb => absurd rfl hb)
        (by show 7 + (j.val - 7) = j.val; omega)

/-- The features as the program builds them, over the mask, the centroid and the cell centre named above. -/
theorem featT_eq (a0 : FVec Ideal S100000x32x4 .f32) (a4 : IVec S100000 32) (a5 : IVec S100000x4 32) :
    featT (F := Ideal) a0 a4 a5
      = mulf
          (concatenate S100000x32x10 2
            [⟨S100000x32x4, a0⟩,
             ⟨S100000x32x3, subf (extractStridedSlice S100000x32x3 ![0, 0, 0] a0 slices_S100000x32x4_S100000x32x3_0_0_0)
                (broadcastInDim S100000x32x3 ![0, 1, 2] bcast_S100000x1x3_S100000x32x3_0_1_2
                  (broadcastInDim S100000x1x3 ![0, 2] bcast_S100000x3_S100000x1x3_0_2 (meanT a0 a4)))⟩,
             ⟨S100000x32x3, subf (extractStridedSlice S100000x32x3 ![0, 0, 0] a0 slices_S100000x32x4_S100000x32x3_0_0_0)
                (broadcastInDim S100000x32x3 ![0, 1, 2] bcast_S100000x1x3_S100000x32x3_0_1_2
                  (broadcastInDim S100000x1x3 ![0, 2] bcast_S100000x3_S100000x1x3_0_2 (centerT a5)))⟩]
            concatenates_S100000x32x4_S100000x32x3_S100000x32x3_S100000x32x10_d2)
          (broadcastInDim S100000x32x10 ![0, 1, 2] bcast_S100000x32x1_S100000x32x10_0_1_2
            (broadcastInDim S100000x32x1 ![0, 1] bcast_S100000x32_S100000x32x1_0_1 (maskT a4))) := rfl

/-- Point `p` of pillar `n`: its ten features, masked. -/
theorem featT_apply (a0 : FVec Ideal S100000x32x4 .f32) (a4 : IVec S100000 32) (a5 : IVec S100000x4 32) (n : Fin 100000)
    (p : Fin 32) (j : Fin 10) :
    featT (F := Ideal) a0 a4 a5 (ix3 n p j)
      = Cert.Pillar.feat (fun p k => a0 (ix3 n p k)) (a4 (ix1 n)) (fun k => a5 (ix2 n k)) p j := by
  rw [featT_eq, mulf_apply, concat3_apply, b_np1_np10, b_np_np1, maskT_apply]
  unfold Cert.Pillar.feat Cert.Pillar.feat10
  refine congrArg (· * Cert.Pillar.mask (a4 (ix1 n)) p) ?_
  by_cases h : j.val < 4
  · rw [dif_pos h, dif_pos h]
  · rw [dif_neg h, dif_neg h]
    by_cases h' : j.val < 7
    · rw [dif_pos h', dif_pos h', subf_apply, slice_xyz, b_n3_np3, meanT_apply]
      rfl
    · rw [dif_neg h', dif_neg h', subf_apply, slice_xyz, b_n3_np3, centerT_apply]
      rfl

/-! ## The result -/

/-- The reference's result at pillar `n`, channel `d`. -/
theorem res_apply (a0 : FVec Ideal S100000x32x4 .f32) (a1 : FVec Ideal S10x64 .f32) (a2 a3 : FVec Ideal S64 .f32)
    (a4 : IVec S100000 32) (a5 : IVec S100000x4 32) (n : Fin 100000) (d : Fin 64) :
    res (F := Ideal) a0 a1 a2 a3 a4 a5 (ix2 n d)
      = Cert.Pillar.outR (fun n p k => a0 (ix3 n p k)) (fun n => a4 (ix1 n)) (fun n k => a5 (ix2 n k)) (fun j d => a1 (ix2 j d)) (fun d => a2 (ix1 d)) (fun d => a3 (ix1 d)) n d := by
  have hH : ∀ (n' : Fin 100000) (p' : Fin 32) (d' : Fin 64),
      projT (F := Ideal) (featT (F := Ideal) a0 a4 a5) a1 (ix3 n' p' d')
        = Cert.Pillar.H (fun n p k => a0 (ix3 n p k)) (fun n => a4 (ix1 n)) (fun n k => a5 (ix2 n k)) (fun j d => a1 (ix2 j d)) n' p' d' :=
    fun n' p' d' => by
      rw [projT_apply]
      unfold Cert.Pillar.H Cert.Pillar.proj
      exact Finset.sum_congr rfl fun j _ => by rw [featT_apply]
  have hmu : ∀ d' : Fin 64, muOf (projT (F := Ideal) (featT (F := Ideal) a0 a4 a5) a1) d'
      = Cert.Pillar.mu (fun n p k => a0 (ix3 n p k)) (fun n => a4 (ix1 n)) (fun n k => a5 (ix2 n k)) (fun j d => a1 (ix2 j d)) d' :=
    fun d' => by
      unfold muOf Cert.Pillar.mu Cert.Pillar.sumH
      simp only [hH]
  have hvar : varOf (projT (F := Ideal) (featT (F := Ideal) a0 a4 a5) a1) d
      = Cert.Pillar.varR (fun n p k => a0 (ix3 n p k)) (fun n => a4 (ix1 n)) (fun n k => a5 (ix2 n k)) (fun j d => a1 (ix2 j d)) d := by
    unfold varOf Cert.Pillar.varR
    simp only [hH, hmu]
  rw [res_eq_stages, tailT_apply, hmu, hvar]
  unfold Cert.Pillar.outR
  simp only [hH]

end Cert.ReferenceIdeal.Hand
end
-- ==== Proof.Algebra.lean ====
/-
  The one law that joins the two programs, and where it needs real numbers.

  For real numbers h₁ … h_N with mean μ = (Σ hᵢ)/N the mean of the squares less μ² is the mean of the squared deviations:
  (Σ hᵢ²)/N − μ² = (Σ (hᵢ − μ)²)/N. On the extended reals this fails at the infinities (it distributes a product over a
  sum and cancels), so it is proved for projected values that are real, which they are when every point's numbers and
  every matrix entry are real: a centroid divides by a count that is at least one, a cell centre is an integer plus a
  half times a constant, a mask is zero or one. The precondition says exactly that the float inputs are finite.
-/
import proofs.«159035_j63986422775810_1_alg».proof.Proof.Spec
import proofs.«159035_j63986422775810_1_alg».proof.Pre_finite_inputs
import proofs.«159035_j63986422775810_1_alg».proof.Proof.Gen.Pre_finite_inputs
import Idealize.ShloMosaic.Lib.ReduceAll

noncomputable section

namespace Cert.Pillar.Alg

open Idealize.ShloMosaic

/-! ### Real numbers inside the extended reals -/

/-- An extended real that is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- A real divided by a nonzero real is a real: the quotient is the product with the reciprocal. -/
theorem IsReal.div {x : EReal} {y : ℝ} (hx : IsReal x) (hy : y ≠ 0) : IsReal (Ideal.div x (y : EReal)) := by
  rw [Ideal.div_coe hy]; exact hx.mul (IsReal.coe _)

/-- The sum of the images of reals is the image of their sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ### The constants: each pattern has a finite exponent, so it denotes a real; the divisor denotes 3200000 -/

theorem half_real : IsReal half := by
  unfold IsReal
  simp [half, Ideal.ofBits, Ideal.ieee, -EReal.coe_mul]

theorem cellXY_real : IsReal cellXY := by
  unfold IsReal
  simp [cellXY, Ideal.ofBits, Ideal.ieee, -EReal.coe_mul]

theorem cellZ_real : IsReal cellZ := by
  unfold IsReal
  simp [cellZ, Ideal.ofBits, Ideal.ieee, -EReal.coe_mul]

/-- The divisor both programs spell is the number of points, 100000 · 32. -/
theorem total_eq : total = ((3200000 : ℝ) : EReal) := by
  simp [total, Ideal.ofBits, Ideal.ieee, -EReal.coe_mul]; norm_num

/-! ### Every projected value is a real when the points and the matrix are -/

theorem cell_real (k : Fin 3) : IsReal (cell k) := by
  unfold cell; split
  · exact cellZ_real
  · exact cellXY_real

/-- A mask is zero or one. -/
theorem mask_real (np : BitVec 32) (p : Fin 32) : IsReal (mask np p) := ⟨_, rfl⟩

/-- The count is the larger of the point count and one, so it is at least one. -/
theorem count_toInt_pos (np : BitVec 32) : 1 ≤ (IntOp.maxsi np 1#32).toInt := by
  unfold IntOp.maxsi
  split
  · rename_i h
    rw [BitVec.slt_iff_toInt_lt] at h
    have : (1#32 : BitVec 32).toInt = 1 := by decide
    omega
  · decide

/-- A centroid is a finite sum of reals over a count that is not zero. -/
theorem mean_real (x : Fin 32 → Fin 4 → EReal) (hx : ∀ p k, IsReal (x p k)) (np : BitVec 32) (k : Fin 3) :
    IsReal (mean x np k) := by
  unfold mean count
  refine IsReal.div (IsReal.sum _ _ fun p _ => (hx p _).mul (mask_real np p)) ?_
  have := count_toInt_pos np
  have h1 : (1 : ℝ) ≤ ((IntOp.maxsi np 1#32).toInt : ℝ) := by exact_mod_cast this
  linarith

/-- A cell centre is an integer plus a half, times the cell's extent. -/
theorem center_real (co : Fin 4 → BitVec 32) (k : Fin 3) : IsReal (center co k) := by
  unfold center
  exact ((IsReal.coe _).add half_real).mul (cell_real k)

theorem feat10_real (x : Fin 4 → EReal) (a b : Fin 3 → EReal) (hx : ∀ k, IsReal (x k)) (ha : ∀ k, IsReal (a k))
    (hb : ∀ k, IsReal (b k)) (j : Fin 10) : IsReal (feat10 x a b j) := by
  unfold feat10
  split
  · exact hx _
  · split
    · exact (hx _).sub (ha _)
    · exact (hx _).sub (hb _)

theorem proj_real (x : Fin 32 → Fin 4 → EReal) (hx : ∀ p k, IsReal (x p k)) (np : BitVec 32) (co : Fin 4 → BitVec 32)
    (W : Fin 10 → Fin 64 → EReal) (hW : ∀ j d, IsReal (W j d)) (p : Fin 32) (d : Fin 64) : IsReal (proj x np co W p d) := by
  unfold proj feat
  exact IsReal.sum _ _ fun j _ =>
    ((feat10_real _ _ _ (hx p) (mean_real x hx np) (center_real co) j).mul (mask_real np p)).mul (hW j d)

/-! ### The law over the reals -/

/-- For reals h i over a finite index set of N elements, N ≠ 0, with μ = (Σ h)/N: expanding
    (h i − μ)² = (h i)² − 2 μ h i + μ² and summing gives Σ (h i − μ)² = Σ (h i)² − 2 μ Σ h + N μ², and Σ h = N μ,
    so (Σ (h i − μ)²)/N = (Σ (h i)²)/N − μ². -/
theorem real_var_identity {ι : Type} [Fintype ι] (h : ι → ℝ) (N : ℝ) (hN : N = (Fintype.card ι : ℝ)) (hN0 : N ≠ 0) :
    (∑ i, h i * h i) * (1 / N) - ((∑ i, h i) * (1 / N)) * ((∑ i, h i) * (1 / N))
      = (∑ i, (h i - (∑ i, h i) * (1 / N)) * (h i - (∑ i, h i) * (1 / N))) * (1 / N) := by
  set S := ∑ i, h i with hS
  set μ := S * (1 / N) with hμ
  have e : ∑ i, (h i - μ) * (h i - μ) = (∑ i, h i * h i) - 2 * μ * S + N * (μ * μ) := by
    have : ∀ i, (h i - μ) * (h i - μ) = h i * h i - 2 * μ * h i + μ * μ := fun i => by ring
    simp only [this]
    rw [Finset.sum_add_distrib, Finset.sum_sub_distrib, ← Finset.mul_sum, Finset.sum_const, Finset.card_univ,
      nsmul_eq_mul, ← hN]
  rw [e, hμ]
  field_simp
  ring

/-- The same over a doubly indexed family: a double sum is the sum over the pairs. -/
theorem real_var_identity₂ {ι κ : Type} [Fintype ι] [Fintype κ] (h : ι → κ → ℝ) (N : ℝ)
    (hN : N = ((Fintype.card ι * Fintype.card κ : ℕ) : ℝ)) (hN0 : N ≠ 0) :
    (∑ i, ∑ j, h i j * h i j) * (1 / N) - ((∑ i, ∑ j, h i j) * (1 / N)) * ((∑ i, ∑ j, h i j) * (1 / N))
      = (∑ i, ∑ j, (h i j - (∑ i, ∑ j, h i j) * (1 / N)) * (h i j - (∑ i, ∑ j, h i j) * (1 / N))) * (1 / N) := by
  have := real_var_identity (fun x : ι × κ => h x.1 x.2) N (by rw [hN, Fintype.card_prod]) hN0
  simpa only [Fintype.sum_prod_type] using this

end Cert.Pillar.Alg

namespace Cert.Pillar

open Idealize.ShloMosaic

variable (X : Fin 100000 → Fin 32 → Fin 4 → EReal) (NP : Fin 100000 → BitVec 32) (CO : Fin 100000 → Fin 4 → BitVec 32)
  (W : Fin 10 → Fin 64 → EReal) (G B : Fin 64 → EReal)

/-- With real points and a real matrix the two forms of the channel variance agree. -/
theorem varK_eq_varR (hX : ∀ n p k, ∃ r : ℝ, X n p k = (r : EReal)) (hW : ∀ j d, ∃ r : ℝ, W j d = (r : EReal)) (d : Fin 64) :
    varK X NP CO W d = varR X NP CO W d := by
  -- every projected value is the image of a real h n p
  have hH : ∀ n p, Alg.IsReal (H X NP CO W n p d) := fun n p => Alg.proj_real (X n) (hX n) (NP n) (CO n) W hW p d
  choose h hh using hH
  unfold varK varR mu sumSq sumH
  -- the divisions are products with 1/3200000, and both sides are images of real expressions
  simp only [hh, Alg.total_eq, Ideal.div_coe (by norm_num : (3200000 : ℝ) ≠ 0)]
  simp only [← EReal.coe_mul, Alg.coe_sum, ← EReal.coe_sub]
  refine congrArg _ ?_
  -- the law over the reals, at the 100000 · 32 = 3200000 points
  exact Alg.real_var_identity₂ h 3200000 (by simp [Fintype.card_fin]) (by norm_num)

/-- Hence the two programs' results agree entry by entry. -/
theorem outK_eq_outR (hX : ∀ n p k, ∃ r : ℝ, X n p k = (r : EReal)) (hW : ∀ j d, ∃ r : ℝ, W j d = (r : EReal))
    (n : Fin 100000) (d : Fin 64) : outK X NP CO W G B n d = outR X NP CO W G B n d := by
  unfold outK outR; rw [varK_eq_varR X NP CO W hX hW d]

end Cert.Pillar

namespace Cert.Finite

open Idealize.ShloMosaic Cert.Pre_finite_inputs

/-- The pattern of plus infinity denotes the top of the extended reals. -/
theorem ofBits_inf : Ideal.ofBits .f32 0x7F800000#32 = ⊤ := by
  simp [Ideal.ofBits, Ideal.ieee]

/-- An extended real whose absolute value is below plus infinity is a real number: the absolute value of either
    infinity is plus infinity, which is not below itself. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The scalar shape has one index. -/
instance subsingleton_scalar_idx : Subsingleton S_.Idx := ⟨fun a b => funext fun d => d.elim0⟩

/-- The precondition, read at the first two inputs: every entry of the points array and of the matrix is a real number. -/
theorem real_of_pre (a0 : FVec Ideal S100000x32x4 .f32) (a1 : FVec Ideal S10x64 .f32) (a2 a3 : FVec Ideal S64 .f32)
    (a4 : IVec S100000 32) (a5 : IVec S100000x4 32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) := by
  -- the predicate is a conjunction of four statements, each that all entries of an input are below plus infinity in absolute value
  have h0 := congrFun h ValueIdx.ix0
  dsimp only [fn, fn_part1, andi] at h0
  rw [IntOp.andi_eq_one, IntOp.andi_eq_one, IntOp.andi_eq_one] at h0
  obtain ⟨⟨⟨h3, h7⟩, -⟩, -⟩ := h0
  refine ⟨fun i => real_of_abs_lt (a0 i) ?_, fun i => real_of_abs_lt (a1 i) ?_⟩
  · exact Host.reduce_andi_all _ _ _ _ _ h3 i
  · exact Host.reduce_andi_all _ _ _ _ _ h7 i

end Cert.Finite

end
-- ==== Proof.lean ====
/-
  The certificate: the kernel program, its idealization and the reference each run to the end without a fault and
  leave their arguments unchanged; the idealization is the kernel program's own text read on the extended reals
  (the ideal pass rewrote nothing); and the idealized kernel and reference, run from memories that agree on the
  arguments, end with equal results.

  Both results are, entry by entry, the largest over a pillar's 32 points of the projected, normalised, clamped
  value; the two programs differ only in how they take a channel's variance — the mean of the squares less the
  square of the mean against the mean of the squared deviations — and on real numbers, which the precondition
  makes the inputs, these agree.
-/
import proofs.«159035_j63986422775810_1_alg».proof.Defs
import proofs.«159035_j63986422775810_1_alg».proof.Proof.Gen.Kernel
import proofs.«159035_j63986422775810_1_alg».proof.Proof.Gen.KernelIdeal
import proofs.«159035_j63986422775810_1_alg».proof.Proof.Gen.ReferenceIdeal
import proofs.«159035_j63986422775810_1_alg».proof.Proof.Gen.Pre_finite_inputs
import proofs.«159035_j63986422775810_1_alg».proof.Proof.KLaunch
import proofs.«159035_j63986422775810_1_alg».proof.Proof.Launch
import proofs.«159035_j63986422775810_1_alg».proof.Proof.LaunchValue
import proofs.«159035_j63986422775810_1_alg».proof.Proof.KernelValue
import proofs.«159035_j63986422775810_1_alg».proof.Proof.RefRun
import proofs.«159035_j63986422775810_1_alg».proof.Proof.RefValue
import proofs.«159035_j63986422775810_1_alg».proof.Proof.Algebra

noncomputable section

namespace Cert.Proof

open Idealize.ShloMosaic Idealize.ShloMosaic.TcCoe Idealize.SL.Sem Idealize.ShloMosaic.ValueIdx

/-- The three frames. -/
theorem frame_kernel : Cert.frame_Kernel := fun m ρ _ => Cert.Kernel.Run.frame (F := Bits) m ρ
theorem frame_kernelIdeal : Cert.frame_KernelIdeal := fun m ρ _ => Cert.KernelIdeal.Run.frame (F := Ideal) m ρ
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote no operation: nothing to preserve. -/
theorem preserves : Cert.preserves_Kernel_KernelIdeal := trivial

/-- The reference's result term at arguments that agree with the kernel's is the kernel's result array: both are the
    specification's function entry by entry, the two forms of the variance agreeing because the precondition makes the
    points and the matrix real. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Hand.res (F := Ideal) (Cert.KernelIdeal.Run.a0 m c) (Cert.KernelIdeal.Run.a1 m c) (Cert.KernelIdeal.Run.a2 m c)
        (Cert.KernelIdeal.Run.a3 m c) (Cert.KernelIdeal.Run.a4 m c) (Cert.KernelIdeal.Run.a5 m c)
      = Cert.KernelIdeal.Run.outArr m c := by
  funext i
  obtain ⟨n, d, rfl⟩ : ∃ (n : Fin 100000) (d : Fin 64), i = ix2 n d := ⟨i 0, i 1, eq_ix2 i⟩
  obtain ⟨hX, hW⟩ := Cert.Finite.real_of_pre _ _ _ _ _ _ (hpre c)
  rw [Cert.ReferenceIdeal.Hand.res_apply, Cert.KernelIdeal.Run.final_value]
  exact (Cert.Pillar.outK_eq_outR _ _ _ _ _ _ (fun n p k => hX (ix3 n p k)) (fun j d => hW (ix2 j d)) n d).symm

/-- The two idealized programs end with equal results. -/
theorem algebraic : Cert.algebraic_KernelIdeal_ReferenceIdeal := by
  intro m ρ m' ρ' hpre hagree
  refine ⟨fun c => Cert.KernelIdeal.Run.outArr m c, Cert.KernelIdeal.Run.run_value (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2]
  exact result_eq m hpre c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
